-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 1024]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x512 : Shape := ⟨3, ![1, 512, 512]⟩
abbrev S_ : Shape := ⟨0, ![]⟩

class Facts : Prop where
  bcast_S_S1x512x512 : S_.BroadcastsInDim S1x512x512 (![] : Fin 0 → Fin S1x512x512.rank)
  reducesTo_S1x512x512_S_d0_1_2 : S1x512x512.ReducesTo [0, 1, 2] S_
  h_S_ : 0 < S_.numel

variable [Facts]

def fn {F : FTy → Type} [FloatOps F] (main_arg0 : FVec F S1x512x512 .f32) : IVec S_ 1 :=
  let main_v0 : FVec F S1x512x512 .f32 := Host.absf main_arg0
  let main_cst : FVec F S_ .f32 := constant S_ .f32 0x7F800000#32
  let main_v1 : FVec F S1x512x512 .f32 := broadcastInDim S1x512x512 ![] bcast_S_S1x512x512 main_cst
  let main_v2 : IVec S1x512x512 1 := cmpf .olt main_v0 main_v1
  let main_c : IVec S_ 1 := constantI S_ 1 1#1
  let main_v3 : IVec S_ 1 := (fun x v => Host.reduce IntOp.andi x v reducesTo_S1x512x512_S_d0_1_2 h_S_) main_v2 main_c
  main_v3
-- ==== Pre_finite_inputs_ReferenceIdeal.lean ====
abbrev S2x512x1024 : Shape := ⟨3, ![2, 512, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel

variable [Facts]

def fn {F : FTy → Type} [FloatOps F] (main_arg0 : FVec F S2x512x1024 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  main_v3
-- ==== Kernel.lean ====
abbrev S1x512x512 : Shape := ⟨3, ![1, 512, 512]⟩
abbrev S512x1024 : Shape := ⟨2, ![512, 1024]⟩
abbrev S512x512 : Shape := ⟨2, ![512, 512]⟩
abbrev S16 : Shape := ⟨1, ![16]⟩
abbrev S_ : Shape := ⟨0, ![]⟩
abbrev S1 : Shape := ⟨1, ![1]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x512, .f32⟩
  | .hbm, ⟨1, _⟩ => ⟨S512x1024, .bf16⟩
  | .local _ .vmem, ⟨0, _⟩ => ⟨S1x512x512, .f32⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_dev3 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v24 : BitVec 32 := Scalar.muli v6 c2_i32_18
  let v25 : BitVec 32 := Scalar.addi c0_i32_19 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v26 : BitVec 32 := Scalar.muli v5 c1_i32_20
  let v27 : BitVec 32 := Scalar.addi v25 v26
  v27.toNat
def k0_dev4 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v34 : BitVec 32 := Scalar.muli v6 c2_i32_27
  let v35 : BitVec 32 := Scalar.addi c0_i32_28 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v36 : BitVec 32 := Scalar.muli v5 c1_i32_29
  let v37 : BitVec 32 := Scalar.addi v35 v36
  v37.toNat
def k0_dev5 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v44 : BitVec 32 := Scalar.muli v6 c2_i32_35
  let v45 : BitVec 32 := Scalar.addi c0_i32_36 v44
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v46 : BitVec 32 := Scalar.muli v5 c1_i32_37
  let v47 : BitVec 32 := Scalar.addi v45 v46
  v47.toNat
def k0_dev6 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v54 : BitVec 32 := Scalar.muli v6 c2_i32_42
  let v55 : BitVec 32 := Scalar.addi c0_i32_43 v54
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v56 : BitVec 32 := Scalar.muli v5 c1_i32_44
  let v57 : BitVec 32 := Scalar.addi v55 v56
  v57.toNat
def k0_dev7 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v64 : BitVec 32 := Scalar.muli v6 c2_i32_49
  let v65 : BitVec 32 := Scalar.addi c0_i32_50 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v66 : BitVec 32 := Scalar.muli v5 c1_i32_51
  let v67 : BitVec 32 := Scalar.addi v65 v66
  v67.toNat
def k0_dev8 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v74 : BitVec 32 := Scalar.muli v6 c2_i32_56
  let v75 : BitVec 32 := Scalar.addi c0_i32_57 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v76 : BitVec 32 := Scalar.muli v5 c1_i32_58
  let v77 : BitVec 32 := Scalar.addi v75 v76
  v77.toNat
def k0_dev9 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v84 : BitVec 32 := Scalar.muli v6 c2_i32_63
  let v85 : BitVec 32 := Scalar.addi c0_i32_64 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v86 : BitVec 32 := Scalar.muli v5 c1_i32_65
  let v87 : BitVec 32 := Scalar.addi v85 v86
  v87.toNat
def k0_dev10 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v94 : BitVec 32 := Scalar.muli v6 c2_i32_70
  let v95 : BitVec 32 := Scalar.addi c0_i32_71 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v96 : BitVec 32 := Scalar.muli v5 c1_i32_72
  let v97 : BitVec 32 := Scalar.addi v95 v96
  v97.toNat
def k0_dev11 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v104 : BitVec 32 := Scalar.muli v6 c2_i32_77
  let v105 : BitVec 32 := Scalar.addi c0_i32_78 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v106 : BitVec 32 := Scalar.muli v5 c1_i32_79
  let v107 : BitVec 32 := Scalar.addi v105 v106
  v107.toNat
def k0_dev12 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v114 : BitVec 32 := Scalar.muli v6 c2_i32_84
  let v115 : BitVec 32 := Scalar.addi c0_i32_85 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v116 : BitVec 32 := Scalar.muli v5 c1_i32_86
  let v117 : BitVec 32 := Scalar.addi v115 v116
  v117.toNat
def k0_dev13 (d0 : Dev nD) : Nat :=
  let c0_i32_92 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_91 : BitVec 32 := 2#32
  let v124 : BitVec 32 := Scalar.muli v6 c2_i32_91
  let v125 : BitVec 32 := Scalar.addi c0_i32_92 v124
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v126 : BitVec 32 := Scalar.muli v5 c1_i32_93
  let v127 : BitVec 32 := Scalar.addi v125 v126
  v127.toNat
def k0_dev14 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v134 : BitVec 32 := Scalar.muli v6 c2_i32_98
  let v135 : BitVec 32 := Scalar.addi c0_i32_99 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v136 : BitVec 32 := Scalar.muli v5 c1_i32_100
  let v137 : BitVec 32 := Scalar.addi v135 v136
  v137.toNat
def k0_dev15 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v144 : BitVec 32 := Scalar.muli v6 c2_i32_105
  let v145 : BitVec 32 := Scalar.addi c0_i32_106 v144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v146 : BitVec 32 := Scalar.muli v5 c1_i32_107
  let v147 : BitVec 32 := Scalar.addi v145 v146
  v147.toNat
def k0_dev16 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v154 : BitVec 32 := Scalar.muli v6 c2_i32_112
  let v155 : BitVec 32 := Scalar.addi c0_i32_113 v154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v156 : BitVec 32 := Scalar.muli v5 c1_i32_114
  let v157 : BitVec 32 := Scalar.addi v155 v156
  v157.toNat
def k0_dev17 (d0 : Dev nD) : Nat :=
  let c0_i32_120 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_119 : BitVec 32 := 2#32
  let v164 : BitVec 32 := Scalar.muli v6 c2_i32_119
  let v165 : BitVec 32 := Scalar.addi c0_i32_120 v164
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v166 : BitVec 32 := Scalar.muli v5 c1_i32_121
  let v167 : BitVec 32 := Scalar.addi v165 v166
  v167.toNat
def k0_dev18 (d0 : Dev nD) : Nat :=
  let c0_i32_127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_126 : BitVec 32 := 2#32
  let v174 : BitVec 32 := Scalar.muli v6 c2_i32_126
  let v175 : BitVec 32 := Scalar.addi c0_i32_127 v174
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v176 : BitVec 32 := Scalar.muli v5 c1_i32_128
  let v177 : BitVec 32 := Scalar.addi v175 v176
  v177.toNat
def k0_off1 (d0 : Dev nD) : Fin 2 → Nat :=
  let c0_145 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v195 : Index := Scalar.indexCast v8
  ![0, v195.toNat]
def k0_off2 (d0 : Dev nD) : Fin 2 → Nat :=
  let c0_i32_151 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![0, v8.toNat]
def k0_dev19 (d0 : Dev nD) : Nat :=
  let c0_i32_149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_148 : BitVec 32 := 2#32
  let v197 : BitVec 32 := Scalar.muli v2 c2_i32_148
  let v198 : BitVec 32 := Scalar.addi c0_i32_149 v197
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_150 : BitVec 32 := 1#32
  let v199 : BitVec 32 := Scalar.muli v7 c1_i32_150
  let v200 : BitVec 32 := Scalar.addi v198 v199
  v200.toNat
def k0_off3 (d0 : Dev nD) : Fin 2 → Nat :=
  let c32_165 : Index := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v218 : Index := Scalar.indexCast v8
  ![32, v218.toNat]
def k0_off4 (d0 : Dev nD) : Fin 2 → Nat :=
  let c32_i32_171 : BitVec 32 := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![32, v8.toNat]
def k0_dev20 (d0 : Dev nD) : Nat :=
  let c0_i32_169 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_168 : BitVec 32 := 2#32
  let v220 : BitVec 32 := Scalar.muli v2 c2_i32_168
  let v221 : BitVec 32 := Scalar.addi c0_i32_169 v220
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_170 : BitVec 32 := 1#32
  let v222 : BitVec 32 := Scalar.muli v7 c1_i32_170
  let v223 : BitVec 32 := Scalar.addi v221 v222
  v223.toNat
def k0_off5 (d0 : Dev nD) : Fin 2 → Nat :=
  let c64_185 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v241 : Index := Scalar.indexCast v8
  ![64, v241.toNat]
def k0_off6 (d0 : Dev nD) : Fin 2 → Nat :=
  let c64_i32_191 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![64, v8.toNat]
def k0_dev21 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v243 : BitVec 32 := Scalar.muli v2 c2_i32_188
  let v244 : BitVec 32 := Scalar.addi c0_i32_189 v243
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_190 : BitVec 32 := 1#32
  let v245 : BitVec 32 := Scalar.muli v7 c1_i32_190
  let v246 : BitVec 32 := Scalar.addi v244 v245
  v246.toNat
def k0_off7 (d0 : Dev nD) : Fin 2 → Nat :=
  let c96_205 : Index := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v264 : Index := Scalar.indexCast v8
  ![96, v264.toNat]
def k0_off8 (d0 : Dev nD) : Fin 2 → Nat :=
  let c96_i32_211 : BitVec 32 := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![96, v8.toNat]
def k0_dev22 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v266 : BitVec 32 := Scalar.muli v2 c2_i32_208
  let v267 : BitVec 32 := Scalar.addi c0_i32_209 v266
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_210 : BitVec 32 := 1#32
  let v268 : BitVec 32 := Scalar.muli v7 c1_i32_210
  let v269 : BitVec 32 := Scalar.addi v267 v268
  v269.toNat
def k0_off9 (d0 : Dev nD) : Fin 2 → Nat :=
  let c128_225 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v287 : Index := Scalar.indexCast v8
  ![128, v287.toNat]
def k0_off10 (d0 : Dev nD) : Fin 2 → Nat :=
  let c128_i32_231 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![128, v8.toNat]
def k0_dev23 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v289 : BitVec 32 := Scalar.muli v2 c2_i32_228
  let v290 : BitVec 32 := Scalar.addi c0_i32_229 v289
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_230 : BitVec 32 := 1#32
  let v291 : BitVec 32 := Scalar.muli v7 c1_i32_230
  let v292 : BitVec 32 := Scalar.addi v290 v291
  v292.toNat
def k0_off11 (d0 : Dev nD) : Fin 2 → Nat :=
  let c160_245 : Index := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v310 : Index := Scalar.indexCast v8
  ![160, v310.toNat]
def k0_off12 (d0 : Dev nD) : Fin 2 → Nat :=
  let c160_i32_251 : BitVec 32 := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![160, v8.toNat]
def k0_dev24 (d0 : Dev nD) : Nat :=
  let c0_i32_249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_248 : BitVec 32 := 2#32
  let v312 : BitVec 32 := Scalar.muli v2 c2_i32_248
  let v313 : BitVec 32 := Scalar.addi c0_i32_249 v312
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_250 : BitVec 32 := 1#32
  let v314 : BitVec 32 := Scalar.muli v7 c1_i32_250
  let v315 : BitVec 32 := Scalar.addi v313 v314
  v315.toNat
def k0_off13 (d0 : Dev nD) : Fin 2 → Nat :=
  let c192_265 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v333 : Index := Scalar.indexCast v8
  ![192, v333.toNat]
def k0_off14 (d0 : Dev nD) : Fin 2 → Nat :=
  let c192_i32_271 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![192, v8.toNat]
def k0_dev25 (d0 : Dev nD) : Nat :=
  let c0_i32_269 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_268 : BitVec 32 := 2#32
  let v335 : BitVec 32 := Scalar.muli v2 c2_i32_268
  let v336 : BitVec 32 := Scalar.addi c0_i32_269 v335
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_270 : BitVec 32 := 1#32
  let v337 : BitVec 32 := Scalar.muli v7 c1_i32_270
  let v338 : BitVec 32 := Scalar.addi v336 v337
  v338.toNat
def k0_off15 (d0 : Dev nD) : Fin 2 → Nat :=
  let c224_285 : Index := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v356 : Index := Scalar.indexCast v8
  ![224, v356.toNat]
def k0_off16 (d0 : Dev nD) : Fin 2 → Nat :=
  let c224_i32_291 : BitVec 32 := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![224, v8.toNat]
def k0_dev26 (d0 : Dev nD) : Nat :=
  let c0_i32_289 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_288 : BitVec 32 := 2#32
  let v358 : BitVec 32 := Scalar.muli v2 c2_i32_288
  let v359 : BitVec 32 := Scalar.addi c0_i32_289 v358
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_290 : BitVec 32 := 1#32
  let v360 : BitVec 32 := Scalar.muli v7 c1_i32_290
  let v361 : BitVec 32 := Scalar.addi v359 v360
  v361.toNat
def k0_off17 (d0 : Dev nD) : Fin 2 → Nat :=
  let c256_305 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v379 : Index := Scalar.indexCast v8
  ![256, v379.toNat]
def k0_off18 (d0 : Dev nD) : Fin 2 → Nat :=
  let c256_i32_311 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![256, v8.toNat]
def k0_dev27 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v381 : BitVec 32 := Scalar.muli v2 c2_i32_308
  let v382 : BitVec 32 := Scalar.addi c0_i32_309 v381
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_310 : BitVec 32 := 1#32
  let v383 : BitVec 32 := Scalar.muli v7 c1_i32_310
  let v384 : BitVec 32 := Scalar.addi v382 v383
  v384.toNat
def k0_off19 (d0 : Dev nD) : Fin 2 → Nat :=
  let c288_325 : Index := 288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v402 : Index := Scalar.indexCast v8
  ![288, v402.toNat]
def k0_off20 (d0 : Dev nD) : Fin 2 → Nat :=
  let c288_i32_331 : BitVec 32 := 288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![288, v8.toNat]
def k0_dev28 (d0 : Dev nD) : Nat :=
  let c0_i32_329 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_328 : BitVec 32 := 2#32
  let v404 : BitVec 32 := Scalar.muli v2 c2_i32_328
  let v405 : BitVec 32 := Scalar.addi c0_i32_329 v404
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_330 : BitVec 32 := 1#32
  let v406 : BitVec 32 := Scalar.muli v7 c1_i32_330
  let v407 : BitVec 32 := Scalar.addi v405 v406
  v407.toNat
def k0_off21 (d0 : Dev nD) : Fin 2 → Nat :=
  let c320_345 : Index := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v425 : Index := Scalar.indexCast v8
  ![320, v425.toNat]
def k0_off22 (d0 : Dev nD) : Fin 2 → Nat :=
  let c320_i32_351 : BitVec 32 := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![320, v8.toNat]
def k0_dev29 (d0 : Dev nD) : Nat :=
  let c0_i32_349 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_348 : BitVec 32 := 2#32
  let v427 : BitVec 32 := Scalar.muli v2 c2_i32_348
  let v428 : BitVec 32 := Scalar.addi c0_i32_349 v427
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_350 : BitVec 32 := 1#32
  let v429 : BitVec 32 := Scalar.muli v7 c1_i32_350
  let v430 : BitVec 32 := Scalar.addi v428 v429
  v430.toNat
def k0_off23 (d0 : Dev nD) : Fin 2 → Nat :=
  let c352_365 : Index := 352#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v448 : Index := Scalar.indexCast v8
  ![352, v448.toNat]
def k0_off24 (d0 : Dev nD) : Fin 2 → Nat :=
  let c352_i32_371 : BitVec 32 := 352#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![352, v8.toNat]
def k0_dev30 (d0 : Dev nD) : Nat :=
  let c0_i32_369 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_368 : BitVec 32 := 2#32
  let v450 : BitVec 32 := Scalar.muli v2 c2_i32_368
  let v451 : BitVec 32 := Scalar.addi c0_i32_369 v450
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_370 : BitVec 32 := 1#32
  let v452 : BitVec 32 := Scalar.muli v7 c1_i32_370
  let v453 : BitVec 32 := Scalar.addi v451 v452
  v453.toNat
def k0_off25 (d0 : Dev nD) : Fin 2 → Nat :=
  let c384_385 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v471 : Index := Scalar.indexCast v8
  ![384, v471.toNat]
def k0_off26 (d0 : Dev nD) : Fin 2 → Nat :=
  let c384_i32_391 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![384, v8.toNat]
def k0_dev31 (d0 : Dev nD) : Nat :=
  let c0_i32_389 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_388 : BitVec 32 := 2#32
  let v473 : BitVec 32 := Scalar.muli v2 c2_i32_388
  let v474 : BitVec 32 := Scalar.addi c0_i32_389 v473
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_390 : BitVec 32 := 1#32
  let v475 : BitVec 32 := Scalar.muli v7 c1_i32_390
  let v476 : BitVec 32 := Scalar.addi v474 v475
  v476.toNat
def k0_off27 (d0 : Dev nD) : Fin 2 → Nat :=
  let c416_405 : Index := 416#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v494 : Index := Scalar.indexCast v8
  ![416, v494.toNat]
def k0_off28 (d0 : Dev nD) : Fin 2 → Nat :=
  let c416_i32_411 : BitVec 32 := 416#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![416, v8.toNat]
def k0_dev32 (d0 : Dev nD) : Nat :=
  let c0_i32_409 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_408 : BitVec 32 := 2#32
  let v496 : BitVec 32 := Scalar.muli v2 c2_i32_408
  let v497 : BitVec 32 := Scalar.addi c0_i32_409 v496
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_410 : BitVec 32 := 1#32
  let v498 : BitVec 32 := Scalar.muli v7 c1_i32_410
  let v499 : BitVec 32 := Scalar.addi v497 v498
  v499.toNat
def k0_off29 (d0 : Dev nD) : Fin 2 → Nat :=
  let c448_425 : Index := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v517 : Index := Scalar.indexCast v8
  ![448, v517.toNat]
def k0_off30 (d0 : Dev nD) : Fin 2 → Nat :=
  let c448_i32_431 : BitVec 32 := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![448, v8.toNat]
def k0_dev33 (d0 : Dev nD) : Nat :=
  let c0_i32_429 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_428 : BitVec 32 := 2#32
  let v519 : BitVec 32 := Scalar.muli v2 c2_i32_428
  let v520 : BitVec 32 := Scalar.addi c0_i32_429 v519
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_430 : BitVec 32 := 1#32
  let v521 : BitVec 32 := Scalar.muli v7 c1_i32_430
  let v522 : BitVec 32 := Scalar.addi v520 v521
  v522.toNat
def k0_off31 (d0 : Dev nD) : Fin 2 → Nat :=
  let c480_445 : Index := 480#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v540 : Index := Scalar.indexCast v8
  ![480, v540.toNat]
def k0_off32 (d0 : Dev nD) : Fin 2 → Nat :=
  let c480_i32_451 : BitVec 32 := 480#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![480, v8.toNat]
def k0_dev34 (d0 : Dev nD) : Nat :=
  let c0_i32_449 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_448 : BitVec 32 := 2#32
  let v542 : BitVec 32 := Scalar.muli v2 c2_i32_448
  let v543 : BitVec 32 := Scalar.addi c0_i32_449 v542
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_450 : BitVec 32 := 1#32
  let v544 : BitVec 32 := Scalar.muli v7 c1_i32_450
  let v545 : BitVec 32 := Scalar.addi v543 v544
  v545.toNat
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  hamt_2 : (2#32 : BitVec 32).msb = false
  inb_S16_S1_0 : ∀ a, (![0] : Fin 1 → Nat) a + S1.size a ≤ S16.size a
  squeezes_S1_S_ : S1.Squeezes S_
  inb_S512x512_S32x512_0_0 : ∀ a, (![0, 0] : Fin 2 → Nat) a + S32x512.size a ≤ S512x512.size a
  wordsbf16_S512x512_S32x512_0_0 : (Rect.unit (s := S512x512) ![0, 0] S32x512.size inb_S512x512_S32x512_0_0).WholeWords (EltTy.packing .bf16)
  inb_S16_S1_1 : ∀ a, (![1] : Fin 1 → Nat) a + S1.size a ≤ S16.size a
  inb_S512x512_S32x512_32_0 : ∀ a, (![32, 0] : Fin 2 → Nat) a + S32x512.size a ≤ S512x512.size a
  wordsbf16_S512x512_S32x512_32_0 : (Rect.unit (s := S512x512) ![32, 0] S32x512.size inb_S512x512_S32x512_32_0).WholeWords (EltTy.packing .bf16)
  inb_S16_S1_2 : ∀ a, (![2] : Fin 1 → Nat) a + S1.size a ≤ S16.size a
  inb_S512x512_S32x512_64_0 : ∀ a, (![64, 0] : Fin 2 → Nat) a + S32x512.size a ≤ S512x512.size a
  wordsbf16_S512x512_S32x512_64_0 : (Rect.unit (s := S512x512) ![64, 0] S32x512.size inb_S512x512_S32x512_64_0).WholeWords (EltTy.packing .bf16)
  inb_S16_S1_3 : ∀ a, (![3] : Fin 1 → Nat) a + S1.size a ≤ S16.size a
  inb_S512x512_S32x512_96_0 : ∀ a, (![96, 0] : Fin 2 → Nat) a + S32x512.size a ≤ S512x512.size a
  wordsbf16_S512x512_S32x512_96_0 : (Rect.unit (s := S512x512) ![96, 0] S32x512.size inb_S512x512_S32x512_96_0).WholeWords (EltTy.packing .bf16)
  inb_S16_S1_4 : ∀ a, (![4] : Fin 1 → Nat) a + S1.size a ≤ S16.size a
  inb_S512x512_S32x512_128_0 : ∀ a, (![128, 0] : Fin 2 → Nat) a + S32x512.size a ≤ S512x512.size a
  wordsbf16_S512x512_S32x512_128_0 : (Rect.unit (s := S512x512) ![128, 0] S32x512.size inb_S512x512_S32x512_128_0).WholeWords (EltTy.packing .bf16)
  inb_S16_S1_5 : ∀ a, (![5] : Fin 1 → Nat) a + S1.size a ≤ S16.size a
  inb_S512x512_S32x512_160_0 : ∀ a, (![160, 0] : Fin 2 → Nat) a + S32x512.size a ≤ S512x512.size a
  wordsbf16_S512x512_S32x512_160_0 : (Rect.unit (s := S512x512) ![160, 0] S32x512.size inb_S512x512_S32x512_160_0).WholeWords (EltTy.packing .bf16)
  inb_S16_S1_6 : ∀ a, (![6] : Fin 1 → Nat) a + S1.size a ≤ S16.size a
  inb_S512x512_S32x512_192_0 : ∀ a, (![192, 0] : Fin 2 → Nat) a + S32x512.size a ≤ S512x512.size a
  wordsbf16_S512x512_S32x512_192_0 : (Rect.unit (s := S512x512) ![192, 0] S32x512.size inb_S512x512_S32x512_192_0).WholeWords (EltTy.packing .bf16)
  inb_S16_S1_7 : ∀ a, (![7] : Fin 1 → Nat) a + S1.size a ≤ S16.size a
  inb_S512x512_S32x512_224_0 : ∀ a, (![224, 0] : Fin 2 → Nat) a + S32x512.size a ≤ S512x512.size a
  wordsbf16_S512x512_S32x512_224_0 : (Rect.unit (s := S512x512) ![224, 0] S32x512.size inb_S512x512_S32x512_224_0).WholeWords (EltTy.packing .bf16)
  inb_S16_S1_8 : ∀ a, (![8] : Fin 1 → Nat) a + S1.size a ≤ S16.size a
  inb_S512x512_S32x512_256_0 : ∀ a, (![256, 0] : Fin 2 → Nat) a + S32x512.size a ≤ S512x512.size a
  wordsbf16_S512x512_S32x512_256_0 : (Rect.unit (s := S512x512) ![256, 0] S32x512.size inb_S512x512_S32x512_256_0).WholeWords (EltTy.packing .bf16)
  inb_S16_S1_9 : ∀ a, (![9] : Fin 1 → Nat) a + S1.size a ≤ S16.size a
  inb_S512x512_S32x512_288_0 : ∀ a, (![288, 0] : Fin 2 → Nat) a + S32x512.size a ≤ S512x512.size a
  wordsbf16_S512x512_S32x512_288_0 : (Rect.unit (s := S512x512) ![288, 0] S32x512.size inb_S512x512_S32x512_288_0).WholeWords (EltTy.packing .bf16)
  inb_S16_S1_10 : ∀ a, (![10] : Fin 1 → Nat) a + S1.size a ≤ S16.size a
  inb_S512x512_S32x512_320_0 : ∀ a, (![320, 0] : Fin 2 → Nat) a + S32x512.size a ≤ S512x512.size a
  wordsbf16_S512x512_S32x512_320_0 : (Rect.unit (s := S512x512) ![320, 0] S32x512.size inb_S512x512_S32x512_320_0).WholeWords (EltTy.packing .bf16)
  inb_S16_S1_11 : ∀ a, (![11] : Fin 1 → Nat) a + S1.size a ≤ S16.size a
  inb_S512x512_S32x512_352_0 : ∀ a, (![352, 0] : Fin 2 → Nat) a + S32x512.size a ≤ S512x512.size a
  wordsbf16_S512x512_S32x512_352_0 : (Rect.unit (s := S512x512) ![352, 0] S32x512.size inb_S512x512_S32x512_352_0).WholeWords (EltTy.packing .bf16)
  inb_S16_S1_12 : ∀ a, (![12] : Fin 1 → Nat) a + S1.size a ≤ S16.size a
  inb_S512x512_S32x512_384_0 : ∀ a, (![384, 0] : Fin 2 → Nat) a + S32x512.size a ≤ S512x512.size a
  wordsbf16_S512x512_S32x512_384_0 : (Rect.unit (s := S512x512) ![384, 0] S32x512.size inb_S512x512_S32x512_384_0).WholeWords (EltTy.packing .bf16)
  inb_S16_S1_13 : ∀ a, (![13] : Fin 1 → Nat) a + S1.size a ≤ S16.size a
  inb_S512x512_S32x512_416_0 : ∀ a, (![416, 0] : Fin 2 → Nat) a + S32x512.size a ≤ S512x512.size a
  wordsbf16_S512x512_S32x512_416_0 : (Rect.unit (s := S512x512) ![416, 0] S32x512.size inb_S512x512_S32x512_416_0).WholeWords (EltTy.packing .bf16)
  inb_S16_S1_14 : ∀ a, (![14] : Fin 1 → Nat) a + S1.size a ≤ S16.size a
  inb_S512x512_S32x512_448_0 : ∀ a, (![448, 0] : Fin 2 → Nat) a + S32x512.size a ≤ S512x512.size a
  wordsbf16_S512x512_S32x512_448_0 : (Rect.unit (s := S512x512) ![448, 0] S32x512.size inb_S512x512_S32x512_448_0).WholeWords (EltTy.packing .bf16)
  inb_S16_S1_15 : ∀ a, (![15] : Fin 1 → Nat) a + S1.size a ≤ S16.size a
  inb_S512x512_S32x512_480_0 : ∀ a, (![480, 0] : Fin 2 → Nat) a + S32x512.size a ≤ S512x512.size a
  wordsbf16_S512x512_S32x512_480_0 : (Rect.unit (s := S512x512) ![480, 0] S32x512.size inb_S512x512_S32x512_480_0).WholeWords (EltTy.packing .bf16)
  h_S32x512 : 0 < S32x512.numel
  hcc0_scratch2 : 2 + S16.numel ≤ 66
  hcc0_scratch3 : 18 + S16.numel ≤ 66
  hcc0_scratch4 : 34 + S16.numel ≤ 66
  hcc0_scratch5 : 50 + S16.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off1_inb : ∀ d0 : Dev nD, ∀ a, (k0_off1 d0) a + S32x512.size a ≤ S512x1024.size a
  k0_off1_packedbf16 : ∀ d0 : Dev nD, (Rect.unit (s := S512x1024) (k0_off1 d0) S32x512.size (k0_off1_inb d0)).PackedRows (EltTy.packing .bf16)
  k0_off2_inb : ∀ d0 : Dev nD, ∀ a, (k0_off2 d0) a + S32x512.size a ≤ S512x1024.size a
  k0_off2_wordsbf16 : ∀ d0 : Dev nD, (Rect.unit (s := S512x1024) (k0_off2 d0) S32x512.size (k0_off2_inb d0)).WholeWords (EltTy.packing .bf16)
  k0_dev19_lt : ∀ d0 : Dev nD, (k0_dev19 d0) < nD
  k0_off3_inb : ∀ d0 : Dev nD, ∀ a, (k0_off3 d0) a + S32x512.size a ≤ S512x1024.size a
  k0_off3_packedbf16 : ∀ d0 : Dev nD, (Rect.unit (s := S512x1024) (k0_off3 d0) S32x512.size (k0_off3_inb d0)).PackedRows (EltTy.packing .bf16)
  k0_off4_inb : ∀ d0 : Dev nD, ∀ a, (k0_off4 d0) a + S32x512.size a ≤ S512x1024.size a
  k0_off4_wordsbf16 : ∀ d0 : Dev nD, (Rect.unit (s := S512x1024) (k0_off4 d0) S32x512.size (k0_off4_inb d0)).WholeWords (EltTy.packing .bf16)
  k0_dev20_lt : ∀ d0 : Dev nD, (k0_dev20 d0) < nD
  k0_off5_inb : ∀ d0 : Dev nD, ∀ a, (k0_off5 d0) a + S32x512.size a ≤ S512x1024.size a
  k0_off5_packedbf16 : ∀ d0 : Dev nD, (Rect.unit (s := S512x1024) (k0_off5 d0) S32x512.size (k0_off5_inb d0)).PackedRows (EltTy.packing .bf16)
  k0_off6_inb : ∀ d0 : Dev nD, ∀ a, (k0_off6 d0) a + S32x512.size a ≤ S512x1024.size a
  k0_off6_wordsbf16 : ∀ d0 : Dev nD, (Rect.unit (s := S512x1024) (k0_off6 d0) S32x512.size (k0_off6_inb d0)).WholeWords (EltTy.packing .bf16)
  k0_dev21_lt : ∀ d0 : Dev nD, (k0_dev21 d0) < nD
  k0_off7_inb : ∀ d0 : Dev nD, ∀ a, (k0_off7 d0) a + S32x512.size a ≤ S512x1024.size a
  k0_off7_packedbf16 : ∀ d0 : Dev nD, (Rect.unit (s := S512x1024) (k0_off7 d0) S32x512.size (k0_off7_inb d0)).PackedRows (EltTy.packing .bf16)
  k0_off8_inb : ∀ d0 : Dev nD, ∀ a, (k0_off8 d0) a + S32x512.size a ≤ S512x1024.size a
  k0_off8_wordsbf16 : ∀ d0 : Dev nD, (Rect.unit (s := S512x1024) (k0_off8 d0) S32x512.size (k0_off8_inb d0)).WholeWords (EltTy.packing .bf16)
  k0_dev22_lt : ∀ d0 : Dev nD, (k0_dev22 d0) < nD
  k0_off9_inb : ∀ d0 : Dev nD, ∀ a, (k0_off9 d0) a + S32x512.size a ≤ S512x1024.size a
  k0_off9_packedbf16 : ∀ d0 : Dev nD, (Rect.unit (s := S512x1024) (k0_off9 d0) S32x512.size (k0_off9_inb d0)).PackedRows (EltTy.packing .bf16)
  k0_off10_inb : ∀ d0 : Dev nD, ∀ a, (k0_off10 d0) a + S32x512.size a ≤ S512x1024.size a
  k0_off10_wordsbf16 : ∀ d0 : Dev nD, (Rect.unit (s := S512x1024) (k0_off10 d0) S32x512.size (k0_off10_inb d0)).WholeWords (EltTy.packing .bf16)
  k0_dev23_lt : ∀ d0 : Dev nD, (k0_dev23 d0) < nD
  k0_off11_inb : ∀ d0 : Dev nD, ∀ a, (k0_off11 d0) a + S32x512.size a ≤ S512x1024.size a
  k0_off11_packedbf16 : ∀ d0 : Dev nD, (Rect.unit (s := S512x1024) (k0_off11 d0) S32x512.size (k0_off11_inb d0)).PackedRows (EltTy.packing .bf16)
  k0_off12_inb : ∀ d0 : Dev nD, ∀ a, (k0_off12 d0) a + S32x512.size a ≤ S512x1024.size a
  k0_off12_wordsbf16 : ∀ d0 : Dev nD, (Rect.unit (s := S512x1024) (k0_off12 d0) S32x512.size (k0_off12_inb d0)).WholeWords (EltTy.packing .bf16)
  k0_dev24_lt : ∀ d0 : Dev nD, (k0_dev24 d0) < nD
  k0_off13_inb : ∀ d0 : Dev nD, ∀ a, (k0_off13 d0) a + S32x512.size a ≤ S512x1024.size a
  k0_off13_packedbf16 : ∀ d0 : Dev nD, (Rect.unit (s := S512x1024) (k0_off13 d0) S32x512.size (k0_off13_inb d0)).PackedRows (EltTy.packing .bf16)
  k0_off14_inb : ∀ d0 : Dev nD, ∀ a, (k0_off14 d0) a + S32x512.size a ≤ S512x1024.size a
  k0_off14_wordsbf16 : ∀ d0 : Dev nD, (Rect.unit (s := S512x1024) (k0_off14 d0) S32x512.size (k0_off14_inb d0)).WholeWords (EltTy.packing .bf16)
  k0_dev25_lt : ∀ d0 : Dev nD, (k0_dev25 d0) < nD
  k0_off15_inb : ∀ d0 : Dev nD, ∀ a, (k0_off15 d0) a + S32x512.size a ≤ S512x1024.size a
  k0_off15_packedbf16 : ∀ d0 : Dev nD, (Rect.unit (s := S512x1024) (k0_off15 d0) S32x512.size (k0_off15_inb d0)).PackedRows (EltTy.packing .bf16)
  k0_off16_inb : ∀ d0 : Dev nD, ∀ a, (k0_off16 d0) a + S32x512.size a ≤ S512x1024.size a
  k0_off16_wordsbf16 : ∀ d0 : Dev nD, (Rect.unit (s := S512x1024) (k0_off16 d0) S32x512.size (k0_off16_inb d0)).WholeWords (EltTy.packing .bf16)
  k0_dev26_lt : ∀ d0 : Dev nD, (k0_dev26 d0) < nD
  k0_off17_inb : ∀ d0 : Dev nD, ∀ a, (k0_off17 d0) a + S32x512.size a ≤ S512x1024.size a
  k0_off17_packedbf16 : ∀ d0 : Dev nD, (Rect.unit (s := S512x1024) (k0_off17 d0) S32x512.size (k0_off17_inb d0)).PackedRows (EltTy.packing .bf16)
  k0_off18_inb : ∀ d0 : Dev nD, ∀ a, (k0_off18 d0) a + S32x512.size a ≤ S512x1024.size a
  k0_off18_wordsbf16 : ∀ d0 : Dev nD, (Rect.unit (s := S512x1024) (k0_off18 d0) S32x512.size (k0_off18_inb d0)).WholeWords (EltTy.packing .bf16)
  k0_dev27_lt : ∀ d0 : Dev nD, (k0_dev27 d0) < nD
  k0_off19_inb : ∀ d0 : Dev nD, ∀ a, (k0_off19 d0) a + S32x512.size a ≤ S512x1024.size a
  k0_off19_packedbf16 : ∀ d0 : Dev nD, (Rect.unit (s := S512x1024) (k0_off19 d0) S32x512.size (k0_off19_inb d0)).PackedRows (EltTy.packing .bf16)
  k0_off20_inb : ∀ d0 : Dev nD, ∀ a, (k0_off20 d0) a + S32x512.size a ≤ S512x1024.size a
  k0_off20_wordsbf16 : ∀ d0 : Dev nD, (Rect.unit (s := S512x1024) (k0_off20 d0) S32x512.size (k0_off20_inb d0)).WholeWords (EltTy.packing .bf16)
  k0_dev28_lt : ∀ d0 : Dev nD, (k0_dev28 d0) < nD
  k0_off21_inb : ∀ d0 : Dev nD, ∀ a, (k0_off21 d0) a + S32x512.size a ≤ S512x1024.size a
  k0_off21_packedbf16 : ∀ d0 : Dev nD, (Rect.unit (s := S512x1024) (k0_off21 d0) S32x512.size (k0_off21_inb d0)).PackedRows (EltTy.packing .bf16)
  k0_off22_inb : ∀ d0 : Dev nD, ∀ a, (k0_off22 d0) a + S32x512.size a ≤ S512x1024.size a
  k0_off22_wordsbf16 : ∀ d0 : Dev nD, (Rect.unit (s := S512x1024) (k0_off22 d0) S32x512.size (k0_off22_inb d0)).WholeWords (EltTy.packing .bf16)
  k0_dev29_lt : ∀ d0 : Dev nD, (k0_dev29 d0) < nD
  k0_off23_inb : ∀ d0 : Dev nD, ∀ a, (k0_off23 d0) a + S32x512.size a ≤ S512x1024.size a
  k0_off23_packedbf16 : ∀ d0 : Dev nD, (Rect.unit (s := S512x1024) (k0_off23 d0) S32x512.size (k0_off23_inb d0)).PackedRows (EltTy.packing .bf16)
  k0_off24_inb : ∀ d0 : Dev nD, ∀ a, (k0_off24 d0) a + S32x512.size a ≤ S512x1024.size a
  k0_off24_wordsbf16 : ∀ d0 : Dev nD, (Rect.unit (s := S512x1024) (k0_off24 d0) S32x512.size (k0_off24_inb d0)).WholeWords (EltTy.packing .bf16)
  k0_dev30_lt : ∀ d0 : Dev nD, (k0_dev30 d0) < nD
  k0_off25_inb : ∀ d0 : Dev nD, ∀ a, (k0_off25 d0) a + S32x512.size a ≤ S512x1024.size a
  k0_off25_packedbf16 : ∀ d0 : Dev nD, (Rect.unit (s := S512x1024) (k0_off25 d0) S32x512.size (k0_off25_inb d0)).PackedRows (EltTy.packing .bf16)
  k0_off26_inb : ∀ d0 : Dev nD, ∀ a, (k0_off26 d0) a + S32x512.size a ≤ S512x1024.size a
  k0_off26_wordsbf16 : ∀ d0 : Dev nD, (Rect.unit (s := S512x1024) (k0_off26 d0) S32x512.size (k0_off26_inb d0)).WholeWords (EltTy.packing .bf16)
  k0_dev31_lt : ∀ d0 : Dev nD, (k0_dev31 d0) < nD
  k0_off27_inb : ∀ d0 : Dev nD, ∀ a, (k0_off27 d0) a + S32x512.size a ≤ S512x1024.size a
  k0_off27_packedbf16 : ∀ d0 : Dev nD, (Rect.unit (s := S512x1024) (k0_off27 d0) S32x512.size (k0_off27_inb d0)).PackedRows (EltTy.packing .bf16)
  k0_off28_inb : ∀ d0 : Dev nD, ∀ a, (k0_off28 d0) a + S32x512.size a ≤ S512x1024.size a
  k0_off28_wordsbf16 : ∀ d0 : Dev nD, (Rect.unit (s := S512x1024) (k0_off28 d0) S32x512.size (k0_off28_inb d0)).WholeWords (EltTy.packing .bf16)
  k0_dev32_lt : ∀ d0 : Dev nD, (k0_dev32 d0) < nD
  k0_off29_inb : ∀ d0 : Dev nD, ∀ a, (k0_off29 d0) a + S32x512.size a ≤ S512x1024.size a
  k0_off29_packedbf16 : ∀ d0 : Dev nD, (Rect.unit (s := S512x1024) (k0_off29 d0) S32x512.size (k0_off29_inb d0)).PackedRows (EltTy.packing .bf16)
  k0_off30_inb : ∀ d0 : Dev nD, ∀ a, (k0_off30 d0) a + S32x512.size a ≤ S512x1024.size a
  k0_off30_wordsbf16 : ∀ d0 : Dev nD, (Rect.unit (s := S512x1024) (k0_off30 d0) S32x512.size (k0_off30_inb d0)).WholeWords (EltTy.packing .bf16)
  k0_dev33_lt : ∀ d0 : Dev nD, (k0_dev33 d0) < nD
  k0_off31_inb : ∀ d0 : Dev nD, ∀ a, (k0_off31 d0) a + S32x512.size a ≤ S512x1024.size a
  k0_off31_packedbf16 : ∀ d0 : Dev nD, (Rect.unit (s := S512x1024) (k0_off31 d0) S32x512.size (k0_off31_inb d0)).PackedRows (EltTy.packing .bf16)
  k0_off32_inb : ∀ d0 : Dev nD, ∀ a, (k0_off32 d0) a + S32x512.size a ≤ S512x1024.size a
  k0_off32_wordsbf16 : ∀ d0 : Dev nD, (Rect.unit (s := S512x1024) (k0_off32 d0) S32x512.size (k0_off32_inb d0)).WholeWords (EltTy.packing .bf16)
  k0_dev34_lt : ∀ d0 : Dev nD, (k0_dev34 d0) < nD
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3
abbrev cc0_scratch4 : DmaSems sig S16 := SemArray.consecutive 34 S16 hcc0_scratch4
abbrev cc0_scratch5 : DmaSems sig S16 := SemArray.consecutive 50 S16 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | .hbm, ⟨3, _⟩ => ⟨S512x1024, .bf16⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x512x1024_S512x1024_d0 : S2x512x1024.ReducesTo [0] S512x1024
  h_S_ : 0 < S_.numel
  bitsLt_bf16_f32 : FTy.bits .bf16 < FTy.bits .f32

variable [Facts₀]

class Facts : Prop extends Facts₀ where

variable [Facts]
-- ==== Proof.Spec.lean ====
/- The devices form a 2 × 2 grid: device c sits at row c / 2 and column c % 2. Its row partner
   xp c holds the other half of the sum, its column partner yp c the other half of the columns.
   Each device first narrows its block of x into a scratch buffer, sends that buffer in 16 row
   chunks to its row partner, adds what arrives chunk by chunk into its own half of the columns of
   the result, and forwards each finished chunk to its column partner, which places it in the same
   columns of its own result.  This module names the partners, the chunks' rectangles and the
   contents every buffer holds at the end. -/
import proofs.«900322_g7700000000000323_dist_rsx_agy_m512_n512_v7x_xy2x2_bf16_1_alg».proof.KernelIdeal
import proofs.«900322_g7700000000000323_dist_rsx_agy_m512_n512_v7x_xy2x2_bf16_1_alg».proof.Proof.Gen.KernelIdeal
import proofs.«900322_g7700000000000323_dist_rsx_agy_m512_n512_v7x_xy2x2_bf16_1_alg».proof.Proof.Gen.KernelIdeal.Skeleton
import proofs.«900322_g7700000000000323_dist_rsx_agy_m512_n512_v7x_xy2x2_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two partners of a device -/

/-- The row partner: the device in the other row of the same column. -/
def xp (c : Dev nD) : Dev nD := ⟨(c.val + 2) % 4, Nat.mod_lt _ (by decide)⟩
/-- The column partner: the device in the other column of the same row. -/
def yp (c : Dev nD) : Dev nD := ⟨c.val + 1 - 2 * (c.val % 2), by have h : c.val < 4 := c.isLt; show _ < 4; omega⟩

theorem xp_xp (c : Dev nD) : xp (xp c) = c := by revert c; decide
theorem yp_yp (c : Dev nD) : yp (yp c) = c := by revert c; decide
theorem xp_ne_yp (c : Dev nD) : xp c ≠ yp c := by revert c; decide
theorem xp_ne (c : Dev nD) : xp c ≠ c := by revert c; decide
theorem yp_ne (c : Dev nD) : yp c ≠ c := by revert c; decide
theorem xp_yp (c : Dev nD) : xp (yp c) = yp (xp c) := by revert c; decide
theorem yp_col (c : Dev nD) : (yp c).val % 2 = 1 - c.val % 2 := by revert c; decide
theorem xp_col (c : Dev nD) : (xp c).val % 2 = c.val % 2 := by revert c; decide
theorem yp_row (c : Dev nD) : (yp c).val / 2 = c.val / 2 := by revert c; decide
theorem xp_row (c : Dev nD) : (xp c).val / 2 = 1 - c.val / 2 := by revert c; decide

def xpE : Dev nD ≃ Dev nD := ⟨xp, xp, xp_xp, xp_xp⟩
def ypE : Dev nD ≃ Dev nD := ⟨yp, yp, yp_yp, yp_yp⟩

/-! ## The device the kernel addresses at each signal and copy -/

theorem dev1_eq (c : Dev nD) : (⟨k0_dev1 c, k0_dev1_lt c⟩ : Dev nD) = xp c := Fin.ext ((k0_dev1_eq c).trans (by revert c; decide))
theorem dev2_eq (c : Dev nD) : (⟨k0_dev2 c, k0_dev2_lt c⟩ : Dev nD) = yp c := Fin.ext ((k0_dev2_eq c).trans (by revert c; decide))
theorem dev3_eq (c : Dev nD) : (⟨k0_dev3 c, k0_dev3_lt c⟩ : Dev nD) = xp c := Fin.ext ((k0_dev3_eq c).trans (by revert c; decide))
theorem dev4_eq (c : Dev nD) : (⟨k0_dev4 c, k0_dev4_lt c⟩ : Dev nD) = xp c := Fin.ext ((k0_dev4_eq c).trans (by revert c; decide))
theorem dev5_eq (c : Dev nD) : (⟨k0_dev5 c, k0_dev5_lt c⟩ : Dev nD) = xp c := Fin.ext ((k0_dev5_eq c).trans (by revert c; decide))
theorem dev6_eq (c : Dev nD) : (⟨k0_dev6 c, k0_dev6_lt c⟩ : Dev nD) = xp c := Fin.ext ((k0_dev6_eq c).trans (by revert c; decide))
theorem dev7_eq (c : Dev nD) : (⟨k0_dev7 c, k0_dev7_lt c⟩ : Dev nD) = xp c := Fin.ext ((k0_dev7_eq c).trans (by revert c; decide))
theorem dev8_eq (c : Dev nD) : (⟨k0_dev8 c, k0_dev8_lt c⟩ : Dev nD) = xp c := Fin.ext ((k0_dev8_eq c).trans (by revert c; decide))
theorem dev9_eq (c : Dev nD) : (⟨k0_dev9 c, k0_dev9_lt c⟩ : Dev nD) = xp c := Fin.ext ((k0_dev9_eq c).trans (by revert c; decide))
theorem dev10_eq (c : Dev nD) : (⟨k0_dev10 c, k0_dev10_lt c⟩ : Dev nD) = xp c := Fin.ext ((k0_dev10_eq c).trans (by revert c; decide))
theorem dev11_eq (c : Dev nD) : (⟨k0_dev11 c, k0_dev11_lt c⟩ : Dev nD) = xp c := Fin.ext ((k0_dev11_eq c).trans (by revert c; decide))
theorem dev12_eq (c : Dev nD) : (⟨k0_dev12 c, k0_dev12_lt c⟩ : Dev nD) = xp c := Fin.ext ((k0_dev12_eq c).trans (by revert c; decide))
theorem dev13_eq (c : Dev nD) : (⟨k0_dev13 c, k0_dev13_lt c⟩ : Dev nD) = xp c := Fin.ext ((k0_dev13_eq c).trans (by revert c; decide))
theorem dev14_eq (c : Dev nD) : (⟨k0_dev14 c, k0_dev14_lt c⟩ : Dev nD) = xp c := Fin.ext ((k0_dev14_eq c).trans (by revert c; decide))
theorem dev15_eq (c : Dev nD) : (⟨k0_dev15 c, k0_dev15_lt c⟩ : Dev nD) = xp c := Fin.ext ((k0_dev15_eq c).trans (by revert c; decide))
theorem dev16_eq (c : Dev nD) : (⟨k0_dev16 c, k0_dev16_lt c⟩ : Dev nD) = xp c := Fin.ext ((k0_dev16_eq c).trans (by revert c; decide))
theorem dev17_eq (c : Dev nD) : (⟨k0_dev17 c, k0_dev17_lt c⟩ : Dev nD) = xp c := Fin.ext ((k0_dev17_eq c).trans (by revert c; decide))
theorem dev18_eq (c : Dev nD) : (⟨k0_dev18 c, k0_dev18_lt c⟩ : Dev nD) = xp c := Fin.ext ((k0_dev18_eq c).trans (by revert c; decide))
theorem dev19_eq (c : Dev nD) : (⟨k0_dev19 c, k0_dev19_lt c⟩ : Dev nD) = yp c := Fin.ext ((k0_dev19_eq c).trans (by revert c; decide))
theorem dev20_eq (c : Dev nD) : (⟨k0_dev20 c, k0_dev20_lt c⟩ : Dev nD) = yp c := Fin.ext ((k0_dev20_eq c).trans (by revert c; decide))
theorem dev21_eq (c : Dev nD) : (⟨k0_dev21 c, k0_dev21_lt c⟩ : Dev nD) = yp c := Fin.ext ((k0_dev21_eq c).trans (by revert c; decide))
theorem dev22_eq (c : Dev nD) : (⟨k0_dev22 c, k0_dev22_lt c⟩ : Dev nD) = yp c := Fin.ext ((k0_dev22_eq c).trans (by revert c; decide))
theorem dev23_eq (c : Dev nD) : (⟨k0_dev23 c, k0_dev23_lt c⟩ : Dev nD) = yp c := Fin.ext ((k0_dev23_eq c).trans (by revert c; decide))
theorem dev24_eq (c : Dev nD) : (⟨k0_dev24 c, k0_dev24_lt c⟩ : Dev nD) = yp c := Fin.ext ((k0_dev24_eq c).trans (by revert c; decide))
theorem dev25_eq (c : Dev nD) : (⟨k0_dev25 c, k0_dev25_lt c⟩ : Dev nD) = yp c := Fin.ext ((k0_dev25_eq c).trans (by revert c; decide))
theorem dev26_eq (c : Dev nD) : (⟨k0_dev26 c, k0_dev26_lt c⟩ : Dev nD) = yp c := Fin.ext ((k0_dev26_eq c).trans (by revert c; decide))
theorem dev27_eq (c : Dev nD) : (⟨k0_dev27 c, k0_dev27_lt c⟩ : Dev nD) = yp c := Fin.ext ((k0_dev27_eq c).trans (by revert c; decide))
theorem dev28_eq (c : Dev nD) : (⟨k0_dev28 c, k0_dev28_lt c⟩ : Dev nD) = yp c := Fin.ext ((k0_dev28_eq c).trans (by revert c; decide))
theorem dev29_eq (c : Dev nD) : (⟨k0_dev29 c, k0_dev29_lt c⟩ : Dev nD) = yp c := Fin.ext ((k0_dev29_eq c).trans (by revert c; decide))
theorem dev30_eq (c : Dev nD) : (⟨k0_dev30 c, k0_dev30_lt c⟩ : Dev nD) = yp c := Fin.ext ((k0_dev30_eq c).trans (by revert c; decide))
theorem dev31_eq (c : Dev nD) : (⟨k0_dev31 c, k0_dev31_lt c⟩ : Dev nD) = yp c := Fin.ext ((k0_dev31_eq c).trans (by revert c; decide))
theorem dev32_eq (c : Dev nD) : (⟨k0_dev32 c, k0_dev32_lt c⟩ : Dev nD) = yp c := Fin.ext ((k0_dev32_eq c).trans (by revert c; decide))
theorem dev33_eq (c : Dev nD) : (⟨k0_dev33 c, k0_dev33_lt c⟩ : Dev nD) = yp c := Fin.ext ((k0_dev33_eq c).trans (by revert c; decide))
theorem dev34_eq (c : Dev nD) : (⟨k0_dev34 c, k0_dev34_lt c⟩ : Dev nD) = yp c := Fin.ext ((k0_dev34_eq c).trans (by revert c; decide))

/-! ## The buffers and the chunks' rectangles -/

abbrev xM : Memref sig .tc .vmem S1x512x512 .f32 := Memref.whole cc0_stg0_0
abbrev oM : Memref sig .tc .vmem S512x1024 .bf16 := Memref.whole cc0_stg1_0
abbrev sM : Memref sig .tc .vmem S512x512 .bf16 := Memref.whole cc0_scratch0
abbrev rM : Memref sig .tc .vmem S512x512 .bf16 := Memref.whole cc0_scratch1

theorem rows_inb (k : Fin 16) : ∀ a, (![32 * k.val, 0] : Fin 2 → Nat) a + S32x512.size a ≤ S512x512.size a := by
  revert k; decide
/-- Rows 32 k … 32 k + 31 of a 512 × 512 scratch buffer: chunk k. -/
abbrev rowR (k : Fin 16) : Rect S512x512 := Rect.unit (s := S512x512) ![32 * k.val, 0] S32x512.size (rows_inb k)

theorem cols_inb (k : Fin 16) (y : Fin 2) : ∀ a, (![32 * k.val, 512 * y.val] : Fin 2 → Nat) a + S32x512.size a ≤ S512x1024.size a := by
  revert k y; decide
/-- Rows 32 k … 32 k + 31 and columns 512 y … 512 y + 511 of the 512 × 1024 result: chunk k of column half y. -/
abbrev colR (k : Fin 16) (y : Fin 2) : Rect S512x1024 := Rect.unit (s := S512x1024) ![32 * k.val, 512 * y.val] S32x512.size (cols_inb k y)

/-- The column half a device computes itself, and the one its column partner sends it. -/
def myY (c : Dev nD) : Fin 2 := ⟨c.val % 2, Nat.mod_lt _ (by decide)⟩
def otY (c : Dev nD) : Fin 2 := ⟨1 - c.val % 2, by omega⟩
theorem myY_yp (c : Dev nD) : myY (yp c) = otY c := by revert c; decide
theorem otY_yp (c : Dev nD) : otY (yp c) = myY c := by revert c; decide
theorem myY_xp (c : Dev nD) : myY (xp c) = myY c := by revert c; decide
theorem myY_ne_otY (c : Dev nD) : myY c ≠ otY c := by revert c; decide

/-! ## What the buffers hold -/

variable (m : (ℓ : Loc nD τ sig) → Buf (Elt F) ℓ)

/-- Device c's block of x as staged for the body. -/
def xstg (c : Dev nD) : (cc0_stg0_0 : Ref sig .tc).ty.Contents (Elt F) :=
  (win0_0.blk (0 : Fin 1)).view.read (Elt F) (m ((c : Thread nD τ).loc main_arg0))

/-- Device c's block narrowed to the 16-bit format: what its first scratch buffer holds. -/
def sxv (c : Dev nD) : (cc0_scratch0 : Ref sig .tc).ty.Contents (Elt F) := k0_pay1 (xstg m c)

/-- What device c's second scratch buffer ends up holding: its row partner's narrowed block. -/
def rxv (c : Dev nD) : (cc0_scratch1 : Ref sig .tc).ty.Contents (Elt F) := sxv m (xp c)

/-- The sum device c forms: its own narrowed block plus its row partner's, entry by entry. -/
def sumv (c : Dev nD) : FVec F S512x512 .bf16 := addf (sxv m c) (rxv m c)

/-- Column j of the result lies in column half j / 512, at column j % 512 of that half. -/
def halfIdx (i : S512x1024.Idx) : S512x512.Idx := fun a =>
  match a with
  | ⟨0, _⟩ => ⟨(i 0).val, (i 0).isLt⟩
  | ⟨1, _⟩ => ⟨(i 1).val % 512, Nat.mod_lt _ (by decide)⟩

/-- The result on device c: its own column half holds its own sum, the other half its column partner's. -/
def outv (c : Dev nD) : (cc0_stg1_0 : Ref sig .tc).ty.Contents (Elt F) := fun i =>
  if (i 1).val / 512 = c.val % 2 then sumv m c (halfIdx i) else sumv m (yp c) (halfIdx i)

end Cert.KernelIdeal.Hand

end
-- ==== Proof.Sched.lean ====
/- The cross-device protocol, as a schedule of duties.  Every device owns one barrier cell and four
   families of sixteen transfer cells (chunk k of: the send to the row partner, the receive from the row
   partner, the send to the column partner, the receive from the column partner).  Everything happens in
   round 0.  A barrier cell has two duties of one unit: the row partner's signal brings the row partner's
   second scratch buffer (where this device will write), the column partner's signal brings the half of
   the column partner's result buffer that this device will fill.  A transfer cell has one duty, the
   chunk's credit: a send cell gives the source chunk back, a receive cell brings the destination chunk
   holding what was sent. -/
import proofs.«900322_g7700000000000323_dist_rsx_agy_m512_n512_v7x_xy2x2_bf16_1_alg».proof.Proof.Spec

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names Bool) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

/-- The barrier semaphore of the collective. -/
abbrev barS : Sem sig := (SemArray.scalar (sig.barrier 0 rfl) : Sems sig S_).sem

/-- Transfer semaphore k of family a: 0 the send to the row partner, 1 the receive from it, 2 the send to the
    column partner, 3 the receive from it. -/
def dsem (a : Fin 4) (k : Fin 16) : DmaSem sig := ⟨2 + 16 * a.val + k.val, by have := a.isLt; have := k.isLt; show _ < 66; omega⟩

theorem dsem_val (a : Fin 4) (k : Fin 16) : (dsem a k).val = 2 + 16 * a.val + k.val := rfl
theorem dsem_inj {a a' : Fin 4} {k k' : Fin 16} (h : dsem a k = dsem a' k') : a = a' ∧ k = k' := by
  have h' : 2 + 16 * a.val + k.val = 2 + 16 * a'.val + k'.val := congrArg Fin.val h
  have := a.isLt; have := a'.isLt; have := k.isLt; have := k'.isLt
  exact ⟨Fin.ext (by omega), Fin.ext (by omega)⟩

abbrev barCell (c : Dev nD) : GSem nD τ sig := ((c : Thread nD τ), .reg barS)
abbrev dCell (c : Dev nD) (a : Fin 4) (k : Fin 16) : GSem nD τ sig := ((c : Thread nD τ), .dma (dsem a k))

/-- The family and the chunk of a transfer semaphore. -/
def famOf (q : DmaSem sig) : ℕ := (q.val - 2) / 16
def chunkOf (q : DmaSem sig) : Fin 16 := ⟨(q.val - 2) % 16, Nat.mod_lt _ (by decide)⟩
theorem famOf_dsem (a : Fin 4) (k : Fin 16) : famOf (dsem a k) = a.val := by
  unfold famOf; rw [dsem_val]; have := k.isLt; omega
theorem chunkOf_dsem (a : Fin 4) (k : Fin 16) : chunkOf (dsem a k) = k := by
  apply Fin.ext; show ((dsem a k).val - 2) % 16 = k.val
  rw [dsem_val]; have := k.isLt; omega

/-! ## The chunks as views, and ownership of them -/

abbrev sSl (k : Fin 16) : Memref sig .tc .vmem S32x512 .bf16 := sM.slice (rowR k) (fun _ => rfl)
abbrev rSl (k : Fin 16) : Memref sig .tc .vmem S32x512 .bf16 := rM.slice (rowR k) (fun _ => rfl)
abbrev oSl (k : Fin 16) (y : Fin 2) : Memref sig .tc .vmem S32x512 .bf16 := oM.slice (colR k y) (fun _ => rfl)

/-- The credit of one chunk's transfer. -/
abbrev N : ℕ := (rSl 0).view.dmaCredit

/-- Share q of chunk k of device c's first scratch buffer, holding f there. -/
def sPts (c : Dev nD) (k : Fin 16) (q : PosShare TreeShare) (f : Buf (Elt F) ((sSl k).view.loc (c : Thread nD τ))) : sProp 𝕄 :=
  (sSl k).view.loc (c : Thread nD τ) ↦[(sSl k).view.set]{q} f
/-- Chunk k of device c's second scratch buffer, holding f there. -/
def rPts (c : Dev nD) (k : Fin 16) (f : Buf (Elt F) ((rSl k).view.loc (c : Thread nD τ))) : sProp 𝕄 :=
  (rSl k).view.loc (c : Thread nD τ) ↦[(rSl k).view.set]{fullShare} f
/-- Chunk k of column half y of device c's result buffer, holding f there. -/
def oPts (c : Dev nD) (k : Fin 16) (y : Fin 2) (f : Buf (Elt F) ((oSl k y).view.loc (c : Thread nD τ))) : sProp 𝕄 :=
  (oSl k y).view.loc (c : Thread nD τ) ↦[(oSl k y).view.set]{fullShare} f

/-! ## The schedule -/

/-- What the row partner p's barrier signal hands device c: every chunk of p's second scratch buffer. -/
def barPayX (c : Dev nD) : sProp 𝕄 := bigSep Finset.univ fun k : Fin 16 => iprop(∃ f, rPts (F := F) (xp c) k f)
/-- What the column partner's barrier signal hands device c: every chunk of the column half of the partner's
    result buffer that c computes. -/
def barPayY (c : Dev nD) : sProp 𝕄 := bigSep Finset.univ fun k : Fin 16 => iprop(∃ f, oPts (F := F) (yp c) k (myY c) f)

/-- The payload of transfer semaphore q of device c. -/
def dmaPay (c : Dev nD) (q : DmaSem sig) : sProp 𝕄 :=
  if q.val < 2 then iprop(emp)
  else if q.val < 18 then sPts c (chunkOf q) fullShare.left (sxv m c)
  else if q.val < 34 then rPts c (chunkOf q) (rxv m c)
  else if q.val < 50 then oPts c (chunkOf q) (myY c) (outv m c)
  else oPts c (chunkOf q) (otY c) (outv m c)

def semPay (c : Dev nD) : SemLoc sig → Bool → sProp 𝕄
  | .reg _, d => if d then barPayX c else barPayY c
  | .dma q, _ => dmaPay m c q

def semDuties : SemLoc sig → Finset Bool
  | .reg _ => Finset.univ
  | .dma q => if 2 ≤ q.val then {false} else ∅

def semAmount : SemLoc sig → ℕ
  | .reg _ => 1
  | .dma _ => N

/-- One round, round 0. -/
def sched : Rounds.Schedule (GSem nD τ sig) Bool 𝕄 where
  duties g r := if r = 0 ∧ g.1.2 = .tc then semDuties g.2 else ∅
  unitless _ := False
  amount g _ _ := semAmount g.2
  payload g _ d := semPay m g.1.1 g.2 d
  amount_pos g _ _ _ := by
    cases g.2 with
    | reg _ => exact Nat.one_pos
    | dma _ => exact View.dmaCredit_pos _ (by decide)

/-! ## The schedule's tables, cell by cell -/

section Tables
variable (c : Dev nD) (a : Fin 4) (k : Fin 16)

theorem dsem_ge (a : Fin 4) (k : Fin 16) : 2 ≤ (dsem a k).val := by rw [dsem_val]; omega

theorem duties_bar : (sched (F := F) m).duties (barCell c) 0 = Finset.univ := by
  dsimp only [sched]; rw [if_pos ⟨rfl, rfl⟩]; rfl
theorem duties_d : (sched (F := F) m).duties (dCell c a k) 0 = {false} := by
  dsimp only [sched]; rw [if_pos ⟨rfl, rfl⟩]; show (if 2 ≤ (dsem a k).val then ({false} : Finset Bool) else ∅) = _
  rw [if_pos (dsem_ge a k)]
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_d (d : Bool) : (sched (F := F) m).amount (dCell c a k) 0 d = N := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (sched (F := F) m).expect (dCell c a k) 0 = N := by
  unfold Schedule.expect Schedule.amountOf; rw [duties_d, Finset.sum_singleton, amount_d]

theorem payload_bar_true : (sched (F := F) m).payload (barCell c) 0 true = barPayX c := rfl
theorem payload_bar_false : (sched (F := F) m).payload (barCell c) 0 false = barPayY c := rfl

theorem dmaPay_0 : dmaPay m c (dsem 0 k) = sPts c k fullShare.left (sxv m c) := by
  unfold dmaPay; have h := dsem_val 0 k; have := k.isLt
  rw [if_neg (by omega), if_pos (by rw [h]; show 2 + 16 * 0 + k.val < 18; omega), chunkOf_dsem]
theorem dmaPay_1 : dmaPay m c (dsem 1 k) = rPts c k (rxv m c) := by
  unfold dmaPay; have h := dsem_val 1 k; have := k.isLt
  rw [if_neg (by omega), if_neg (by rw [h]; show ¬ 2 + 16 * 1 + k.val < 18; omega), if_pos (by rw [h]; show 2 + 16 * 1 + k.val < 34; omega), chunkOf_dsem]
theorem dmaPay_2 : dmaPay m c (dsem 2 k) = oPts c k (myY c) (outv m c) := by
  unfold dmaPay; have h := dsem_val 2 k; have := k.isLt
  rw [if_neg (by omega), if_neg (by rw [h]; show ¬ 2 + 16 * 2 + k.val < 18; omega), if_neg (by rw [h]; show ¬ 2 + 16 * 2 + k.val < 34; omega),
    if_pos (by rw [h]; show 2 + 16 * 2 + k.val < 50; omega), chunkOf_dsem]
theorem dmaPay_3 : dmaPay m c (dsem 3 k) = oPts c k (otY c) (outv m c) := by
  unfold dmaPay; have h := dsem_val 3 k; have := k.isLt
  rw [if_neg (by omega), if_neg (by rw [h]; show ¬ 2 + 16 * 3 + k.val < 18; omega), if_neg (by rw [h]; show ¬ 2 + 16 * 3 + k.val < 34; omega),
    if_neg (by rw [h]; show ¬ 2 + 16 * 3 + k.val < 50; omega), chunkOf_dsem]

theorem payload_sx (d : Bool) : (sched m).payload (dCell c 0 k) 0 d = sPts c k fullShare.left (sxv m c) := dmaPay_0 m c k
theorem payload_rx (d : Bool) : (sched m).payload (dCell c 1 k) 0 d = rPts c k (rxv m c) := dmaPay_1 m c k
theorem payload_sy (d : Bool) : (sched m).payload (dCell c 2 k) 0 d = oPts c k (myY c) (outv m c) := dmaPay_2 m c k
theorem payload_ry (d : Bool) : (sched m).payload (dCell c 3 k) 0 d = oPts c k (otY c) (outv m c) := dmaPay_3 m c k

/-- The rest of the barrier cell's round, no duty taken: the column partner's payload and the row partner's. -/
theorem rest_bar : bigSep ((sched m).duties (barCell c) 0 \ ∅) (fun d => (sched m).payload (barCell c) 0 d) = iprop(barPayY (F := F) c ∗ barPayX (F := F) c) := by
  rw [Finset.sdiff_empty, duties_bar, bigSep_univ_eq_bigSepL [false, true] (by decide) (by decide), bigSepL_cons_cons, bigSepL_singleton,
    payload_bar_false, payload_bar_true]
  rfl
theorem rest_sx : bigSep ((sched m).duties (dCell c 0 k) 0 \ ∅) (fun d => (sched m).payload (dCell c 0 k) 0 d) = sPts c k fullShare.left (sxv m c) := by
  rw [Finset.sdiff_empty, duties_d, bigSep_singleton, payload_sx]
theorem rest_rx : bigSep ((sched m).duties (dCell c 1 k) 0 \ ∅) (fun d => (sched m).payload (dCell c 1 k) 0 d) = rPts c k (rxv m c) := by
  rw [Finset.sdiff_empty, duties_d, bigSep_singleton, payload_rx]
theorem rest_sy : bigSep ((sched m).duties (dCell c 2 k) 0 \ ∅) (fun d => (sched m).payload (dCell c 2 k) 0 d) = oPts c k (myY c) (outv m c) := by
  rw [Finset.sdiff_empty, duties_d, bigSep_singleton, payload_sy]
theorem rest_ry : bigSep ((sched m).duties (dCell c 3 k) 0 \ ∅) (fun d => (sched m).payload (dCell c 3 k) 0 d) = oPts c k (otY c) (outv m c) := by
  rw [Finset.sdiff_empty, duties_d, bigSep_singleton, payload_ry]

end Tables

instance sPts_storable (c : Dev nD) (k : Fin 16) (q) (f) : BI.Storable (upEmb : UEmb _ 𝕄) (sPts (F := F) c k q f) := by unfold sPts; infer_instance
instance rPts_storable (c : Dev nD) (k : Fin 16) (f) : BI.Storable (upEmb : UEmb _ 𝕄) (rPts (F := F) c k f) := by unfold rPts; infer_instance
instance oPts_storable (c : Dev nD) (k : Fin 16) (y : Fin 2) (f) : BI.Storable (upEmb : UEmb _ 𝕄) (oPts (F := F) c k y f) := by unfold oPts; infer_instance

instance barPayX_storable (c : Dev nD) : BI.Storable (upEmb : UEmb _ 𝕄) (barPayX (F := F) c) := by unfold barPayX; infer_instance
instance barPayY_storable (c : Dev nD) : BI.Storable (upEmb : UEmb _ 𝕄) (barPayY (F := F) c) := by unfold barPayY; infer_instance
instance dmaPay_storable (c : Dev nD) (q : DmaSem sig) : BI.Storable (upEmb : UEmb _ 𝕄) (dmaPay m c q) := by
  unfold dmaPay; (repeat' split) <;> infer_instance

instance sched_payload_storable (g : GSem nD τ sig) (r : ℕ) (d : Bool) :
    BI.Storable (upEmb : UEmb _ 𝕄) ((sched (F := F) m).payload g r d) := by
  show BI.Storable upEmb (semPay m g.1.1 g.2 d)
  cases g.2 with
  | reg s => cases d <;> (unfold semPay; simp only [Bool.false_eq_true, if_true, if_false]; infer_instance)
  | dma q => unfold semPay; infer_instance

end Cert.KernelIdeal.Hand

end
-- ==== Proof.State.lean ====
/- What a device owes its partners and at which level each cell is waited on; the ghost state a device's
   body starts from and ends with; the proof data of the one-point pipeline; and the statement of the
   body's run. -/
import proofs.«900322_g7700000000000323_dist_rsx_agy_m512_n512_v7x_xy2x2_bf16_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## What a device owes -/

/-- f i + … + f (i + n - 1), the summand of the smallest index written last. -/
def tailSum (f : ℕ → CellTallies nD τ sig Unit) : ℕ → ℕ → CellTallies nD τ sig Unit
  | _, 0 => 0
  | i, n + 1 => tailSum f (i + 1) n + f i

/-- Chunk j of 16. -/
def fk (j : ℕ) : Fin 16 := ⟨j % 16, Nat.mod_lt _ (by decide)⟩

/-- The credit of chunk j owed to the row partner's receive cell, and to the column partner's. -/
def OXf (c : Dev nD) (j : ℕ) : CellTallies nD τ sig Unit := tallyAt (dCell (xp c) 1 (fk j)) () N
def OYf (c : Dev nD) (j : ℕ) : CellTallies nD τ sig Unit := tallyAt (dCell (yp c) 3 (fk j)) () N
/-- Chunks i … 15 still owed to the row partner, to the column partner. -/
def OX (c : Dev nD) (i : ℕ) : CellTallies nD τ sig Unit := tailSum (OXf c) i (16 - i)
def OY (c : Dev nD) (i : ℕ) : CellTallies nD τ sig Unit := tailSum (OYf c) i (16 - i)

/-- After both barrier signals: all 32 chunk credits. -/
def O₂ (c : Dev nD) : CellTallies nD τ sig Unit := OY c 0 + OX c 0
/-- After the first signal (to the row partner): those and the column partner's barrier unit. -/
def O₁ (c : Dev nD) : CellTallies nD τ sig Unit := O₂ c + tallyAt (barCell (yp c)) () 1
/-- At launch: those and the row partner's barrier unit. -/
def O₀ (c : Dev nD) : CellTallies nD τ sig Unit := O₁ c + tallyAt (barCell (xp c)) () 1

/-! ## Levels: a barrier cell below the receive cells from the row partner, those below the receive cells from
    the column partner; the send cells and the pipeline's staging cells at the bottom -/

def L (g : GSem nD τ sig) : Finset Unit := if g.1.2 = .tc then {()} else ∅
def semLv : SemLoc sig → ℕ
  | .reg _ => 1
  | .dma q => if 18 ≤ q.val ∧ q.val < 34 then 2 else if 50 ≤ q.val then 3 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- Every cell of the protocol, by device and index: 0 the barrier cell, 1 + 16 a + k transfer cell k of family a. -/
def csem (j : Fin 65) : SemLoc sig := if h : j.val = 0 then .reg barS else .dma ⟨j.val + 1, by have := j.isLt; show _ < 66; omega⟩
abbrev kcell (cj : Dev nD × Fin 65) : GSem nD τ sig := ((cj.1 : Thread nD τ), csem cj.2)
/-- The kernel's own (scoped) semaphores: the 64 transfer semaphores. -/
def osem (i : Fin 64) : SemLoc sig := .dma ⟨i.val + 2, by have := i.isLt; show _ < 66; omega⟩

/-- The index of the barrier cell and of a transfer cell. -/
def jBar : Fin 65 := 0
def jD (a : Fin 4) (k : Fin 16) : Fin 65 := ⟨1 + 16 * a.val + k.val, by have := a.isLt; have := k.isLt; omega⟩
theorem csem_jBar : csem jBar = .reg barS := rfl
theorem csem_jD (a : Fin 4) (k : Fin 16) : csem (jD a k) = .dma (dsem a k) := by
  unfold csem jD dsem; rw [dif_neg (by simp only []; omega)]; congr 1; apply Fin.ext; simp only []; omega

/-- Every cell's invariant, under the names they were allocated at, and that every cell has reached round 0. -/
def records (K : Dev nD × Fin 65 → ℕ) : sProp 𝕄 :=
  iprop((bigSep Finset.univ fun cj : Dev nD × Fin 65 => cellInv ER (sched m) (K cj) (kcell cj))
    ∗ bigSep Finset.univ fun cj : Dev nD × Fin 65 => reached ER (kcell cj) 0)

instance records_persistent (K : Dev nD × Fin 65 → ℕ) : BI.Persistent (records m K) := by unfold records; infer_instance

/-- A device's positions on its own cells. -/
def positions (c : Dev nD) : sProp 𝕄 :=
  iprop(atPos ER (barCell c) 0 ∅ 0
    ∗ (bigSep Finset.univ fun k : Fin 16 => atPos ER (dCell c 0 k) 0 ∅ 0)
    ∗ (bigSep Finset.univ fun k : Fin 16 => atPos ER (dCell c 1 k) 0 ∅ 0)
    ∗ (bigSep Finset.univ fun k : Fin 16 => atPos ER (dCell c 2 k) 0 ∅ 0)
    ∗ (bigSep Finset.univ fun k : Fin 16 => atPos ER (dCell c 3 k) 0 ∅ 0))

/-- The tokens of the duties a device pays: its row partner's barrier duty true, its column partner's barrier duty
    false; per chunk its own two send duties and its partners' two receive duties. -/
def payToks (c : Dev nD) : sProp 𝕄 :=
  iprop(dutyTok ER (barCell (xp c)) 0 true ∗ dutyTok ER (barCell (yp c)) 0 false
    ∗ (bigSep Finset.univ fun k : Fin 16 => dutyTok ER (dCell c 0 k) 0 false)
    ∗ (bigSep Finset.univ fun k : Fin 16 => dutyTok ER (dCell (xp c) 1 k) 0 false)
    ∗ (bigSep Finset.univ fun k : Fin 16 => dutyTok ER (dCell c 2 k) 0 false)
    ∗ (bigSep Finset.univ fun k : Fin 16 => dutyTok ER (dCell (yp c) 3 k) 0 false))

def ghost (K : Dev nD × Fin 65 → ℕ) (c : Dev nD) : sProp 𝕄 := iprop(records m K ∗ positions c ∗ payToks c)

/-- The credit a device is dealt at launch: its barrier's two units and each of its 32 receive cells' chunk credit. -/
def launchCreds (c : Dev nD) : sProp 𝕄 :=
  iprop(cred (tallyAt (barCell c) () 2)
    ∗ (bigSep Finset.univ fun k : Fin 16 => cred (tallyAt (dCell c 1 k) () N))
    ∗ (bigSep Finset.univ fun k : Fin 16 => cred (tallyAt (dCell c 3 k) () N)))

/-- What a device's body starts from, besides its buffers. -/
def start (c : Dev nD) : sProp 𝕄 := iprop((∃ K, ghost m K c) ∗ launchCreds c ∗ levAts L lv)

/-- Before the point: that and the two scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After the point: the scratch buffers holding the device's narrowed block and its row partner's, and the 64
    transfer cells closed, their counters at zero. -/
def Φ₁ (c : Dev nD) : sProp 𝕄 :=
  iprop((((c : Thread nD τ).loc cc0_scratch0) ↦{fullShare} sxv m c) ∗ (((c : Thread nD τ).loc cc0_scratch1) ↦{fullShare} rxv m c)
    ∗ (bigSep Finset.univ fun k : Fin 16 => semVal (dCell c 0 k) 0)
    ∗ (bigSep Finset.univ fun k : Fin 16 => semVal (dCell c 1 k) 0)
    ∗ (bigSep Finset.univ fun k : Fin 16 => semVal (dCell c 2 k) 0)
    ∗ (bigSep Finset.univ fun k : Fin 16 => semVal (dCell c 3 k) 0))

/-! ## The pipeline's proof data: one point; window 0 stages the device's block of x, window 1 the result -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's run, stated -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m c) ∗ stg c cc0_stg1_0 (outv m c))

end Cert.KernelIdeal.Hand

end
-- ==== Proof.Levels.lean ====
/- The deadlock argument's arithmetic: what a device still owes when it waits on each kind of cell lies strictly
   above that cell in level, and the credit the launch deals a device is exactly what its partners owe its cells. -/
import proofs.«900322_g7700000000000323_dist_rsx_agy_m512_n512_v7x_xy2x2_bf16_1_alg».proof.Proof.State

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The owed sums, one chunk at a time -/

theorem tailSum_zero (f : ℕ → CellTallies nD τ sig Unit) (i : ℕ) : tailSum f i 0 = 0 := rfl
theorem tailSum_succ (f : ℕ → CellTallies nD τ sig Unit) (i n : ℕ) : tailSum f i (n + 1) = tailSum f (i + 1) n + f i := rfl

/-- The value of a tail sum at a cell is the sum of the summands' values there. -/
theorem tailSum_apply (f : ℕ → CellTallies nD τ sig Unit) (g : GSem nD τ sig) (u : Unit) :
    ∀ (n i : ℕ), tailSum f i n g u = ∑ j ∈ Finset.range n, f (i + j) g u
  | 0, i => by rw [tailSum_zero, Finset.range_zero, Finset.sum_empty]; rfl
  | n + 1, i => by
    rw [tailSum_succ, Pi.add_apply, Finsupp.add_apply, tailSum_apply f g u n (i + 1), Finset.sum_range_succ', Nat.add_zero]
    congr 1
    exact Finset.sum_congr rfl fun j _ => by rw [Nat.add_assoc, Nat.add_comm 1 j]

/-- A positive tail sum has a positive summand. -/
theorem tailSum_pos (f : ℕ → CellTallies nD τ sig Unit) {g : GSem nD τ sig} {u : Unit} {n i : ℕ} (h : 0 < tailSum f i n g u) :
    ∃ j, 0 < f j g u := by
  rw [tailSum_apply] at h
  by_contra hn
  rw [not_exists] at hn
  rw [Finset.sum_eq_zero fun j _ => Nat.eq_zero_of_not_pos (hn (i + j))] at h
  exact Nat.lt_irrefl 0 h

theorem OX_succ (c : Dev nD) (i : ℕ) (h : i < 16) : OX c i = OX c (i + 1) + tallyAt (dCell (xp c) 1 (fk i)) () N := by
  show tailSum (OXf c) i (16 - i) = tailSum (OXf c) (i + 1) (16 - (i + 1)) + OXf c i
  rw [show 16 - i = (16 - (i + 1)) + 1 from by omega, tailSum_succ]
theorem OY_succ (c : Dev nD) (i : ℕ) (h : i < 16) : OY c i = OY c (i + 1) + tallyAt (dCell (yp c) 3 (fk i)) () N := by
  show tailSum (OYf c) i (16 - i) = tailSum (OYf c) (i + 1) (16 - (i + 1)) + OYf c i
  rw [show 16 - i = (16 - (i + 1)) + 1 from by omega, tailSum_succ]
theorem OX_16 (c : Dev nD) : OX c 16 = 0 := rfl
theorem OY_16 (c : Dev nD) : OY c 16 = 0 := rfl

/-- A cell the remaining chunk credits name is a receive cell of the row partner, of the column partner. -/
theorem OX_pos {c : Dev nD} {i : ℕ} {g : GSem nD τ sig} {u : Unit} (h : 0 < OX c i g u) : ∃ k : Fin 16, g = dCell (xp c) 1 k := by
  obtain ⟨j, hj⟩ := tailSum_pos (OXf c) h
  unfold OXf at hj
  rw [tallyAt_apply] at hj
  by_cases hg : g = dCell (xp c) 1 (fk j) ∧ u = ()
  · exact ⟨fk j, hg.1⟩
  · rw [if_neg hg] at hj; exact absurd hj (Nat.lt_irrefl 0)
theorem OY_pos {c : Dev nD} {i : ℕ} {g : GSem nD τ sig} {u : Unit} (h : 0 < OY c i g u) : ∃ k : Fin 16, g = dCell (yp c) 3 k := by
  obtain ⟨j, hj⟩ := tailSum_pos (OYf c) h
  unfold OYf at hj
  rw [tallyAt_apply] at hj
  by_cases hg : g = dCell (yp c) 3 (fk j) ∧ u = ()
  · exact ⟨fk j, hg.1⟩
  · rw [if_neg hg] at hj; exact absurd hj (Nat.lt_irrefl 0)

/-- What a device owes after both barrier signals names receive cells of its two partners only. -/
theorem O₂_pos {c : Dev nD} {g : GSem nD τ sig} {u : Unit} (h : 0 < O₂ c g u) :
    (∃ k : Fin 16, g = dCell (yp c) 3 k) ∨ (∃ k : Fin 16, g = dCell (xp c) 1 k) := by
  unfold O₂ at h
  rw [Pi.add_apply, Finsupp.add_apply] at h
  rcases Nat.add_pos_iff_pos_or_pos.mp h with h | h
  · exact .inl (OY_pos h)
  · exact .inr (OX_pos h)

/-- What a device owes at launch names those and its two partners' barrier cells. -/
theorem O₀_pos {c : Dev nD} {g : GSem nD τ sig} {u : Unit} (h : 0 < O₀ c g u) :
    (∃ k : Fin 16, g = dCell (yp c) 3 k) ∨ (∃ k : Fin 16, g = dCell (xp c) 1 k) ∨ g = barCell (yp c) ∨ g = barCell (xp c) := by
  unfold O₀ O₁ at h
  rw [Pi.add_apply, Finsupp.add_apply, Pi.add_apply, Finsupp.add_apply, tallyAt_apply, tallyAt_apply] at h
  rcases Nat.add_pos_iff_pos_or_pos.mp h with h | h
  · rcases Nat.add_pos_iff_pos_or_pos.mp h with h | h
    · rcases O₂_pos h with h | h
      · exact .inl h
      · exact .inr (.inl h)
    · by_cases hg : g = barCell (yp c) ∧ u = ()
      · exact .inr (.inr (.inl hg.1))
      · rw [if_neg hg] at h; exact absurd h (Nat.lt_irrefl 0)
  · by_cases hg : g = barCell (xp c) ∧ u = ()
    · exact .inr (.inr (.inr hg.1))
    · rw [if_neg hg] at h; exact absurd h (Nat.lt_irrefl 0)

/-! ## The levels of the cells -/

theorem semLv_rx (k : Fin 16) : semLv (.dma (dsem 1 k)) = 2 := by
  have h : (dsem 1 k).val = 2 + 16 * 1 + k.val := dsem_val 1 k
  have := k.isLt
  show (if 18 ≤ (dsem 1 k).val ∧ (dsem 1 k).val < 34 then 2 else if 50 ≤ (dsem 1 k).val then 3 else 0) = 2
  rw [if_pos ⟨by omega, by omega⟩]
theorem semLv_ry (k : Fin 16) : semLv (.dma (dsem 3 k)) = 3 := by
  have h : (dsem 3 k).val = 2 + 16 * 3 + k.val := dsem_val 3 k
  have := k.isLt
  show (if 18 ≤ (dsem 3 k).val ∧ (dsem 3 k).val < 34 then 2 else if 50 ≤ (dsem 3 k).val then 3 else 0) = 3
  rw [if_neg (fun h' => by omega), if_pos (by omega)]
theorem semLv_stage (q : DmaSem sig) (hq : q.val < 2) : semLv (.dma q) = 0 := by
  show (if 18 ≤ q.val ∧ q.val < 34 then 2 else if 50 ≤ q.val then 3 else 0) = 0
  rw [if_neg (fun h' => by omega), if_neg (by omega)]

theorem lv_bar (c : Dev nD) (u : Unit) : lv (barCell c) u = 1 := rfl
theorem lv_rx (c : Dev nD) (k : Fin 16) (u : Unit) : lv (dCell c 1 k) u = 2 := semLv_rx k
theorem lv_ry (c : Dev nD) (k : Fin 16) (u : Unit) : lv (dCell c 3 k) u = 3 := semLv_ry k

theorem mem_L_tc (c : Dev nD) (sm : SemLoc sig) (u : Unit) : u ∈ L ((c : Thread nD τ), sm) := by
  rw [L_tc]; exact Finset.mem_singleton_self _

/-! ## Waiting while owing -/

/-- At its barrier wait a device owes the 32 chunk credits: receive cells, all above a barrier cell. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp]; exact mem_L_tc c _ _)
    (fun g u hg => by
      rcases O₂_pos hg with ⟨k, rfl⟩ | ⟨k, rfl⟩
      · exact mem_L_tc _ _ _
      · exact mem_L_tc _ _ _)
    (fun p hp => by rw [Finset.mem_singleton.mp hp]; exact Nat.le_refl 1)
    (fun g u hg => by
      rcases O₂_pos hg with ⟨k, rfl⟩ | ⟨k, rfl⟩
      · rw [lv_ry]; decide
      · rw [lv_rx]; decide)

/-- At a wait on a receive cell from its row partner a device owes only credits to its column partner's receive cells. -/
theorem mayWait_rx (c : Dev nD) (k : Fin 16) (i : ℕ) : (levAts L lv : sProp 𝕄) ⊢ MayWait (c : Thread nD τ) (.dma (dsem 1 k)) () (OY c i) :=
  MayOwe.of_cut (L := L) (lev := lv) 2 (fun p hp => by rw [Finset.mem_singleton.mp hp]; exact mem_L_tc c _ _)
    (fun g u hg => by
      obtain ⟨k', rfl⟩ := OY_pos hg
      exact mem_L_tc _ _ _)
    (fun p hp => by rw [Finset.mem_singleton.mp hp]; exact Nat.le_of_eq (lv_rx c k ()))
    (fun g u hg => by
      obtain ⟨k', rfl⟩ := OY_pos hg
      rw [lv_ry]; decide)

/-- The pipeline's staging cells are waited on while owing everything (before the body) or nothing (after it). -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L_tc c _ _)
      (fun g u hg => by
        rcases O₀_pos hg with ⟨k, rfl⟩ | ⟨k, rfl⟩ | rfl | rfl <;> exact mem_L_tc _ _ _)
      (fun p hp => by rw [Finset.mem_singleton.mp hp]; exact Nat.le_of_eq (semLv_stage q hq))
      (fun g u hg => by
        rcases O₀_pos hg with ⟨k, rfl⟩ | ⟨k, rfl⟩ | rfl | rfl
        · rw [lv_ry]; decide
        · rw [lv_rx]; decide
        · rw [lv_bar]; decide
        · rw [lv_bar]; decide)
  · rw [MayWait_zero]; iintro -; iempintro

/-! ## The launch credit -/

/-- A tail sum is the finite sum of its summands. -/
theorem tailSum_eq_sum (f : ℕ → CellTallies nD τ sig Unit) : ∀ (n i : ℕ), tailSum f i n = ∑ j ∈ Finset.range n, f (i + j)
  | 0, i => by rw [tailSum_zero, Finset.range_zero, Finset.sum_empty]
  | n + 1, i => by
    rw [tailSum_succ, tailSum_eq_sum f n (i + 1), Finset.sum_range_succ', Nat.add_zero]
    congr 1
    exact Finset.sum_congr rfl fun j _ => by rw [Nat.add_assoc, Nat.add_comm 1 j]

theorem fk_val (k : Fin 16) : fk k.val = k := Fin.ext (Nat.mod_eq_of_lt k.isLt)

/-- All sixteen chunk credits a device owes its row partner, its column partner, as sums over the chunks. -/
theorem OX_eq (d : Dev nD) : OX d 0 = ∑ k : Fin 16, tallyAt (dCell (xp d) 1 k) () N := by
  show tailSum (OXf d) 0 16 = _
  rw [tailSum_eq_sum, ← Fin.sum_univ_eq_sum_range (fun j => OXf d (0 + j)) 16]
  exact Finset.sum_congr rfl fun k _ => by unfold OXf; rw [Nat.zero_add, fk_val]
theorem OY_eq (d : Dev nD) : OY d 0 = ∑ k : Fin 16, tallyAt (dCell (yp d) 3 k) () N := by
  show tailSum (OYf d) 0 16 = _
  rw [tailSum_eq_sum, ← Fin.sum_univ_eq_sum_range (fun j => OYf d (0 + j)) 16]
  exact Finset.sum_congr rfl fun k _ => by unfold OYf; rw [Nat.zero_add, fk_val]

/-- When every device owes n units to one semaphore of its partner under an involution, the launch deals each
    device n units of credit on that semaphore of its own: its partner's. -/
theorem launchCred_partner (π : Dev nD → Dev nD) (hπ : ∀ c, π (π c) = c) (sm : SemLoc sig) (n : ℕ) (c : Dev nD) :
    (Pipeline.launchCred (fun d => tallyAt (((π d : Dev nD) : Thread nD τ), sm) () n) c : sProp 𝕄) ⊢ cred (tallyAt ((c : Thread nD τ), sm) () n) := by
  refine (Pipeline.launchCred_elim _ c sm).trans (Entails.of_eq (congrArg cred ?_))
  refine congrArg (tallyOn _) (Finsupp.ext fun u => ?_)
  cases u
  rw [Pipeline.launchCredit_owing, Finsupp.single_eq_same, Finset.sum_eq_single (π c)]
  · rw [hπ]; exact tallyAt_self _ _ _
  · intro d _ hd
    have hne : (((c : Dev nD) : Thread nD τ), sm) ≠ (((π d : Dev nD) : Thread nD τ), sm) := fun h =>
      hd (by
        have h1 : c = π d := Fin.ext (congrArg (fun g : GSem nD τ sig => g.1.1.val) h)
        rw [h1, hπ])
    rw [tallyAt_ne_cell hne]; rfl
  · intro h; exact absurd (Finset.mem_univ _) h

theorem credsX (c : Dev nD) :
    (Pipeline.launchCred (fun d => OX d 0) c : sProp 𝕄) ⊢ bigSep Finset.univ fun k : Fin 16 => cred (tallyAt (dCell c 1 k) () N) := by
  rw [show (fun d : Dev nD => OX d 0) = fun d => ∑ k ∈ (Finset.univ : Finset (Fin 16)), tallyAt (dCell (xp d) 1 k) () N from funext OX_eq,
    Pipeline.launchCred_sum Finset.univ (fun (k : Fin 16) (d : Dev nD) => tallyAt (dCell (xp d) 1 k) () N) c]
  exact bigSep_mono fun k _ => launchCred_partner xp xp_xp (.dma (dsem 1 k)) N c
theorem credsY (c : Dev nD) :
    (Pipeline.launchCred (fun d => OY d 0) c : sProp 𝕄) ⊢ bigSep Finset.univ fun k : Fin 16 => cred (tallyAt (dCell c 3 k) () N) := by
  rw [show (fun d : Dev nD => OY d 0) = fun d => ∑ k ∈ (Finset.univ : Finset (Fin 16)), tallyAt (dCell (yp d) 3 k) () N from funext OY_eq,
    Pipeline.launchCred_sum Finset.univ (fun (k : Fin 16) (d : Dev nD) => tallyAt (dCell (yp d) 3 k) () N) c]
  exact bigSep_mono fun k _ => launchCred_partner yp yp_yp (.dma (dsem 3 k)) N c

/-- The launch credit under what the devices owe at launch, summand by summand. -/
theorem launchCred_O₀ (c : Dev nD) :
    (Pipeline.launchCred O₀ c : sProp 𝕄)
      = iprop(((Pipeline.launchCred (fun d => OY d 0) c ∗ Pipeline.launchCred (fun d => OX d 0) c)
          ∗ Pipeline.launchCred (fun d => tallyAt (barCell (yp d)) () 1) c)
          ∗ Pipeline.launchCred (fun d => tallyAt (barCell (xp d)) () 1) c) := by
  rw [← Pipeline.launchCred_add (fun d => OY d 0) (fun d => OX d 0) c,
    ← Pipeline.launchCred_add (fun d => OY d 0 + OX d 0) (fun d => tallyAt (barCell (yp d)) () 1) c,
    ← Pipeline.launchCred_add (fun d => OY d 0 + OX d 0 + tallyAt (barCell (yp d)) () 1) (fun d => tallyAt (barCell (xp d)) () 1) c] <;> rfl

/-- What the launch deals a device in credit is its barrier's two units and its 32 receive cells' chunk credits. -/
theorem creds (c : Dev nD) : (Pipeline.launchCred O₀ c : sProp 𝕄) ⊢ launchCreds (F := F) c := by
  rw [launchCred_O₀]
  unfold launchCreds
  iintro ⟨⟨⟨HY, HX⟩, HbY⟩, HbX⟩
  ihave HY := (credsY (F := F) c) $$ HY
  ihave HX := (credsX (F := F) c) $$ HX
  ihave HbY := (launchCred_partner (F := F) yp yp_yp (.reg barS) 1 c) $$ HbY
  ihave HbX := (launchCred_partner (F := F) xp xp_xp (.reg barS) 1 c) $$ HbX
  isplitl [HbY HbX]
  · rw [show (2 : ℕ) = 1 + 1 from rfl, ← tallyAt_add]
    iapply (cred_add _ _).2
    isplitl [HbY]
    · iexact HbY
    · iexact HbX
  isplitl [HX]
  · iexact HX
  · iexact HY

end Cert.KernelIdeal.Hand

end
-- ==== Proof.Regions.lean ====
/- How the three buffers a device shares with its partners are cut into the chunks that travel, and what a chunk
   holds after a transfer lands in it or after the sum is stored into it. -/
import proofs.«900322_g7700000000000323_dist_rsx_agy_m512_n512_v7x_xy2x2_bf16_1_alg».proof.Proof.Sched
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A conjunction over the sixteen chunks, written out -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The chunks' rectangles by coordinates -/

/-- Chunk k of a scratch buffer is the rows whose number divided by 32 is k. -/
theorem mem_rowR {k : Fin 16} {i : S512x512.Idx} : i ∈ (rowR k).set ↔ (i 0).val / 32 = k.val := by
  have h0 : (i 0).val < 512 := (i 0).isLt
  have h1 : (i 1).val < 512 := (i 1).isLt
  rw [Rect.mem_set_unit]
  constructor
  · intro h
    have a0 : 32 * k.val ≤ (i 0).val ∧ (i 0).val < 32 * k.val + 32 := h 0
    omega
  · intro h
    refine Fin.forall_fin_two.mpr ⟨?_, ?_⟩
    · show 32 * k.val ≤ (i 0).val ∧ (i 0).val < 32 * k.val + 32
      omega
    · show 0 ≤ (i 1).val ∧ (i 1).val < 0 + 512
      omega

/-- Chunk k of column half y of the result is the rows whose number divided by 32 is k, at the columns whose
    number divided by 512 is y. -/
theorem mem_colR {k : Fin 16} {y : Fin 2} {i : S512x1024.Idx} :
    i ∈ (colR k y).set ↔ (i 0).val / 32 = k.val ∧ (i 1).val / 512 = y.val := by
  have h0 : (i 0).val < 512 := (i 0).isLt
  have h1 : (i 1).val < 1024 := (i 1).isLt
  rw [Rect.mem_set_unit]
  constructor
  · intro h
    have a0 : 32 * k.val ≤ (i 0).val ∧ (i 0).val < 32 * k.val + 32 := h 0
    have a1 : 512 * y.val ≤ (i 1).val ∧ (i 1).val < 512 * y.val + 512 := h 1
    omega
  · intro h
    refine Fin.forall_fin_two.mpr ⟨?_, ?_⟩
    · show 32 * k.val ≤ (i 0).val ∧ (i 0).val < 32 * k.val + 32
      omega
    · show 512 * y.val ≤ (i 1).val ∧ (i 1).val < 512 * y.val + 512
      omega

theorem set_sSl (k : Fin 16) : (sSl k).view.set = (rowR k).set := View.set_slice_whole cc0_scratch0 (rowR k)
theorem set_rSl (k : Fin 16) : (rSl k).view.set = (rowR k).set := View.set_slice_whole cc0_scratch1 (rowR k)
theorem set_oSl (k : Fin 16) (y : Fin 2) : (oSl k y).view.set = (colR k y).set := View.set_slice_whole cc0_stg1_0 (colR k y)

theorem rowR_disj {k k' : Fin 16} (h : k ≠ k') : Disjoint (rowR k).set (rowR k').set :=
  Finset.disjoint_left.mpr fun i hi hi' => h (Fin.ext ((mem_rowR.mp hi).symm.trans (mem_rowR.mp hi')))

theorem rowR_cover (i : S512x512.Idx) : ∃ k : Fin 16, i ∈ (rowR k).set := by
  have h0 : (i 0).val < 512 := (i 0).isLt
  exact ⟨⟨(i 0).val / 32, by omega⟩, mem_rowR.mpr rfl⟩

theorem colR_disj {k k' : Fin 16} {y y' : Fin 2} (h : k ≠ k' ∨ y ≠ y') : Disjoint (colR k y).set (colR k' y').set :=
  Finset.disjoint_left.mpr fun i hi hi' => by
    have a := mem_colR.mp hi
    have b := mem_colR.mp hi'
    rcases h with h | h
    · exact h (Fin.ext (a.1.symm.trans b.1))
    · exact h (Fin.ext (a.2.symm.trans b.2))

/-- Column half y of the result: its sixteen chunks together. -/
def halfSet (y : Fin 2) : Finset S512x1024.Idx := Finset.univ.biUnion fun k : Fin 16 => (colR k y).set

theorem mem_halfSet {y : Fin 2} {i : S512x1024.Idx} : i ∈ halfSet y ↔ (i 1).val / 512 = y.val := by
  have h0 : (i 0).val < 512 := (i 0).isLt
  unfold halfSet
  simp only [Finset.mem_biUnion, Finset.mem_univ, true_and]
  constructor
  · rintro ⟨k, hk⟩; exact (mem_colR.mp hk).2
  · intro h; exact ⟨⟨(i 0).val / 32, by omega⟩, mem_colR.mpr ⟨rfl, h⟩⟩

/-- A buffer cut along a finite family of pairwise disjoint sets that cover it. -/
theorem pts_cut {ℓ : Loc nD τ sig} {T : Type} [Fintype T] [DecidableEq T] (K : T → Finset (Idx ℓ))
    (hd : ∀ t t', t ≠ t' → Disjoint (K t) (K t')) (hc : ∀ i, ∃ t, i ∈ K t) (q : PosShare TreeShare) (f : Buf (Elt F) ℓ) :
    (ℓ ↦{q} f : sProp 𝕄) = bigSep Finset.univ fun t => ℓ ↦[K t]{q} f := by
  have hU : Finset.univ.biUnion K = (Finset.univ : Finset (Idx ℓ)) := by
    ext i
    simp only [Finset.mem_biUnion, Finset.mem_univ, true_and, iff_true]
    exact hc i
  rw [← pointsTo_biUnion Finset.univ K (fun t _ t' _ h => hd t t' h), hU]

/-! ## The buffers cut into chunks -/

/-- Any share of the first scratch buffer is that share of its sixteen row chunks. -/
theorem s_split (c : Dev nD) (q : PosShare TreeShare) (f : Buf (Elt F) ((c : Thread nD τ).loc cc0_scratch0)) :
    ((((c : Thread nD τ).loc cc0_scratch0) ↦{q} f : sProp 𝕄)) ⊣⊢ bigSep Finset.univ fun k : Fin 16 => sPts c k q f := by
  have e := pts_cut (F := F) (ℓ := (c : Thread nD τ).loc cc0_scratch0) (fun k : Fin 16 => (sSl k).view.set)
    (fun k k' h => by rw [set_sSl, set_sSl]; exact rowR_disj h)
    (fun i => (rowR_cover i).imp fun k hk => by rw [set_sSl]; exact hk) q f
  exact ⟨Entails.of_eq e, Entails.of_eq e.symm⟩

/-- The second scratch buffer is its sixteen row chunks. -/
theorem r_split (c : Dev nD) (f : Buf (Elt F) ((c : Thread nD τ).loc cc0_scratch1)) :
    ((((c : Thread nD τ).loc cc0_scratch1) ↦{fullShare} f : sProp 𝕄)) ⊣⊢ bigSep Finset.univ fun k : Fin 16 => rPts c k f := by
  have e := pts_cut (F := F) (ℓ := (c : Thread nD τ).loc cc0_scratch1) (fun k : Fin 16 => (rSl k).view.set)
    (fun k k' h => by rw [set_rSl, set_rSl]; exact rowR_disj h)
    (fun i => (rowR_cover i).imp fun k hk => by rw [set_rSl]; exact hk) fullShare f
  exact ⟨Entails.of_eq e, Entails.of_eq e.symm⟩

/-- The result buffer is the sixteen row chunks of its left column half and the sixteen of its right. -/
theorem o_split (c : Dev nD) (f : Buf (Elt F) ((c : Thread nD τ).loc cc0_stg1_0)) :
    ((((c : Thread nD τ).loc cc0_stg1_0) ↦{fullShare} f : sProp 𝕄))
      ⊣⊢ iprop((bigSep Finset.univ fun k : Fin 16 => oPts c k (myY c) f) ∗ (bigSep Finset.univ fun k : Fin 16 => oPts c k (otY c) f)) := by
  have hd : Disjoint (halfSet (myY c)) (halfSet (otY c)) :=
    Finset.disjoint_left.mpr fun i hi hi' =>
      myY_ne_otY c (Fin.ext ((mem_halfSet.mp hi).symm.trans (mem_halfSet.mp hi')))
  have hU : halfSet (myY c) ∪ halfSet (otY c) = (Finset.univ : Finset S512x1024.Idx) := by
    ext i
    have h1 : (i 1).val < 1024 := (i 1).isLt
    have hm : (myY c).val = c.val % 2 := rfl
    have ho : (otY c).val = 1 - c.val % 2 := rfl
    simp only [Finset.mem_union, mem_halfSet, Finset.mem_univ, iff_true]
    omega
  have h1 := pointsTo_union (ℓ := (c : Thread nD τ).loc cc0_stg1_0) (q := fullShare) (f := f) (U := UU) (Ix := Unit) (Name := ℕ) (Lvl := ℕ) hd
  have hy (y : Fin 2) : ((((c : Thread nD τ).loc cc0_stg1_0) ↦[halfSet y]{fullShare} f : sProp 𝕄))
      = bigSep Finset.univ fun k : Fin 16 => oPts c k y f := by
    unfold halfSet
    rw [pointsTo_biUnion Finset.univ _ (fun k _ k' _ h => colR_disj (.inl h))]
    exact bigSep_congr fun k _ => by unfold oPts; rw [set_oSl]
  rw [hU, hy, hy] at h1
  exact h1

/-- The whole of a buffer's share is its two halves. -/
theorem s_halves (c : Dev nD) (f : Buf (Elt F) ((c : Thread nD τ).loc cc0_scratch0)) :
    ((((c : Thread nD τ).loc cc0_scratch0) ↦{fullShare} f : sProp 𝕄))
      ⊣⊢ iprop((((c : Thread nD τ).loc cc0_scratch0) ↦{fullShare.left} f) ∗ (((c : Thread nD τ).loc cc0_scratch0) ↦{fullShare.right} f)) :=
  pointsTo_share (PosShare.mem_left_op_right fullShare)

/-! ## What a chunk holds after a transfer lands -/

/-- A value carried along a type equation and back is itself. -/
theorem cast_cast_back {α β : Type} (h : α = β) (h' : β = α) (a : α) : cast h' (cast h a) = a := by
  cases h; rfl

/-- Chunk k of a second scratch buffer after chunk k of a first scratch buffer holding fs was copied into it holds fs there. -/
theorem land_x (c' : Dev nD) (k : Fin 16) (fd : Buf (Elt F) ((rSl k).view.loc (c' : Thread nD τ))) (fs : (cc0_scratch0 : Ref sig .tc).ty.Contents (Elt F)) :
    rPts c' k ((rSl k).view.write (Elt F) fd ((sSl k).view.read (Elt F) fs) Finset.univ) = rPts (F := F) c' k fs := by
  unfold rPts
  refine pointsTo_congr fun i hi => ?_
  obtain ⟨y, rfl⟩ := View.exists_emb_of_mem_set (rSl k).view hi
  rw [View.write_emb_of_mem _ _ (Finset.mem_univ y), View.read_apply]
  exact cast_cast_back _ _ _

/-- Chunk (k, y) of a result buffer after chunk (k, y) of another result buffer holding fs was copied into it holds fs there. -/
theorem land_y (c' : Dev nD) (k : Fin 16) (y : Fin 2) (fd : Buf (Elt F) ((oSl k y).view.loc (c' : Thread nD τ))) (fs : (cc0_stg1_0 : Ref sig .tc).ty.Contents (Elt F)) :
    oPts c' k y ((oSl k y).view.write (Elt F) fd ((oSl k y).view.read (Elt F) fs) Finset.univ) = oPts (F := F) c' k y fs := by
  unfold oPts
  refine pointsTo_congr fun i hi => ?_
  obtain ⟨j, rfl⟩ := View.exists_emb_of_mem_set (oSl k y).view hi
  rw [View.write_emb_of_mem _ _ (Finset.mem_univ j), View.read_apply]
  exact cast_cast_back _ _ _

/-- On the column half a device computes, its result and its column partner's result agree. -/
theorem outv_partner (c : Dev nD) (k : Fin 16) : oPts (yp c) k (myY c) (outv m c) = oPts (yp c) k (myY c) (outv m (yp c)) := by
  unfold oPts
  refine pointsTo_congr fun i hi => ?_
  rw [set_oSl] at hi
  have hc : (i 1).val / 512 = c.val % 2 := (mem_colR.mp hi).2
  have hy := yp_col c
  have hlt : c.val % 2 < 2 := Nat.mod_lt _ (by decide)
  show (if (i 1).val / 512 = c.val % 2 then sumv m c (halfIdx i) else sumv m (yp c) (halfIdx i))
    = (if (i 1).val / 512 = (yp c).val % 2 then sumv m (yp c) (halfIdx i) else sumv m (yp (yp c)) (halfIdx i))
  rw [if_pos hc, if_neg (by omega), yp_yp]

/-! ## What a chunk of the result holds after the sum is stored -/

/-- Entry j of chunk k of a column half of the result sits, within that half, where entry j of chunk k of a scratch
    buffer sits: row 32 k + j₀, column j₁. -/
theorem halfIdx_emb (k : Fin 16) (y : Fin 2) (j : (colR k y).shape.Idx) :
    halfIdx ((colR k y).emb j) = (rowR k).toLoadRect.idx j := by
  have hj1 : (j 1).val < 512 := (j 1).isLt
  funext a
  apply Fin.ext
  rcases a with ⟨_ | _ | a, ha⟩
  · rfl
  · show (512 * y.val + 1 * (j 1).val) % 512 = 0 + 1 * (j 1).val
    omega
  · exact absurd ha (Nat.not_lt.2 (Nat.le_add_left 2 a))

/-- The rectangle at an offset that is chunk k of column half y, whatever proof it carries. -/
theorem colR_of_off (k : Fin 16) (y : Fin 2) (off : Fin 2 → Nat) (hoff : off = ![32 * k.val, 512 * y.val])
    (inb : ∀ a, off a + S32x512.size a ≤ S512x1024.size a) : Rect.unit (s := S512x1024) off S32x512.size inb = colR k y := by
  subst hoff; rfl

/-- Storing the sum of chunk k of the two scratch buffers into chunk k of the device's own column half leaves the
    result's contents there. -/
theorem store_sum (c : Dev nD) (k : Fin 16) (g : Buf (Elt F) ((oSl k (myY c)).view.loc (c : Thread nD τ))) :
    oPts c k (myY c) (((oM : Memref sig .tc .vmem S512x1024 .bf16).access (colR k (myY c))).write (Elt F) g
        (addf ((sM : Memref sig .tc .vmem S512x512 .bf16).view.readAt (Elt F) (rowR k).toLoadRect (sxv m c))
              ((rM : Memref sig .tc .vmem S512x512 .bf16).view.readAt (Elt F) (rowR k).toLoadRect (rxv m c))) Finset.univ)
      = oPts c k (myY c) (outv m c) := by
  unfold oPts
  refine pointsTo_congr fun i hi => ?_
  obtain ⟨j, rfl⟩ := View.exists_emb_of_mem_set ((oM : Memref sig .tc .vmem S512x1024 .bf16).access (colR k (myY c))) hi
  rw [View.write_emb_of_mem _ _ (Finset.mem_univ j)]
  have hj1 : (j 1).val < 512 := (j 1).isLt
  have hcol : (((colR k (myY c)).emb j) 1).val / 512 = c.val % 2 := by
    show (512 * (c.val % 2) + 1 * (j 1).val) / 512 = c.val % 2
    omega
  have hR : outv m c ((colR k (myY c)).emb j)
      = FloatOps.addf (sxv m c ((rowR k).toLoadRect.idx j)) (rxv m c ((rowR k).toLoadRect.idx j)) := by
    show (if (((colR k (myY c)).emb j) 1).val / 512 = c.val % 2 then sumv m c (halfIdx ((colR k (myY c)).emb j))
      else sumv m (yp c) (halfIdx ((colR k (myY c)).emb j))) = _
    rw [if_pos hcol, halfIdx_emb]
    rfl
  exact (cast_eq _ _).trans hR.symm

end Cert.KernelIdeal.Hand

end
-- ==== Proof.Steps.lean ====
/- One step of the protocol at a time, at a symbolic device and chunk: an addressed copy of a chunk to a partner, a wait
   on one of the device's own transfer cells (after which the cell is closed), and the loads and the store that form
   a chunk of the sum. -/
import proofs.«900322_g7700000000000323_dist_rsx_agy_m512_n512_v7x_xy2x2_bf16_1_alg».proof.Proof.Levels
import proofs.«900322_g7700000000000323_dist_rsx_agy_m512_n512_v7x_xy2x2_bf16_1_alg».proof.Proof.Regions

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := by rw [fin_N t]; rfl

/-! ## Picking a cell's invariant and its reached round out of the records -/

theorem kcell_bar (c : Dev nD) : kcell (c, jBar) = barCell c := rfl
theorem kcell_d (c : Dev nD) (a : Fin 4) (k : Fin 16) : kcell (c, jD a k) = dCell c a k := by
  show ((c : Thread nD τ), csem (jD a k)) = _; rw [csem_jD]

theorem inv_bar (K : Dev nD × Fin 65 → ℕ) (c : Dev nD) :
    (bigSep Finset.univ fun cj : Dev nD × Fin 65 => (cellInv ER (sched m) (K cj) (kcell cj) : sProp 𝕄)) ⊢ cellInv ER (sched m) (K (c, jBar)) (barCell c) :=
  bigSep_elim (Finset.mem_univ (c, jBar))
theorem inv_d (K : Dev nD × Fin 65 → ℕ) (c : Dev nD) (a : Fin 4) (k : Fin 16) :
    (bigSep Finset.univ fun cj : Dev nD × Fin 65 => (cellInv ER (sched m) (K cj) (kcell cj) : sProp 𝕄)) ⊢ cellInv ER (sched m) (K (c, jD a k)) (dCell c a k) :=
  by
  have h : (bigSep Finset.univ fun cj : Dev nD × Fin 65 => (cellInv ER (sched m) (K cj) (kcell cj) : sProp 𝕄)) ⊢ cellInv ER (sched m) (K (c, jD a k)) (kcell (c, jD a k)) :=
    bigSep_elim (Finset.mem_univ (c, jD a k))
  rwa [kcell_d] at h
theorem reached_bar (c : Dev nD) :
    (bigSep Finset.univ fun cj : Dev nD × Fin 65 => (reached ER (kcell cj) 0 : sProp 𝕄)) ⊢ reached ER (barCell c) 0 :=
  bigSep_elim (Finset.mem_univ (c, jBar))
theorem reached_d (c : Dev nD) (a : Fin 4) (k : Fin 16) :
    (bigSep Finset.univ fun cj : Dev nD × Fin 65 => (reached ER (kcell cj) 0 : sProp 𝕄)) ⊢ reached ER (dCell c a k) 0 :=
  by
  have h : (bigSep Finset.univ fun cj : Dev nD × Fin 65 => (reached ER (kcell cj) 0 : sProp 𝕄)) ⊢ reached ER (kcell (c, jD a k)) 0 :=
    bigSep_elim (Finset.mem_univ (c, jD a k))
  rwa [kcell_d] at h

/-! ## The whole-buffer accesses of the first part -/

abbrev r0x : Rect S1x512x512 := Rect.unit (s := S1x512x512) ![0, 0, 0] S1x512x512.size inb_S1x512x512_S1x512x512_0_0_0
abbrev r0s : Rect S512x512 := Rect.unit (s := S512x512) ![0, 0] S512x512.size inb_S512x512_S512x512_0_0

theorem hz3 : (![0, 0, 0] : Fin 3 → Nat) = fun _ => 0 := funext fun a => by fin_cases a <;> rfl
theorem hz2 : (![0, 0] : Fin 2 → Nat) = fun _ => 0 := funext fun a => by fin_cases a <;> rfl
theorem read_x (f : (cc0_stg0_0 : Ref sig .tc).ty.Contents (Elt F)) : (xM : Memref sig .tc .vmem S1x512x512 .f32).view.readAt (Elt F) r0x.toLoadRect f = f :=
  Memref.readAt_unit_zero (Elt F) cc0_stg0_0 hz3 _ f
theorem write_s (f w : (cc0_scratch0 : Ref sig .tc).ty.Contents (Elt F)) :
    ((sM : Memref sig .tc .vmem S512x512 .bf16).access r0s : View sig .tc _ _ _).write (Elt F) f w Finset.univ = w :=
  Memref.write_access_unit_zero_univ (Elt F) cc0_scratch0 hz2 _ f w

/-! ## A chunk sent to a partner -/

set_option maxHeartbeats 1600000 in
/-- Chunk k of the narrowed block goes to the row partner n: half of the source chunk is lent to the transfer, the
    partner's chunk (handed over at the barrier) is consumed, and the row partner's receive cell is paid. -/
theorem wp_send_x (K : Dev nD × Fin 65 → ℕ) (c n : Dev nD) (hn : n = xp c) (k : Fin 16) (O : CellTallies nD τ sig Unit)
    {hsc : (rSl k : Memref sig (Dev.tc n : Thread nD τ).2.kind .vmem S32x512 .bf16).view.ref.isScScratch = false}
    {hsrc : (sSl k : Memref sig .tc .vmem S32x512 .bf16).view.WordExact} {hdst : (rSl k : Memref sig .tc .vmem S32x512 .bf16).view.WordExact}
    {hsem : DmaTarget.Typed .vmem (.dma (dsem 1 k)) (.remote (Dev.tc n : Thread nD τ) (rSl k : Memref sig .tc .vmem S32x512 .bf16) (.dma (dsem 0 k)) hsc)}
    {α : Type} {Q : α → sProp 𝕄} {kk : PUnit → Prog (TpuEff nD τ sig (Elt F) Λ₀ .tc) α}
    (fd : Buf (Elt F) ((rSl k : Memref sig .tc .vmem S32x512 .bf16).view.loc (xp c : Thread nD τ))) (W : Waits sig Unit) :
    iprop(cellInv ER (sched m) (K (c, jD 0 k)) (dCell c 0 k) ∗ cellInv ER (sched m) (K (xp c, jD 1 k)) (dCell (xp c) 1 k)
        ∗ sPts c k fullShare.left (sxv m c) ∗ rPts (xp c) k fd
        ∗ owes (c : Thread nD τ) (O + tallyAt (dCell (xp c) 1 k) () N) W
        ∗ dutyTok ER (dCell c 0 k) 0 false ∗ reached ER (dCell c 0 k) 0
        ∗ dutyTok ER (dCell (xp c) 1 k) 0 false ∗ reached ER (dCell (xp c) 1 k) 0)
      ⊢ iprop(((cred (tallyAt (dCell c 0 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sSl k) (.remote (Dev.tc n : Thread nD τ) (rSl k) (.dma (dsem 0 k)) hsc) (.dma (dsem 1 k)) hsrc hdst hsem) kk) Q) := by
  subst hn
  unfold sPts rPts
  exact Rounds.wp_send_pointsTo 𝒱₀ ER (sched m) (c : Thread nD τ) none (c' := (xp c : Thread nD τ)) (src := sSl k) (dst := rSl k) (q := fullShare.left) (fs := sxv m c)
    (κ₁ := K (c, jD 0 k)) (κ₂ := K (xp c, jD 1 k))
    (r₁ := 0) (r₂ := 0) (d₁ := false) (d₂ := false) (fd := fd)
    (by rw [duties_d]; exact Finset.mem_singleton_self _) (by rw [duties_d]; exact Finset.mem_singleton_self _)
    () () N rfl (amount_d m c 0 k false) (amount_d m (xp c) 1 k false) O rfl (W := W)
    (by rw [payload_sx]; exact BI.Entails.refl _)
    (by rw [payload_rx]; unfold rxv; rw [xp_xp]; exact Entails.of_eq (land_x (xp c) k fd (sxv m c)))

set_option maxHeartbeats 1600000 in
/-- Chunk k of the device's own column half of the result goes to the column partner n, into the same columns of its
    result buffer. -/
theorem wp_send_y (K : Dev nD × Fin 65 → ℕ) (c n : Dev nD) (hn : n = yp c) (k : Fin 16) (O : CellTallies nD τ sig Unit)
    (off : Fin 2 → Nat) (hoff : off = ![32 * k.val, 512 * (myY c).val]) (inb : ∀ a, off a + S32x512.size a ≤ S512x1024.size a)
    {hsc : ((oM : Memref sig .tc .vmem S512x1024 .bf16).slice (Rect.unit (s := S512x1024) off S32x512.size inb) (fun _ => rfl) : Memref sig (Dev.tc n : Thread nD τ).2.kind .vmem S32x512 .bf16).view.ref.isScScratch = false}
    {hsrc : ((oM : Memref sig .tc .vmem S512x1024 .bf16).slice (Rect.unit (s := S512x1024) off S32x512.size inb) (fun _ => rfl)).view.WordExact}
    {hdst : ((oM : Memref sig .tc .vmem S512x1024 .bf16).slice (Rect.unit (s := S512x1024) off S32x512.size inb) (fun _ => rfl)).view.WordExact}
    {hsem : DmaTarget.Typed .vmem (.dma (dsem 3 k)) (.remote (Dev.tc n : Thread nD τ) ((oM : Memref sig .tc .vmem S512x1024 .bf16).slice (Rect.unit (s := S512x1024) off S32x512.size inb) (fun _ => rfl)) (.dma (dsem 2 k)) hsc)}
    {α : Type} {Q : α → sProp 𝕄} {kk : PUnit → Prog (TpuEff nD τ sig (Elt F) Λ₀ .tc) α}
    (fd : Buf (Elt F) ((oSl k (myY c) : Memref sig .tc .vmem S32x512 .bf16).view.loc (yp c : Thread nD τ))) (W : Waits sig Unit) :
    iprop(cellInv ER (sched m) (K (c, jD 2 k)) (dCell c 2 k) ∗ cellInv ER (sched m) (K (yp c, jD 3 k)) (dCell (yp c) 3 k)
        ∗ oPts c k (myY c) (outv m c) ∗ oPts (yp c) k (myY c) fd
        ∗ owes (c : Thread nD τ) (O + tallyAt (dCell (yp c) 3 k) () N) W
        ∗ dutyTok ER (dCell c 2 k) 0 false ∗ reached ER (dCell c 2 k) 0
        ∗ dutyTok ER (dCell (yp c) 3 k) 0 false ∗ reached ER (dCell (yp c) 3 k) 0)
      ⊢ iprop(((cred (tallyAt (dCell c 2 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((oM : Memref sig .tc .vmem S512x1024 .bf16).slice (Rect.unit (s := S512x1024) off S32x512.size inb) (fun _ => rfl))
                (.remote (Dev.tc n : Thread nD τ) ((oM : Memref sig .tc .vmem S512x1024 .bf16).slice (Rect.unit (s := S512x1024) off S32x512.size inb) (fun _ => rfl)) (.dma (dsem 2 k)) hsc)
                (.dma (dsem 3 k)) hsrc hdst hsem) kk) Q) := by
  subst hn
  subst hoff
  unfold oPts
  exact Rounds.wp_send_pointsTo 𝒱₀ ER (sched m) (c : Thread nD τ) none (c' := (yp c : Thread nD τ)) (src := oSl k (myY c)) (dst := oSl k (myY c)) (q := fullShare) (fs := outv m c)
    (κ₁ := K (c, jD 2 k)) (κ₂ := K (yp c, jD 3 k))
    (r₁ := 0) (r₂ := 0) (d₁ := false) (d₂ := false) (fd := fd)
    (by rw [duties_d]; exact Finset.mem_singleton_self _) (by rw [duties_d]; exact Finset.mem_singleton_self _)
    () () N rfl (amount_d m c 2 k false) (amount_d m (yp c) 3 k false) O rfl (W := W)
    (by rw [payload_sy]; exact BI.Entails.refl _)
    (by rw [payload_ry, otY_yp, ← outv_partner m c k]; exact Entails.of_eq (land_y (yp c) k (myY c) fd (outv m c)))

/-! ## A wait on one of the device's own transfer cells, after which the cell is closed -/

theorem wp_wait_d (K : Dev nD × Fin 65 → ℕ) (c : Dev nD) (a : Fin 4) (k : Fin 16) (O : CellTallies nD τ sig Unit) (W : Waits sig Unit)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dsem a k)) N Kk)
    {α : Type} {Q : α → sProp 𝕄} {kk : PUnit → Prog (TpuEff nD τ sig (Elt F) Λ₀ .tc) α} :
    iprop(cellInv ER (sched m) (K (c, jD a k)) (dCell c a k) ∗ cred (tallyAt (dCell c a k) () N) ∗ owes (c : Thread nD τ) O W
        ∗ MayWait (c : Thread nD τ) (.dma (dsem a k)) () O ∗ atPos ER (dCell c a k) 0 ∅ 0)
      ⊢ iprop(((owes (c : Thread nD τ) O (insert (SemLoc.dma (dsem a k), ()) W) ∗ semVal (dCell c a k) 0
              ∗ bigSep ((sched m).duties (dCell c a k) 0 \ ∅) (fun d => (sched m).payload (dCell c a k) 0 d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#HI, Hc, HO, Hmw, Hat⟩ Hk
  iapply (Rounds.wp_wait_rest_token 𝒱₀ ER (sched m) (c : Thread nD τ) none (κ := K (c, jD a k)) hw (Set.mem_univ _) ()
      (O := O) (W := W) (R := 0) (m := 0) (T := ∅) (by rw [Nat.zero_add, expect_d])) $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (sched m) (Set.mem_univ (K (c, jD a k))) (fun h => h) (R := 0 + 1) (duties_later m (dCell c a k))) $$ [Hat] with Hz
  · isplitr; · iexact HI
    iexact Hat
  iapply Hk
  isplitl [HO]; · iexact HO
  isplitl [Hz]; · iexact Hz
  iexact Hpay

/-! ## The loads and the store of a chunk of the sum -/

theorem wp_load_s (c : Dev nD) (k : Fin 16) {hl : (sM : Memref sig .tc .vmem S512x512 .bf16).view.LoadsAt (rowR k).toLoadRect}
    {α : Type} {Q : α → sProp 𝕄} {kk : Vec F S32x512 .bf16 → Prog (TpuEff nD τ sig (Elt F) Λ₀ .tc) α} :
    ((((c : Thread nD τ).loc cc0_scratch0) ↦{fullShare.right} sxv m c : sProp 𝕄))
      ⊢ iprop(((((c : Thread nD τ).loc cc0_scratch0) ↦{fullShare.right} sxv m c)
            -∗ wp frame (wpE (defs₀ (F := F)) 𝒱₀ (c : Thread nD τ) none) Set.univ (kk ((sM : Memref sig .tc .vmem S512x512 .bf16).view.readAt (Elt F) (rowR k).toLoadRect (sxv m c))) Q)
          -∗ wp frame (wpE (defs₀ (F := F)) 𝒱₀ (c : Thread nD τ) none) Set.univ (.op (.load sM (rowR k).toLoadRect hl) kk) Q) :=
  wp_load 𝒱₀ (c : Thread nD τ) none Set.univ (m := sM) (Finset.subset_univ _)

theorem wp_load_r (c : Dev nD) (k : Fin 16) {hl : (rM : Memref sig .tc .vmem S512x512 .bf16).view.LoadsAt (rowR k).toLoadRect}
    {α : Type} {Q : α → sProp 𝕄} {kk : Vec F S32x512 .bf16 → Prog (TpuEff nD τ sig (Elt F) Λ₀ .tc) α} :
    (rPts c k (rxv m c) : sProp 𝕄)
      ⊢ iprop((rPts c k (rxv m c)
            -∗ wp frame (wpE (defs₀ (F := F)) 𝒱₀ (c : Thread nD τ) none) Set.univ (kk ((rM : Memref sig .tc .vmem S512x512 .bf16).view.readAt (Elt F) (rowR k).toLoadRect (rxv m c))) Q)
          -∗ wp frame (wpE (defs₀ (F := F)) 𝒱₀ (c : Thread nD τ) none) Set.univ (.op (.load rM (rowR k).toLoadRect hl) kk) Q) := by
  unfold rPts
  exact wp_load_rect 𝒱₀ (c : Thread nD τ) none Set.univ (m := rM) (r := rowR k) subset_rfl

theorem wp_load_o (c : Dev nD) (k : Fin 16) (off : Fin 2 → Nat) (hoff : off = ![32 * k.val, 512 * (myY c).val])
    (inb : ∀ a, off a + S32x512.size a ≤ S512x1024.size a) (g : Buf (Elt F) ((oSl k (myY c) : Memref sig .tc .vmem S32x512 .bf16).view.loc (c : Thread nD τ)))
    {hl : (oM : Memref sig .tc .vmem S512x1024 .bf16).view.LoadsAt (Rect.unit (s := S512x1024) off S32x512.size inb).toLoadRect}
    {α : Type} {Q : α → sProp 𝕄} {kk : Vec F S32x512 .bf16 → Prog (TpuEff nD τ sig (Elt F) Λ₀ .tc) α} :
    (oPts c k (myY c) g : sProp 𝕄)
      ⊢ iprop((oPts c k (myY c) g
            -∗ wp frame (wpE (defs₀ (F := F)) 𝒱₀ (c : Thread nD τ) none) Set.univ (kk ((oM : Memref sig .tc .vmem S512x1024 .bf16).view.readAt (Elt F) (Rect.unit (s := S512x1024) off S32x512.size inb).toLoadRect g)) Q)
          -∗ wp frame (wpE (defs₀ (F := F)) 𝒱₀ (c : Thread nD τ) none) Set.univ (.op (.load oM (Rect.unit (s := S512x1024) off S32x512.size inb).toLoadRect hl) kk) Q) := by
  subst hoff
  unfold oPts
  exact wp_load_rect 𝒱₀ (c : Thread nD τ) none Set.univ (m := oM) (r := colR k (myY c)) subset_rfl

theorem wp_store_o (c : Dev nD) (k : Fin 16) (off : Fin 2 → Nat) (hoff : off = ![32 * k.val, 512 * (myY c).val])
    (inb : ∀ a, off a + S32x512.size a ≤ S512x1024.size a) (g : Buf (Elt F) ((oSl k (myY c) : Memref sig .tc .vmem S32x512 .bf16).view.loc (c : Thread nD τ)))
    (w : Vec F S32x512 .bf16)
    (hw : w = addf ((sM : Memref sig .tc .vmem S512x512 .bf16).view.readAt (Elt F) (rowR k).toLoadRect (sxv m c))
                   ((rM : Memref sig .tc .vmem S512x512 .bf16).view.readAt (Elt F) (rowR k).toLoadRect (rxv m c)))
    {hx : ((oM : Memref sig .tc .vmem S512x1024 .bf16).access (Rect.unit (s := S512x1024) off S32x512.size inb)).Stores Finset.univ}
    {hm : (Finset.univ : Finset (Rect.unit (s := S512x1024) off S32x512.size inb).shape.Idx) = Finset.univ ∨ ∀ a, (Rect.unit (s := S512x1024) off S32x512.size inb).stride a = 1}
    {α : Type} {Q : α → sProp 𝕄} {kk : PUnit → Prog (TpuEff nD τ sig (Elt F) Λ₀ .tc) α} :
    (oPts c k (myY c) g : sProp 𝕄)
      ⊢ iprop((oPts c k (myY c) (outv m c) -∗ wp frame (wpE (defs₀ (F := F)) 𝒱₀ (c : Thread nD τ) none) Set.univ (kk ⟨⟩) Q)
          -∗ wp frame (wpE (defs₀ (F := F)) 𝒱₀ (c : Thread nD τ) none) Set.univ (.op (.store oM (Rect.unit (s := S512x1024) off S32x512.size inb) w Finset.univ hx hm) kk) Q) := by
  subst hoff
  subst hw
  rw [← store_sum m c k g]
  unfold oPts
  exact wp_store 𝒱₀ (c : Thread nD τ) none Set.univ (m := oM) (r := colR k (myY c)) (Mk := Finset.univ) subset_rfl

/-! ## The steps in the form the body applies them: the records first, then what the step consumes -/

abbrev Invs (K : Dev nD × Fin 65 → ℕ) : sProp 𝕄 := bigSep Finset.univ fun cj : Dev nD × Fin 65 => cellInv ER (sched m) (K cj) (kcell cj)
abbrev Reached : sProp 𝕄 := bigSep Finset.univ fun cj : Dev nD × Fin 65 => reached ER (kcell cj) 0

theorem fk_fin (k : Fin 16) : fk k.val = k := Fin.ext (Nat.mod_eq_of_lt k.isLt)

/-- Chunk k sent to the row partner, paying chunk k off what is owed to it. -/
theorem send_x (K : Dev nD × Fin 65 → ℕ) (c n : Dev nD) (hn : n = xp c) (k : Fin 16) (i j : ℕ) (hi : k.val = i) (hj : i + 1 = j)
    {hsc : (rSl k : Memref sig (Dev.tc n : Thread nD τ).2.kind .vmem S32x512 .bf16).view.ref.isScScratch = false}
    {hsrc : (sSl k : Memref sig .tc .vmem S32x512 .bf16).view.WordExact} {hdst : (rSl k : Memref sig .tc .vmem S32x512 .bf16).view.WordExact}
    {hsem : DmaTarget.Typed .vmem (.dma (dsem 1 k)) (.remote (Dev.tc n : Thread nD τ) (rSl k : Memref sig .tc .vmem S32x512 .bf16) (.dma (dsem 0 k)) hsc)}
    {α : Type} {Q : α → sProp 𝕄} {kk : PUnit → Prog (TpuEff nD τ sig (Elt F) Λ₀ .tc) α}
    (fd : Buf (Elt F) ((rSl k : Memref sig .tc .vmem S32x512 .bf16).view.loc (xp c : Thread nD τ))) (W : Waits sig Unit) :
    (Invs m K : sProp 𝕄) ⊢ iprop(Reached (F := F) -∗ sPts c k fullShare.left (sxv m c) -∗ rPts (xp c) k fd
        -∗ owes (c : Thread nD τ) (OY c 0 + OX c i) W
        -∗ dutyTok ER (dCell c 0 k) 0 false -∗ dutyTok ER (dCell (xp c) 1 k) 0 false
        -∗ ((cred (tallyAt (dCell c 0 k) () N) ∗ owes (c : Thread nD τ) (OY c 0 + OX c j) W) -∗ wp frame (wpE (defs₀ (F := F)) 𝒱₀ (c : Thread nD τ) none) Set.univ (kk ⟨⟩) Q)
        -∗ wp frame (wpE (defs₀ (F := F)) 𝒱₀ (c : Thread nD τ) none) Set.univ
              (.op (.enqueueDma (sSl k) (.remote (Dev.tc n : Thread nD τ) (rSl k) (.dma (dsem 0 k)) hsc) (.dma (dsem 1 k)) hsrc hdst hsem) kk) Q) := by
  subst hi; subst hj
  iintro #HI #HR Hs Hr HO Ht0 Ht1 Hk
  have hO : OY c 0 + OX c k.val = (OY c 0 + OX c (k.val + 1)) + tallyAt (dCell (xp c) 1 k) () N := by
    rw [OX_succ c k.val k.isLt, fk_fin, add_assoc]
  rw [hO]
  iapply (wp_send_x m K c n hn k (OY c 0 + OX c (k.val + 1)) fd W) $$ [Hs Hr HO Ht0 Ht1]
  · isplitr; · iapply (inv_d m K c 0 k); iexact HI
    isplitr; · iapply (inv_d m K (xp c) 1 k); iexact HI
    isplitl [Hs]; · iexact Hs
    isplitl [Hr]; · iexact Hr
    isplitl [HO]; · iexact HO
    isplitl [Ht0]; · iexact Ht0
    isplitr; · iapply (reached_d (F := F) c 0 k); iexact HR
    isplitl [Ht1]; · iexact Ht1
    iapply (reached_d (F := F) (xp c) 1 k); iexact HR
  iexact Hk

/-- Chunk k of the sum sent to the column partner, paying chunk k off what is owed to it. -/
theorem send_y (K : Dev nD × Fin 65 → ℕ) (c n : Dev nD) (hn : n = yp c) (k : Fin 16) (i j : ℕ) (hi : k.val = i) (hj : i + 1 = j)
    (off : Fin 2 → Nat) (hoff : off = ![32 * k.val, 512 * (myY c).val]) (inb : ∀ a, off a + S32x512.size a ≤ S512x1024.size a)
    {hsc : ((oM : Memref sig .tc .vmem S512x1024 .bf16).slice (Rect.unit (s := S512x1024) off S32x512.size inb) (fun _ => rfl) : Memref sig (Dev.tc n : Thread nD τ).2.kind .vmem S32x512 .bf16).view.ref.isScScratch = false}
    {hsrc : ((oM : Memref sig .tc .vmem S512x1024 .bf16).slice (Rect.unit (s := S512x1024) off S32x512.size inb) (fun _ => rfl)).view.WordExact}
    {hdst : ((oM : Memref sig .tc .vmem S512x1024 .bf16).slice (Rect.unit (s := S512x1024) off S32x512.size inb) (fun _ => rfl)).view.WordExact}
    {hsem : DmaTarget.Typed .vmem (.dma (dsem 3 k)) (.remote (Dev.tc n : Thread nD τ) ((oM : Memref sig .tc .vmem S512x1024 .bf16).slice (Rect.unit (s := S512x1024) off S32x512.size inb) (fun _ => rfl)) (.dma (dsem 2 k)) hsc)}
    {α : Type} {Q : α → sProp 𝕄} {kk : PUnit → Prog (TpuEff nD τ sig (Elt F) Λ₀ .tc) α}
    (fd : Buf (Elt F) ((oSl k (myY c) : Memref sig .tc .vmem S32x512 .bf16).view.loc (yp c : Thread nD τ))) (W : Waits sig Unit) :
    (Invs m K : sProp 𝕄) ⊢ iprop(Reached (F := F) -∗ oPts c k (myY c) (outv m c) -∗ oPts (yp c) k (myY c) fd
        -∗ owes (c : Thread nD τ) (OY c i) W
        -∗ dutyTok ER (dCell c 2 k) 0 false -∗ dutyTok ER (dCell (yp c) 3 k) 0 false
        -∗ ((cred (tallyAt (dCell c 2 k) () N) ∗ owes (c : Thread nD τ) (OY c j) W) -∗ wp frame (wpE (defs₀ (F := F)) 𝒱₀ (c : Thread nD τ) none) Set.univ (kk ⟨⟩) Q)
        -∗ wp frame (wpE (defs₀ (F := F)) 𝒱₀ (c : Thread nD τ) none) Set.univ
              (.op (.enqueueDma ((oM : Memref sig .tc .vmem S512x1024 .bf16).slice (Rect.unit (s := S512x1024) off S32x512.size inb) (fun _ => rfl))
                (.remote (Dev.tc n : Thread nD τ) ((oM : Memref sig .tc .vmem S512x1024 .bf16).slice (Rect.unit (s := S512x1024) off S32x512.size inb) (fun _ => rfl)) (.dma (dsem 2 k)) hsc)
                (.dma (dsem 3 k)) hsrc hdst hsem) kk) Q) := by
  subst hi; subst hj
  iintro #HI #HR Ho Hd HO Ht2 Ht3 Hk
  have hO : OY c k.val = OY c (k.val + 1) + tallyAt (dCell (yp c) 3 k) () N := by
    rw [OY_succ c k.val k.isLt, fk_fin]
  rw [hO]
  iapply (wp_send_y m K c n hn k (OY c (k.val + 1)) off hoff inb fd W) $$ [Ho Hd HO Ht2 Ht3]
  · isplitr; · iapply (inv_d m K c 2 k); iexact HI
    isplitr; · iapply (inv_d m K (yp c) 3 k); iexact HI
    isplitl [Ho]; · iexact Ho
    isplitl [Hd]; · iexact Hd
    isplitl [HO]; · iexact HO
    isplitl [Ht2]; · iexact Ht2
    isplitr; · iapply (reached_d (F := F) c 2 k); iexact HR
    isplitl [Ht3]; · iexact Ht3
    iapply (reached_d (F := F) (yp c) 3 k); iexact HR
  iexact Hk

/-- The wait for chunk k from the row partner, while chunks of the sum are still owed to the column partner. -/
theorem wait_rx (K : Dev nD × Fin 65 → ℕ) (c : Dev nD) (k : Fin 16) (i : ℕ) (W : Waits sig Unit)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dsem 1 k)) N Kk)
    {α : Type} {Q : α → sProp 𝕄} {kk : PUnit → Prog (TpuEff nD τ sig (Elt F) Λ₀ .tc) α} :
    (Invs m K : sProp 𝕄) ⊢ iprop(levAts L lv -∗ cred (tallyAt (dCell c 1 k) () N) -∗ owes (c : Thread nD τ) (OY c i) W -∗ atPos ER (dCell c 1 k) 0 ∅ 0
        -∗ (((∃ W', owes (c : Thread nD τ) (OY c i) W') ∗ semVal (dCell c 1 k) 0 ∗ rPts c k (rxv m c))
            -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  iintro #HI #Hlev Hc HO Hat Hk
  iapply (wp_wait_d m K c 1 k (OY c i) W hw) $$ [Hc HO Hat]
  · isplitr; · iapply (inv_d m K c 1 k); iexact HI
    isplitl [Hc]; · iexact Hc
    isplitl [HO]; · iexact HO
    isplitr; · iapply (mayWait_rx c k i); iexact Hlev
    iexact Hat
  iintro ⟨HO, Hz, Hp⟩
  ihave Hp' := (Entails.of_eq (rest_rx m c k)) $$ Hp
  iapply Hk
  isplitl [HO]; · iexists _; iexact HO
  isplitl [Hz]; · iexact Hz
  iexact Hp'

/-- A wait on a transfer cell while nothing is owed any more, giving the round's payload P. -/
theorem wait_0 (K : Dev nD × Fin 65 → ℕ) (c : Dev nD) (a : Fin 4) (k : Fin 16) (W : Waits sig Unit) (P : sProp 𝕄)
    (hP : bigSep ((sched m).duties (dCell c a k) 0 \ ∅) (fun d => (sched m).payload (dCell c a k) 0 d) = P)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dsem a k)) N Kk)
    {α : Type} {Q : α → sProp 𝕄} {kk : PUnit → Prog (TpuEff nD τ sig (Elt F) Λ₀ .tc) α} :
    (Invs m K : sProp 𝕄) ⊢ iprop(cred (tallyAt (dCell c a k) () N) -∗ owes (c : Thread nD τ) 0 W -∗ atPos ER (dCell c a k) 0 ∅ 0
        -∗ (((∃ W', owes (c : Thread nD τ) 0 W') ∗ semVal (dCell c a k) 0 ∗ P)
            -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  iintro #HI Hc HO Hat Hk
  iapply (wp_wait_d m K c a k 0 W hw) $$ [Hc HO Hat]
  · isplitr; · iapply (inv_d m K c a k); iexact HI
    isplitl [Hc]; · iexact Hc
    isplitl [HO]; · iexact HO
    isplitr; · rw [MayWait_zero]; iempintro
    iexact Hat
  iintro ⟨HO, Hz, Hp⟩
  ihave Hp' := (Entails.of_eq hP) $$ Hp
  iapply Hk
  isplitl [HO]; · iexists _; iexact HO
  isplitl [Hz]; · iexact Hz
  iexact Hp'

/-! ## The four kinds of wait as the body meets them: the wait names the transfer's destination chunk -/

theorem wait_rx' (K : Dev nD × Fin 65 → ℕ) (c : Dev nD) (k : Fin 16) (i : ℕ) (W : Waits sig Unit)
    {sp' : Space} {s' : Shape} {e' : EltTy} {src : Memref sig (c : Thread nD τ).2.kind sp' s' e'}
    {hsrc : src.view.WordExact} {hdst : (rSl k : Memref sig .tc .vmem S32x512 .bf16).view.WordExact}
    {α : Type} {Q : α → sProp 𝕄} {kk : PUnit → Prog (TpuEff nD τ sig (Elt F) Λ₀ .tc) α} :
    (Invs m K : sProp 𝕄) ⊢ iprop(levAts L lv -∗ cred (tallyAt (dCell c 1 k) () N) -∗ owes (c : Thread nD τ) (OY c i) W -∗ atPos ER (dCell c 1 k) 0 ∅ 0
        -∗ (((∃ W', owes (c : Thread nD τ) (OY c i) W') ∗ semVal (dCell c 1 k) 0 ∗ rPts c k (rxv m c))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (dsem 1 k) src (rSl k) hsrc hdst) kk) Q) :=
  wait_rx m K c k i W (wpE_waitDma2_eq 𝒱₀ (c : Thread nD τ) none Set.univ (dst := rSl k))

theorem wait_sx (K : Dev nD × Fin 65 → ℕ) (c : Dev nD) (k : Fin 16) (W : Waits sig Unit)
    {sp' : Space} {s' : Shape} {e' : EltTy} {src : Memref sig (c : Thread nD τ).2.kind sp' s' e'}
    {hsrc : src.view.WordExact} {hdst : (sSl k : Memref sig .tc .vmem S32x512 .bf16).view.WordExact}
    {α : Type} {Q : α → sProp 𝕄} {kk : PUnit → Prog (TpuEff nD τ sig (Elt F) Λ₀ .tc) α} :
    (Invs m K : sProp 𝕄) ⊢ iprop(cred (tallyAt (dCell c 0 k) () N) -∗ owes (c : Thread nD τ) 0 W -∗ atPos ER (dCell c 0 k) 0 ∅ 0
        -∗ (((∃ W', owes (c : Thread nD τ) 0 W') ∗ semVal (dCell c 0 k) 0 ∗ sPts c k fullShare.left (sxv m c))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (dsem 0 k) src (sSl k) hsrc hdst) kk) Q) :=
  wait_0 m K c 0 k W _ (rest_sx m c k) (wpE_waitDma2_eq 𝒱₀ (c : Thread nD τ) none Set.univ (dst := sSl k))

theorem wait_sy (K : Dev nD × Fin 65 → ℕ) (c : Dev nD) (k : Fin 16) (W : Waits sig Unit)
    {off : Fin 2 → Nat} {inb : ∀ a, off a + S32x512.size a ≤ S512x1024.size a} {hst : ∀ a, (Rect.unit (s := S512x1024) off S32x512.size inb).stride a = 1}
    {sp' : Space} {s' : Shape} {e' : EltTy} {src : Memref sig (c : Thread nD τ).2.kind sp' s' e'}
    {hsrc : src.view.WordExact} {hdst : ((oM : Memref sig .tc .vmem S512x1024 .bf16).slice (Rect.unit (s := S512x1024) off S32x512.size inb) hst).view.WordExact}
    {α : Type} {Q : α → sProp 𝕄} {kk : PUnit → Prog (TpuEff nD τ sig (Elt F) Λ₀ .tc) α} :
    (Invs m K : sProp 𝕄) ⊢ iprop(cred (tallyAt (dCell c 2 k) () N) -∗ owes (c : Thread nD τ) 0 W -∗ atPos ER (dCell c 2 k) 0 ∅ 0
        -∗ (((∃ W', owes (c : Thread nD τ) 0 W') ∗ semVal (dCell c 2 k) 0 ∗ oPts c k (myY c) (outv m c))
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.waitDma2 (dsem 2 k) src ((oM : Memref sig .tc .vmem S512x1024 .bf16).slice (Rect.unit (s := S512x1024) off S32x512.size inb) hst) hsrc hdst) kk) Q) :=
  wait_0 m K c 2 k W _ (rest_sy m c k) (wpE_waitDma2_eq 𝒱₀ (c : Thread nD τ) none Set.univ
    (dst := (oM : Memref sig .tc .vmem S512x1024 .bf16).slice (Rect.unit (s := S512x1024) off S32x512.size inb) hst))

theorem wait_ry (K : Dev nD × Fin 65 → ℕ) (c : Dev nD) (k : Fin 16) (W : Waits sig Unit)
    {off : Fin 2 → Nat} {inb : ∀ a, off a + S32x512.size a ≤ S512x1024.size a} {hst : ∀ a, (Rect.unit (s := S512x1024) off S32x512.size inb).stride a = 1}
    {sp' : Space} {s' : Shape} {e' : EltTy} {src : Memref sig (c : Thread nD τ).2.kind sp' s' e'}
    {hsrc : src.view.WordExact} {hdst : ((oM : Memref sig .tc .vmem S512x1024 .bf16).slice (Rect.unit (s := S512x1024) off S32x512.size inb) hst).view.WordExact}
    {α : Type} {Q : α → sProp 𝕄} {kk : PUnit → Prog (TpuEff nD τ sig (Elt F) Λ₀ .tc) α} :
    (Invs m K : sProp 𝕄) ⊢ iprop(cred (tallyAt (dCell c 3 k) () N) -∗ owes (c : Thread nD τ) 0 W -∗ atPos ER (dCell c 3 k) 0 ∅ 0
        -∗ (((∃ W', owes (c : Thread nD τ) 0 W') ∗ semVal (dCell c 3 k) 0 ∗ oPts c k (otY c) (outv m c))
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.waitDma2 (dsem 3 k) src ((oM : Memref sig .tc .vmem S512x1024 .bf16).slice (Rect.unit (s := S512x1024) off S32x512.size inb) hst) hsrc hdst) kk) Q) :=
  wait_0 m K c 3 k W _ (rest_ry m c k) (wpE_waitDma2_eq 𝒱₀ (c : Thread nD τ) none Set.univ
    (dst := (oM : Memref sig .tc .vmem S512x1024 .bf16).slice (Rect.unit (s := S512x1024) off S32x512.size inb) hst))

/-! ## A buffer's chunks at known contents are its chunks at some contents -/

theorem ex_r (c : Dev nD) (f : Buf (Elt F) ((c : Thread nD τ).loc cc0_scratch1)) :
    (bigSep Finset.univ fun k : Fin 16 => rPts (F := F) c k f) ⊢ bigSep Finset.univ fun k : Fin 16 => iprop(∃ f, rPts (F := F) c k f) :=
  bigSep_mono fun k _ => show (rPts (F := F) c k f : sProp 𝕄) ⊢ iprop(∃ f, rPts (F := F) c k f) from by
    iintro H; iexists f; iexact H
theorem ex_o (c : Dev nD) (y : Fin 2) (f : Buf (Elt F) ((c : Thread nD τ).loc cc0_stg1_0)) :
    (bigSep Finset.univ fun k : Fin 16 => oPts (F := F) c k y f) ⊢ bigSep Finset.univ fun k : Fin 16 => iprop(∃ f, oPts (F := F) c k y f) :=
  bigSep_mono fun k _ => show (oPts (F := F) c k y f : sProp 𝕄) ⊢ iprop(∃ f, oPts (F := F) c k y f) from by
    iintro H; iexists f; iexact H

/-- When the sixteenth chunk has gone to the row partner nothing more is owed to it. -/
theorem owes_x_done (c : Dev nD) (W : Waits sig Unit) :
    (owes (c : Thread nD τ) (OY c 0 + OX c 16) W : sProp 𝕄) ⊢ owes (c : Thread nD τ) (OY c 0) W :=
  Entails.of_eq (by rw [show OX c 16 = 0 from rfl, add_zero])
/-- After both barrier signals the 32 chunks are owed, the row partner's first. -/
theorem owes_start (c : Dev nD) (W : Waits sig Unit) :
    (owes (c : Thread nD τ) (O₂ c) W : sProp 𝕄) ⊢ owes (c : Thread nD τ) (OY c 0 + OX c 0) W := Entails.of_eq rfl
/-- When the sixteenth chunk of the sum has gone to the column partner nothing is owed any more. -/
theorem owes_y_done (c : Dev nD) (W : Waits sig Unit) :
    (owes (c : Thread nD τ) (OY c 16) W : sProp 𝕄) ⊢ owes (c : Thread nD τ) 0 W := Entails.of_eq rfl

end Cert.KernelIdeal.Hand

end
-- ==== Proof.Finish.lean ====
/- The end of a device's body: the chunks of the three buffers a device shared with its partners are joined back into
   whole buffers, and with the transfer cells' counters at zero and nothing owed any more they make up what the body
   hands back. -/
import proofs.«900322_g7700000000000323_dist_rsx_agy_m512_n512_v7x_xy2x2_bf16_1_alg».proof.Proof.Levels
import proofs.«900322_g7700000000000323_dist_rsx_agy_m512_n512_v7x_xy2x2_bf16_1_alg».proof.Proof.Regions

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The right half of the first scratch buffer and the left halves of its sixteen chunks are the whole buffer; the sixteen
    chunks of the second scratch buffer are that buffer; the thirty-two chunks of the result's two column halves are the
    result buffer.  With the 64 transfer counters at zero, nothing owed and the block of x in place, that is what the body
    hands back. -/
theorem post_intro (c : Dev nD) :
    iprop((((c : Thread nD τ).loc cc0_scratch0) ↦{fullShare.right} sxv m c)
        ∗ (bigSep Finset.univ fun k : Fin 16 => sPts c k fullShare.left (sxv m c))
        ∗ (bigSep Finset.univ fun k : Fin 16 => rPts c k (rxv m c))
        ∗ (bigSep Finset.univ fun k : Fin 16 => oPts c k (myY c) (outv m c))
        ∗ (bigSep Finset.univ fun k : Fin 16 => oPts c k (otY c) (outv m c))
        ∗ (bigSep Finset.univ fun k : Fin 16 => semVal (dCell c 0 k) 0) ∗ (bigSep Finset.univ fun k : Fin 16 => semVal (dCell c 1 k) 0)
        ∗ (bigSep Finset.univ fun k : Fin 16 => semVal (dCell c 2 k) 0) ∗ (bigSep Finset.univ fun k : Fin 16 => semVal (dCell c 3 k) 0)
        ∗ (∃ W : Waits sig Unit, owes (c : Thread nD τ) 0 W)
        ∗ (((c : Thread nD τ).loc cc0_stg0_0) ↦{fullShare} xstg m c))
      ⊢ bodyPost m ρ c := by
  iintro ⟨Hsr, Hsl, Hr, Ho1, Ho2, Z0, Z1, Z2, Z3, ⟨%W, Hw⟩, Hx⟩
  -- the first scratch buffer: the chunks' left halves joined, then the two halves
  ihave HsL := (s_split (F := F) c fullShare.left (sxv m c)).2 $$ Hsl
  ihave Hs := (s_halves (F := F) c (sxv m c)).2 $$ [HsL Hsr]
  · isplitl [HsL] <;> iassumption
  -- the second scratch buffer and the result buffer
  ihave HR := (r_split (F := F) c (rxv m c)).2 $$ Hr
  ihave HO := (o_split (F := F) c (outv m c)).2 $$ [Ho1 Ho2]
  · isplitl [Ho1] <;> iassumption
  unfold bodyPost Φ₁ Dat.owesAt Pipeline.owesWithin
  rw [show (dats m ρ 0 c).owed t₀.succ = 0 from rfl]
  isplitl [Hs HR Z0 Z1 Z2 Z3]
  · isplitl [Hs]; · iexact Hs
    isplitl [HR]; · iexact HR
    isplitl [Z0]; · iexact Z0
    isplitl [Z1]; · iexact Z1
    isplitl [Z2]; · iexact Z2
    iexact Z3
  isplitl [Hw]
  · iexists W
    isplitr; · ipureintro; exact fun _ _ => Or.inl trivial
    iexact Hw
  isplitl [Hx]
  · iexists _; isplitr; · (ipureintro; rfl)
    iexact Hx
  iexists _; isplitr; · (ipureintro; rfl)
  iexact HO

end Cert.KernelIdeal.Hand

end
-- ==== Proof.Body.lean ====
/- One device's body, run from the ghost state the launch hands it to the state it hands back: the two barrier signals
   hand the partners the buffers they will write, the barrier wait brings the partners' buffers, sixteen chunks go to the
   row partner, each chunk of the sum is formed when the row partner's chunk has landed and goes on to the column partner,
   and the waits at the end bring every chunk back and close the transfer cells. -/
import proofs.«900322_g7700000000000323_dist_rsx_agy_m512_n512_v7x_xy2x2_bf16_1_alg».proof.Proof.Steps
import proofs.«900322_g7700000000000323_dist_rsx_agy_m512_n512_v7x_xy2x2_bf16_1_alg».proof.Proof.Finish

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The first scratch buffer after the whole-buffer store, spelt through the buffer itself. -/
theorem s_norm (c : Dev nD) :
    ((((sM : Memref sig .tc .vmem S512x512 .bf16).access r0s).loc (c : Thread nD τ) ↦{fullShare} k0_pay1 (xstg m c) : sProp 𝕄))
      ⊢ (((c : Thread nD τ).loc cc0_scratch0) ↦{fullShare} sxv m c) := Entails.of_eq rfl

set_option maxHeartbeats 12800000 in
set_option maxRecDepth 65536 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  unfold bodyPre Φ₀ start ghost positions payToks launchCreds records
  iintro ⟨⟨⟨⟨⟨%K, ⟨#HI, #HR⟩, ⟨HaB, Ha0, Ha1, Ha2, Ha3⟩, ⟨HtBX, HtBY, Ht0, Ht1, Ht2, Ht3⟩⟩, ⟨HcB, Hc1, Hc3⟩, #Hlev⟩, ⟨%fs0, Hs⟩, ⟨%fr0, Hr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the positions, the tokens and the credits of the sixteen chunks, one by one
  ihave Ha0' := (Entails.of_eq (bigSep_fin16 _)) $$ Ha0
  icases Ha0' with ⟨Ha0_0, Ha0_1, Ha0_2, Ha0_3, Ha0_4, Ha0_5, Ha0_6, Ha0_7, Ha0_8, Ha0_9, Ha0_10, Ha0_11, Ha0_12, Ha0_13, Ha0_14, Ha0_15⟩
  ihave Ha1' := (Entails.of_eq (bigSep_fin16 _)) $$ Ha1
  icases Ha1' with ⟨Ha1_0, Ha1_1, Ha1_2, Ha1_3, Ha1_4, Ha1_5, Ha1_6, Ha1_7, Ha1_8, Ha1_9, Ha1_10, Ha1_11, Ha1_12, Ha1_13, Ha1_14, Ha1_15⟩
  ihave Ha2' := (Entails.of_eq (bigSep_fin16 _)) $$ Ha2
  icases Ha2' with ⟨Ha2_0, Ha2_1, Ha2_2, Ha2_3, Ha2_4, Ha2_5, Ha2_6, Ha2_7, Ha2_8, Ha2_9, Ha2_10, Ha2_11, Ha2_12, Ha2_13, Ha2_14, Ha2_15⟩
  ihave Ha3' := (Entails.of_eq (bigSep_fin16 _)) $$ Ha3
  icases Ha3' with ⟨Ha3_0, Ha3_1, Ha3_2, Ha3_3, Ha3_4, Ha3_5, Ha3_6, Ha3_7, Ha3_8, Ha3_9, Ha3_10, Ha3_11, Ha3_12, Ha3_13, Ha3_14, Ha3_15⟩
  ihave Ht0' := (Entails.of_eq (bigSep_fin16 _)) $$ Ht0
  icases Ht0' with ⟨Ht0_0, Ht0_1, Ht0_2, Ht0_3, Ht0_4, Ht0_5, Ht0_6, Ht0_7, Ht0_8, Ht0_9, Ht0_10, Ht0_11, Ht0_12, Ht0_13, Ht0_14, Ht0_15⟩
  ihave Ht1' := (Entails.of_eq (bigSep_fin16 _)) $$ Ht1
  icases Ht1' with ⟨Ht1_0, Ht1_1, Ht1_2, Ht1_3, Ht1_4, Ht1_5, Ht1_6, Ht1_7, Ht1_8, Ht1_9, Ht1_10, Ht1_11, Ht1_12, Ht1_13, Ht1_14, Ht1_15⟩
  ihave Ht2' := (Entails.of_eq (bigSep_fin16 _)) $$ Ht2
  icases Ht2' with ⟨Ht2_0, Ht2_1, Ht2_2, Ht2_3, Ht2_4, Ht2_5, Ht2_6, Ht2_7, Ht2_8, Ht2_9, Ht2_10, Ht2_11, Ht2_12, Ht2_13, Ht2_14, Ht2_15⟩
  ihave Ht3' := (Entails.of_eq (bigSep_fin16 _)) $$ Ht3
  icases Ht3' with ⟨Ht3_0, Ht3_1, Ht3_2, Ht3_3, Ht3_4, Ht3_5, Ht3_6, Ht3_7, Ht3_8, Ht3_9, Ht3_10, Ht3_11, Ht3_12, Ht3_13, Ht3_14, Ht3_15⟩
  ihave Hc1' := (Entails.of_eq (bigSep_fin16 _)) $$ Hc1
  icases Hc1' with ⟨Hc1_0, Hc1_1, Hc1_2, Hc1_3, Hc1_4, Hc1_5, Hc1_6, Hc1_7, Hc1_8, Hc1_9, Hc1_10, Hc1_11, Hc1_12, Hc1_13, Hc1_14, Hc1_15⟩
  ihave Hc3' := (Entails.of_eq (bigSep_fin16 _)) $$ Hc3
  icases Hc3' with ⟨Hc3_0, Hc3_1, Hc3_2, Hc3_3, Hc3_4, Hc3_5, Hc3_6, Hc3_7, Hc3_8, Hc3_9, Hc3_10, Hc3_11, Hc3_12, Hc3_13, Hc3_14, Hc3_15⟩
  rw [cc0_body_eq_skeleton]; unfold cc0_body_skel
  rw [wp_bind]
  rw [k0_part29_eq_skeleton]; unfold k0_part29_skel
  rw [wp_bind]
  rw [k0_part1_eq_skeleton]; unfold k0_part1_skel
  simp only [semSignalWord, semWaitWord, Prog.lift, Prog.bind_op, Prog.bind_ret, Prog.pure_eq_ret, wp_deviceId]
  simp only [dev1_eq c, dev2_eq c]
  -- the device hands its second scratch buffer, chunk by chunk, to its row partner with the first barrier signal
  ihave Hrs := (r_split c fr0).1 $$ Hr
  ihave Hrs' := (ex_r c fr0) $$ Hrs
  iapply (Rounds.wp_signal 𝒱₀ ER (sched m) (c : Thread nD τ) none (dst := (xp c : Thread nD τ)) (κ := K (xp c, jBar))
      (d := true) (by rw [duties_bar]; exact Finset.mem_univ _) ((amount_bar m (xp c) true).trans (by decide)) () (O₁ c) rfl)
    $$ [HO HtBX Hrs']
  · isplitr; · iapply (inv_bar m K (xp c)); iexact HI
    isplitl [HO]; · iexact HO
    isplitl [HtBX]; · iexact HtBX
    isplitl [Hrs']
    · rw [payload_bar_true]; unfold barPayX; rw [xp_xp]; iexact Hrs'
    · iapply (reached_bar (F := F) (xp c)); iexact HR
  iintro HO
  -- and the column half of its result buffer that its column partner fills, with the second
  ihave Hos := (o_split c g1).1 $$ Hout
  icases Hos with ⟨Hom, Hoo⟩
  ihave Hoo' := (ex_o c (otY c) g1) $$ Hoo
  unfold O₁
  iapply (Rounds.wp_signal 𝒱₀ ER (sched m) (c : Thread nD τ) none (dst := (yp c : Thread nD τ)) (κ := K (yp c, jBar))
      (d := false) (by rw [duties_bar]; exact Finset.mem_univ _) ((amount_bar m (yp c) false).trans (by decide)) () (O₂ c) rfl)
    $$ [HO HtBY Hoo']
  · isplitr; · iapply (inv_bar m K (yp c)); iexact HI
    isplitl [HO]; · iexact HO
    isplitl [HtBY]; · iexact HtBY
    isplitl [Hoo']
    · rw [payload_bar_false]; unfold barPayY; rw [yp_yp, myY_yp]; iexact Hoo'
    · iapply (reached_bar (F := F) (yp c)); iexact HR
  iintro HO
  -- the block of x is read and, narrowed, stored into the first scratch buffer
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := r0s) (Mk := Finset.univ) (Finset.subset_univ _)) $$ Hs; iintro Hs
  rw [write_s]
  -- the wait for both partners' signals, owing them the 32 chunks: their buffers come with it
  iapply (Rounds.wp_wait_rest_token 𝒱₀ ER (sched m) (c : Thread nD τ) none (κ := K (c, jBar))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_bar m K c); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  icases Hp with ⟨HoY, HrX⟩
  ihave HO := (owes_start c _) $$ HO
  -- the first scratch buffer: half of every chunk for its transfer, the other half of the whole for the loads
  ihave Hs := (s_norm m c) $$ Hs
  ihave Hsh := (s_halves c (sxv m c)).1 $$ Hs
  icases Hsh with ⟨HsL, HsR⟩
  ihave HsLs := (s_split c fullShare.left (sxv m c)).1 $$ HsL
  ihave HsLs' := (Entails.of_eq (bigSep_fin16 _)) $$ HsLs
  icases HsLs' with ⟨Hs0, Hs1, Hs2, Hs3, Hs4, Hs5, Hs6, Hs7, Hs8, Hs9, Hs10, Hs11, Hs12, Hs13, Hs14, Hs15⟩
  ihave Hom' := (Entails.of_eq (bigSep_fin16 _)) $$ Hom
  icases Hom' with ⟨Hom0, Hom1, Hom2, Hom3, Hom4, Hom5, Hom6, Hom7, Hom8, Hom9, Hom10, Hom11, Hom12, Hom13, Hom14, Hom15⟩
  unfold barPayX barPayY
  ihave HrX' := (Entails.of_eq (bigSep_fin16 _)) $$ HrX
  icases HrX' with ⟨⟨%fx0, HrX0⟩, ⟨%fx1, HrX1⟩, ⟨%fx2, HrX2⟩, ⟨%fx3, HrX3⟩, ⟨%fx4, HrX4⟩, ⟨%fx5, HrX5⟩, ⟨%fx6, HrX6⟩, ⟨%fx7, HrX7⟩, ⟨%fx8, HrX8⟩, ⟨%fx9, HrX9⟩, ⟨%fx10, HrX10⟩, ⟨%fx11, HrX11⟩, ⟨%fx12, HrX12⟩, ⟨%fx13, HrX13⟩, ⟨%fx14, HrX14⟩, ⟨%fx15, HrX15⟩⟩
  ihave HoY' := (Entails.of_eq (bigSep_fin16 _)) $$ HoY
  icases HoY' with ⟨⟨%fy0, HoY0⟩, ⟨%fy1, HoY1⟩, ⟨%fy2, HoY2⟩, ⟨%fy3, HoY3⟩, ⟨%fy4, HoY4⟩, ⟨%fy5, HoY5⟩, ⟨%fy6, HoY6⟩, ⟨%fy7, HoY7⟩, ⟨%fy8, HoY8⟩, ⟨%fy9, HoY9⟩, ⟨%fy10, HoY10⟩, ⟨%fy11, HoY11⟩, ⟨%fy12, HoY12⟩, ⟨%fy13, HoY13⟩, ⟨%fy14, HoY14⟩, ⟨%fy15, HoY15⟩⟩
  rw [wp_ret]; imodintro; try dsimp only
  -- the sixteen chunks go to the row partner
  rw [wp_bind, k0_part2_eq_skeleton]; unfold k0_part2_skel
  simp only [Prog.lift, Prog.bind_op, Prog.bind_ret, Prog.pure_eq_ret]
  iapply (send_x m K c _ (dev3_eq c) 0 0 1 rfl rfl fx0 _) $$ HI HR Hs0 HrX0 HO Ht0_0 Ht1_0; iintro ⟨Hc0_0, HO⟩
  iapply (send_x m K c _ (dev4_eq c) 1 1 2 rfl rfl fx1 _) $$ HI HR Hs1 HrX1 HO Ht0_1 Ht1_1; iintro ⟨Hc0_1, HO⟩
  iapply (send_x m K c _ (dev5_eq c) 2 2 3 rfl rfl fx2 _) $$ HI HR Hs2 HrX2 HO Ht0_2 Ht1_2; iintro ⟨Hc0_2, HO⟩
  rw [wp_ret]; imodintro; try dsimp only
  rw [wp_bind, k0_part3_eq_skeleton]; unfold k0_part3_skel
  simp only [Prog.lift, Prog.bind_op, Prog.bind_ret, Prog.pure_eq_ret]
  iapply (send_x m K c _ (dev6_eq c) 3 3 4 rfl rfl fx3 _) $$ HI HR Hs3 HrX3 HO Ht0_3 Ht1_3; iintro ⟨Hc0_3, HO⟩
  iapply (send_x m K c _ (dev7_eq c) 4 4 5 rfl rfl fx4 _) $$ HI HR Hs4 HrX4 HO Ht0_4 Ht1_4; iintro ⟨Hc0_4, HO⟩
  iapply (send_x m K c _ (dev8_eq c) 5 5 6 rfl rfl fx5 _) $$ HI HR Hs5 HrX5 HO Ht0_5 Ht1_5; iintro ⟨Hc0_5, HO⟩
  rw [wp_ret]; imodintro; try dsimp only
  rw [wp_bind, k0_part4_eq_skeleton]; unfold k0_part4_skel
  simp only [Prog.lift, Prog.bind_op, Prog.bind_ret, Prog.pure_eq_ret]
  iapply (send_x m K c _ (dev9_eq c) 6 6 7 rfl rfl fx6 _) $$ HI HR Hs6 HrX6 HO Ht0_6 Ht1_6; iintro ⟨Hc0_6, HO⟩
  iapply (send_x m K c _ (dev10_eq c) 7 7 8 rfl rfl fx7 _) $$ HI HR Hs7 HrX7 HO Ht0_7 Ht1_7; iintro ⟨Hc0_7, HO⟩
  iapply (send_x m K c _ (dev11_eq c) 8 8 9 rfl rfl fx8 _) $$ HI HR Hs8 HrX8 HO Ht0_8 Ht1_8; iintro ⟨Hc0_8, HO⟩
  rw [wp_ret]; imodintro; try dsimp only
  rw [wp_bind, k0_part5_eq_skeleton]; unfold k0_part5_skel
  simp only [Prog.lift, Prog.bind_op, Prog.bind_ret, Prog.pure_eq_ret]
  iapply (send_x m K c _ (dev12_eq c) 9 9 10 rfl rfl fx9 _) $$ HI HR Hs9 HrX9 HO Ht0_9 Ht1_9; iintro ⟨Hc0_9, HO⟩
  iapply (send_x m K c _ (dev13_eq c) 10 10 11 rfl rfl fx10 _) $$ HI HR Hs10 HrX10 HO Ht0_10 Ht1_10; iintro ⟨Hc0_10, HO⟩
  iapply (send_x m K c _ (dev14_eq c) 11 11 12 rfl rfl fx11 _) $$ HI HR Hs11 HrX11 HO Ht0_11 Ht1_11; iintro ⟨Hc0_11, HO⟩
  rw [wp_ret]; imodintro; try dsimp only
  rw [wp_bind, k0_part6_eq_skeleton]; unfold k0_part6_skel
  simp only [Prog.lift, Prog.bind_op, Prog.bind_ret, Prog.pure_eq_ret]
  iapply (send_x m K c _ (dev15_eq c) 12 12 13 rfl rfl fx12 _) $$ HI HR Hs12 HrX12 HO Ht0_12 Ht1_12; iintro ⟨Hc0_12, HO⟩
  iapply (send_x m K c _ (dev16_eq c) 13 13 14 rfl rfl fx13 _) $$ HI HR Hs13 HrX13 HO Ht0_13 Ht1_13; iintro ⟨Hc0_13, HO⟩
  iapply (send_x m K c _ (dev17_eq c) 14 14 15 rfl rfl fx14 _) $$ HI HR Hs14 HrX14 HO Ht0_14 Ht1_14; iintro ⟨Hc0_14, HO⟩
  rw [wp_ret]; imodintro; try dsimp only
  rw [wp_bind, k0_part7_eq_skeleton]; unfold k0_part7_skel
  simp only [Prog.lift, Prog.bind_op, Prog.bind_ret, Prog.pure_eq_ret]
  iapply (send_x m K c _ (dev18_eq c) 15 15 16 rfl rfl fx15 _) $$ HI HR Hs15 HrX15 HO Ht0_15 Ht1_15; iintro ⟨Hc0_15, HO⟩
  ihave HO := (owes_x_done c _) $$ HO
  -- chunk by chunk: the row partner's chunk has landed, the sum is formed and goes on to the column partner
  iapply (wait_rx' m K c 0 0 _) $$ HI Hlev Hc1_0 HO Ha1_0; iintro ⟨⟨%W0, HO⟩, Hz1_0, Hr0⟩
  iapply (wp_load_s m c 0) $$ HsR; iintro HsR
  iapply (wp_load_r m c 0) $$ Hr0; iintro Hr0
  iapply (wp_load_o c 0 _ (k0_off1_eq c) _ g1) $$ Hom0; iintro Hom0
  iapply (wp_store_o m c 0 _ (k0_off1_eq c) _ g1 _ rfl) $$ Hom0; iintro Hom0
  iapply (send_y m K c _ (dev19_eq c) 0 0 1 rfl rfl _ (k0_off2_eq c) _ fy0 _) $$ HI HR Hom0 HoY0 HO Ht2_0 Ht3_0; iintro ⟨Hc2_0, HO⟩
  rw [wp_ret]; imodintro; try dsimp only
  rw [wp_bind, k0_part8_eq_skeleton]; unfold k0_part8_skel
  simp only [Prog.lift, Prog.bind_op, Prog.bind_ret, Prog.pure_eq_ret]
  iapply (wait_rx' m K c 1 1 _) $$ HI Hlev Hc1_1 HO Ha1_1; iintro ⟨⟨%W1, HO⟩, Hz1_1, Hr1⟩
  iapply (wp_load_s m c 1) $$ HsR; iintro HsR
  iapply (wp_load_r m c 1) $$ Hr1; iintro Hr1
  iapply (wp_load_o c 1 _ (k0_off3_eq c) _ g1) $$ Hom1; iintro Hom1
  iapply (wp_store_o m c 1 _ (k0_off3_eq c) _ g1 _ rfl) $$ Hom1; iintro Hom1
  iapply (send_y m K c _ (dev20_eq c) 1 1 2 rfl rfl _ (k0_off4_eq c) _ fy1 _) $$ HI HR Hom1 HoY1 HO Ht2_1 Ht3_1; iintro ⟨Hc2_1, HO⟩
  rw [wp_ret]; imodintro; try dsimp only
  rw [wp_bind, k0_part9_eq_skeleton]; unfold k0_part9_skel
  simp only [Prog.lift, Prog.bind_op, Prog.bind_ret, Prog.pure_eq_ret]
  iapply (wait_rx' m K c 2 2 _) $$ HI Hlev Hc1_2 HO Ha1_2; iintro ⟨⟨%W2, HO⟩, Hz1_2, Hr2⟩
  iapply (wp_load_s m c 2) $$ HsR; iintro HsR
  iapply (wp_load_r m c 2) $$ Hr2; iintro Hr2
  iapply (wp_load_o c 2 _ (k0_off5_eq c) _ g1) $$ Hom2; iintro Hom2
  iapply (wp_store_o m c 2 _ (k0_off5_eq c) _ g1 _ rfl) $$ Hom2; iintro Hom2
  iapply (send_y m K c _ (dev21_eq c) 2 2 3 rfl rfl _ (k0_off6_eq c) _ fy2 _) $$ HI HR Hom2 HoY2 HO Ht2_2 Ht3_2; iintro ⟨Hc2_2, HO⟩
  iapply (wait_rx' m K c 3 3 _) $$ HI Hlev Hc1_3 HO Ha1_3; iintro ⟨⟨%W3, HO⟩, Hz1_3, Hr3⟩
  iapply (wp_load_s m c 3) $$ HsR; iintro HsR
  iapply (wp_load_r m c 3) $$ Hr3; iintro Hr3
  iapply (wp_load_o c 3 _ (k0_off7_eq c) _ g1) $$ Hom3; iintro Hom3
  rw [wp_ret]; imodintro; try dsimp only
  rw [wp_bind, k0_part10_eq_skeleton]; unfold k0_part10_skel
  simp only [Prog.lift, Prog.bind_op, Prog.bind_ret, Prog.pure_eq_ret]
  iapply (wp_store_o m c 3 _ (k0_off7_eq c) _ g1 _ rfl) $$ Hom3; iintro Hom3
  iapply (send_y m K c _ (dev22_eq c) 3 3 4 rfl rfl _ (k0_off8_eq c) _ fy3 _) $$ HI HR Hom3 HoY3 HO Ht2_3 Ht3_3; iintro ⟨Hc2_3, HO⟩
  iapply (wait_rx' m K c 4 4 _) $$ HI Hlev Hc1_4 HO Ha1_4; iintro ⟨⟨%W4, HO⟩, Hz1_4, Hr4⟩
  iapply (wp_load_s m c 4) $$ HsR; iintro HsR
  iapply (wp_load_r m c 4) $$ Hr4; iintro Hr4
  iapply (wp_load_o c 4 _ (k0_off9_eq c) _ g1) $$ Hom4; iintro Hom4
  iapply (wp_store_o m c 4 _ (k0_off9_eq c) _ g1 _ rfl) $$ Hom4; iintro Hom4
  rw [wp_ret]; imodintro; try dsimp only
  rw [wp_bind, k0_part11_eq_skeleton]; unfold k0_part11_skel
  simp only [Prog.lift, Prog.bind_op, Prog.bind_ret, Prog.pure_eq_ret]
  iapply (send_y m K c _ (dev23_eq c) 4 4 5 rfl rfl _ (k0_off10_eq c) _ fy4 _) $$ HI HR Hom4 HoY4 HO Ht2_4 Ht3_4; iintro ⟨Hc2_4, HO⟩
  iapply (wait_rx' m K c 5 5 _) $$ HI Hlev Hc1_5 HO Ha1_5; iintro ⟨⟨%W5, HO⟩, Hz1_5, Hr5⟩
  iapply (wp_load_s m c 5) $$ HsR; iintro HsR
  iapply (wp_load_r m c 5) $$ Hr5; iintro Hr5
  iapply (wp_load_o c 5 _ (k0_off11_eq c) _ g1) $$ Hom5; iintro Hom5
  iapply (wp_store_o m c 5 _ (k0_off11_eq c) _ g1 _ rfl) $$ Hom5; iintro Hom5
  iapply (send_y m K c _ (dev24_eq c) 5 5 6 rfl rfl _ (k0_off12_eq c) _ fy5 _) $$ HI HR Hom5 HoY5 HO Ht2_5 Ht3_5; iintro ⟨Hc2_5, HO⟩
  rw [wp_ret]; imodintro; try dsimp only
  rw [wp_bind, k0_part12_eq_skeleton]; unfold k0_part12_skel
  simp only [Prog.lift, Prog.bind_op, Prog.bind_ret, Prog.pure_eq_ret]
  iapply (wait_rx' m K c 6 6 _) $$ HI Hlev Hc1_6 HO Ha1_6; iintro ⟨⟨%W6, HO⟩, Hz1_6, Hr6⟩
  iapply (wp_load_s m c 6) $$ HsR; iintro HsR
  iapply (wp_load_r m c 6) $$ Hr6; iintro Hr6
  iapply (wp_load_o c 6 _ (k0_off13_eq c) _ g1) $$ Hom6; iintro Hom6
  iapply (wp_store_o m c 6 _ (k0_off13_eq c) _ g1 _ rfl) $$ Hom6; iintro Hom6
  iapply (send_y m K c _ (dev25_eq c) 6 6 7 rfl rfl _ (k0_off14_eq c) _ fy6 _) $$ HI HR Hom6 HoY6 HO Ht2_6 Ht3_6; iintro ⟨Hc2_6, HO⟩
  iapply (wait_rx' m K c 7 7 _) $$ HI Hlev Hc1_7 HO Ha1_7; iintro ⟨⟨%W7, HO⟩, Hz1_7, Hr7⟩
  rw [wp_ret]; imodintro; try dsimp only
  rw [wp_bind, k0_part13_eq_skeleton]; unfold k0_part13_skel
  simp only [Prog.lift, Prog.bind_op, Prog.bind_ret, Prog.pure_eq_ret]
  iapply (wp_load_s m c 7) $$ HsR; iintro HsR
  iapply (wp_load_r m c 7) $$ Hr7; iintro Hr7
  iapply (wp_load_o c 7 _ (k0_off15_eq c) _ g1) $$ Hom7; iintro Hom7
  iapply (wp_store_o m c 7 _ (k0_off15_eq c) _ g1 _ rfl) $$ Hom7; iintro Hom7
  iapply (send_y m K c _ (dev26_eq c) 7 7 8 rfl rfl _ (k0_off16_eq c) _ fy7 _) $$ HI HR Hom7 HoY7 HO Ht2_7 Ht3_7; iintro ⟨Hc2_7, HO⟩
  iapply (wait_rx' m K c 8 8 _) $$ HI Hlev Hc1_8 HO Ha1_8; iintro ⟨⟨%W8, HO⟩, Hz1_8, Hr8⟩
  iapply (wp_load_s m c 8) $$ HsR; iintro HsR
  iapply (wp_load_r m c 8) $$ Hr8; iintro Hr8
  iapply (wp_load_o c 8 _ (k0_off17_eq c) _ g1) $$ Hom8; iintro Hom8
  iapply (wp_store_o m c 8 _ (k0_off17_eq c) _ g1 _ rfl) $$ Hom8; iintro Hom8
  rw [wp_ret]; imodintro; try dsimp only
  rw [wp_bind, k0_part14_eq_skeleton]; unfold k0_part14_skel
  simp only [Prog.lift, Prog.bind_op, Prog.bind_ret, Prog.pure_eq_ret]
  iapply (send_y m K c _ (dev27_eq c) 8 8 9 rfl rfl _ (k0_off18_eq c) _ fy8 _) $$ HI HR Hom8 HoY8 HO Ht2_8 Ht3_8; iintro ⟨Hc2_8, HO⟩
  iapply (wait_rx' m K c 9 9 _) $$ HI Hlev Hc1_9 HO Ha1_9; iintro ⟨⟨%W9, HO⟩, Hz1_9, Hr9⟩
  iapply (wp_load_s m c 9) $$ HsR; iintro HsR
  iapply (wp_load_r m c 9) $$ Hr9; iintro Hr9
  iapply (wp_load_o c 9 _ (k0_off19_eq c) _ g1) $$ Hom9; iintro Hom9
  iapply (wp_store_o m c 9 _ (k0_off19_eq c) _ g1 _ rfl) $$ Hom9; iintro Hom9
  rw [wp_ret]; imodintro; try dsimp only
  rw [wp_bind, k0_part15_eq_skeleton]; unfold k0_part15_skel
  simp only [Prog.lift, Prog.bind_op, Prog.bind_ret, Prog.pure_eq_ret]
  iapply (send_y m K c _ (dev28_eq c) 9 9 10 rfl rfl _ (k0_off20_eq c) _ fy9 _) $$ HI HR Hom9 HoY9 HO Ht2_9 Ht3_9; iintro ⟨Hc2_9, HO⟩
  iapply (wait_rx' m K c 10 10 _) $$ HI Hlev Hc1_10 HO Ha1_10; iintro ⟨⟨%W10, HO⟩, Hz1_10, Hr10⟩
  iapply (wp_load_s m c 10) $$ HsR; iintro HsR
  iapply (wp_load_r m c 10) $$ Hr10; iintro Hr10
  iapply (wp_load_o c 10 _ (k0_off21_eq c) _ g1) $$ Hom10; iintro Hom10
  iapply (wp_store_o m c 10 _ (k0_off21_eq c) _ g1 _ rfl) $$ Hom10; iintro Hom10
  iapply (send_y m K c _ (dev29_eq c) 10 10 11 rfl rfl _ (k0_off22_eq c) _ fy10 _) $$ HI HR Hom10 HoY10 HO Ht2_10 Ht3_10; iintro ⟨Hc2_10, HO⟩
  rw [wp_ret]; imodintro; try dsimp only
  rw [wp_bind, k0_part16_eq_skeleton]; unfold k0_part16_skel
  simp only [Prog.lift, Prog.bind_op, Prog.bind_ret, Prog.pure_eq_ret]
  iapply (wait_rx' m K c 11 11 _) $$ HI Hlev Hc1_11 HO Ha1_11; iintro ⟨⟨%W11, HO⟩, Hz1_11, Hr11⟩
  iapply (wp_load_s m c 11) $$ HsR; iintro HsR
  iapply (wp_load_r m c 11) $$ Hr11; iintro Hr11
  iapply (wp_load_o c 11 _ (k0_off23_eq c) _ g1) $$ Hom11; iintro Hom11
  iapply (wp_store_o m c 11 _ (k0_off23_eq c) _ g1 _ rfl) $$ Hom11; iintro Hom11
  iapply (send_y m K c _ (dev30_eq c) 11 11 12 rfl rfl _ (k0_off24_eq c) _ fy11 _) $$ HI HR Hom11 HoY11 HO Ht2_11 Ht3_11; iintro ⟨Hc2_11, HO⟩
  iapply (wait_rx' m K c 12 12 _) $$ HI Hlev Hc1_12 HO Ha1_12; iintro ⟨⟨%W12, HO⟩, Hz1_12, Hr12⟩
  iapply (wp_load_s m c 12) $$ HsR; iintro HsR
  iapply (wp_load_r m c 12) $$ Hr12; iintro Hr12
  rw [wp_ret]; imodintro; try dsimp only
  rw [wp_bind, k0_part17_eq_skeleton]; unfold k0_part17_skel
  simp only [Prog.lift, Prog.bind_op, Prog.bind_ret, Prog.pure_eq_ret]
  iapply (wp_load_o c 12 _ (k0_off25_eq c) _ g1) $$ Hom12; iintro Hom12
  iapply (wp_store_o m c 12 _ (k0_off25_eq c) _ g1 _ rfl) $$ Hom12; iintro Hom12
  iapply (send_y m K c _ (dev31_eq c) 12 12 13 rfl rfl _ (k0_off26_eq c) _ fy12 _) $$ HI HR Hom12 HoY12 HO Ht2_12 Ht3_12; iintro ⟨Hc2_12, HO⟩
  iapply (wait_rx' m K c 13 13 _) $$ HI Hlev Hc1_13 HO Ha1_13; iintro ⟨⟨%W13, HO⟩, Hz1_13, Hr13⟩
  iapply (wp_load_s m c 13) $$ HsR; iintro HsR
  iapply (wp_load_r m c 13) $$ Hr13; iintro Hr13
  iapply (wp_load_o c 13 _ (k0_off27_eq c) _ g1) $$ Hom13; iintro Hom13
  iapply (wp_store_o m c 13 _ (k0_off27_eq c) _ g1 _ rfl) $$ Hom13; iintro Hom13
  rw [wp_ret]; imodintro; try dsimp only
  rw [wp_bind, k0_part18_eq_skeleton]; unfold k0_part18_skel
  simp only [Prog.lift, Prog.bind_op, Prog.bind_ret, Prog.pure_eq_ret]
  iapply (send_y m K c _ (dev32_eq c) 13 13 14 rfl rfl _ (k0_off28_eq c) _ fy13 _) $$ HI HR Hom13 HoY13 HO Ht2_13 Ht3_13; iintro ⟨Hc2_13, HO⟩
  iapply (wait_rx' m K c 14 14 _) $$ HI Hlev Hc1_14 HO Ha1_14; iintro ⟨⟨%W14, HO⟩, Hz1_14, Hr14⟩
  iapply (wp_load_s m c 14) $$ HsR; iintro HsR
  iapply (wp_load_r m c 14) $$ Hr14; iintro Hr14
  iapply (wp_load_o c 14 _ (k0_off29_eq c) _ g1) $$ Hom14; iintro Hom14
  iapply (wp_store_o m c 14 _ (k0_off29_eq c) _ g1 _ rfl) $$ Hom14; iintro Hom14
  iapply (send_y m K c _ (dev33_eq c) 14 14 15 rfl rfl _ (k0_off30_eq c) _ fy14 _) $$ HI HR Hom14 HoY14 HO Ht2_14 Ht3_14; iintro ⟨Hc2_14, HO⟩
  rw [wp_ret]; imodintro; try dsimp only
  rw [wp_bind, k0_part19_eq_skeleton]; unfold k0_part19_skel
  simp only [Prog.lift, Prog.bind_op, Prog.bind_ret, Prog.pure_eq_ret]
  iapply (wait_rx' m K c 15 15 _) $$ HI Hlev Hc1_15 HO Ha1_15; iintro ⟨⟨%W15, HO⟩, Hz1_15, Hr15⟩
  iapply (wp_load_s m c 15) $$ HsR; iintro HsR
  iapply (wp_load_r m c 15) $$ Hr15; iintro Hr15
  iapply (wp_load_o c 15 _ (k0_off31_eq c) _ g1) $$ Hom15; iintro Hom15
  iapply (wp_store_o m c 15 _ (k0_off31_eq c) _ g1 _ rfl) $$ Hom15; iintro Hom15
  iapply (send_y m K c _ (dev34_eq c) 15 15 16 rfl rfl _ (k0_off32_eq c) _ fy15 _) $$ HI HR Hom15 HoY15 HO Ht2_15 Ht3_15; iintro ⟨Hc2_15, HO⟩
  ihave HO := (owes_y_done c _) $$ HO
  -- the column partner's sixteen chunks
  iapply (wait_ry m K c 0 _) $$ HI Hc3_0 HO Ha3_0; iintro ⟨⟨%Wy0, HO⟩, Hz3_0, Hoo0⟩
  rw [wp_ret]; imodintro; try dsimp only
  rw [wp_bind, k0_part20_eq_skeleton]; unfold k0_part20_skel
  simp only [Prog.lift, Prog.bind_op, Prog.bind_ret, Prog.pure_eq_ret]
  iapply (wait_ry m K c 1 _) $$ HI Hc3_1 HO Ha3_1; iintro ⟨⟨%Wy1, HO⟩, Hz3_1, Hoo1⟩
  iapply (wait_ry m K c 2 _) $$ HI Hc3_2 HO Ha3_2; iintro ⟨⟨%Wy2, HO⟩, Hz3_2, Hoo2⟩
  iapply (wait_ry m K c 3 _) $$ HI Hc3_3 HO Ha3_3; iintro ⟨⟨%Wy3, HO⟩, Hz3_3, Hoo3⟩
  rw [wp_ret]; imodintro; try dsimp only
  rw [wp_bind, k0_part21_eq_skeleton]; unfold k0_part21_skel
  simp only [Prog.lift, Prog.bind_op, Prog.bind_ret, Prog.pure_eq_ret]
  iapply (wait_ry m K c 4 _) $$ HI Hc3_4 HO Ha3_4; iintro ⟨⟨%Wy4, HO⟩, Hz3_4, Hoo4⟩
  iapply (wait_ry m K c 5 _) $$ HI Hc3_5 HO Ha3_5; iintro ⟨⟨%Wy5, HO⟩, Hz3_5, Hoo5⟩
  iapply (wait_ry m K c 6 _) $$ HI Hc3_6 HO Ha3_6; iintro ⟨⟨%Wy6, HO⟩, Hz3_6, Hoo6⟩
  iapply (wait_ry m K c 7 _) $$ HI Hc3_7 HO Ha3_7; iintro ⟨⟨%Wy7, HO⟩, Hz3_7, Hoo7⟩
  rw [wp_ret]; imodintro; try dsimp only
  rw [wp_bind, k0_part22_eq_skeleton]; unfold k0_part22_skel
  simp only [Prog.lift, Prog.bind_op, Prog.bind_ret, Prog.pure_eq_ret]
  iapply (wait_ry m K c 8 _) $$ HI Hc3_8 HO Ha3_8; iintro ⟨⟨%Wy8, HO⟩, Hz3_8, Hoo8⟩
  iapply (wait_ry m K c 9 _) $$ HI Hc3_9 HO Ha3_9; iintro ⟨⟨%Wy9, HO⟩, Hz3_9, Hoo9⟩
  iapply (wait_ry m K c 10 _) $$ HI Hc3_10 HO Ha3_10; iintro ⟨⟨%Wy10, HO⟩, Hz3_10, Hoo10⟩
  iapply (wait_ry m K c 11 _) $$ HI Hc3_11 HO Ha3_11; iintro ⟨⟨%Wy11, HO⟩, Hz3_11, Hoo11⟩
  rw [wp_ret]; imodintro; try dsimp only
  rw [wp_bind, k0_part23_eq_skeleton]; unfold k0_part23_skel
  simp only [Prog.lift, Prog.bind_op, Prog.bind_ret, Prog.pure_eq_ret]
  iapply (wait_ry m K c 12 _) $$ HI Hc3_12 HO Ha3_12; iintro ⟨⟨%Wy12, HO⟩, Hz3_12, Hoo12⟩
  iapply (wait_ry m K c 13 _) $$ HI Hc3_13 HO Ha3_13; iintro ⟨⟨%Wy13, HO⟩, Hz3_13, Hoo13⟩
  iapply (wait_ry m K c 14 _) $$ HI Hc3_14 HO Ha3_14; iintro ⟨⟨%Wy14, HO⟩, Hz3_14, Hoo14⟩
  iapply (wait_ry m K c 15 _) $$ HI Hc3_15 HO Ha3_15; iintro ⟨⟨%Wy15, HO⟩, Hz3_15, Hoo15⟩
  rw [wp_ret]; imodintro; try dsimp only
  -- the sends are waited for, chunk by chunk: every source chunk comes back and its cell closes
  rw [wp_bind, k0_part24_eq_skeleton]; unfold k0_part24_skel
  simp only [Prog.lift, Prog.bind_op, Prog.bind_ret, Prog.pure_eq_ret]
  iapply (wait_sx m K c 0 _) $$ HI Hc0_0 HO Ha0_0; iintro ⟨⟨%Wa0, HO⟩, Hz0_0, Hs0⟩
  iapply (wait_sy m K c 0 _) $$ HI Hc2_0 HO Ha2_0; iintro ⟨⟨%Wb0, HO⟩, Hz2_0, Hom0⟩
  iapply (wait_sx m K c 1 _) $$ HI Hc0_1 HO Ha0_1; iintro ⟨⟨%Wa1, HO⟩, Hz0_1, Hs1⟩
  iapply (wait_sy m K c 1 _) $$ HI Hc2_1 HO Ha2_1; iintro ⟨⟨%Wb1, HO⟩, Hz2_1, Hom1⟩
  iapply (wait_sx m K c 2 _) $$ HI Hc0_2 HO Ha0_2; iintro ⟨⟨%Wa2, HO⟩, Hz0_2, Hs2⟩
  rw [wp_ret]; imodintro; try dsimp only
  rw [wp_bind, k0_part25_eq_skeleton]; unfold k0_part25_skel
  simp only [Prog.lift, Prog.bind_op, Prog.bind_ret, Prog.pure_eq_ret]
  iapply (wait_sy m K c 2 _) $$ HI Hc2_2 HO Ha2_2; iintro ⟨⟨%Wb2, HO⟩, Hz2_2, Hom2⟩
  iapply (wait_sx m K c 3 _) $$ HI Hc0_3 HO Ha0_3; iintro ⟨⟨%Wa3, HO⟩, Hz0_3, Hs3⟩
  iapply (wait_sy m K c 3 _) $$ HI Hc2_3 HO Ha2_3; iintro ⟨⟨%Wb3, HO⟩, Hz2_3, Hom3⟩
  iapply (wait_sx m K c 4 _) $$ HI Hc0_4 HO Ha0_4; iintro ⟨⟨%Wa4, HO⟩, Hz0_4, Hs4⟩
  iapply (wait_sy m K c 4 _) $$ HI Hc2_4 HO Ha2_4; iintro ⟨⟨%Wb4, HO⟩, Hz2_4, Hom4⟩
  rw [wp_ret]; imodintro; try dsimp only
  rw [wp_bind, k0_part26_eq_skeleton]; unfold k0_part26_skel
  simp only [Prog.lift, Prog.bind_op, Prog.bind_ret, Prog.pure_eq_ret]
  iapply (wait_sx m K c 5 _) $$ HI Hc0_5 HO Ha0_5; iintro ⟨⟨%Wa5, HO⟩, Hz0_5, Hs5⟩
  iapply (wait_sy m K c 5 _) $$ HI Hc2_5 HO Ha2_5; iintro ⟨⟨%Wb5, HO⟩, Hz2_5, Hom5⟩
  iapply (wait_sx m K c 6 _) $$ HI Hc0_6 HO Ha0_6; iintro ⟨⟨%Wa6, HO⟩, Hz0_6, Hs6⟩
  iapply (wait_sy m K c 6 _) $$ HI Hc2_6 HO Ha2_6; iintro ⟨⟨%Wb6, HO⟩, Hz2_6, Hom6⟩
  iapply (wait_sx m K c 7 _) $$ HI Hc0_7 HO Ha0_7; iintro ⟨⟨%Wa7, HO⟩, Hz0_7, Hs7⟩
  iapply (wait_sy m K c 7 _) $$ HI Hc2_7 HO Ha2_7; iintro ⟨⟨%Wb7, HO⟩, Hz2_7, Hom7⟩
  rw [wp_ret]; imodintro; try dsimp only
  rw [wp_bind, k0_part27_eq_skeleton]; unfold k0_part27_skel
  simp only [Prog.lift, Prog.bind_op, Prog.bind_ret, Prog.pure_eq_ret]
  iapply (wait_sx m K c 8 _) $$ HI Hc0_8 HO Ha0_8; iintro ⟨⟨%Wa8, HO⟩, Hz0_8, Hs8⟩
  iapply (wait_sy m K c 8 _) $$ HI Hc2_8 HO Ha2_8; iintro ⟨⟨%Wb8, HO⟩, Hz2_8, Hom8⟩
  iapply (wait_sx m K c 9 _) $$ HI Hc0_9 HO Ha0_9; iintro ⟨⟨%Wa9, HO⟩, Hz0_9, Hs9⟩
  iapply (wait_sy m K c 9 _) $$ HI Hc2_9 HO Ha2_9; iintro ⟨⟨%Wb9, HO⟩, Hz2_9, Hom9⟩
  iapply (wait_sx m K c 10 _) $$ HI Hc0_10 HO Ha0_10; iintro ⟨⟨%Wa10, HO⟩, Hz0_10, Hs10⟩
  rw [wp_ret]; imodintro; try dsimp only
  rw [wp_bind, k0_part28_eq_skeleton]; unfold k0_part28_skel
  simp only [Prog.lift, Prog.bind_op, Prog.bind_ret, Prog.pure_eq_ret]
  iapply (wait_sy m K c 10 _) $$ HI Hc2_10 HO Ha2_10; iintro ⟨⟨%Wb10, HO⟩, Hz2_10, Hom10⟩
  iapply (wait_sx m K c 11 _) $$ HI Hc0_11 HO Ha0_11; iintro ⟨⟨%Wa11, HO⟩, Hz0_11, Hs11⟩
  iapply (wait_sy m K c 11 _) $$ HI Hc2_11 HO Ha2_11; iintro ⟨⟨%Wb11, HO⟩, Hz2_11, Hom11⟩
  iapply (wait_sx m K c 12 _) $$ HI Hc0_12 HO Ha0_12; iintro ⟨⟨%Wa12, HO⟩, Hz0_12, Hs12⟩
  iapply (wait_sy m K c 12 _) $$ HI Hc2_12 HO Ha2_12; iintro ⟨⟨%Wb12, HO⟩, Hz2_12, Hom12⟩
  iapply (wait_sx m K c 13 _) $$ HI Hc0_13 HO Ha0_13; iintro ⟨⟨%Wa13, HO⟩, Hz0_13, Hs13⟩
  rw [wp_ret]; imodintro; try dsimp only
  iapply (wait_sy m K c 13 _) $$ HI Hc2_13 HO Ha2_13; iintro ⟨⟨%Wb13, HO⟩, Hz2_13, Hom13⟩
  iapply (wait_sx m K c 14 _) $$ HI Hc0_14 HO Ha0_14; iintro ⟨⟨%Wa14, HO⟩, Hz0_14, Hs14⟩
  iapply (wait_sy m K c 14 _) $$ HI Hc2_14 HO Ha2_14; iintro ⟨⟨%Wb14, HO⟩, Hz2_14, Hom14⟩
  rw [wp_ret]; imodintro; try dsimp only
  iapply (wait_sx m K c 15 _) $$ HI Hc0_15 HO Ha0_15; iintro ⟨⟨%Wa15, HO⟩, Hz0_15, Hs15⟩
  iapply (wait_sy m K c 15 _) $$ HI Hc2_15 HO Ha2_15; iintro ⟨⟨%Wb15, HO⟩, Hz2_15, Hom15⟩
  rw [wp_ret]; imodintro
  -- everything is back: the buffers are whole again and the 64 transfer cells are closed
  iapply Hk
  iapply (post_intro m ρ c)
  ihave HS := (Entails.of_eq (bigSep_fin16 (fun k : Fin 16 => sPts c k fullShare.left (sxv m c))).symm) $$ [Hs0 Hs1 Hs2 Hs3 Hs4 Hs5 Hs6 Hs7 Hs8 Hs9 Hs10 Hs11 Hs12 Hs13 Hs14 Hs15]
  · iframe
  ihave HRr := (Entails.of_eq (bigSep_fin16 (fun k : Fin 16 => rPts c k (rxv m c))).symm) $$ [Hr0 Hr1 Hr2 Hr3 Hr4 Hr5 Hr6 Hr7 Hr8 Hr9 Hr10 Hr11 Hr12 Hr13 Hr14 Hr15]
  · iframe
  ihave HOM := (Entails.of_eq (bigSep_fin16 (fun k : Fin 16 => oPts c k (myY c) (outv m c))).symm) $$ [Hom0 Hom1 Hom2 Hom3 Hom4 Hom5 Hom6 Hom7 Hom8 Hom9 Hom10 Hom11 Hom12 Hom13 Hom14 Hom15]
  · iframe
  ihave HOO := (Entails.of_eq (bigSep_fin16 (fun k : Fin 16 => oPts c k (otY c) (outv m c))).symm) $$ [Hoo0 Hoo1 Hoo2 Hoo3 Hoo4 Hoo5 Hoo6 Hoo7 Hoo8 Hoo9 Hoo10 Hoo11 Hoo12 Hoo13 Hoo14 Hoo15]
  · iframe
  ihave HZ0 := (Entails.of_eq (bigSep_fin16 (fun k : Fin 16 => semVal (dCell c 0 k) 0)).symm) $$ [Hz0_0 Hz0_1 Hz0_2 Hz0_3 Hz0_4 Hz0_5 Hz0_6 Hz0_7 Hz0_8 Hz0_9 Hz0_10 Hz0_11 Hz0_12 Hz0_13 Hz0_14 Hz0_15]
  · iframe
  ihave HZ1 := (Entails.of_eq (bigSep_fin16 (fun k : Fin 16 => semVal (dCell c 1 k) 0)).symm) $$ [Hz1_0 Hz1_1 Hz1_2 Hz1_3 Hz1_4 Hz1_5 Hz1_6 Hz1_7 Hz1_8 Hz1_9 Hz1_10 Hz1_11 Hz1_12 Hz1_13 Hz1_14 Hz1_15]
  · iframe
  ihave HZ2 := (Entails.of_eq (bigSep_fin16 (fun k : Fin 16 => semVal (dCell c 2 k) 0)).symm) $$ [Hz2_0 Hz2_1 Hz2_2 Hz2_3 Hz2_4 Hz2_5 Hz2_6 Hz2_7 Hz2_8 Hz2_9 Hz2_10 Hz2_11 Hz2_12 Hz2_13 Hz2_14 Hz2_15]
  · iframe
  ihave HZ3 := (Entails.of_eq (bigSep_fin16 (fun k : Fin 16 => semVal (dCell c 3 k) 0)).symm) $$ [Hz3_0 Hz3_1 Hz3_2 Hz3_3 Hz3_4 Hz3_5 Hz3_6 Hz3_7 Hz3_8 Hz3_9 Hz3_10 Hz3_11 Hz3_12 Hz3_13 Hz3_14 Hz3_15]
  · iframe
  isplitl [HsR]; · iexact HsR
  isplitl [HS]; · iexact HS
  isplitl [HRr]; · iexact HRr
  isplitl [HOM]; · iexact HOM
  isplitl [HOO]; · iexact HOO
  isplitl [HZ0]; · iexact HZ0
  isplitl [HZ1]; · iexact HZ1
  isplitl [HZ2]; · iexact HZ2
  isplitl [HZ3]; · iexact HZ3
  isplitl [HO]; · iexists _; iexact HO
  iexact Hx

end Cert.KernelIdeal.Hand

end
-- ==== Proof.Glob.lean ====
/- The ghost state of all four devices allocated at once: every cell's round state is opened into an invariant, the
   positions stay with the cells' owners and each duty's token goes to the device that pays it. -/
import proofs.«900322_g7700000000000323_dist_rsx_agy_m512_n512_v7x_xy2x2_bf16_1_alg».proof.Proof.State
import proofs.«900322_g7700000000000323_dist_rsx_agy_m512_n512_v7x_xy2x2_bf16_1_alg».proof.Proof.Regions

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Products over the cells of one device, regrouped -/

section Reindex
variable {M : Type _} [URA M]

omit [FloatOps F] in
/-- A product over n + 1 indices: the first, then the others. -/
theorem bigSep_fin_succ {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp), bigSep_map]
  rfl

omit [FloatOps F] in
theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ

/-- Index 16 a + k of 64: chunk k of family a. -/
def i64 (a : Fin 4) (k : Fin 16) : Fin 64 := ⟨16 * a.val + k.val, by have := a.isLt; have := k.isLt; omega⟩

omit [FloatOps F] in
/-- A product over 64 indices is the product of four families of sixteen. -/
theorem bigSep_fin64 (Ψ : Fin 64 → sProp M) :
    bigSep Finset.univ Ψ = iprop((bigSep Finset.univ fun k : Fin 16 => Ψ (i64 0 k)) ∗ (bigSep Finset.univ fun k : Fin 16 => Ψ (i64 1 k))
      ∗ (bigSep Finset.univ fun k : Fin 16 => Ψ (i64 2 k)) ∗ (bigSep Finset.univ fun k : Fin 16 => Ψ (i64 3 k))) := by
  have e : ∀ (a : Fin 4) (k : Fin 16), (finProdFinEquiv (a, k) : Fin (4 * 16)) = i64 a k := fun a k =>
    Fin.ext (by show k.val + 16 * a.val = 16 * a.val + k.val; omega)
  refine (bigSep_univ_equiv (finProdFinEquiv (m := 4) (n := 16)) Ψ).trans ?_
  rw [bigSep_univ_prod, bigSep_fin4]
  simp only [e]

end Reindex

theorem jD_eq (a : Fin 4) (k : Fin 16) : jD a k = (i64 a k).succ := Fin.ext (by show 1 + 16 * a.val + k.val = 16 * a.val + k.val + 1; omega)

/-- The cell after the barrier cell at index i + 1 is own semaphore i; -/
theorem csem_succ (i : Fin 64) : csem i.succ = osem i := by
  unfold csem osem; rw [dif_neg (by simp)]; rfl
/-- own semaphore 16 a + k is transfer semaphore k of family a. -/
theorem osem_i64 (a : Fin 4) (k : Fin 16) : osem (i64 a k) = .dma (dsem a k) := by
  unfold osem; congr 1; apply Fin.ext; rw [dsem_val]; show 16 * a.val + k.val + 2 = 2 + 16 * a.val + k.val; omega
theorem kcell_zero (c : Dev nD) : kcell (c, 0) = barCell c := rfl
theorem kcell_succ (c : Dev nD) (a : Fin 4) (k : Fin 16) : kcell (c, (i64 a k).succ) = dCell c a k := by
  show ((c : Thread nD τ), csem (i64 a k).succ) = _; rw [csem_succ, osem_i64]

omit [FloatOps F] in
/-- A product over one device's 65 cells: the barrier cell, then the four families of transfer cells. -/
theorem bigSep_cells {M : Type _} [URA M] (c : Dev nD) (Φ : GSem nD τ sig → sProp M) :
    (bigSep Finset.univ fun j : Fin 65 => Φ (kcell (c, j))) = iprop(Φ (barCell c)
      ∗ (bigSep Finset.univ fun k : Fin 16 => Φ (dCell c 0 k)) ∗ (bigSep Finset.univ fun k : Fin 16 => Φ (dCell c 1 k))
      ∗ (bigSep Finset.univ fun k : Fin 16 => Φ (dCell c 2 k)) ∗ (bigSep Finset.univ fun k : Fin 16 => Φ (dCell c 3 k))) := by
  rw [bigSep_fin_succ, bigSep_fin64]
  simp only [kcell_succ]
  rfl

/-- The transfer semaphores are scoped, pairwise distinct, and none is a staging semaphore of the pipeline. -/
theorem ownSemFacts : Pipeline.OwnSemFacts cfg0.spec osem := by
  decide

theorem csem_injective : Function.Injective csem := by
  intro j j' h
  unfold csem at h
  by_cases h0 : j.val = 0 <;> by_cases h0' : j'.val = 0
  · exact Fin.ext (h0.trans h0'.symm)
  · rw [dif_pos h0, dif_neg h0'] at h; cases h
  · rw [dif_neg h0, dif_pos h0'] at h; cases h
  · rw [dif_neg h0, dif_neg h0'] at h
    have := congrArg Fin.val (SemLoc.dma.inj h)
    exact Fin.ext (by simp only [] at this; omega)

theorem kcell_injective : Function.Injective (kcell : Dev nD × Fin 65 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]
/-- All 4 × 65 cells of the protocol. -/
def allCells : Finset (GSem nD τ sig) := Finset.univ.map ⟨kcell, kcell_injective⟩

/-- A device's own cells' duty tokens as minted: (device, which duty) — 0 and 1 its barrier's false and true, 2 + j the
    one duty of its transfer cell j (j = 16 a + k). -/
def tokOf (cj : Dev nD × Fin 66) : GSem nD τ sig × ℕ × Bool :=
  if h : cj.2.val < 2 then (barCell cj.1, 0, decide (cj.2.val = 1))
  else (((cj.1 : Thread nD τ), .dma ⟨cj.2.val, cj.2.isLt⟩), 0, false)

theorem tokOf_lt (c : Dev nD) (i : Fin 66) (h : i.val < 2) : tokOf (c, i) = (barCell c, 0, decide (i.val = 1)) := dif_pos h
theorem tokOf_ge (c : Dev nD) (i : Fin 66) (h : ¬ i.val < 2) :
    tokOf (c, i) = (((c : Thread nD τ), .dma ⟨i.val, i.isLt⟩), 0, false) := dif_neg h
theorem tokOf_dev (c : Dev nD) (i : Fin 66) : (tokOf (c, i)).1.1.1 = c := by
  by_cases h : i.val < 2
  · rw [tokOf_lt c i h]
  · rw [tokOf_ge c i h]
/-- The token of index 2 + (16 a + k) is the one duty of transfer cell k of family a. -/
theorem tokOf_d (c : Dev nD) (a : Fin 4) (k : Fin 16) : tokOf (c, (i64 a k).succ.succ) = (dCell c a k, 0, false) := by
  rw [tokOf_ge c _ (by simp)]
  have e : (⟨((i64 a k).succ.succ).val, ((i64 a k).succ.succ).isLt⟩ : DmaSem sig) = dsem a k :=
    Fin.ext (by rw [dsem_val]; show 16 * a.val + k.val + 1 + 1 = 2 + 16 * a.val + k.val; omega)
  rw [e]

theorem tokOf_injective : Function.Injective (tokOf : Dev nD × Fin 66 → GSem nD τ sig × ℕ × Bool) := by
  rintro ⟨c, i⟩ ⟨c', i'⟩ h
  have h1 : c = c' := by
    have := congrArg (fun x : GSem nD τ sig × ℕ × Bool => x.1.1.1) h
    simp only [tokOf_dev] at this; exact this
  subst h1
  have hs := congrArg (fun x : GSem nD τ sig × ℕ × Bool => x.1.2) h
  have hd := congrArg (fun x : GSem nD τ sig × ℕ × Bool => x.2.2) h
  have : i = i' := by
    by_cases hi : i.val < 2 <;> by_cases hi' : i'.val < 2
    · rw [tokOf_lt c i hi, tokOf_lt c i' hi'] at hd
      have := decide_eq_decide.mp hd
      exact Fin.ext (by omega)
    · rw [tokOf_lt c i hi, tokOf_ge c i' hi'] at hs; cases hs
    · rw [tokOf_ge c i hi, tokOf_lt c i' hi'] at hs; cases hs
    · rw [tokOf_ge c i hi, tokOf_ge c i' hi'] at hs
      exact Fin.ext (congrArg Fin.val (SemLoc.dma.inj hs))
  rw [this]
def allToks : Finset (GSem nD τ sig × ℕ × Bool) := Finset.univ.map ⟨tokOf, tokOf_injective⟩

/-- The launch element: the pipeline's own cells and tokens, and the protocol's. -/
def u₀ : UU :=
  (initOf (Pipeline.cells cfgs cellOf_inj) (Pipeline.launchToks cfgs cellOf_inj), initOf allCells allToks)

/-- The duty tokens of device c's own cells. -/
def ownToks (c : Dev nD) : sProp 𝕄 :=
  iprop(dutyTok ER (barCell c) 0 false ∗ dutyTok ER (barCell c) 0 true
    ∗ (bigSep Finset.univ fun k : Fin 16 => dutyTok ER (dCell c 0 k) 0 false)
    ∗ (bigSep Finset.univ fun k : Fin 16 => dutyTok ER (dCell c 1 k) 0 false)
    ∗ (bigSep Finset.univ fun k : Fin 16 => dutyTok ER (dCell c 2 k) 0 false)
    ∗ (bigSep Finset.univ fun k : Fin 16 => dutyTok ER (dCell c 3 k) 0 false))

/-- What the launch element deals device c. -/
def G (c : Dev nD) : sProp 𝕄 :=
  iprop((bigSep Finset.univ fun j : Fin 65 => roundState ER (sched m) (kcell (c, j)) 0)
    ∗ (bigSep Finset.univ fun j : Fin 65 => iprop(atPos ER (kcell (c, j)) 0 ∅ 0 ∗ reached ER (kcell (c, j)) 0)) ∗ ownToks c)

/-- What the global step makes of it. -/
def G' (c : Dev nD) : sProp 𝕄 := iprop(∃ K, ghost m K c)

omit [FloatOps F] in
theorem allCells_sep (Φ : GSem nD τ sig → sProp 𝕄) :
    bigSep allCells Φ = bigSep Finset.univ fun c : Dev nD => bigSep Finset.univ fun j : Fin 65 => Φ (kcell (c, j)) := by
  unfold allCells; rw [bigSep_map, bigSep_univ_prod]; rfl

omit [FloatOps F] in
/-- One device's 66 minted tokens are its own cells' tokens: the barrier's two, then family by family. -/
theorem ownToks_eq (c : Dev nD) :
    (bigSep Finset.univ fun i : Fin 66 => (dutyTok ER (tokOf (c, i)).1 (tokOf (c, i)).2.1 (tokOf (c, i)).2.2 : sProp 𝕄)) = ownToks c := by
  rw [bigSep_fin_succ, bigSep_fin_succ, bigSep_fin64]
  simp only [tokOf_d]
  rfl

omit [FloatOps F] in
theorem allToks_sep :
    bigSep allToks (fun x => (dutyTok ER x.1 x.2.1 x.2.2 : sProp 𝕄)) = bigSep Finset.univ fun c : Dev nD => ownToks c := by
  unfold allToks; rw [bigSep_map, bigSep_univ_prod]
  exact bigSep_congr fun c _ => ownToks_eq c

/-- The protocol's launch element is, after an update, every cell's round state at counter zero, its owner's position,
    that round 0 is reached, and every duty's token, device by device. -/
theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (allCells_sep fun g => roundState ER (sched m) g 0)) $$ Hst
  ihave Hat' := (Entails.of_eq (allCells_sep fun g => atPos ER g 0 ∅ 0)) $$ Hat
  ihave Hr' := (Entails.of_eq (allCells_sep fun g => reached ER g 0)) $$ Hr
  ihave Htok' := (Entails.of_eq allToks_sep) $$ Htok
  unfold G; simp only [bigSep_sep']
  isplitl [Hst']; · iexact Hst'
  isplitl [Hat' Hr']
  · isplitl [Hat'] <;> iassumption
  iexact Htok'

/-- The launch element is the pipeline's and, after one update, every device's share of the protocol's. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_all m) $$ HX with HG
  imodintro
  isplitl [HP] <;> iassumption

/-! ## The counters at zero, cell by cell -/

omit [FloatOps F] in
/-- The kernel's own semaphores at zero are the four families of transfer cells' counters at zero; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 16 => semVal (dCell c 0 k) 0) ∗ (bigSep Finset.univ fun k : Fin 16 => semVal (dCell c 1 k) 0)
      ∗ (bigSep Finset.univ fun k : Fin 16 => semVal (dCell c 2 k) 0) ∗ (bigSep Finset.univ fun k : Fin 16 => semVal (dCell c 3 k) 0)) := by
  unfold Pipeline.ownSems0
  rw [bigSep_fin64]
  simp only [osem_i64]

omit [FloatOps F] in
/-- the barrier semaphore is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 65 => semVal (kcell (c, j)) 0 : sProp 𝕄) := by
  rw [ownSems0_eq, unscopedSems0_eq, bigSep_cells c (fun g => (semVal g 0 : sProp 𝕄))]
  iintro ⟨⟨H0, H1, H2, H3⟩, HB⟩
  isplitl [HB]; · iexact HB
  isplitl [H0]; · iexact H0
  isplitl [H1]; · iexact H1
  isplitl [H2]; · iexact H2
  iexact H3

/-! ## The global step -/

/-- On one device: the counters at zero and the round states open into one invariant per cell. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun j : Fin 65 => semVal (kcell (c, j)) 0) ∗ bigSep Finset.univ fun j : Fin 65 => roundState ER (sched m) (kcell (c, j)) 0)
      ⊢ (|={Set.univ}=> bigSep Finset.univ fun j : Fin 65 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to their payers: a barrier's true token to the row partner, its false token to the column partner,
    the tokens of the receive cells from the row partner to the row partner, of those from the column partner to the column
    partner; the send cells' tokens stay. Both partner maps are involutions. -/
theorem toks_around : (bigSep Finset.univ fun c : Dev nD => (ownToks c : sProp 𝕄)) ⊢ bigSep Finset.univ fun c : Dev nD => payToks c := by
  unfold ownToks payToks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => (bigSep Finset.univ fun k : Fin 16 => dutyTok ER (dCell c 1 k) 0 false : sProp 𝕄)),
    bigSep_univ_equiv ypE (fun c : Dev nD => (bigSep Finset.univ fun k : Fin 16 => dutyTok ER (dCell c 3 k) 0 false : sProp 𝕄))]
  iintro ⟨Hf, Ht, H0, H1, H2, H3⟩
  isplitl [Ht]; · iexact Ht
  isplitl [Hf]; · iexact Hf
  isplitl [H0]; · iexact H0
  isplitl [H1]; · iexact H1
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 65 → ℕ) (c : Dev nD) : iprop(records m K ∗ positions c ∗ payToks c) ⊢ G' m c := by
  unfold G' ghost
  iintro ⟨#HR, HP, HT⟩
  iexists K
  isplitr; · iexact HR
  isplitl [HP]; · iexact HP
  iexact HT

omit [FloatOps F] in
/-- One device's positions on its 65 cells, the barrier cell first and then family by family. -/
theorem positions_eq (c : Dev nD) : (bigSep Finset.univ fun j : Fin 65 => (atPos ER (kcell (c, j)) 0 ∅ 0 : sProp 𝕄)) = positions c := by
  unfold positions; rw [bigSep_cells c (fun g => (atPos ER g 0 ∅ 0 : sProp 𝕄))]

theorem regroup :
    (bigSep Finset.univ fun c : Dev nD => iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ ownToks c) : sProp 𝕄)
      ⊢ bigSep Finset.univ (G' m) := by
  rw [bigSep_sep', bigSep_sep', ← bigSep_univ_prod (fun cj : Dev nD × Fin 65 => iprop(∃ κ : ℕ, cellInv ER (sched m) κ (kcell cj))),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_univ_prod (fun cj : Dev nD × Fin 65 => (reached ER (kcell cj) 0 : sProp 𝕄))]
  iintro ⟨HI, ⟨Hat, #HR⟩, Htok⟩
  ihave HK := (BI.bigSep_exists_pi Finset.univ (fun (cj : Dev nD × Fin 65) (κ : ℕ) => (cellInv ER (sched m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 65 => (atPos ER (kcell (c, j)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: the own and the unscoped semaphores of every device at once become the invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The transfer cells' counters at zero, family by family, are the kernel's own semaphores at zero. -/
theorem ownSems0_of_families (c : Dev nD) :
    iprop((bigSep Finset.univ fun k : Fin 16 => semVal (dCell c 0 k) 0) ∗ (bigSep Finset.univ fun k : Fin 16 => semVal (dCell c 1 k) 0)
      ∗ (bigSep Finset.univ fun k : Fin 16 => semVal (dCell c 2 k) 0) ∗ (bigSep Finset.univ fun k : Fin 16 => semVal (dCell c 3 k) 0))
    ⊢ (Pipeline.ownSems0 (Ix := Unit) (Name := ℕ) (U := UU) (Lvl := ℕ) (Val := Elt F) (τ := τ) osem c : sProp 𝕄) :=
  Entails.of_eq (ownSems0_eq c).symm

end Cert.KernelIdeal.Hand

end
-- ==== Proof.Launch.lean ====
/- The launch: the one-point pipeline with the protocol's cells allocated for all devices at once; from the body's
   run, every execution on the four devices ends with each device's result buffer holding the whole sum and its
   block of x unchanged. -/
import proofs.«900322_g7700000000000323_dist_rsx_agy_m512_n512_v7x_xy2x2_bf16_1_alg».proof.Proof.Body
import proofs.«900322_g7700000000000323_dist_rsx_agy_m512_n512_v7x_xy2x2_bf16_1_alg».proof.Proof.Glob
import proofs.«900322_g7700000000000323_dist_rsx_agy_m512_n512_v7x_xy2x2_bf16_1_alg».proof.Proof.Gen.KernelIdeal.Points
import proofs.«900322_g7700000000000323_dist_rsx_agy_m512_n512_v7x_xy2x2_bf16_1_alg».proof.Proof.Gen.KernelIdeal.Frame

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

omit [FloatOps F] in
/-- The two windows conjoined one by one. -/
theorem bigSep_W (Φ : Fin cfg0.W → sProp 𝕄) : bigSep Finset.univ Φ = iprop(Φ (0 : Fin 2) ∗ Φ (1 : Fin 2)) := bigSep_W0 Φ

omit [FloatOps F] in
/-- Owning a whole buffer at contents X is holding it at some contents equal to X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device c, from the body's run. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  iintro H
  iapply (sound_body m ρ c fun _ => bodyPost m ρ c)
  isplitl [H]
  · iexact H
  · iintro H; iexact H

/-! ## The launch theorem's side conditions -/

theorem share_eq (c : Dev nD) (w : Fin cfg0.W) : (dats m ρ 0 c).share w = fullShare := by unfold Dat.share; split <;> rfl

/-- What a device's body starts from, out of what the launch hands the device: its ghost state, its launch credit
    sorted cell by cell, and the level facts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Before the point: that and the two scratch buffers, each at some contents. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨H0, H1⟩⟩
  isplitl [Hs]; · iexact Hs
  isplitl [H0]; · iexact H0
  iexact H1

/-- After the point: the 64 transfer cells are handed back at zero and the two scratch buffers at what they hold. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq]
  unfold Φ₁
  iintro ⟨Hs, Hr, H0, H1, H2, H3⟩
  isplitr; · iempintro
  isplitl [H0 H1 H2 H3]
  · iapply (ownSems0_of_families (F := F) c)
    isplitl [H0]; · iexact H0
    isplitl [H1]; · iexact H1
    isplitl [H2]; · iexact H2
    iexact H3
  isplitl [Hs]
  · iexists (sxv m c); iexact Hs
  · iexists (rxv m c); iexact Hr

/-- The pipeline's two staging cells (transfer semaphores 0 and 1) may be waited on before the body, owing everything,
    and after it, owing nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Window w's array on device c after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On the four devices, for any float values, from any memory with every counter at zero: every weakly fair execution of
    @main terminates without fault, and in every final state each window's array on each device is the pipeline's final
    array. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The array of x is never written back: after the run it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result window is written back at the one point, and its block is the whole array: after the run the array holds
    what the body left in the result buffer. -/
theorem finalA_out (c : Dev nD) : finalA m ρ c (1 : Fin 2) = outv m c := by
  have h := (dats (F := F) m ρ 0 c).arrAt_succ (1 : Fin 2) t₀
  rw [flush0_1 t₀, if_pos rfl] at h
  have hz : (fun a => win0_1.index t₀ a * main_v1.ty.shape.size a) = fun _ => 0 := funext fun a => by fin_cases a <;> rfl
  have hrd := Memref.read_access_unit_zero (Elt F) main_v1 hz (fun a => by rw [congrFun hz a]; simp) (finalA m ρ c (1 : Fin 2))
  rw [← hrd]
  show ((cfg0.win 1).blk t₀).view.read (Elt F) ((dats m ρ 0 c).arrAt 1 (t₀.val + 1)) = outv m c
  rw [h, View.read_write_univ]
  rfl

/-- Every execution of @main on the four devices terminates without fault; at the end every device's result array holds
    the whole sum as the devices' blocks give it and its block of x is unchanged. -/
theorem run_value : θ_run (defs (F := F)) (onTc (τ := τ) (main (F := F))) ⟨m, fun _ => 0, ρ⟩ (fun r => ∀ c : Dev nD,
    r.2.mem ((c.tc : Thread nD τ).loc main_v1) = outv m c
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ)

end Cert.KernelIdeal.Hand

end
-- ==== Proof.KSpec.lean ====
/- The devices form a 2 × 2 grid: device c sits at row c / 2 and column c % 2. Its row partner
   xp c holds the other half of the sum, its column partner yp c the other half of the columns.
   Each device first narrows its block of x into a scratch buffer, sends that buffer in 16 row
   chunks to its row partner, adds what arrives chunk by chunk into its own half of the columns of
   the result, and forwards each finished chunk to its column partner, which places it in the same
   columns of its own result.  This module names the partners, the chunks' rectangles and the
   contents every buffer holds at the end. -/
import proofs.«900322_g7700000000000323_dist_rsx_agy_m512_n512_v7x_xy2x2_bf16_1_alg».proof.Kernel
import proofs.«900322_g7700000000000323_dist_rsx_agy_m512_n512_v7x_xy2x2_bf16_1_alg».proof.Proof.Gen.Kernel
import proofs.«900322_g7700000000000323_dist_rsx_agy_m512_n512_v7x_xy2x2_bf16_1_alg».proof.Proof.Gen.Kernel.Skeleton
import proofs.«900322_g7700000000000323_dist_rsx_agy_m512_n512_v7x_xy2x2_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two partners of a device -/

/-- The row partner: the device in the other row of the same column. -/
def xp (c : Dev nD) : Dev nD := ⟨(c.val + 2) % 4, Nat.mod_lt _ (by decide)⟩
/-- The column partner: the device in the other column of the same row. -/
def yp (c : Dev nD) : Dev nD := ⟨c.val + 1 - 2 * (c.val % 2), by have h : c.val < 4 := c.isLt; show _ < 4; omega⟩

theorem xp_xp (c : Dev nD) : xp (xp c) = c := by revert c; decide
theorem yp_yp (c : Dev nD) : yp (yp c) = c := by revert c; decide
theorem xp_ne_yp (c : Dev nD) : xp c ≠ yp c := by revert c; decide
theorem xp_ne (c : Dev nD) : xp c ≠ c := by revert c; decide
theorem yp_ne (c : Dev nD) : yp c ≠ c := by revert c; decide
theorem xp_yp (c : Dev nD) : xp (yp c) = yp (xp c) := by revert c; decide
theorem yp_col (c : Dev nD) : (yp c).val % 2 = 1 - c.val % 2 := by revert c; decide
theorem xp_col (c : Dev nD) : (xp c).val % 2 = c.val % 2 := by revert c; decide
theorem yp_row (c : Dev nD) : (yp c).val / 2 = c.val / 2 := by revert c; decide
theorem xp_row (c : Dev nD) : (xp c).val / 2 = 1 - c.val / 2 := by revert c; decide

def xpE : Dev nD ≃ Dev nD := ⟨xp, xp, xp_xp, xp_xp⟩
def ypE : Dev nD ≃ Dev nD := ⟨yp, yp, yp_yp, yp_yp⟩

/-! ## The device the kernel addresses at each signal and copy -/

theorem dev1_eq (c : Dev nD) : (⟨k0_dev1 c, k0_dev1_lt c⟩ : Dev nD) = xp c := Fin.ext ((k0_dev1_eq c).trans (by revert c; decide))
theorem dev2_eq (c : Dev nD) : (⟨k0_dev2 c, k0_dev2_lt c⟩ : Dev nD) = yp c := Fin.ext ((k0_dev2_eq c).trans (by revert c; decide))
theorem dev3_eq (c : Dev nD) : (⟨k0_dev3 c, k0_dev3_lt c⟩ : Dev nD) = xp c := Fin.ext ((k0_dev3_eq c).trans (by revert c; decide))
theorem dev4_eq (c : Dev nD) : (⟨k0_dev4 c, k0_dev4_lt c⟩ : Dev nD) = xp c := Fin.ext ((k0_dev4_eq c).trans (by revert c; decide))
theorem dev5_eq (c : Dev nD) : (⟨k0_dev5 c, k0_dev5_lt c⟩ : Dev nD) = xp c := Fin.ext ((k0_dev5_eq c).trans (by revert c; decide))
theorem dev6_eq (c : Dev nD) : (⟨k0_dev6 c, k0_dev6_lt c⟩ : Dev nD) = xp c := Fin.ext ((k0_dev6_eq c).trans (by revert c; decide))
theorem dev7_eq (c : Dev nD) : (⟨k0_dev7 c, k0_dev7_lt c⟩ : Dev nD) = xp c := Fin.ext ((k0_dev7_eq c).trans (by revert c; decide))
theorem dev8_eq (c : Dev nD) : (⟨k0_dev8 c, k0_dev8_lt c⟩ : Dev nD) = xp c := Fin.ext ((k0_dev8_eq c).trans (by revert c; decide))
theorem dev9_eq (c : Dev nD) : (⟨k0_dev9 c, k0_dev9_lt c⟩ : Dev nD) = xp c := Fin.ext ((k0_dev9_eq c).trans (by revert c; decide))
theorem dev10_eq (c : Dev nD) : (⟨k0_dev10 c, k0_dev10_lt c⟩ : Dev nD) = xp c := Fin.ext ((k0_dev10_eq c).trans (by revert c; decide))
theorem dev11_eq (c : Dev nD) : (⟨k0_dev11 c, k0_dev11_lt c⟩ : Dev nD) = xp c := Fin.ext ((k0_dev11_eq c).trans (by revert c; decide))
theorem dev12_eq (c : Dev nD) : (⟨k0_dev12 c, k0_dev12_lt c⟩ : Dev nD) = xp c := Fin.ext ((k0_dev12_eq c).trans (by revert c; decide))
theorem dev13_eq (c : Dev nD) : (⟨k0_dev13 c, k0_dev13_lt c⟩ : Dev nD) = xp c := Fin.ext ((k0_dev13_eq c).trans (by revert c; decide))
theorem dev14_eq (c : Dev nD) : (⟨k0_dev14 c, k0_dev14_lt c⟩ : Dev nD) = xp c := Fin.ext ((k0_dev14_eq c).trans (by revert c; decide))
theorem dev15_eq (c : Dev nD) : (⟨k0_dev15 c, k0_dev15_lt c⟩ : Dev nD) = xp c := Fin.ext ((k0_dev15_eq c).trans (by revert c; decide))
theorem dev16_eq (c : Dev nD) : (⟨k0_dev16 c, k0_dev16_lt c⟩ : Dev nD) = xp c := Fin.ext ((k0_dev16_eq c).trans (by revert c; decide))
theorem dev17_eq (c : Dev nD) : (⟨k0_dev17 c, k0_dev17_lt c⟩ : Dev nD) = xp c := Fin.ext ((k0_dev17_eq c).trans (by revert c; decide))
theorem dev18_eq (c : Dev nD) : (⟨k0_dev18 c, k0_dev18_lt c⟩ : Dev nD) = xp c := Fin.ext ((k0_dev18_eq c).trans (by revert c; decide))
theorem dev19_eq (c : Dev nD) : (⟨k0_dev19 c, k0_dev19_lt c⟩ : Dev nD) = yp c := Fin.ext ((k0_dev19_eq c).trans (by revert c; decide))
theorem dev20_eq (c : Dev nD) : (⟨k0_dev20 c, k0_dev20_lt c⟩ : Dev nD) = yp c := Fin.ext ((k0_dev20_eq c).trans (by revert c; decide))
theorem dev21_eq (c : Dev nD) : (⟨k0_dev21 c, k0_dev21_lt c⟩ : Dev nD) = yp c := Fin.ext ((k0_dev21_eq c).trans (by revert c; decide))
theorem dev22_eq (c : Dev nD) : (⟨k0_dev22 c, k0_dev22_lt c⟩ : Dev nD) = yp c := Fin.ext ((k0_dev22_eq c).trans (by revert c; decide))
theorem dev23_eq (c : Dev nD) : (⟨k0_dev23 c, k0_dev23_lt c⟩ : Dev nD) = yp c := Fin.ext ((k0_dev23_eq c).trans (by revert c; decide))
theorem dev24_eq (c : Dev nD) : (⟨k0_dev24 c, k0_dev24_lt c⟩ : Dev nD) = yp c := Fin.ext ((k0_dev24_eq c).trans (by revert c; decide))
theorem dev25_eq (c : Dev nD) : (⟨k0_dev25 c, k0_dev25_lt c⟩ : Dev nD) = yp c := Fin.ext ((k0_dev25_eq c).trans (by revert c; decide))
theorem dev26_eq (c : Dev nD) : (⟨k0_dev26 c, k0_dev26_lt c⟩ : Dev nD) = yp c := Fin.ext ((k0_dev26_eq c).trans (by revert c; decide))
theorem dev27_eq (c : Dev nD) : (⟨k0_dev27 c, k0_dev27_lt c⟩ : Dev nD) = yp c := Fin.ext ((k0_dev27_eq c).trans (by revert c; decide))
theorem dev28_eq (c : Dev nD) : (⟨k0_dev28 c, k0_dev28_lt c⟩ : Dev nD) = yp c := Fin.ext ((k0_dev28_eq c).trans (by revert c; decide))
theorem dev29_eq (c : Dev nD) : (⟨k0_dev29 c, k0_dev29_lt c⟩ : Dev nD) = yp c := Fin.ext ((k0_dev29_eq c).trans (by revert c; decide))
theorem dev30_eq (c : Dev nD) : (⟨k0_dev30 c, k0_dev30_lt c⟩ : Dev nD) = yp c := Fin.ext ((k0_dev30_eq c).trans (by revert c; decide))
theorem dev31_eq (c : Dev nD) : (⟨k0_dev31 c, k0_dev31_lt c⟩ : Dev nD) = yp c := Fin.ext ((k0_dev31_eq c).trans (by revert c; decide))
theorem dev32_eq (c : Dev nD) : (⟨k0_dev32 c, k0_dev32_lt c⟩ : Dev nD) = yp c := Fin.ext ((k0_dev32_eq c).trans (by revert c; decide))
theorem dev33_eq (c : Dev nD) : (⟨k0_dev33 c, k0_dev33_lt c⟩ : Dev nD) = yp c := Fin.ext ((k0_dev33_eq c).trans (by revert c; decide))
theorem dev34_eq (c : Dev nD) : (⟨k0_dev34 c, k0_dev34_lt c⟩ : Dev nD) = yp c := Fin.ext ((k0_dev34_eq c).trans (by revert c; decide))

/-! ## The buffers and the chunks' rectangles -/

abbrev xM : Memref sig .tc .vmem S1x512x512 .f32 := Memref.whole cc0_stg0_0
abbrev oM : Memref sig .tc .vmem S512x1024 .bf16 := Memref.whole cc0_stg1_0
abbrev sM : Memref sig .tc .vmem S512x512 .bf16 := Memref.whole cc0_scratch0
abbrev rM : Memref sig .tc .vmem S512x512 .bf16 := Memref.whole cc0_scratch1

theorem rows_inb (k : Fin 16) : ∀ a, (![32 * k.val, 0] : Fin 2 → Nat) a + S32x512.size a ≤ S512x512.size a := by
  revert k; decide
/-- Rows 32 k … 32 k + 31 of a 512 × 512 scratch buffer: chunk k. -/
abbrev rowR (k : Fin 16) : Rect S512x512 := Rect.unit (s := S512x512) ![32 * k.val, 0] S32x512.size (rows_inb k)

theorem cols_inb (k : Fin 16) (y : Fin 2) : ∀ a, (![32 * k.val, 512 * y.val] : Fin 2 → Nat) a + S32x512.size a ≤ S512x1024.size a := by
  revert k y; decide
/-- Rows 32 k … 32 k + 31 and columns 512 y … 512 y + 511 of the 512 × 1024 result: chunk k of column half y. -/
abbrev colR (k : Fin 16) (y : Fin 2) : Rect S512x1024 := Rect.unit (s := S512x1024) ![32 * k.val, 512 * y.val] S32x512.size (cols_inb k y)

/-- The column half a device computes itself, and the one its column partner sends it. -/
def myY (c : Dev nD) : Fin 2 := ⟨c.val % 2, Nat.mod_lt _ (by decide)⟩
def otY (c : Dev nD) : Fin 2 := ⟨1 - c.val % 2, by omega⟩
theorem myY_yp (c : Dev nD) : myY (yp c) = otY c := by revert c; decide
theorem otY_yp (c : Dev nD) : otY (yp c) = myY c := by revert c; decide
theorem myY_xp (c : Dev nD) : myY (xp c) = myY c := by revert c; decide
theorem myY_ne_otY (c : Dev nD) : myY c ≠ otY c := by revert c; decide

/-! ## What the buffers hold -/

variable (m : (ℓ : Loc nD τ sig) → Buf (Elt F) ℓ)

/-- Device c's block of x as staged for the body. -/
def xstg (c : Dev nD) : (cc0_stg0_0 : Ref sig .tc).ty.Contents (Elt F) :=
  (win0_0.blk (0 : Fin 1)).view.read (Elt F) (m ((c : Thread nD τ).loc main_arg0))

/-- Device c's block narrowed to the 16-bit format: what its first scratch buffer holds. -/
def sxv (c : Dev nD) : (cc0_scratch0 : Ref sig .tc).ty.Contents (Elt F) := k0_pay1 (xstg m c)

/-- What device c's second scratch buffer ends up holding: its row partner's narrowed block. -/
def rxv (c : Dev nD) : (cc0_scratch1 : Ref sig .tc).ty.Contents (Elt F) := sxv m (xp c)

/-- The sum device c forms: its own narrowed block plus its row partner's, entry by entry. -/
def sumv (c : Dev nD) : FVec F S512x512 .bf16 := addf (sxv m c) (rxv m c)

/-- Column j of the result lies in column half j / 512, at column j % 512 of that half. -/
def halfIdx (i : S512x1024.Idx) : S512x512.Idx := fun a =>
  match a with
  | ⟨0, _⟩ => ⟨(i 0).val, (i 0).isLt⟩
  | ⟨1, _⟩ => ⟨(i 1).val % 512, Nat.mod_lt _ (by decide)⟩

/-- The result on device c: its own column half holds its own sum, the other half its column partner's. -/
def outv (c : Dev nD) : (cc0_stg1_0 : Ref sig .tc).ty.Contents (Elt F) := fun i =>
  if (i 1).val / 512 = c.val % 2 then sumv m c (halfIdx i) else sumv m (yp c) (halfIdx i)

end Cert.Kernel.Hand

end
-- ==== Proof.KSched.lean ====
/- The cross-device protocol, as a schedule of duties.  Every device owns one barrier cell and four
   families of sixteen transfer cells (chunk k of: the send to the row partner, the receive from the row
   partner, the send to the column partner, the receive from the column partner).  Everything happens in
   round 0.  A barrier cell has two duties of one unit: the row partner's signal brings the row partner's
   second scratch buffer (where this device will write), the column partner's signal brings the half of
   the column partner's result buffer that this device will fill.  A transfer cell has one duty, the
   chunk's credit: a send cell gives the source chunk back, a receive cell brings the destination chunk
   holding what was sent. -/
import proofs.«900322_g7700000000000323_dist_rsx_agy_m512_n512_v7x_xy2x2_bf16_1_alg».proof.Proof.KSpec

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names Bool) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

/-- The barrier semaphore of the collective. -/
abbrev barS : Sem sig := (SemArray.scalar (sig.barrier 0 rfl) : Sems sig S_).sem

/-- Transfer semaphore k of family a: 0 the send to the row partner, 1 the receive from it, 2 the send to the
    column partner, 3 the receive from it. -/
def dsem (a : Fin 4) (k : Fin 16) : DmaSem sig := ⟨2 + 16 * a.val + k.val, by have := a.isLt; have := k.isLt; show _ < 66; omega⟩

theorem dsem_val (a : Fin 4) (k : Fin 16) : (dsem a k).val = 2 + 16 * a.val + k.val := rfl
theorem dsem_inj {a a' : Fin 4} {k k' : Fin 16} (h : dsem a k = dsem a' k') : a = a' ∧ k = k' := by
  have h' : 2 + 16 * a.val + k.val = 2 + 16 * a'.val + k'.val := congrArg Fin.val h
  have := a.isLt; have := a'.isLt; have := k.isLt; have := k'.isLt
  exact ⟨Fin.ext (by omega), Fin.ext (by omega)⟩

abbrev barCell (c : Dev nD) : GSem nD τ sig := ((c : Thread nD τ), .reg barS)
abbrev dCell (c : Dev nD) (a : Fin 4) (k : Fin 16) : GSem nD τ sig := ((c : Thread nD τ), .dma (dsem a k))

/-- The family and the chunk of a transfer semaphore. -/
def famOf (q : DmaSem sig) : ℕ := (q.val - 2) / 16
def chunkOf (q : DmaSem sig) : Fin 16 := ⟨(q.val - 2) % 16, Nat.mod_lt _ (by decide)⟩
theorem famOf_dsem (a : Fin 4) (k : Fin 16) : famOf (dsem a k) = a.val := by
  unfold famOf; rw [dsem_val]; have := k.isLt; omega
theorem chunkOf_dsem (a : Fin 4) (k : Fin 16) : chunkOf (dsem a k) = k := by
  apply Fin.ext; show ((dsem a k).val - 2) % 16 = k.val
  rw [dsem_val]; have := k.isLt; omega

/-! ## The chunks as views, and ownership of them -/

abbrev sSl (k : Fin 16) : Memref sig .tc .vmem S32x512 .bf16 := sM.slice (rowR k) (fun _ => rfl)
abbrev rSl (k : Fin 16) : Memref sig .tc .vmem S32x512 .bf16 := rM.slice (rowR k) (fun _ => rfl)
abbrev oSl (k : Fin 16) (y : Fin 2) : Memref sig .tc .vmem S32x512 .bf16 := oM.slice (colR k y) (fun _ => rfl)

/-- The credit of one chunk's transfer. -/
abbrev N : ℕ := (rSl 0).view.dmaCredit

/-- Share q of chunk k of device c's first scratch buffer, holding f there. -/
def sPts (c : Dev nD) (k : Fin 16) (q : PosShare TreeShare) (f : Buf (Elt F) ((sSl k).view.loc (c : Thread nD τ))) : sProp 𝕄 :=
  (sSl k).view.loc (c : Thread nD τ) ↦[(sSl k).view.set]{q} f
/-- Chunk k of device c's second scratch buffer, holding f there. -/
def rPts (c : Dev nD) (k : Fin 16) (f : Buf (Elt F) ((rSl k).view.loc (c : Thread nD τ))) : sProp 𝕄 :=
  (rSl k).view.loc (c : Thread nD τ) ↦[(rSl k).view.set]{fullShare} f
/-- Chunk k of column half y of device c's result buffer, holding f there. -/
def oPts (c : Dev nD) (k : Fin 16) (y : Fin 2) (f : Buf (Elt F) ((oSl k y).view.loc (c : Thread nD τ))) : sProp 𝕄 :=
  (oSl k y).view.loc (c : Thread nD τ) ↦[(oSl k y).view.set]{fullShare} f

/-! ## The schedule -/

/-- What the row partner p's barrier signal hands device c: every chunk of p's second scratch buffer. -/
def barPayX (c : Dev nD) : sProp 𝕄 := bigSep Finset.univ fun k : Fin 16 => iprop(∃ f, rPts (F := F) (xp c) k f)
/-- What the column partner's barrier signal hands device c: every chunk of the column half of the partner's
    result buffer that c computes. -/
def barPayY (c : Dev nD) : sProp 𝕄 := bigSep Finset.univ fun k : Fin 16 => iprop(∃ f, oPts (F := F) (yp c) k (myY c) f)

/-- The payload of transfer semaphore q of device c. -/
def dmaPay (c : Dev nD) (q : DmaSem sig) : sProp 𝕄 :=
  if q.val < 2 then iprop(emp)
  else if q.val < 18 then sPts c (chunkOf q) fullShare.left (sxv m c)
  else if q.val < 34 then rPts c (chunkOf q) (rxv m c)
  else if q.val < 50 then oPts c (chunkOf q) (myY c) (outv m c)
  else oPts c (chunkOf q) (otY c) (outv m c)

def semPay (c : Dev nD) : SemLoc sig → Bool → sProp 𝕄
  | .reg _, d => if d then barPayX c else barPayY c
  | .dma q, _ => dmaPay m c q

def semDuties : SemLoc sig → Finset Bool
  | .reg _ => Finset.univ
  | .dma q => if 2 ≤ q.val then {false} else ∅

def semAmount : SemLoc sig → ℕ
  | .reg _ => 1
  | .dma _ => N

/-- One round, round 0. -/
def sched : Rounds.Schedule (GSem nD τ sig) Bool 𝕄 where
  duties g r := if r = 0 ∧ g.1.2 = .tc then semDuties g.2 else ∅
  unitless _ := False
  amount g _ _ := semAmount g.2
  payload g _ d := semPay m g.1.1 g.2 d
  amount_pos g _ _ _ := by
    cases g.2 with
    | reg _ => exact Nat.one_pos
    | dma _ => exact View.dmaCredit_pos _ (by decide)

/-! ## The schedule's tables, cell by cell -/

section Tables
variable (c : Dev nD) (a : Fin 4) (k : Fin 16)

theorem dsem_ge (a : Fin 4) (k : Fin 16) : 2 ≤ (dsem a k).val := by rw [dsem_val]; omega

theorem duties_bar : (sched (F := F) m).duties (barCell c) 0 = Finset.univ := by
  dsimp only [sched]; rw [if_pos ⟨rfl, rfl⟩]; rfl
theorem duties_d : (sched (F := F) m).duties (dCell c a k) 0 = {false} := by
  dsimp only [sched]; rw [if_pos ⟨rfl, rfl⟩]; show (if 2 ≤ (dsem a k).val then ({false} : Finset Bool) else ∅) = _
  rw [if_pos (dsem_ge a k)]
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_d (d : Bool) : (sched (F := F) m).amount (dCell c a k) 0 d = N := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (sched (F := F) m).expect (dCell c a k) 0 = N := by
  unfold Schedule.expect Schedule.amountOf; rw [duties_d, Finset.sum_singleton, amount_d]

theorem payload_bar_true : (sched (F := F) m).payload (barCell c) 0 true = barPayX c := rfl
theorem payload_bar_false : (sched (F := F) m).payload (barCell c) 0 false = barPayY c := rfl

theorem dmaPay_0 : dmaPay m c (dsem 0 k) = sPts c k fullShare.left (sxv m c) := by
  unfold dmaPay; have h := dsem_val 0 k; have := k.isLt
  rw [if_neg (by omega), if_pos (by rw [h]; show 2 + 16 * 0 + k.val < 18; omega), chunkOf_dsem]
theorem dmaPay_1 : dmaPay m c (dsem 1 k) = rPts c k (rxv m c) := by
  unfold dmaPay; have h := dsem_val 1 k; have := k.isLt
  rw [if_neg (by omega), if_neg (by rw [h]; show ¬ 2 + 16 * 1 + k.val < 18; omega), if_pos (by rw [h]; show 2 + 16 * 1 + k.val < 34; omega), chunkOf_dsem]
theorem dmaPay_2 : dmaPay m c (dsem 2 k) = oPts c k (myY c) (outv m c) := by
  unfold dmaPay; have h := dsem_val 2 k; have := k.isLt
  rw [if_neg (by omega), if_neg (by rw [h]; show ¬ 2 + 16 * 2 + k.val < 18; omega), if_neg (by rw [h]; show ¬ 2 + 16 * 2 + k.val < 34; omega),
    if_pos (by rw [h]; show 2 + 16 * 2 + k.val < 50; omega), chunkOf_dsem]
theorem dmaPay_3 : dmaPay m c (dsem 3 k) = oPts c k (otY c) (outv m c) := by
  unfold dmaPay; have h := dsem_val 3 k; have := k.isLt
  rw [if_neg (by omega), if_neg (by rw [h]; show ¬ 2 + 16 * 3 + k.val < 18; omega), if_neg (by rw [h]; show ¬ 2 + 16 * 3 + k.val < 34; omega),
    if_neg (by rw [h]; show ¬ 2 + 16 * 3 + k.val < 50; omega), chunkOf_dsem]

theorem payload_sx (d : Bool) : (sched m).payload (dCell c 0 k) 0 d = sPts c k fullShare.left (sxv m c) := dmaPay_0 m c k
theorem payload_rx (d : Bool) : (sched m).payload (dCell c 1 k) 0 d = rPts c k (rxv m c) := dmaPay_1 m c k
theorem payload_sy (d : Bool) : (sched m).payload (dCell c 2 k) 0 d = oPts c k (myY c) (outv m c) := dmaPay_2 m c k
theorem payload_ry (d : Bool) : (sched m).payload (dCell c 3 k) 0 d = oPts c k (otY c) (outv m c) := dmaPay_3 m c k

/-- The rest of the barrier cell's round, no duty taken: the column partner's payload and the row partner's. -/
theorem rest_bar : bigSep ((sched m).duties (barCell c) 0 \ ∅) (fun d => (sched m).payload (barCell c) 0 d) = iprop(barPayY (F := F) c ∗ barPayX (F := F) c) := by
  rw [Finset.sdiff_empty, duties_bar, bigSep_univ_eq_bigSepL [false, true] (by decide) (by decide), bigSepL_cons_cons, bigSepL_singleton,
    payload_bar_false, payload_bar_true]
  rfl
theorem rest_sx : bigSep ((sched m).duties (dCell c 0 k) 0 \ ∅) (fun d => (sched m).payload (dCell c 0 k) 0 d) = sPts c k fullShare.left (sxv m c) := by
  rw [Finset.sdiff_empty, duties_d, bigSep_singleton, payload_sx]
theorem rest_rx : bigSep ((sched m).duties (dCell c 1 k) 0 \ ∅) (fun d => (sched m).payload (dCell c 1 k) 0 d) = rPts c k (rxv m c) := by
  rw [Finset.sdiff_empty, duties_d, bigSep_singleton, payload_rx]
theorem rest_sy : bigSep ((sched m).duties (dCell c 2 k) 0 \ ∅) (fun d => (sched m).payload (dCell c 2 k) 0 d) = oPts c k (myY c) (outv m c) := by
  rw [Finset.sdiff_empty, duties_d, bigSep_singleton, payload_sy]
theorem rest_ry : bigSep ((sched m).duties (dCell c 3 k) 0 \ ∅) (fun d => (sched m).payload (dCell c 3 k) 0 d) = oPts c k (otY c) (outv m c) := by
  rw [Finset.sdiff_empty, duties_d, bigSep_singleton, payload_ry]

end Tables

instance sPts_storable (c : Dev nD) (k : Fin 16) (q) (f) : BI.Storable (upEmb : UEmb _ 𝕄) (sPts (F := F) c k q f) := by unfold sPts; infer_instance
instance rPts_storable (c : Dev nD) (k : Fin 16) (f) : BI.Storable (upEmb : UEmb _ 𝕄) (rPts (F := F) c k f) := by unfold rPts; infer_instance
instance oPts_storable (c : Dev nD) (k : Fin 16) (y : Fin 2) (f) : BI.Storable (upEmb : UEmb _ 𝕄) (oPts (F := F) c k y f) := by unfold oPts; infer_instance

instance barPayX_storable (c : Dev nD) : BI.Storable (upEmb : UEmb _ 𝕄) (barPayX (F := F) c) := by unfold barPayX; infer_instance
instance barPayY_storable (c : Dev nD) : BI.Storable (upEmb : UEmb _ 𝕄) (barPayY (F := F) c) := by unfold barPayY; infer_instance
instance dmaPay_storable (c : Dev nD) (q : DmaSem sig) : BI.Storable (upEmb : UEmb _ 𝕄) (dmaPay m c q) := by
  unfold dmaPay; (repeat' split) <;> infer_instance

instance sched_payload_storable (g : GSem nD τ sig) (r : ℕ) (d : Bool) :
    BI.Storable (upEmb : UEmb _ 𝕄) ((sched (F := F) m).payload g r d) := by
  show BI.Storable upEmb (semPay m g.1.1 g.2 d)
  cases g.2 with
  | reg s => cases d <;> (unfold semPay; simp only [Bool.false_eq_true, if_true, if_false]; infer_instance)
  | dma q => unfold semPay; infer_instance

end Cert.Kernel.Hand

end
-- ==== Proof.KState.lean ====
/- What a device owes its partners and at which level each cell is waited on; the ghost state a device's
   body starts from and ends with; the proof data of the one-point pipeline; and the statement of the
   body's run. -/
import proofs.«900322_g7700000000000323_dist_rsx_agy_m512_n512_v7x_xy2x2_bf16_1_alg».proof.Proof.KSched

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## What a device owes -/

/-- f i + … + f (i + n - 1), the summand of the smallest index written last. -/
def tailSum (f : ℕ → CellTallies nD τ sig Unit) : ℕ → ℕ → CellTallies nD τ sig Unit
  | _, 0 => 0
  | i, n + 1 => tailSum f (i + 1) n + f i

/-- Chunk j of 16. -/
def fk (j : ℕ) : Fin 16 := ⟨j % 16, Nat.mod_lt _ (by decide)⟩

/-- The credit of chunk j owed to the row partner's receive cell, and to the column partner's. -/
def OXf (c : Dev nD) (j : ℕ) : CellTallies nD τ sig Unit := tallyAt (dCell (xp c) 1 (fk j)) () N
def OYf (c : Dev nD) (j : ℕ) : CellTallies nD τ sig Unit := tallyAt (dCell (yp c) 3 (fk j)) () N
/-- Chunks i … 15 still owed to the row partner, to the column partner. -/
def OX (c : Dev nD) (i : ℕ) : CellTallies nD τ sig Unit := tailSum (OXf c) i (16 - i)
def OY (c : Dev nD) (i : ℕ) : CellTallies nD τ sig Unit := tailSum (OYf c) i (16 - i)

/-- After both barrier signals: all 32 chunk credits. -/
def O₂ (c : Dev nD) : CellTallies nD τ sig Unit := OY c 0 + OX c 0
/-- After the first signal (to the row partner): those and the column partner's barrier unit. -/
def O₁ (c : Dev nD) : CellTallies nD τ sig Unit := O₂ c + tallyAt (barCell (yp c)) () 1
/-- At launch: those and the row partner's barrier unit. -/
def O₀ (c : Dev nD) : CellTallies nD τ sig Unit := O₁ c + tallyAt (barCell (xp c)) () 1

/-! ## Levels: a barrier cell below the receive cells from the row partner, those below the receive cells from
    the column partner; the send cells and the pipeline's staging cells at the bottom -/

def L (g : GSem nD τ sig) : Finset Unit := if g.1.2 = .tc then {()} else ∅
def semLv : SemLoc sig → ℕ
  | .reg _ => 1
  | .dma q => if 18 ≤ q.val ∧ q.val < 34 then 2 else if 50 ≤ q.val then 3 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- Every cell of the protocol, by device and index: 0 the barrier cell, 1 + 16 a + k transfer cell k of family a. -/
def csem (j : Fin 65) : SemLoc sig := if h : j.val = 0 then .reg barS else .dma ⟨j.val + 1, by have := j.isLt; show _ < 66; omega⟩
abbrev kcell (cj : Dev nD × Fin 65) : GSem nD τ sig := ((cj.1 : Thread nD τ), csem cj.2)
/-- The kernel's own (scoped) semaphores: the 64 transfer semaphores. -/
def osem (i : Fin 64) : SemLoc sig := .dma ⟨i.val + 2, by have := i.isLt; show _ < 66; omega⟩

/-- The index of the barrier cell and of a transfer cell. -/
def jBar : Fin 65 := 0
def jD (a : Fin 4) (k : Fin 16) : Fin 65 := ⟨1 + 16 * a.val + k.val, by have := a.isLt; have := k.isLt; omega⟩
theorem csem_jBar : csem jBar = .reg barS := rfl
theorem csem_jD (a : Fin 4) (k : Fin 16) : csem (jD a k) = .dma (dsem a k) := by
  unfold csem jD dsem; rw [dif_neg (by simp only []; omega)]; congr 1; apply Fin.ext; simp only []; omega

/-- Every cell's invariant, under the names they were allocated at, and that every cell has reached round 0. -/
def records (K : Dev nD × Fin 65 → ℕ) : sProp 𝕄 :=
  iprop((bigSep Finset.univ fun cj : Dev nD × Fin 65 => cellInv ER (sched m) (K cj) (kcell cj))
    ∗ bigSep Finset.univ fun cj : Dev nD × Fin 65 => reached ER (kcell cj) 0)

instance records_persistent (K : Dev nD × Fin 65 → ℕ) : BI.Persistent (records m K) := by unfold records; infer_instance

/-- A device's positions on its own cells. -/
def positions (c : Dev nD) : sProp 𝕄 :=
  iprop(atPos ER (barCell c) 0 ∅ 0
    ∗ (bigSep Finset.univ fun k : Fin 16 => atPos ER (dCell c 0 k) 0 ∅ 0)
    ∗ (bigSep Finset.univ fun k : Fin 16 => atPos ER (dCell c 1 k) 0 ∅ 0)
    ∗ (bigSep Finset.univ fun k : Fin 16 => atPos ER (dCell c 2 k) 0 ∅ 0)
    ∗ (bigSep Finset.univ fun k : Fin 16 => atPos ER (dCell c 3 k) 0 ∅ 0))

/-- The tokens of the duties a device pays: its row partner's barrier duty true, its column partner's barrier duty
    false; per chunk its own two send duties and its partners' two receive duties. -/
def payToks (c : Dev nD) : sProp 𝕄 :=
  iprop(dutyTok ER (barCell (xp c)) 0 true ∗ dutyTok ER (barCell (yp c)) 0 false
    ∗ (bigSep Finset.univ fun k : Fin 16 => dutyTok ER (dCell c 0 k) 0 false)
    ∗ (bigSep Finset.univ fun k : Fin 16 => dutyTok ER (dCell (xp c) 1 k) 0 false)
    ∗ (bigSep Finset.univ fun k : Fin 16 => dutyTok ER (dCell c 2 k) 0 false)
    ∗ (bigSep Finset.univ fun k : Fin 16 => dutyTok ER (dCell (yp c) 3 k) 0 false))

def ghost (K : Dev nD × Fin 65 → ℕ) (c : Dev nD) : sProp 𝕄 := iprop(records m K ∗ positions c ∗ payToks c)

/-- The credit a device is dealt at launch: its barrier's two units and each of its 32 receive cells' chunk credit. -/
def launchCreds (c : Dev nD) : sProp 𝕄 :=
  iprop(cred (tallyAt (barCell c) () 2)
    ∗ (bigSep Finset.univ fun k : Fin 16 => cred (tallyAt (dCell c 1 k) () N))
    ∗ (bigSep Finset.univ fun k : Fin 16 => cred (tallyAt (dCell c 3 k) () N)))

/-- What a device's body starts from, besides its buffers. -/
def start (c : Dev nD) : sProp 𝕄 := iprop((∃ K, ghost m K c) ∗ launchCreds c ∗ levAts L lv)

/-- Before the point: that and the two scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After the point: the scratch buffers holding the device's narrowed block and its row partner's, and the 64
    transfer cells closed, their counters at zero. -/
def Φ₁ (c : Dev nD) : sProp 𝕄 :=
  iprop((((c : Thread nD τ).loc cc0_scratch0) ↦{fullShare} sxv m c) ∗ (((c : Thread nD τ).loc cc0_scratch1) ↦{fullShare} rxv m c)
    ∗ (bigSep Finset.univ fun k : Fin 16 => semVal (dCell c 0 k) 0)
    ∗ (bigSep Finset.univ fun k : Fin 16 => semVal (dCell c 1 k) 0)
    ∗ (bigSep Finset.univ fun k : Fin 16 => semVal (dCell c 2 k) 0)
    ∗ (bigSep Finset.univ fun k : Fin 16 => semVal (dCell c 3 k) 0))

/-! ## The pipeline's proof data: one point; window 0 stages the device's block of x, window 1 the result -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's run, stated -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m c) ∗ stg c cc0_stg1_0 (outv m c))

end Cert.Kernel.Hand

end
-- ==== Proof.KLevels.lean ====
/- The deadlock argument's arithmetic: what a device still owes when it waits on each kind of cell lies strictly
   above that cell in level, and the credit the launch deals a device is exactly what its partners owe its cells. -/
import proofs.«900322_g7700000000000323_dist_rsx_agy_m512_n512_v7x_xy2x2_bf16_1_alg».proof.Proof.KState

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The owed sums, one chunk at a time -/

theorem tailSum_zero (f : ℕ → CellTallies nD τ sig Unit) (i : ℕ) : tailSum f i 0 = 0 := rfl
theorem tailSum_succ (f : ℕ → CellTallies nD τ sig Unit) (i n : ℕ) : tailSum f i (n + 1) = tailSum f (i + 1) n + f i := rfl

/-- The value of a tail sum at a cell is the sum of the summands' values there. -/
theorem tailSum_apply (f : ℕ → CellTallies nD τ sig Unit) (g : GSem nD τ sig) (u : Unit) :
    ∀ (n i : ℕ), tailSum f i n g u = ∑ j ∈ Finset.range n, f (i + j) g u
  | 0, i => by rw [tailSum_zero, Finset.range_zero, Finset.sum_empty]; rfl
  | n + 1, i => by
    rw [tailSum_succ, Pi.add_apply, Finsupp.add_apply, tailSum_apply f g u n (i + 1), Finset.sum_range_succ', Nat.add_zero]
    congr 1
    exact Finset.sum_congr rfl fun j _ => by rw [Nat.add_assoc, Nat.add_comm 1 j]

/-- A positive tail sum has a positive summand. -/
theorem tailSum_pos (f : ℕ → CellTallies nD τ sig Unit) {g : GSem nD τ sig} {u : Unit} {n i : ℕ} (h : 0 < tailSum f i n g u) :
    ∃ j, 0 < f j g u := by
  rw [tailSum_apply] at h
  by_contra hn
  rw [not_exists] at hn
  rw [Finset.sum_eq_zero fun j _ => Nat.eq_zero_of_not_pos (hn (i + j))] at h
  exact Nat.lt_irrefl 0 h

theorem OX_succ (c : Dev nD) (i : ℕ) (h : i < 16) : OX c i = OX c (i + 1) + tallyAt (dCell (xp c) 1 (fk i)) () N := by
  show tailSum (OXf c) i (16 - i) = tailSum (OXf c) (i + 1) (16 - (i + 1)) + OXf c i
  rw [show 16 - i = (16 - (i + 1)) + 1 from by omega, tailSum_succ]
theorem OY_succ (c : Dev nD) (i : ℕ) (h : i < 16) : OY c i = OY c (i + 1) + tallyAt (dCell (yp c) 3 (fk i)) () N := by
  show tailSum (OYf c) i (16 - i) = tailSum (OYf c) (i + 1) (16 - (i + 1)) + OYf c i
  rw [show 16 - i = (16 - (i + 1)) + 1 from by omega, tailSum_succ]
theorem OX_16 (c : Dev nD) : OX c 16 = 0 := rfl
theorem OY_16 (c : Dev nD) : OY c 16 = 0 := rfl

/-- A cell the remaining chunk credits name is a receive cell of the row partner, of the column partner. -/
theorem OX_pos {c : Dev nD} {i : ℕ} {g : GSem nD τ sig} {u : Unit} (h : 0 < OX c i g u) : ∃ k : Fin 16, g = dCell (xp c) 1 k := by
  obtain ⟨j, hj⟩ := tailSum_pos (OXf c) h
  unfold OXf at hj
  rw [tallyAt_apply] at hj
  by_cases hg : g = dCell (xp c) 1 (fk j) ∧ u = ()
  · exact ⟨fk j, hg.1⟩
  · rw [if_neg hg] at hj; exact absurd hj (Nat.lt_irrefl 0)
theorem OY_pos {c : Dev nD} {i : ℕ} {g : GSem nD τ sig} {u : Unit} (h : 0 < OY c i g u) : ∃ k : Fin 16, g = dCell (yp c) 3 k := by
  obtain ⟨j, hj⟩ := tailSum_pos (OYf c) h
  unfold OYf at hj
  rw [tallyAt_apply] at hj
  by_cases hg : g = dCell (yp c) 3 (fk j) ∧ u = ()
  · exact ⟨fk j, hg.1⟩
  · rw [if_neg hg] at hj; exact absurd hj (Nat.lt_irrefl 0)

/-- What a device owes after both barrier signals names receive cells of its two partners only. -/
theorem O₂_pos {c : Dev nD} {g : GSem nD τ sig} {u : Unit} (h : 0 < O₂ c g u) :
    (∃ k : Fin 16, g = dCell (yp c) 3 k) ∨ (∃ k : Fin 16, g = dCell (xp c) 1 k) := by
  unfold O₂ at h
  rw [Pi.add_apply, Finsupp.add_apply] at h
  rcases Nat.add_pos_iff_pos_or_pos.mp h with h | h
  · exact .inl (OY_pos h)
  · exact .inr (OX_pos h)

/-- What a device owes at launch names those and its two partners' barrier cells. -/
theorem O₀_pos {c : Dev nD} {g : GSem nD τ sig} {u : Unit} (h : 0 < O₀ c g u) :
    (∃ k : Fin 16, g = dCell (yp c) 3 k) ∨ (∃ k : Fin 16, g = dCell (xp c) 1 k) ∨ g = barCell (yp c) ∨ g = barCell (xp c) := by
  unfold O₀ O₁ at h
  rw [Pi.add_apply, Finsupp.add_apply, Pi.add_apply, Finsupp.add_apply, tallyAt_apply, tallyAt_apply] at h
  rcases Nat.add_pos_iff_pos_or_pos.mp h with h | h
  · rcases Nat.add_pos_iff_pos_or_pos.mp h with h | h
    · rcases O₂_pos h with h | h
      · exact .inl h
      · exact .inr (.inl h)
    · by_cases hg : g = barCell (yp c) ∧ u = ()
      · exact .inr (.inr (.inl hg.1))
      · rw [if_neg hg] at h; exact absurd h (Nat.lt_irrefl 0)
  · by_cases hg : g = barCell (xp c) ∧ u = ()
    · exact .inr (.inr (.inr hg.1))
    · rw [if_neg hg] at h; exact absurd h (Nat.lt_irrefl 0)

/-! ## The levels of the cells -/

theorem semLv_rx (k : Fin 16) : semLv (.dma (dsem 1 k)) = 2 := by
  have h : (dsem 1 k).val = 2 + 16 * 1 + k.val := dsem_val 1 k
  have := k.isLt
  show (if 18 ≤ (dsem 1 k).val ∧ (dsem 1 k).val < 34 then 2 else if 50 ≤ (dsem 1 k).val then 3 else 0) = 2
  rw [if_pos ⟨by omega, by omega⟩]
theorem semLv_ry (k : Fin 16) : semLv (.dma (dsem 3 k)) = 3 := by
  have h : (dsem 3 k).val = 2 + 16 * 3 + k.val := dsem_val 3 k
  have := k.isLt
  show (if 18 ≤ (dsem 3 k).val ∧ (dsem 3 k).val < 34 then 2 else if 50 ≤ (dsem 3 k).val then 3 else 0) = 3
  rw [if_neg (fun h' => by omega), if_pos (by omega)]
theorem semLv_stage (q : DmaSem sig) (hq : q.val < 2) : semLv (.dma q) = 0 := by
  show (if 18 ≤ q.val ∧ q.val < 34 then 2 else if 50 ≤ q.val then 3 else 0) = 0
  rw [if_neg (fun h' => by omega), if_neg (by omega)]

theorem lv_bar (c : Dev nD) (u : Unit) : lv (barCell c) u = 1 := rfl
theorem lv_rx (c : Dev nD) (k : Fin 16) (u : Unit) : lv (dCell c 1 k) u = 2 := semLv_rx k
theorem lv_ry (c : Dev nD) (k : Fin 16) (u : Unit) : lv (dCell c 3 k) u = 3 := semLv_ry k

theorem mem_L_tc (c : Dev nD) (sm : SemLoc sig) (u : Unit) : u ∈ L ((c : Thread nD τ), sm) := by
  rw [L_tc]; exact Finset.mem_singleton_self _

/-! ## Waiting while owing -/

/-- At its barrier wait a device owes the 32 chunk credits: receive cells, all above a barrier cell. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp]; exact mem_L_tc c _ _)
    (fun g u hg => by
      rcases O₂_pos hg with ⟨k, rfl⟩ | ⟨k, rfl⟩
      · exact mem_L_tc _ _ _
      · exact mem_L_tc _ _ _)
    (fun p hp => by rw [Finset.mem_singleton.mp hp]; exact Nat.le_refl 1)
    (fun g u hg => by
      rcases O₂_pos hg with ⟨k, rfl⟩ | ⟨k, rfl⟩
      · rw [lv_ry]; decide
      · rw [lv_rx]; decide)

/-- At a wait on a receive cell from its row partner a device owes only credits to its column partner's receive cells. -/
theorem mayWait_rx (c : Dev nD) (k : Fin 16) (i : ℕ) : (levAts L lv : sProp 𝕄) ⊢ MayWait (c : Thread nD τ) (.dma (dsem 1 k)) () (OY c i) :=
  MayOwe.of_cut (L := L) (lev := lv) 2 (fun p hp => by rw [Finset.mem_singleton.mp hp]; exact mem_L_tc c _ _)
    (fun g u hg => by
      obtain ⟨k', rfl⟩ := OY_pos hg
      exact mem_L_tc _ _ _)
    (fun p hp => by rw [Finset.mem_singleton.mp hp]; exact Nat.le_of_eq (lv_rx c k ()))
    (fun g u hg => by
      obtain ⟨k', rfl⟩ := OY_pos hg
      rw [lv_ry]; decide)

/-- The pipeline's staging cells are waited on while owing everything (before the body) or nothing (after it). -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L_tc c _ _)
      (fun g u hg => by
        rcases O₀_pos hg with ⟨k, rfl⟩ | ⟨k, rfl⟩ | rfl | rfl <;> exact mem_L_tc _ _ _)
      (fun p hp => by rw [Finset.mem_singleton.mp hp]; exact Nat.le_of_eq (semLv_stage q hq))
      (fun g u hg => by
        rcases O₀_pos hg with ⟨k, rfl⟩ | ⟨k, rfl⟩ | rfl | rfl
        · rw [lv_ry]; decide
        · rw [lv_rx]; decide
        · rw [lv_bar]; decide
        · rw [lv_bar]; decide)
  · rw [MayWait_zero]; iintro -; iempintro

/-! ## The launch credit -/

/-- A tail sum is the finite sum of its summands. -/
theorem tailSum_eq_sum (f : ℕ → CellTallies nD τ sig Unit) : ∀ (n i : ℕ), tailSum f i n = ∑ j ∈ Finset.range n, f (i + j)
  | 0, i => by rw [tailSum_zero, Finset.range_zero, Finset.sum_empty]
  | n + 1, i => by
    rw [tailSum_succ, tailSum_eq_sum f n (i + 1), Finset.sum_range_succ', Nat.add_zero]
    congr 1
    exact Finset.sum_congr rfl fun j _ => by rw [Nat.add_assoc, Nat.add_comm 1 j]

theorem fk_val (k : Fin 16) : fk k.val = k := Fin.ext (Nat.mod_eq_of_lt k.isLt)

/-- All sixteen chunk credits a device owes its row partner, its column partner, as sums over the chunks. -/
theorem OX_eq (d : Dev nD) : OX d 0 = ∑ k : Fin 16, tallyAt (dCell (xp d) 1 k) () N := by
  show tailSum (OXf d) 0 16 = _
  rw [tailSum_eq_sum, ← Fin.sum_univ_eq_sum_range (fun j => OXf d (0 + j)) 16]
  exact Finset.sum_congr rfl fun k _ => by unfold OXf; rw [Nat.zero_add, fk_val]
theorem OY_eq (d : Dev nD) : OY d 0 = ∑ k : Fin 16, tallyAt (dCell (yp d) 3 k) () N := by
  show tailSum (OYf d) 0 16 = _
  rw [tailSum_eq_sum, ← Fin.sum_univ_eq_sum_range (fun j => OYf d (0 + j)) 16]
  exact Finset.sum_congr rfl fun k _ => by unfold OYf; rw [Nat.zero_add, fk_val]

/-- When every device owes n units to one semaphore of its partner under an involution, the launch deals each
    device n units of credit on that semaphore of its own: its partner's. -/
theorem launchCred_partner (π : Dev nD → Dev nD) (hπ : ∀ c, π (π c) = c) (sm : SemLoc sig) (n : ℕ) (c : Dev nD) :
    (Pipeline.launchCred (fun d => tallyAt (((π d : Dev nD) : Thread nD τ), sm) () n) c : sProp 𝕄) ⊢ cred (tallyAt ((c : Thread nD τ), sm) () n) := by
  refine (Pipeline.launchCred_elim _ c sm).trans (Entails.of_eq (congrArg cred ?_))
  refine congrArg (tallyOn _) (Finsupp.ext fun u => ?_)
  cases u
  rw [Pipeline.launchCredit_owing, Finsupp.single_eq_same, Finset.sum_eq_single (π c)]
  · rw [hπ]; exact tallyAt_self _ _ _
  · intro d _ hd
    have hne : (((c : Dev nD) : Thread nD τ), sm) ≠ (((π d : Dev nD) : Thread nD τ), sm) := fun h =>
      hd (by
        have h1 : c = π d := Fin.ext (congrArg (fun g : GSem nD τ sig => g.1.1.val) h)
        rw [h1, hπ])
    rw [tallyAt_ne_cell hne]; rfl
  · intro h; exact absurd (Finset.mem_univ _) h

theorem credsX (c : Dev nD) :
    (Pipeline.launchCred (fun d => OX d 0) c : sProp 𝕄) ⊢ bigSep Finset.univ fun k : Fin 16 => cred (tallyAt (dCell c 1 k) () N) := by
  rw [show (fun d : Dev nD => OX d 0) = fun d => ∑ k ∈ (Finset.univ : Finset (Fin 16)), tallyAt (dCell (xp d) 1 k) () N from funext OX_eq,
    Pipeline.launchCred_sum Finset.univ (fun (k : Fin 16) (d : Dev nD) => tallyAt (dCell (xp d) 1 k) () N) c]
  exact bigSep_mono fun k _ => launchCred_partner xp xp_xp (.dma (dsem 1 k)) N c
theorem credsY (c : Dev nD) :
    (Pipeline.launchCred (fun d => OY d 0) c : sProp 𝕄) ⊢ bigSep Finset.univ fun k : Fin 16 => cred (tallyAt (dCell c 3 k) () N) := by
  rw [show (fun d : Dev nD => OY d 0) = fun d => ∑ k ∈ (Finset.univ : Finset (Fin 16)), tallyAt (dCell (yp d) 3 k) () N from funext OY_eq,
    Pipeline.launchCred_sum Finset.univ (fun (k : Fin 16) (d : Dev nD) => tallyAt (dCell (yp d) 3 k) () N) c]
  exact bigSep_mono fun k _ => launchCred_partner yp yp_yp (.dma (dsem 3 k)) N c

/-- The launch credit under what the devices owe at launch, summand by summand. -/
theorem launchCred_O₀ (c : Dev nD) :
    (Pipeline.launchCred O₀ c : sProp 𝕄)
      = iprop(((Pipeline.launchCred (fun d => OY d 0) c ∗ Pipeline.launchCred (fun d => OX d 0) c)
          ∗ Pipeline.launchCred (fun d => tallyAt (barCell (yp d)) () 1) c)
          ∗ Pipeline.launchCred (fun d => tallyAt (barCell (xp d)) () 1) c) := by
  rw [← Pipeline.launchCred_add (fun d => OY d 0) (fun d => OX d 0) c,
    ← Pipeline.launchCred_add (fun d => OY d 0 + OX d 0) (fun d => tallyAt (barCell (yp d)) () 1) c,
    ← Pipeline.launchCred_add (fun d => OY d 0 + OX d 0 + tallyAt (barCell (yp d)) () 1) (fun d => tallyAt (barCell (xp d)) () 1) c] <;> rfl

/-- What the launch deals a device in credit is its barrier's two units and its 32 receive cells' chunk credits. -/
theorem creds (c : Dev nD) : (Pipeline.launchCred O₀ c : sProp 𝕄) ⊢ launchCreds (F := F) c := by
  rw [launchCred_O₀]
  unfold launchCreds
  iintro ⟨⟨⟨HY, HX⟩, HbY⟩, HbX⟩
  ihave HY := (credsY (F := F) c) $$ HY
  ihave HX := (credsX (F := F) c) $$ HX
  ihave HbY := (launchCred_partner (F := F) yp yp_yp (.reg barS) 1 c) $$ HbY
  ihave HbX := (launchCred_partner (F := F) xp xp_xp (.reg barS) 1 c) $$ HbX
  isplitl [HbY HbX]
  · rw [show (2 : ℕ) = 1 + 1 from rfl, ← tallyAt_add]
    iapply (cred_add _ _).2
    isplitl [HbY]
    · iexact HbY
    · iexact HbX
  isplitl [HX]
  · iexact HX
  · iexact HY

end Cert.Kernel.Hand

end
-- ==== Proof.KRegions.lean ====
/- How the three buffers a device shares with its partners are cut into the chunks that travel, and what a chunk
   holds after a transfer lands in it or after the sum is stored into it. -/
import proofs.«900322_g7700000000000323_dist_rsx_agy_m512_n512_v7x_xy2x2_bf16_1_alg».proof.Proof.KSched
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A conjunction over the sixteen chunks, written out -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The chunks' rectangles by coordinates -/

/-- Chunk k of a scratch buffer is the rows whose number divided by 32 is k. -/
theorem mem_rowR {k : Fin 16} {i : S512x512.Idx} : i ∈ (rowR k).set ↔ (i 0).val / 32 = k.val := by
  have h0 : (i 0).val < 512 := (i 0).isLt
  have h1 : (i 1).val < 512 := (i 1).isLt
  rw [Rect.mem_set_unit]
  constructor
  · intro h
    have a0 : 32 * k.val ≤ (i 0).val ∧ (i 0).val < 32 * k.val + 32 := h 0
    omega
  · intro h
    refine Fin.forall_fin_two.mpr ⟨?_, ?_⟩
    · show 32 * k.val ≤ (i 0).val ∧ (i 0).val < 32 * k.val + 32
      omega
    · show 0 ≤ (i 1).val ∧ (i 1).val < 0 + 512
      omega

/-- Chunk k of column half y of the result is the rows whose number divided by 32 is k, at the columns whose
    number divided by 512 is y. -/
theorem mem_colR {k : Fin 16} {y : Fin 2} {i : S512x1024.Idx} :
    i ∈ (colR k y).set ↔ (i 0).val / 32 = k.val ∧ (i 1).val / 512 = y.val := by
  have h0 : (i 0).val < 512 := (i 0).isLt
  have h1 : (i 1).val < 1024 := (i 1).isLt
  rw [Rect.mem_set_unit]
  constructor
  · intro h
    have a0 : 32 * k.val ≤ (i 0).val ∧ (i 0).val < 32 * k.val + 32 := h 0
    have a1 : 512 * y.val ≤ (i 1).val ∧ (i 1).val < 512 * y.val + 512 := h 1
    omega
  · intro h
    refine Fin.forall_fin_two.mpr ⟨?_, ?_⟩
    · show 32 * k.val ≤ (i 0).val ∧ (i 0).val < 32 * k.val + 32
      omega
    · show 512 * y.val ≤ (i 1).val ∧ (i 1).val < 512 * y.val + 512
      omega

theorem set_sSl (k : Fin 16) : (sSl k).view.set = (rowR k).set := View.set_slice_whole cc0_scratch0 (rowR k)
theorem set_rSl (k : Fin 16) : (rSl k).view.set = (rowR k).set := View.set_slice_whole cc0_scratch1 (rowR k)
theorem set_oSl (k : Fin 16) (y : Fin 2) : (oSl k y).view.set = (colR k y).set := View.set_slice_whole cc0_stg1_0 (colR k y)

theorem rowR_disj {k k' : Fin 16} (h : k ≠ k') : Disjoint (rowR k).set (rowR k').set :=
  Finset.disjoint_left.mpr fun i hi hi' => h (Fin.ext ((mem_rowR.mp hi).symm.trans (mem_rowR.mp hi')))

theorem rowR_cover (i : S512x512.Idx) : ∃ k : Fin 16, i ∈ (rowR k).set := by
  have h0 : (i 0).val < 512 := (i 0).isLt
  exact ⟨⟨(i 0).val / 32, by omega⟩, mem_rowR.mpr rfl⟩

theorem colR_disj {k k' : Fin 16} {y y' : Fin 2} (h : k ≠ k' ∨ y ≠ y') : Disjoint (colR k y).set (colR k' y').set :=
  Finset.disjoint_left.mpr fun i hi hi' => by
    have a := mem_colR.mp hi
    have b := mem_colR.mp hi'
    rcases h with h | h
    · exact h (Fin.ext (a.1.symm.trans b.1))
    · exact h (Fin.ext (a.2.symm.trans b.2))

/-- Column half y of the result: its sixteen chunks together. -/
def halfSet (y : Fin 2) : Finset S512x1024.Idx := Finset.univ.biUnion fun k : Fin 16 => (colR k y).set

theorem mem_halfSet {y : Fin 2} {i : S512x1024.Idx} : i ∈ halfSet y ↔ (i 1).val / 512 = y.val := by
  have h0 : (i 0).val < 512 := (i 0).isLt
  unfold halfSet
  simp only [Finset.mem_biUnion, Finset.mem_univ, true_and]
  constructor
  · rintro ⟨k, hk⟩; exact (mem_colR.mp hk).2
  · intro h; exact ⟨⟨(i 0).val / 32, by omega⟩, mem_colR.mpr ⟨rfl, h⟩⟩

/-- A buffer cut along a finite family of pairwise disjoint sets that cover it. -/
theorem pts_cut {ℓ : Loc nD τ sig} {T : Type} [Fintype T] [DecidableEq T] (K : T → Finset (Idx ℓ))
    (hd : ∀ t t', t ≠ t' → Disjoint (K t) (K t')) (hc : ∀ i, ∃ t, i ∈ K t) (q : PosShare TreeShare) (f : Buf (Elt F) ℓ) :
    (ℓ ↦{q} f : sProp 𝕄) = bigSep Finset.univ fun t => ℓ ↦[K t]{q} f := by
  have hU : Finset.univ.biUnion K = (Finset.univ : Finset (Idx ℓ)) := by
    ext i
    simp only [Finset.mem_biUnion, Finset.mem_univ, true_and, iff_true]
    exact hc i
  rw [← pointsTo_biUnion Finset.univ K (fun t _ t' _ h => hd t t' h), hU]

/-! ## The buffers cut into chunks -/

/-- Any share of the first scratch buffer is that share of its sixteen row chunks. -/
theorem s_split (c : Dev nD) (q : PosShare TreeShare) (f : Buf (Elt F) ((c : Thread nD τ).loc cc0_scratch0)) :
    ((((c : Thread nD τ).loc cc0_scratch0) ↦{q} f : sProp 𝕄)) ⊣⊢ bigSep Finset.univ fun k : Fin 16 => sPts c k q f := by
  have e := pts_cut (F := F) (ℓ := (c : Thread nD τ).loc cc0_scratch0) (fun k : Fin 16 => (sSl k).view.set)
    (fun k k' h => by rw [set_sSl, set_sSl]; exact rowR_disj h)
    (fun i => (rowR_cover i).imp fun k hk => by rw [set_sSl]; exact hk) q f
  exact ⟨Entails.of_eq e, Entails.of_eq e.symm⟩

/-- The second scratch buffer is its sixteen row chunks. -/
theorem r_split (c : Dev nD) (f : Buf (Elt F) ((c : Thread nD τ).loc cc0_scratch1)) :
    ((((c : Thread nD τ).loc cc0_scratch1) ↦{fullShare} f : sProp 𝕄)) ⊣⊢ bigSep Finset.univ fun k : Fin 16 => rPts c k f := by
  have e := pts_cut (F := F) (ℓ := (c : Thread nD τ).loc cc0_scratch1) (fun k : Fin 16 => (rSl k).view.set)
    (fun k k' h => by rw [set_rSl, set_rSl]; exact rowR_disj h)
    (fun i => (rowR_cover i).imp fun k hk => by rw [set_rSl]; exact hk) fullShare f
  exact ⟨Entails.of_eq e, Entails.of_eq e.symm⟩

/-- The result buffer is the sixteen row chunks of its left column half and the sixteen of its right. -/
theorem o_split (c : Dev nD) (f : Buf (Elt F) ((c : Thread nD τ).loc cc0_stg1_0)) :
    ((((c : Thread nD τ).loc cc0_stg1_0) ↦{fullShare} f : sProp 𝕄))
      ⊣⊢ iprop((bigSep Finset.univ fun k : Fin 16 => oPts c k (myY c) f) ∗ (bigSep Finset.univ fun k : Fin 16 => oPts c k (otY c) f)) := by
  have hd : Disjoint (halfSet (myY c)) (halfSet (otY c)) :=
    Finset.disjoint_left.mpr fun i hi hi' =>
      myY_ne_otY c (Fin.ext ((mem_halfSet.mp hi).symm.trans (mem_halfSet.mp hi')))
  have hU : halfSet (myY c) ∪ halfSet (otY c) = (Finset.univ : Finset S512x1024.Idx) := by
    ext i
    have h1 : (i 1).val < 1024 := (i 1).isLt
    have hm : (myY c).val = c.val % 2 := rfl
    have ho : (otY c).val = 1 - c.val % 2 := rfl
    simp only [Finset.mem_union, mem_halfSet, Finset.mem_univ, iff_true]
    omega
  have h1 := pointsTo_union (ℓ := (c : Thread nD τ).loc cc0_stg1_0) (q := fullShare) (f := f) (U := UU) (Ix := Unit) (Name := ℕ) (Lvl := ℕ) hd
  have hy (y : Fin 2) : ((((c : Thread nD τ).loc cc0_stg1_0) ↦[halfSet y]{fullShare} f : sProp 𝕄))
      = bigSep Finset.univ fun k : Fin 16 => oPts c k y f := by
    unfold halfSet
    rw [pointsTo_biUnion Finset.univ _ (fun k _ k' _ h => colR_disj (.inl h))]
    exact bigSep_congr fun k _ => by unfold oPts; rw [set_oSl]
  rw [hU, hy, hy] at h1
  exact h1

/-- The whole of a buffer's share is its two halves. -/
theorem s_halves (c : Dev nD) (f : Buf (Elt F) ((c : Thread nD τ).loc cc0_scratch0)) :
    ((((c : Thread nD τ).loc cc0_scratch0) ↦{fullShare} f : sProp 𝕄))
      ⊣⊢ iprop((((c : Thread nD τ).loc cc0_scratch0) ↦{fullShare.left} f) ∗ (((c : Thread nD τ).loc cc0_scratch0) ↦{fullShare.right} f)) :=
  pointsTo_share (PosShare.mem_left_op_right fullShare)

/-! ## What a chunk holds after a transfer lands -/

/-- A value carried along a type equation and back is itself. -/
theorem cast_cast_back {α β : Type} (h : α = β) (h' : β = α) (a : α) : cast h' (cast h a) = a := by
  cases h; rfl

/-- Chunk k of a second scratch buffer after chunk k of a first scratch buffer holding fs was copied into it holds fs there. -/
theorem land_x (c' : Dev nD) (k : Fin 16) (fd : Buf (Elt F) ((rSl k).view.loc (c' : Thread nD τ))) (fs : (cc0_scratch0 : Ref sig .tc).ty.Contents (Elt F)) :
    rPts c' k ((rSl k).view.write (Elt F) fd ((sSl k).view.read (Elt F) fs) Finset.univ) = rPts (F := F) c' k fs := by
  unfold rPts
  refine pointsTo_congr fun i hi => ?_
  obtain ⟨y, rfl⟩ := View.exists_emb_of_mem_set (rSl k).view hi
  rw [View.write_emb_of_mem _ _ (Finset.mem_univ y), View.read_apply]
  exact cast_cast_back _ _ _

/-- Chunk (k, y) of a result buffer after chunk (k, y) of another result buffer holding fs was copied into it holds fs there. -/
theorem land_y (c' : Dev nD) (k : Fin 16) (y : Fin 2) (fd : Buf (Elt F) ((oSl k y).view.loc (c' : Thread nD τ))) (fs : (cc0_stg1_0 : Ref sig .tc).ty.Contents (Elt F)) :
    oPts c' k y ((oSl k y).view.write (Elt F) fd ((oSl k y).view.read (Elt F) fs) Finset.univ) = oPts (F := F) c' k y fs := by
  unfold oPts
  refine pointsTo_congr fun i hi => ?_
  obtain ⟨j, rfl⟩ := View.exists_emb_of_mem_set (oSl k y).view hi
  rw [View.write_emb_of_mem _ _ (Finset.mem_univ j), View.read_apply]
  exact cast_cast_back _ _ _

/-- On the column half a device computes, its result and its column partner's result agree. -/
theorem outv_partner (c : Dev nD) (k : Fin 16) : oPts (yp c) k (myY c) (outv m c) = oPts (yp c) k (myY c) (outv m (yp c)) := by
  unfold oPts
  refine pointsTo_congr fun i hi => ?_
  rw [set_oSl] at hi
  have hc : (i 1).val / 512 = c.val % 2 := (mem_colR.mp hi).2
  have hy := yp_col c
  have hlt : c.val % 2 < 2 := Nat.mod_lt _ (by decide)
  show (if (i 1).val / 512 = c.val % 2 then sumv m c (halfIdx i) else sumv m (yp c) (halfIdx i))
    = (if (i 1).val / 512 = (yp c).val % 2 then sumv m (yp c) (halfIdx i) else sumv m (yp (yp c)) (halfIdx i))
  rw [if_pos hc, if_neg (by omega), yp_yp]

/-! ## What a chunk of the result holds after the sum is stored -/

/-- Entry j of chunk k of a column half of the result sits, within that half, where entry j of chunk k of a scratch
    buffer sits: row 32 k + j₀, column j₁. -/
theorem halfIdx_emb (k : Fin 16) (y : Fin 2) (j : (colR k y).shape.Idx) :
    halfIdx ((colR k y).emb j) = (rowR k).toLoadRect.idx j := by
  have hj1 : (j 1).val < 512 := (j 1).isLt
  funext a
  apply Fin.ext
  rcases a with ⟨_ | _ | a, ha⟩
  · rfl
  · show (512 * y.val + 1 * (j 1).val) % 512 = 0 + 1 * (j 1).val
    omega
  · exact absurd ha (Nat.not_lt.2 (Nat.le_add_left 2 a))

/-- The rectangle at an offset that is chunk k of column half y, whatever proof it carries. -/
theorem colR_of_off (k : Fin 16) (y : Fin 2) (off : Fin 2 → Nat) (hoff : off = ![32 * k.val, 512 * y.val])
    (inb : ∀ a, off a + S32x512.size a ≤ S512x1024.size a) : Rect.unit (s := S512x1024) off S32x512.size inb = colR k y := by
  subst hoff; rfl

/-- Storing the sum of chunk k of the two scratch buffers into chunk k of the device's own column half leaves the
    result's contents there. -/
theorem store_sum (c : Dev nD) (k : Fin 16) (g : Buf (Elt F) ((oSl k (myY c)).view.loc (c : Thread nD τ))) :
    oPts c k (myY c) (((oM : Memref sig .tc .vmem S512x1024 .bf16).access (colR k (myY c))).write (Elt F) g
        (addf ((sM : Memref sig .tc .vmem S512x512 .bf16).view.readAt (Elt F) (rowR k).toLoadRect (sxv m c))
              ((rM : Memref sig .tc .vmem S512x512 .bf16).view.readAt (Elt F) (rowR k).toLoadRect (rxv m c))) Finset.univ)
      = oPts c k (myY c) (outv m c) := by
  unfold oPts
  refine pointsTo_congr fun i hi => ?_
  obtain ⟨j, rfl⟩ := View.exists_emb_of_mem_set ((oM : Memref sig .tc .vmem S512x1024 .bf16).access (colR k (myY c))) hi
  rw [View.write_emb_of_mem _ _ (Finset.mem_univ j)]
  have hj1 : (j 1).val < 512 := (j 1).isLt
  have hcol : (((colR k (myY c)).emb j) 1).val / 512 = c.val % 2 := by
    show (512 * (c.val % 2) + 1 * (j 1).val) / 512 = c.val % 2
    omega
  have hR : outv m c ((colR k (myY c)).emb j)
      = FloatOps.addf (sxv m c ((rowR k).toLoadRect.idx j)) (rxv m c ((rowR k).toLoadRect.idx j)) := by
    show (if (((colR k (myY c)).emb j) 1).val / 512 = c.val % 2 then sumv m c (halfIdx ((colR k (myY c)).emb j))
      else sumv m (yp c) (halfIdx ((colR k (myY c)).emb j))) = _
    rw [if_pos hcol, halfIdx_emb]
    rfl
  exact (cast_eq _ _).trans hR.symm

end Cert.Kernel.Hand

end
-- ==== Proof.KSteps.lean ====
/- One step of the protocol at a time, at a symbolic device and chunk: an addressed copy of a chunk to a partner, a wait
   on one of the device's own transfer cells (after which the cell is closed), and the loads and the store that form
   a chunk of the sum. -/
import proofs.«900322_g7700000000000323_dist_rsx_agy_m512_n512_v7x_xy2x2_bf16_1_alg».proof.Proof.KLevels
import proofs.«900322_g7700000000000323_dist_rsx_agy_m512_n512_v7x_xy2x2_bf16_1_alg».proof.Proof.KRegions

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := by rw [fin_N t]; rfl

/-! ## Picking a cell's invariant and its reached round out of the records -/

theorem kcell_bar (c : Dev nD) : kcell (c, jBar) = barCell c := rfl
theorem kcell_d (c : Dev nD) (a : Fin 4) (k : Fin 16) : kcell (c, jD a k) = dCell c a k := by
  show ((c : Thread nD τ), csem (jD a k)) = _; rw [csem_jD]

theorem inv_bar (K : Dev nD × Fin 65 → ℕ) (c : Dev nD) :
    (bigSep Finset.univ fun cj : Dev nD × Fin 65 => (cellInv ER (sched m) (K cj) (kcell cj) : sProp 𝕄)) ⊢ cellInv ER (sched m) (K (c, jBar)) (barCell c) :=
  bigSep_elim (Finset.mem_univ (c, jBar))
theorem inv_d (K : Dev nD × Fin 65 → ℕ) (c : Dev nD) (a : Fin 4) (k : Fin 16) :
    (bigSep Finset.univ fun cj : Dev nD × Fin 65 => (cellInv ER (sched m) (K cj) (kcell cj) : sProp 𝕄)) ⊢ cellInv ER (sched m) (K (c, jD a k)) (dCell c a k) :=
  by
  have h : (bigSep Finset.univ fun cj : Dev nD × Fin 65 => (cellInv ER (sched m) (K cj) (kcell cj) : sProp 𝕄)) ⊢ cellInv ER (sched m) (K (c, jD a k)) (kcell (c, jD a k)) :=
    bigSep_elim (Finset.mem_univ (c, jD a k))
  rwa [kcell_d] at h
theorem reached_bar (c : Dev nD) :
    (bigSep Finset.univ fun cj : Dev nD × Fin 65 => (reached ER (kcell cj) 0 : sProp 𝕄)) ⊢ reached ER (barCell c) 0 :=
  bigSep_elim (Finset.mem_univ (c, jBar))
theorem reached_d (c : Dev nD) (a : Fin 4) (k : Fin 16) :
    (bigSep Finset.univ fun cj : Dev nD × Fin 65 => (reached ER (kcell cj) 0 : sProp 𝕄)) ⊢ reached ER (dCell c a k) 0 :=
  by
  have h : (bigSep Finset.univ fun cj : Dev nD × Fin 65 => (reached ER (kcell cj) 0 : sProp 𝕄)) ⊢ reached ER (kcell (c, jD a k)) 0 :=
    bigSep_elim (Finset.mem_univ (c, jD a k))
  rwa [kcell_d] at h

/-! ## The whole-buffer accesses of the first part -/

abbrev r0x : Rect S1x512x512 := Rect.unit (s := S1x512x512) ![0, 0, 0] S1x512x512.size inb_S1x512x512_S1x512x512_0_0_0
abbrev r0s : Rect S512x512 := Rect.unit (s := S512x512) ![0, 0] S512x512.size inb_S512x512_S512x512_0_0

theorem hz3 : (![0, 0, 0] : Fin 3 → Nat) = fun _ => 0 := funext fun a => by fin_cases a <;> rfl
theorem hz2 : (![0, 0] : Fin 2 → Nat) = fun _ => 0 := funext fun a => by fin_cases a <;> rfl
theorem read_x (f : (cc0_stg0_0 : Ref sig .tc).ty.Contents (Elt F)) : (xM : Memref sig .tc .vmem S1x512x512 .f32).view.readAt (Elt F) r0x.toLoadRect f = f :=
  Memref.readAt_unit_zero (Elt F) cc0_stg0_0 hz3 _ f
theorem write_s (f w : (cc0_scratch0 : Ref sig .tc).ty.Contents (Elt F)) :
    ((sM : Memref sig .tc .vmem S512x512 .bf16).access r0s : View sig .tc _ _ _).write (Elt F) f w Finset.univ = w :=
  Memref.write_access_unit_zero_univ (Elt F) cc0_scratch0 hz2 _ f w

/-! ## A chunk sent to a partner -/

set_option maxHeartbeats 1600000 in
/-- Chunk k of the narrowed block goes to the row partner n: half of the source chunk is lent to the transfer, the
    partner's chunk (handed over at the barrier) is consumed, and the row partner's receive cell is paid. -/
theorem wp_send_x (K : Dev nD × Fin 65 → ℕ) (c n : Dev nD) (hn : n = xp c) (k : Fin 16) (O : CellTallies nD τ sig Unit)
    {hsc : (rSl k : Memref sig (Dev.tc n : Thread nD τ).2.kind .vmem S32x512 .bf16).view.ref.isScScratch = false}
    {hsrc : (sSl k : Memref sig .tc .vmem S32x512 .bf16).view.WordExact} {hdst : (rSl k : Memref sig .tc .vmem S32x512 .bf16).view.WordExact}
    {hsem : DmaTarget.Typed .vmem (.dma (dsem 1 k)) (.remote (Dev.tc n : Thread nD τ) (rSl k : Memref sig .tc .vmem S32x512 .bf16) (.dma (dsem 0 k)) hsc)}
    {α : Type} {Q : α → sProp 𝕄} {kk : PUnit → Prog (TpuEff nD τ sig (Elt F) Λ₀ .tc) α}
    (fd : Buf (Elt F) ((rSl k : Memref sig .tc .vmem S32x512 .bf16).view.loc (xp c : Thread nD τ))) (W : Waits sig Unit) :
    iprop(cellInv ER (sched m) (K (c, jD 0 k)) (dCell c 0 k) ∗ cellInv ER (sched m) (K (xp c, jD 1 k)) (dCell (xp c) 1 k)
        ∗ sPts c k fullShare.left (sxv m c) ∗ rPts (xp c) k fd
        ∗ owes (c : Thread nD τ) (O + tallyAt (dCell (xp c) 1 k) () N) W
        ∗ dutyTok ER (dCell c 0 k) 0 false ∗ reached ER (dCell c 0 k) 0
        ∗ dutyTok ER (dCell (xp c) 1 k) 0 false ∗ reached ER (dCell (xp c) 1 k) 0)
      ⊢ iprop(((cred (tallyAt (dCell c 0 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sSl k) (.remote (Dev.tc n : Thread nD τ) (rSl k) (.dma (dsem 0 k)) hsc) (.dma (dsem 1 k)) hsrc hdst hsem) kk) Q) := by
  subst hn
  unfold sPts rPts
  exact Rounds.wp_send_pointsTo 𝒱₀ ER (sched m) (c : Thread nD τ) none (c' := (xp c : Thread nD τ)) (src := sSl k) (dst := rSl k) (q := fullShare.left) (fs := sxv m c)
    (κ₁ := K (c, jD 0 k)) (κ₂ := K (xp c, jD 1 k))
    (r₁ := 0) (r₂ := 0) (d₁ := false) (d₂ := false) (fd := fd)
    (by rw [duties_d]; exact Finset.mem_singleton_self _) (by rw [duties_d]; exact Finset.mem_singleton_self _)
    () () N rfl (amount_d m c 0 k false) (amount_d m (xp c) 1 k false) O rfl (W := W)
    (by rw [payload_sx]; exact BI.Entails.refl _)
    (by rw [payload_rx]; unfold rxv; rw [xp_xp]; exact Entails.of_eq (land_x (xp c) k fd (sxv m c)))

set_option maxHeartbeats 1600000 in
/-- Chunk k of the device's own column half of the result goes to the column partner n, into the same columns of its
    result buffer. -/
theorem wp_send_y (K : Dev nD × Fin 65 → ℕ) (c n : Dev nD) (hn : n = yp c) (k : Fin 16) (O : CellTallies nD τ sig Unit)
    (off : Fin 2 → Nat) (hoff : off = ![32 * k.val, 512 * (myY c).val]) (inb : ∀ a, off a + S32x512.size a ≤ S512x1024.size a)
    {hsc : ((oM : Memref sig .tc .vmem S512x1024 .bf16).slice (Rect.unit (s := S512x1024) off S32x512.size inb) (fun _ => rfl) : Memref sig (Dev.tc n : Thread nD τ).2.kind .vmem S32x512 .bf16).view.ref.isScScratch = false}
    {hsrc : ((oM : Memref sig .tc .vmem S512x1024 .bf16).slice (Rect.unit (s := S512x1024) off S32x512.size inb) (fun _ => rfl)).view.WordExact}
    {hdst : ((oM : Memref sig .tc .vmem S512x1024 .bf16).slice (Rect.unit (s := S512x1024) off S32x512.size inb) (fun _ => rfl)).view.WordExact}
    {hsem : DmaTarget.Typed .vmem (.dma (dsem 3 k)) (.remote (Dev.tc n : Thread nD τ) ((oM : Memref sig .tc .vmem S512x1024 .bf16).slice (Rect.unit (s := S512x1024) off S32x512.size inb) (fun _ => rfl)) (.dma (dsem 2 k)) hsc)}
    {α : Type} {Q : α → sProp 𝕄} {kk : PUnit → Prog (TpuEff nD τ sig (Elt F) Λ₀ .tc) α}
    (fd : Buf (Elt F) ((oSl k (myY c) : Memref sig .tc .vmem S32x512 .bf16).view.loc (yp c : Thread nD τ))) (W : Waits sig Unit) :
    iprop(cellInv ER (sched m) (K (c, jD 2 k)) (dCell c 2 k) ∗ cellInv ER (sched m) (K (yp c, jD 3 k)) (dCell (yp c) 3 k)
        ∗ oPts c k (myY c) (outv m c) ∗ oPts (yp c) k (myY c) fd
        ∗ owes (c : Thread nD τ) (O + tallyAt (dCell (yp c) 3 k) () N) W
        ∗ dutyTok ER (dCell c 2 k) 0 false ∗ reached ER (dCell c 2 k) 0
        ∗ dutyTok ER (dCell (yp c) 3 k) 0 false ∗ reached ER (dCell (yp c) 3 k) 0)
      ⊢ iprop(((cred (tallyAt (dCell c 2 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((oM : Memref sig .tc .vmem S512x1024 .bf16).slice (Rect.unit (s := S512x1024) off S32x512.size inb) (fun _ => rfl))
                (.remote (Dev.tc n : Thread nD τ) ((oM : Memref sig .tc .vmem S512x1024 .bf16).slice (Rect.unit (s := S512x1024) off S32x512.size inb) (fun _ => rfl)) (.dma (dsem 2 k)) hsc)
                (.dma (dsem 3 k)) hsrc hdst hsem) kk) Q) := by
  subst hn
  subst hoff
  unfold oPts
  exact Rounds.wp_send_pointsTo 𝒱₀ ER (sched m) (c : Thread nD τ) none (c' := (yp c : Thread nD τ)) (src := oSl k (myY c)) (dst := oSl k (myY c)) (q := fullShare) (fs := outv m c)
    (κ₁ := K (c, jD 2 k)) (κ₂ := K (yp c, jD 3 k))
    (r₁ := 0) (r₂ := 0) (d₁ := false) (d₂ := false) (fd := fd)
    (by rw [duties_d]; exact Finset.mem_singleton_self _) (by rw [duties_d]; exact Finset.mem_singleton_self _)
    () () N rfl (amount_d m c 2 k false) (amount_d m (yp c) 3 k false) O rfl (W := W)
    (by rw [payload_sy]; exact BI.Entails.refl _)
    (by rw [payload_ry, otY_yp, ← outv_partner m c k]; exact Entails.of_eq (land_y (yp c) k (myY c) fd (outv m c)))

/-! ## A wait on one of the device's own transfer cells, after which the cell is closed -/

theorem wp_wait_d (K : Dev nD × Fin 65 → ℕ) (c : Dev nD) (a : Fin 4) (k : Fin 16) (O : CellTallies nD τ sig Unit) (W : Waits sig Unit)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dsem a k)) N Kk)
    {α : Type} {Q : α → sProp 𝕄} {kk : PUnit → Prog (TpuEff nD τ sig (Elt F) Λ₀ .tc) α} :
    iprop(cellInv ER (sched m) (K (c, jD a k)) (dCell c a k) ∗ cred (tallyAt (dCell c a k) () N) ∗ owes (c : Thread nD τ) O W
        ∗ MayWait (c : Thread nD τ) (.dma (dsem a k)) () O ∗ atPos ER (dCell c a k) 0 ∅ 0)
      ⊢ iprop(((owes (c : Thread nD τ) O (insert (SemLoc.dma (dsem a k), ()) W) ∗ semVal (dCell c a k) 0
              ∗ bigSep ((sched m).duties (dCell c a k) 0 \ ∅) (fun d => (sched m).payload (dCell c a k) 0 d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#HI, Hc, HO, Hmw, Hat⟩ Hk
  iapply (Rounds.wp_wait_rest_token 𝒱₀ ER (sched m) (c : Thread nD τ) none (κ := K (c, jD a k)) hw (Set.mem_univ _) ()
      (O := O) (W := W) (R := 0) (m := 0) (T := ∅) (by rw [Nat.zero_add, expect_d])) $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (sched m) (Set.mem_univ (K (c, jD a k))) (fun h => h) (R := 0 + 1) (duties_later m (dCell c a k))) $$ [Hat] with Hz
  · isplitr; · iexact HI
    iexact Hat
  iapply Hk
  isplitl [HO]; · iexact HO
  isplitl [Hz]; · iexact Hz
  iexact Hpay

/-! ## The loads and the store of a chunk of the sum -/

theorem wp_load_s (c : Dev nD) (k : Fin 16) {hl : (sM : Memref sig .tc .vmem S512x512 .bf16).view.LoadsAt (rowR k).toLoadRect}
    {α : Type} {Q : α → sProp 𝕄} {kk : Vec F S32x512 .bf16 → Prog (TpuEff nD τ sig (Elt F) Λ₀ .tc) α} :
    ((((c : Thread nD τ).loc cc0_scratch0) ↦{fullShare.right} sxv m c : sProp 𝕄))
      ⊢ iprop(((((c : Thread nD τ).loc cc0_scratch0) ↦{fullShare.right} sxv m c)
            -∗ wp frame (wpE (defs₀ (F := F)) 𝒱₀ (c : Thread nD τ) none) Set.univ (kk ((sM : Memref sig .tc .vmem S512x512 .bf16).view.readAt (Elt F) (rowR k).toLoadRect (sxv m c))) Q)
          -∗ wp frame (wpE (defs₀ (F := F)) 𝒱₀ (c : Thread nD τ) none) Set.univ (.op (.load sM (rowR k).toLoadRect hl) kk) Q) :=
  wp_load 𝒱₀ (c : Thread nD τ) none Set.univ (m := sM) (Finset.subset_univ _)

theorem wp_load_r (c : Dev nD) (k : Fin 16) {hl : (rM : Memref sig .tc .vmem S512x512 .bf16).view.LoadsAt (rowR k).toLoadRect}
    {α : Type} {Q : α → sProp 𝕄} {kk : Vec F S32x512 .bf16 → Prog (TpuEff nD τ sig (Elt F) Λ₀ .tc) α} :
    (rPts c k (rxv m c) : sProp 𝕄)
      ⊢ iprop((rPts c k (rxv m c)
            -∗ wp frame (wpE (defs₀ (F := F)) 𝒱₀ (c : Thread nD τ) none) Set.univ (kk ((rM : Memref sig .tc .vmem S512x512 .bf16).view.readAt (Elt F) (rowR k).toLoadRect (rxv m c))) Q)
          -∗ wp frame (wpE (defs₀ (F := F)) 𝒱₀ (c : Thread nD τ) none) Set.univ (.op (.load rM (rowR k).toLoadRect hl) kk) Q) := by
  unfold rPts
  exact wp_load_rect 𝒱₀ (c : Thread nD τ) none Set.univ (m := rM) (r := rowR k) subset_rfl

theorem wp_load_o (c : Dev nD) (k : Fin 16) (off : Fin 2 → Nat) (hoff : off = ![32 * k.val, 512 * (myY c).val])
    (inb : ∀ a, off a + S32x512.size a ≤ S512x1024.size a) (g : Buf (Elt F) ((oSl k (myY c) : Memref sig .tc .vmem S32x512 .bf16).view.loc (c : Thread nD τ)))
    {hl : (oM : Memref sig .tc .vmem S512x1024 .bf16).view.LoadsAt (Rect.unit (s := S512x1024) off S32x512.size inb).toLoadRect}
    {α : Type} {Q : α → sProp 𝕄} {kk : Vec F S32x512 .bf16 → Prog (TpuEff nD τ sig (Elt F) Λ₀ .tc) α} :
    (oPts c k (myY c) g : sProp 𝕄)
      ⊢ iprop((oPts c k (myY c) g
            -∗ wp frame (wpE (defs₀ (F := F)) 𝒱₀ (c : Thread nD τ) none) Set.univ (kk ((oM : Memref sig .tc .vmem S512x1024 .bf16).view.readAt (Elt F) (Rect.unit (s := S512x1024) off S32x512.size inb).toLoadRect g)) Q)
          -∗ wp frame (wpE (defs₀ (F := F)) 𝒱₀ (c : Thread nD τ) none) Set.univ (.op (.load oM (Rect.unit (s := S512x1024) off S32x512.size inb).toLoadRect hl) kk) Q) := by
  subst hoff
  unfold oPts
  exact wp_load_rect 𝒱₀ (c : Thread nD τ) none Set.univ (m := oM) (r := colR k (myY c)) subset_rfl

theorem wp_store_o (c : Dev nD) (k : Fin 16) (off : Fin 2 → Nat) (hoff : off = ![32 * k.val, 512 * (myY c).val])
    (inb : ∀ a, off a + S32x512.size a ≤ S512x1024.size a) (g : Buf (Elt F) ((oSl k (myY c) : Memref sig .tc .vmem S32x512 .bf16).view.loc (c : Thread nD τ)))
    (w : Vec F S32x512 .bf16)
    (hw : w = addf ((sM : Memref sig .tc .vmem S512x512 .bf16).view.readAt (Elt F) (rowR k).toLoadRect (sxv m c))
                   ((rM : Memref sig .tc .vmem S512x512 .bf16).view.readAt (Elt F) (rowR k).toLoadRect (rxv m c)))
    {hx : ((oM : Memref sig .tc .vmem S512x1024 .bf16).access (Rect.unit (s := S512x1024) off S32x512.size inb)).Stores Finset.univ}
    {hm : (Finset.univ : Finset (Rect.unit (s := S512x1024) off S32x512.size inb).shape.Idx) = Finset.univ ∨ ∀ a, (Rect.unit (s := S512x1024) off S32x512.size inb).stride a = 1}
    {α : Type} {Q : α → sProp 𝕄} {kk : PUnit → Prog (TpuEff nD τ sig (Elt F) Λ₀ .tc) α} :
    (oPts c k (myY c) g : sProp 𝕄)
      ⊢ iprop((oPts c k (myY c) (outv m c) -∗ wp frame (wpE (defs₀ (F := F)) 𝒱₀ (c : Thread nD τ) none) Set.univ (kk ⟨⟩) Q)
          -∗ wp frame (wpE (defs₀ (F := F)) 𝒱₀ (c : Thread nD τ) none) Set.univ (.op (.store oM (Rect.unit (s := S512x1024) off S32x512.size inb) w Finset.univ hx hm) kk) Q) := by
  subst hoff
  subst hw
  rw [← store_sum m c k g]
  unfold oPts
  exact wp_store 𝒱₀ (c : Thread nD τ) none Set.univ (m := oM) (r := colR k (myY c)) (Mk := Finset.univ) subset_rfl

/-! ## The steps in the form the body applies them: the records first, then what the step consumes -/

abbrev Invs (K : Dev nD × Fin 65 → ℕ) : sProp 𝕄 := bigSep Finset.univ fun cj : Dev nD × Fin 65 => cellInv ER (sched m) (K cj) (kcell cj)
abbrev Reached : sProp 𝕄 := bigSep Finset.univ fun cj : Dev nD × Fin 65 => reached ER (kcell cj) 0

theorem fk_fin (k : Fin 16) : fk k.val = k := Fin.ext (Nat.mod_eq_of_lt k.isLt)

/-- Chunk k sent to the row partner, paying chunk k off what is owed to it. -/
theorem send_x (K : Dev nD × Fin 65 → ℕ) (c n : Dev nD) (hn : n = xp c) (k : Fin 16) (i j : ℕ) (hi : k.val = i) (hj : i + 1 = j)
    {hsc : (rSl k : Memref sig (Dev.tc n : Thread nD τ).2.kind .vmem S32x512 .bf16).view.ref.isScScratch = false}
    {hsrc : (sSl k : Memref sig .tc .vmem S32x512 .bf16).view.WordExact} {hdst : (rSl k : Memref sig .tc .vmem S32x512 .bf16).view.WordExact}
    {hsem : DmaTarget.Typed .vmem (.dma (dsem 1 k)) (.remote (Dev.tc n : Thread nD τ) (rSl k : Memref sig .tc .vmem S32x512 .bf16) (.dma (dsem 0 k)) hsc)}
    {α : Type} {Q : α → sProp 𝕄} {kk : PUnit → Prog (TpuEff nD τ sig (Elt F) Λ₀ .tc) α}
    (fd : Buf (Elt F) ((rSl k : Memref sig .tc .vmem S32x512 .bf16).view.loc (xp c : Thread nD τ))) (W : Waits sig Unit) :
    (Invs m K : sProp 𝕄) ⊢ iprop(Reached (F := F) -∗ sPts c k fullShare.left (sxv m c) -∗ rPts (xp c) k fd
        -∗ owes (c : Thread nD τ) (OY c 0 + OX c i) W
        -∗ dutyTok ER (dCell c 0 k) 0 false -∗ dutyTok ER (dCell (xp c) 1 k) 0 false
        -∗ ((cred (tallyAt (dCell c 0 k) () N) ∗ owes (c : Thread nD τ) (OY c 0 + OX c j) W) -∗ wp frame (wpE (defs₀ (F := F)) 𝒱₀ (c : Thread nD τ) none) Set.univ (kk ⟨⟩) Q)
        -∗ wp frame (wpE (defs₀ (F := F)) 𝒱₀ (c : Thread nD τ) none) Set.univ
              (.op (.enqueueDma (sSl k) (.remote (Dev.tc n : Thread nD τ) (rSl k) (.dma (dsem 0 k)) hsc) (.dma (dsem 1 k)) hsrc hdst hsem) kk) Q) := by
  subst hi; subst hj
  iintro #HI #HR Hs Hr HO Ht0 Ht1 Hk
  have hO : OY c 0 + OX c k.val = (OY c 0 + OX c (k.val + 1)) + tallyAt (dCell (xp c) 1 k) () N := by
    rw [OX_succ c k.val k.isLt, fk_fin, add_assoc]
  rw [hO]
  iapply (wp_send_x m K c n hn k (OY c 0 + OX c (k.val + 1)) fd W) $$ [Hs Hr HO Ht0 Ht1]
  · isplitr; · iapply (inv_d m K c 0 k); iexact HI
    isplitr; · iapply (inv_d m K (xp c) 1 k); iexact HI
    isplitl [Hs]; · iexact Hs
    isplitl [Hr]; · iexact Hr
    isplitl [HO]; · iexact HO
    isplitl [Ht0]; · iexact Ht0
    isplitr; · iapply (reached_d (F := F) c 0 k); iexact HR
    isplitl [Ht1]; · iexact Ht1
    iapply (reached_d (F := F) (xp c) 1 k); iexact HR
  iexact Hk

/-- Chunk k of the sum sent to the column partner, paying chunk k off what is owed to it. -/
theorem send_y (K : Dev nD × Fin 65 → ℕ) (c n : Dev nD) (hn : n = yp c) (k : Fin 16) (i j : ℕ) (hi : k.val = i) (hj : i + 1 = j)
    (off : Fin 2 → Nat) (hoff : off = ![32 * k.val, 512 * (myY c).val]) (inb : ∀ a, off a + S32x512.size a ≤ S512x1024.size a)
    {hsc : ((oM : Memref sig .tc .vmem S512x1024 .bf16).slice (Rect.unit (s := S512x1024) off S32x512.size inb) (fun _ => rfl) : Memref sig (Dev.tc n : Thread nD τ).2.kind .vmem S32x512 .bf16).view.ref.isScScratch = false}
    {hsrc : ((oM : Memref sig .tc .vmem S512x1024 .bf16).slice (Rect.unit (s := S512x1024) off S32x512.size inb) (fun _ => rfl)).view.WordExact}
    {hdst : ((oM : Memref sig .tc .vmem S512x1024 .bf16).slice (Rect.unit (s := S512x1024) off S32x512.size inb) (fun _ => rfl)).view.WordExact}
    {hsem : DmaTarget.Typed .vmem (.dma (dsem 3 k)) (.remote (Dev.tc n : Thread nD τ) ((oM : Memref sig .tc .vmem S512x1024 .bf16).slice (Rect.unit (s := S512x1024) off S32x512.size inb) (fun _ => rfl)) (.dma (dsem 2 k)) hsc)}
    {α : Type} {Q : α → sProp 𝕄} {kk : PUnit → Prog (TpuEff nD τ sig (Elt F) Λ₀ .tc) α}
    (fd : Buf (Elt F) ((oSl k (myY c) : Memref sig .tc .vmem S32x512 .bf16).view.loc (yp c : Thread nD τ))) (W : Waits sig Unit) :
    (Invs m K : sProp 𝕄) ⊢ iprop(Reached (F := F) -∗ oPts c k (myY c) (outv m c) -∗ oPts (yp c) k (myY c) fd
        -∗ owes (c : Thread nD τ) (OY c i) W
        -∗ dutyTok ER (dCell c 2 k) 0 false -∗ dutyTok ER (dCell (yp c) 3 k) 0 false
        -∗ ((cred (tallyAt (dCell c 2 k) () N) ∗ owes (c : Thread nD τ) (OY c j) W) -∗ wp frame (wpE (defs₀ (F := F)) 𝒱₀ (c : Thread nD τ) none) Set.univ (kk ⟨⟩) Q)
        -∗ wp frame (wpE (defs₀ (F := F)) 𝒱₀ (c : Thread nD τ) none) Set.univ
              (.op (.enqueueDma ((oM : Memref sig .tc .vmem S512x1024 .bf16).slice (Rect.unit (s := S512x1024) off S32x512.size inb) (fun _ => rfl))
                (.remote (Dev.tc n : Thread nD τ) ((oM : Memref sig .tc .vmem S512x1024 .bf16).slice (Rect.unit (s := S512x1024) off S32x512.size inb) (fun _ => rfl)) (.dma (dsem 2 k)) hsc)
                (.dma (dsem 3 k)) hsrc hdst hsem) kk) Q) := by
  subst hi; subst hj
  iintro #HI #HR Ho Hd HO Ht2 Ht3 Hk
  have hO : OY c k.val = OY c (k.val + 1) + tallyAt (dCell (yp c) 3 k) () N := by
    rw [OY_succ c k.val k.isLt, fk_fin]
  rw [hO]
  iapply (wp_send_y m K c n hn k (OY c (k.val + 1)) off hoff inb fd W) $$ [Ho Hd HO Ht2 Ht3]
  · isplitr; · iapply (inv_d m K c 2 k); iexact HI
    isplitr; · iapply (inv_d m K (yp c) 3 k); iexact HI
    isplitl [Ho]; · iexact Ho
    isplitl [Hd]; · iexact Hd
    isplitl [HO]; · iexact HO
    isplitl [Ht2]; · iexact Ht2
    isplitr; · iapply (reached_d (F := F) c 2 k); iexact HR
    isplitl [Ht3]; · iexact Ht3
    iapply (reached_d (F := F) (yp c) 3 k); iexact HR
  iexact Hk

/-- The wait for chunk k from the row partner, while chunks of the sum are still owed to the column partner. -/
theorem wait_rx (K : Dev nD × Fin 65 → ℕ) (c : Dev nD) (k : Fin 16) (i : ℕ) (W : Waits sig Unit)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dsem 1 k)) N Kk)
    {α : Type} {Q : α → sProp 𝕄} {kk : PUnit → Prog (TpuEff nD τ sig (Elt F) Λ₀ .tc) α} :
    (Invs m K : sProp 𝕄) ⊢ iprop(levAts L lv -∗ cred (tallyAt (dCell c 1 k) () N) -∗ owes (c : Thread nD τ) (OY c i) W -∗ atPos ER (dCell c 1 k) 0 ∅ 0
        -∗ (((∃ W', owes (c : Thread nD τ) (OY c i) W') ∗ semVal (dCell c 1 k) 0 ∗ rPts c k (rxv m c))
            -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  iintro #HI #Hlev Hc HO Hat Hk
  iapply (wp_wait_d m K c 1 k (OY c i) W hw) $$ [Hc HO Hat]
  · isplitr; · iapply (inv_d m K c 1 k); iexact HI
    isplitl [Hc]; · iexact Hc
    isplitl [HO]; · iexact HO
    isplitr; · iapply (mayWait_rx c k i); iexact Hlev
    iexact Hat
  iintro ⟨HO, Hz, Hp⟩
  ihave Hp' := (Entails.of_eq (rest_rx m c k)) $$ Hp
  iapply Hk
  isplitl [HO]; · iexists _; iexact HO
  isplitl [Hz]; · iexact Hz
  iexact Hp'

/-- A wait on a transfer cell while nothing is owed any more, giving the round's payload P. -/
theorem wait_0 (K : Dev nD × Fin 65 → ℕ) (c : Dev nD) (a : Fin 4) (k : Fin 16) (W : Waits sig Unit) (P : sProp 𝕄)
    (hP : bigSep ((sched m).duties (dCell c a k) 0 \ ∅) (fun d => (sched m).payload (dCell c a k) 0 d) = P)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dsem a k)) N Kk)
    {α : Type} {Q : α → sProp 𝕄} {kk : PUnit → Prog (TpuEff nD τ sig (Elt F) Λ₀ .tc) α} :
    (Invs m K : sProp 𝕄) ⊢ iprop(cred (tallyAt (dCell c a k) () N) -∗ owes (c : Thread nD τ) 0 W -∗ atPos ER (dCell c a k) 0 ∅ 0
        -∗ (((∃ W', owes (c : Thread nD τ) 0 W') ∗ semVal (dCell c a k) 0 ∗ P)
            -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  iintro #HI Hc HO Hat Hk
  iapply (wp_wait_d m K c a k 0 W hw) $$ [Hc HO Hat]
  · isplitr; · iapply (inv_d m K c a k); iexact HI
    isplitl [Hc]; · iexact Hc
    isplitl [HO]; · iexact HO
    isplitr; · rw [MayWait_zero]; iempintro
    iexact Hat
  iintro ⟨HO, Hz, Hp⟩
  ihave Hp' := (Entails.of_eq hP) $$ Hp
  iapply Hk
  isplitl [HO]; · iexists _; iexact HO
  isplitl [Hz]; · iexact Hz
  iexact Hp'

/-! ## The four kinds of wait as the body meets them: the wait names the transfer's destination chunk -/

theorem wait_rx' (K : Dev nD × Fin 65 → ℕ) (c : Dev nD) (k : Fin 16) (i : ℕ) (W : Waits sig Unit)
    {sp' : Space} {s' : Shape} {e' : EltTy} {src : Memref sig (c : Thread nD τ).2.kind sp' s' e'}
    {hsrc : src.view.WordExact} {hdst : (rSl k : Memref sig .tc .vmem S32x512 .bf16).view.WordExact}
    {α : Type} {Q : α → sProp 𝕄} {kk : PUnit → Prog (TpuEff nD τ sig (Elt F) Λ₀ .tc) α} :
    (Invs m K : sProp 𝕄) ⊢ iprop(levAts L lv -∗ cred (tallyAt (dCell c 1 k) () N) -∗ owes (c : Thread nD τ) (OY c i) W -∗ atPos ER (dCell c 1 k) 0 ∅ 0
        -∗ (((∃ W', owes (c : Thread nD τ) (OY c i) W') ∗ semVal (dCell c 1 k) 0 ∗ rPts c k (rxv m c))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (dsem 1 k) src (rSl k) hsrc hdst) kk) Q) :=
  wait_rx m K c k i W (wpE_waitDma2_eq 𝒱₀ (c : Thread nD τ) none Set.univ (dst := rSl k))

theorem wait_sx (K : Dev nD × Fin 65 → ℕ) (c : Dev nD) (k : Fin 16) (W : Waits sig Unit)
    {sp' : Space} {s' : Shape} {e' : EltTy} {src : Memref sig (c : Thread nD τ).2.kind sp' s' e'}
    {hsrc : src.view.WordExact} {hdst : (sSl k : Memref sig .tc .vmem S32x512 .bf16).view.WordExact}
    {α : Type} {Q : α → sProp 𝕄} {kk : PUnit → Prog (TpuEff nD τ sig (Elt F) Λ₀ .tc) α} :
    (Invs m K : sProp 𝕄) ⊢ iprop(cred (tallyAt (dCell c 0 k) () N) -∗ owes (c : Thread nD τ) 0 W -∗ atPos ER (dCell c 0 k) 0 ∅ 0
        -∗ (((∃ W', owes (c : Thread nD τ) 0 W') ∗ semVal (dCell c 0 k) 0 ∗ sPts c k fullShare.left (sxv m c))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (dsem 0 k) src (sSl k) hsrc hdst) kk) Q) :=
  wait_0 m K c 0 k W _ (rest_sx m c k) (wpE_waitDma2_eq 𝒱₀ (c : Thread nD τ) none Set.univ (dst := sSl k))

theorem wait_sy (K : Dev nD × Fin 65 → ℕ) (c : Dev nD) (k : Fin 16) (W : Waits sig Unit)
    {off : Fin 2 → Nat} {inb : ∀ a, off a + S32x512.size a ≤ S512x1024.size a} {hst : ∀ a, (Rect.unit (s := S512x1024) off S32x512.size inb).stride a = 1}
    {sp' : Space} {s' : Shape} {e' : EltTy} {src : Memref sig (c : Thread nD τ).2.kind sp' s' e'}
    {hsrc : src.view.WordExact} {hdst : ((oM : Memref sig .tc .vmem S512x1024 .bf16).slice (Rect.unit (s := S512x1024) off S32x512.size inb) hst).view.WordExact}
    {α : Type} {Q : α → sProp 𝕄} {kk : PUnit → Prog (TpuEff nD τ sig (Elt F) Λ₀ .tc) α} :
    (Invs m K : sProp 𝕄) ⊢ iprop(cred (tallyAt (dCell c 2 k) () N) -∗ owes (c : Thread nD τ) 0 W -∗ atPos ER (dCell c 2 k) 0 ∅ 0
        -∗ (((∃ W', owes (c : Thread nD τ) 0 W') ∗ semVal (dCell c 2 k) 0 ∗ oPts c k (myY c) (outv m c))
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.waitDma2 (dsem 2 k) src ((oM : Memref sig .tc .vmem S512x1024 .bf16).slice (Rect.unit (s := S512x1024) off S32x512.size inb) hst) hsrc hdst) kk) Q) :=
  wait_0 m K c 2 k W _ (rest_sy m c k) (wpE_waitDma2_eq 𝒱₀ (c : Thread nD τ) none Set.univ
    (dst := (oM : Memref sig .tc .vmem S512x1024 .bf16).slice (Rect.unit (s := S512x1024) off S32x512.size inb) hst))

theorem wait_ry (K : Dev nD × Fin 65 → ℕ) (c : Dev nD) (k : Fin 16) (W : Waits sig Unit)
    {off : Fin 2 → Nat} {inb : ∀ a, off a + S32x512.size a ≤ S512x1024.size a} {hst : ∀ a, (Rect.unit (s := S512x1024) off S32x512.size inb).stride a = 1}
    {sp' : Space} {s' : Shape} {e' : EltTy} {src : Memref sig (c : Thread nD τ).2.kind sp' s' e'}
    {hsrc : src.view.WordExact} {hdst : ((oM : Memref sig .tc .vmem S512x1024 .bf16).slice (Rect.unit (s := S512x1024) off S32x512.size inb) hst).view.WordExact}
    {α : Type} {Q : α → sProp 𝕄} {kk : PUnit → Prog (TpuEff nD τ sig (Elt F) Λ₀ .tc) α} :
    (Invs m K : sProp 𝕄) ⊢ iprop(cred (tallyAt (dCell c 3 k) () N) -∗ owes (c : Thread nD τ) 0 W -∗ atPos ER (dCell c 3 k) 0 ∅ 0
        -∗ (((∃ W', owes (c : Thread nD τ) 0 W') ∗ semVal (dCell c 3 k) 0 ∗ oPts c k (otY c) (outv m c))
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.waitDma2 (dsem 3 k) src ((oM : Memref sig .tc .vmem S512x1024 .bf16).slice (Rect.unit (s := S512x1024) off S32x512.size inb) hst) hsrc hdst) kk) Q) :=
  wait_0 m K c 3 k W _ (rest_ry m c k) (wpE_waitDma2_eq 𝒱₀ (c : Thread nD τ) none Set.univ
    (dst := (oM : Memref sig .tc .vmem S512x1024 .bf16).slice (Rect.unit (s := S512x1024) off S32x512.size inb) hst))

/-! ## A buffer's chunks at known contents are its chunks at some contents -/

theorem ex_r (c : Dev nD) (f : Buf (Elt F) ((c : Thread nD τ).loc cc0_scratch1)) :
    (bigSep Finset.univ fun k : Fin 16 => rPts (F := F) c k f) ⊢ bigSep Finset.univ fun k : Fin 16 => iprop(∃ f, rPts (F := F) c k f) :=
  bigSep_mono fun k _ => show (rPts (F := F) c k f : sProp 𝕄) ⊢ iprop(∃ f, rPts (F := F) c k f) from by
    iintro H; iexists f; iexact H
theorem ex_o (c : Dev nD) (y : Fin 2) (f : Buf (Elt F) ((c : Thread nD τ).loc cc0_stg1_0)) :
    (bigSep Finset.univ fun k : Fin 16 => oPts (F := F) c k y f) ⊢ bigSep Finset.univ fun k : Fin 16 => iprop(∃ f, oPts (F := F) c k y f) :=
  bigSep_mono fun k _ => show (oPts (F := F) c k y f : sProp 𝕄) ⊢ iprop(∃ f, oPts (F := F) c k y f) from by
    iintro H; iexists f; iexact H

/-- When the sixteenth chunk has gone to the row partner nothing more is owed to it. -/
theorem owes_x_done (c : Dev nD) (W : Waits sig Unit) :
    (owes (c : Thread nD τ) (OY c 0 + OX c 16) W : sProp 𝕄) ⊢ owes (c : Thread nD τ) (OY c 0) W :=
  Entails.of_eq (by rw [show OX c 16 = 0 from rfl, add_zero])
/-- After both barrier signals the 32 chunks are owed, the row partner's first. -/
theorem owes_start (c : Dev nD) (W : Waits sig Unit) :
    (owes (c : Thread nD τ) (O₂ c) W : sProp 𝕄) ⊢ owes (c : Thread nD τ) (OY c 0 + OX c 0) W := Entails.of_eq rfl
/-- When the sixteenth chunk of the sum has gone to the column partner nothing is owed any more. -/
theorem owes_y_done (c : Dev nD) (W : Waits sig Unit) :
    (owes (c : Thread nD τ) (OY c 16) W : sProp 𝕄) ⊢ owes (c : Thread nD τ) 0 W := Entails.of_eq rfl

end Cert.Kernel.Hand

end
-- ==== Proof.KFinish.lean ====
/- The end of a device's body: the chunks of the three buffers a device shared with its partners are joined back into
   whole buffers, and with the transfer cells' counters at zero and nothing owed any more they make up what the body
   hands back. -/
import proofs.«900322_g7700000000000323_dist_rsx_agy_m512_n512_v7x_xy2x2_bf16_1_alg».proof.Proof.KLevels
import proofs.«900322_g7700000000000323_dist_rsx_agy_m512_n512_v7x_xy2x2_bf16_1_alg».proof.Proof.KRegions

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The right half of the first scratch buffer and the left halves of its sixteen chunks are the whole buffer; the sixteen
    chunks of the second scratch buffer are that buffer; the thirty-two chunks of the result's two column halves are the
    result buffer.  With the 64 transfer counters at zero, nothing owed and the block of x in place, that is what the body
    hands back. -/
theorem post_intro (c : Dev nD) :
    iprop((((c : Thread nD τ).loc cc0_scratch0) ↦{fullShare.right} sxv m c)
        ∗ (bigSep Finset.univ fun k : Fin 16 => sPts c k fullShare.left (sxv m c))
        ∗ (bigSep Finset.univ fun k : Fin 16 => rPts c k (rxv m c))
        ∗ (bigSep Finset.univ fun k : Fin 16 => oPts c k (myY c) (outv m c))
        ∗ (bigSep Finset.univ fun k : Fin 16 => oPts c k (otY c) (outv m c))
        ∗ (bigSep Finset.univ fun k : Fin 16 => semVal (dCell c 0 k) 0) ∗ (bigSep Finset.univ fun k : Fin 16 => semVal (dCell c 1 k) 0)
        ∗ (bigSep Finset.univ fun k : Fin 16 => semVal (dCell c 2 k) 0) ∗ (bigSep Finset.univ fun k : Fin 16 => semVal (dCell c 3 k) 0)
        ∗ (∃ W : Waits sig Unit, owes (c : Thread nD τ) 0 W)
        ∗ (((c : Thread nD τ).loc cc0_stg0_0) ↦{fullShare} xstg m c))
      ⊢ bodyPost m ρ c := by
  iintro ⟨Hsr, Hsl, Hr, Ho1, Ho2, Z0, Z1, Z2, Z3, ⟨%W, Hw⟩, Hx⟩
  -- the first scratch buffer: the chunks' left halves joined, then the two halves
  ihave HsL := (s_split (F := F) c fullShare.left (sxv m c)).2 $$ Hsl
  ihave Hs := (s_halves (F := F) c (sxv m c)).2 $$ [HsL Hsr]
  · isplitl [HsL] <;> iassumption
  -- the second scratch buffer and the result buffer
  ihave HR := (r_split (F := F) c (rxv m c)).2 $$ Hr
  ihave HO := (o_split (F := F) c (outv m c)).2 $$ [Ho1 Ho2]
  · isplitl [Ho1] <;> iassumption
  unfold bodyPost Φ₁ Dat.owesAt Pipeline.owesWithin
  rw [show (dats m ρ 0 c).owed t₀.succ = 0 from rfl]
  isplitl [Hs HR Z0 Z1 Z2 Z3]
  · isplitl [Hs]; · iexact Hs
    isplitl [HR]; · iexact HR
    isplitl [Z0]; · iexact Z0
    isplitl [Z1]; · iexact Z1
    isplitl [Z2]; · iexact Z2
    iexact Z3
  isplitl [Hw]
  · iexists W
    isplitr; · ipureintro; exact fun _ _ => Or.inl trivial
    iexact Hw
  isplitl [Hx]
  · iexists _; isplitr; · (ipureintro; rfl)
    iexact Hx
  iexists _; isplitr; · (ipureintro; rfl)
  iexact HO

end Cert.Kernel.Hand

end
-- ==== Proof.KBody.lean ====
/- One device's body, run from the ghost state the launch hands it to the state it hands back: the two barrier signals
   hand the partners the buffers they will write, the barrier wait brings the partners' buffers, sixteen chunks go to the
   row partner, each chunk of the sum is formed when the row partner's chunk has landed and goes on to the column partner,
   and the waits at the end bring every chunk back and close the transfer cells. -/
import proofs.«900322_g7700000000000323_dist_rsx_agy_m512_n512_v7x_xy2x2_bf16_1_alg».proof.Proof.KSteps
import proofs.«900322_g7700000000000323_dist_rsx_agy_m512_n512_v7x_xy2x2_bf16_1_alg».proof.Proof.KFinish

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The first scratch buffer after the whole-buffer store, spelt through the buffer itself. -/
theorem s_norm (c : Dev nD) :
    ((((sM : Memref sig .tc .vmem S512x512 .bf16).access r0s).loc (c : Thread nD τ) ↦{fullShare} k0_pay1 (xstg m c) : sProp 𝕄))
      ⊢ (((c : Thread nD τ).loc cc0_scratch0) ↦{fullShare} sxv m c) := Entails.of_eq rfl

set_option maxHeartbeats 12800000 in
set_option maxRecDepth 65536 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  unfold bodyPre Φ₀ start ghost positions payToks launchCreds records
  iintro ⟨⟨⟨⟨⟨%K, ⟨#HI, #HR⟩, ⟨HaB, Ha0, Ha1, Ha2, Ha3⟩, ⟨HtBX, HtBY, Ht0, Ht1, Ht2, Ht3⟩⟩, ⟨HcB, Hc1, Hc3⟩, #Hlev⟩, ⟨%fs0, Hs⟩, ⟨%fr0, Hr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the positions, the tokens and the credits of the sixteen chunks, one by one
  ihave Ha0' := (Entails.of_eq (bigSep_fin16 _)) $$ Ha0
  icases Ha0' with ⟨Ha0_0, Ha0_1, Ha0_2, Ha0_3, Ha0_4, Ha0_5, Ha0_6, Ha0_7, Ha0_8, Ha0_9, Ha0_10, Ha0_11, Ha0_12, Ha0_13, Ha0_14, Ha0_15⟩
  ihave Ha1' := (Entails.of_eq (bigSep_fin16 _)) $$ Ha1
  icases Ha1' with ⟨Ha1_0, Ha1_1, Ha1_2, Ha1_3, Ha1_4, Ha1_5, Ha1_6, Ha1_7, Ha1_8, Ha1_9, Ha1_10, Ha1_11, Ha1_12, Ha1_13, Ha1_14, Ha1_15⟩
  ihave Ha2' := (Entails.of_eq (bigSep_fin16 _)) $$ Ha2
  icases Ha2' with ⟨Ha2_0, Ha2_1, Ha2_2, Ha2_3, Ha2_4, Ha2_5, Ha2_6, Ha2_7, Ha2_8, Ha2_9, Ha2_10, Ha2_11, Ha2_12, Ha2_13, Ha2_14, Ha2_15⟩
  ihave Ha3' := (Entails.of_eq (bigSep_fin16 _)) $$ Ha3
  icases Ha3' with ⟨Ha3_0, Ha3_1, Ha3_2, Ha3_3, Ha3_4, Ha3_5, Ha3_6, Ha3_7, Ha3_8, Ha3_9, Ha3_10, Ha3_11, Ha3_12, Ha3_13, Ha3_14, Ha3_15⟩
  ihave Ht0' := (Entails.of_eq (bigSep_fin16 _)) $$ Ht0
  icases Ht0' with ⟨Ht0_0, Ht0_1, Ht0_2, Ht0_3, Ht0_4, Ht0_5, Ht0_6, Ht0_7, Ht0_8, Ht0_9, Ht0_10, Ht0_11, Ht0_12, Ht0_13, Ht0_14, Ht0_15⟩
  ihave Ht1' := (Entails.of_eq (bigSep_fin16 _)) $$ Ht1
  icases Ht1' with ⟨Ht1_0, Ht1_1, Ht1_2, Ht1_3, Ht1_4, Ht1_5, Ht1_6, Ht1_7, Ht1_8, Ht1_9, Ht1_10, Ht1_11, Ht1_12, Ht1_13, Ht1_14, Ht1_15⟩
  ihave Ht2' := (Entails.of_eq (bigSep_fin16 _)) $$ Ht2
  icases Ht2' with ⟨Ht2_0, Ht2_1, Ht2_2, Ht2_3, Ht2_4, Ht2_5, Ht2_6, Ht2_7, Ht2_8, Ht2_9, Ht2_10, Ht2_11, Ht2_12, Ht2_13, Ht2_14, Ht2_15⟩
  ihave Ht3' := (Entails.of_eq (bigSep_fin16 _)) $$ Ht3
  icases Ht3' with ⟨Ht3_0, Ht3_1, Ht3_2, Ht3_3, Ht3_4, Ht3_5, Ht3_6, Ht3_7, Ht3_8, Ht3_9, Ht3_10, Ht3_11, Ht3_12, Ht3_13, Ht3_14, Ht3_15⟩
  ihave Hc1' := (Entails.of_eq (bigSep_fin16 _)) $$ Hc1
  icases Hc1' with ⟨Hc1_0, Hc1_1, Hc1_2, Hc1_3, Hc1_4, Hc1_5, Hc1_6, Hc1_7, Hc1_8, Hc1_9, Hc1_10, Hc1_11, Hc1_12, Hc1_13, Hc1_14, Hc1_15⟩
  ihave Hc3' := (Entails.of_eq (bigSep_fin16 _)) $$ Hc3
  icases Hc3' with ⟨Hc3_0, Hc3_1, Hc3_2, Hc3_3, Hc3_4, Hc3_5, Hc3_6, Hc3_7, Hc3_8, Hc3_9, Hc3_10, Hc3_11, Hc3_12, Hc3_13, Hc3_14, Hc3_15⟩
  rw [cc0_body_eq_skeleton]; unfold cc0_body_skel
  rw [wp_bind]
  rw [k0_part29_eq_skeleton]; unfold k0_part29_skel
  rw [wp_bind]
  rw [k0_part1_eq_skeleton]; unfold k0_part1_skel
  simp only [semSignalWord, semWaitWord, Prog.lift, Prog.bind_op, Prog.bind_ret, Prog.pure_eq_ret, wp_deviceId]
  simp only [dev1_eq c, dev2_eq c]
  -- the device hands its second scratch buffer, chunk by chunk, to its row partner with the first barrier signal
  ihave Hrs := (r_split c fr0).1 $$ Hr
  ihave Hrs' := (ex_r c fr0) $$ Hrs
  iapply (Rounds.wp_signal 𝒱₀ ER (sched m) (c : Thread nD τ) none (dst := (xp c : Thread nD τ)) (κ := K (xp c, jBar))
      (d := true) (by rw [duties_bar]; exact Finset.mem_univ _) ((amount_bar m (xp c) true).trans (by decide)) () (O₁ c) rfl)
    $$ [HO HtBX Hrs']
  · isplitr; · iapply (inv_bar m K (xp c)); iexact HI
    isplitl [HO]; · iexact HO
    isplitl [HtBX]; · iexact HtBX
    isplitl [Hrs']
    · rw [payload_bar_true]; unfold barPayX; rw [xp_xp]; iexact Hrs'
    · iapply (reached_bar (F := F) (xp c)); iexact HR
  iintro HO
  -- and the column half of its result buffer that its column partner fills, with the second
  ihave Hos := (o_split c g1).1 $$ Hout
  icases Hos with ⟨Hom, Hoo⟩
  ihave Hoo' := (ex_o c (otY c) g1) $$ Hoo
  unfold O₁
  iapply (Rounds.wp_signal 𝒱₀ ER (sched m) (c : Thread nD τ) none (dst := (yp c : Thread nD τ)) (κ := K (yp c, jBar))
      (d := false) (by rw [duties_bar]; exact Finset.mem_univ _) ((amount_bar m (yp c) false).trans (by decide)) () (O₂ c) rfl)
    $$ [HO HtBY Hoo']
  · isplitr; · iapply (inv_bar m K (yp c)); iexact HI
    isplitl [HO]; · iexact HO
    isplitl [HtBY]; · iexact HtBY
    isplitl [Hoo']
    · rw [payload_bar_false]; unfold barPayY; rw [yp_yp, myY_yp]; iexact Hoo'
    · iapply (reached_bar (F := F) (yp c)); iexact HR
  iintro HO
  -- the block of x is read and, narrowed, stored into the first scratch buffer
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := r0s) (Mk := Finset.univ) (Finset.subset_univ _)) $$ Hs; iintro Hs
  rw [write_s]
  -- the wait for both partners' signals, owing them the 32 chunks: their buffers come with it
  iapply (Rounds.wp_wait_rest_token 𝒱₀ ER (sched m) (c : Thread nD τ) none (κ := K (c, jBar))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_bar m K c); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  icases Hp with ⟨HoY, HrX⟩
  ihave HO := (owes_start c _) $$ HO
  -- the first scratch buffer: half of every chunk for its transfer, the other half of the whole for the loads
  ihave Hs := (s_norm m c) $$ Hs
  ihave Hsh := (s_halves c (sxv m c)).1 $$ Hs
  icases Hsh with ⟨HsL, HsR⟩
  ihave HsLs := (s_split c fullShare.left (sxv m c)).1 $$ HsL
  ihave HsLs' := (Entails.of_eq (bigSep_fin16 _)) $$ HsLs
  icases HsLs' with ⟨Hs0, Hs1, Hs2, Hs3, Hs4, Hs5, Hs6, Hs7, Hs8, Hs9, Hs10, Hs11, Hs12, Hs13, Hs14, Hs15⟩
  ihave Hom' := (Entails.of_eq (bigSep_fin16 _)) $$ Hom
  icases Hom' with ⟨Hom0, Hom1, Hom2, Hom3, Hom4, Hom5, Hom6, Hom7, Hom8, Hom9, Hom10, Hom11, Hom12, Hom13, Hom14, Hom15⟩
  unfold barPayX barPayY
  ihave HrX' := (Entails.of_eq (bigSep_fin16 _)) $$ HrX
  icases HrX' with ⟨⟨%fx0, HrX0⟩, ⟨%fx1, HrX1⟩, ⟨%fx2, HrX2⟩, ⟨%fx3, HrX3⟩, ⟨%fx4, HrX4⟩, ⟨%fx5, HrX5⟩, ⟨%fx6, HrX6⟩, ⟨%fx7, HrX7⟩, ⟨%fx8, HrX8⟩, ⟨%fx9, HrX9⟩, ⟨%fx10, HrX10⟩, ⟨%fx11, HrX11⟩, ⟨%fx12, HrX12⟩, ⟨%fx13, HrX13⟩, ⟨%fx14, HrX14⟩, ⟨%fx15, HrX15⟩⟩
  ihave HoY' := (Entails.of_eq (bigSep_fin16 _)) $$ HoY
  icases HoY' with ⟨⟨%fy0, HoY0⟩, ⟨%fy1, HoY1⟩, ⟨%fy2, HoY2⟩, ⟨%fy3, HoY3⟩, ⟨%fy4, HoY4⟩, ⟨%fy5, HoY5⟩, ⟨%fy6, HoY6⟩, ⟨%fy7, HoY7⟩, ⟨%fy8, HoY8⟩, ⟨%fy9, HoY9⟩, ⟨%fy10, HoY10⟩, ⟨%fy11, HoY11⟩, ⟨%fy12, HoY12⟩, ⟨%fy13, HoY13⟩, ⟨%fy14, HoY14⟩, ⟨%fy15, HoY15⟩⟩
  rw [wp_ret]; imodintro; try dsimp only
  -- the sixteen chunks go to the row partner
  rw [wp_bind, k0_part2_eq_skeleton]; unfold k0_part2_skel
  simp only [Prog.lift, Prog.bind_op, Prog.bind_ret, Prog.pure_eq_ret]
  iapply (send_x m K c _ (dev3_eq c) 0 0 1 rfl rfl fx0 _) $$ HI HR Hs0 HrX0 HO Ht0_0 Ht1_0; iintro ⟨Hc0_0, HO⟩
  iapply (send_x m K c _ (dev4_eq c) 1 1 2 rfl rfl fx1 _) $$ HI HR Hs1 HrX1 HO Ht0_1 Ht1_1; iintro ⟨Hc0_1, HO⟩
  iapply (send_x m K c _ (dev5_eq c) 2 2 3 rfl rfl fx2 _) $$ HI HR Hs2 HrX2 HO Ht0_2 Ht1_2; iintro ⟨Hc0_2, HO⟩
  rw [wp_ret]; imodintro; try dsimp only
  rw [wp_bind, k0_part3_eq_skeleton]; unfold k0_part3_skel
  simp only [Prog.lift, Prog.bind_op, Prog.bind_ret, Prog.pure_eq_ret]
  iapply (send_x m K c _ (dev6_eq c) 3 3 4 rfl rfl fx3 _) $$ HI HR Hs3 HrX3 HO Ht0_3 Ht1_3; iintro ⟨Hc0_3, HO⟩
  iapply (send_x m K c _ (dev7_eq c) 4 4 5 rfl rfl fx4 _) $$ HI HR Hs4 HrX4 HO Ht0_4 Ht1_4; iintro ⟨Hc0_4, HO⟩
  iapply (send_x m K c _ (dev8_eq c) 5 5 6 rfl rfl fx5 _) $$ HI HR Hs5 HrX5 HO Ht0_5 Ht1_5; iintro ⟨Hc0_5, HO⟩
  rw [wp_ret]; imodintro; try dsimp only
  rw [wp_bind, k0_part4_eq_skeleton]; unfold k0_part4_skel
  simp only [Prog.lift, Prog.bind_op, Prog.bind_ret, Prog.pure_eq_ret]
  iapply (send_x m K c _ (dev9_eq c) 6 6 7 rfl rfl fx6 _) $$ HI HR Hs6 HrX6 HO Ht0_6 Ht1_6; iintro ⟨Hc0_6, HO⟩
  iapply (send_x m K c _ (dev10_eq c) 7 7 8 rfl rfl fx7 _) $$ HI HR Hs7 HrX7 HO Ht0_7 Ht1_7; iintro ⟨Hc0_7, HO⟩
  iapply (send_x m K c _ (dev11_eq c) 8 8 9 rfl rfl fx8 _) $$ HI HR Hs8 HrX8 HO Ht0_8 Ht1_8; iintro ⟨Hc0_8, HO⟩
  rw [wp_ret]; imodintro; try dsimp only
  rw [wp_bind, k0_part5_eq_skeleton]; unfold k0_part5_skel
  simp only [Prog.lift, Prog.bind_op, Prog.bind_ret, Prog.pure_eq_ret]
  iapply (send_x m K c _ (dev12_eq c) 9 9 10 rfl rfl fx9 _) $$ HI HR Hs9 HrX9 HO Ht0_9 Ht1_9; iintro ⟨Hc0_9, HO⟩
  iapply (send_x m K c _ (dev13_eq c) 10 10 11 rfl rfl fx10 _) $$ HI HR Hs10 HrX10 HO Ht0_10 Ht1_10; iintro ⟨Hc0_10, HO⟩
  iapply (send_x m K c _ (dev14_eq c) 11 11 12 rfl rfl fx11 _) $$ HI HR Hs11 HrX11 HO Ht0_11 Ht1_11; iintro ⟨Hc0_11, HO⟩
  rw [wp_ret]; imodintro; try dsimp only
  rw [wp_bind, k0_part6_eq_skeleton]; unfold k0_part6_skel
  simp only [Prog.lift, Prog.bind_op, Prog.bind_ret, Prog.pure_eq_ret]
  iapply (send_x m K c _ (dev15_eq c) 12 12 13 rfl rfl fx12 _) $$ HI HR Hs12 HrX12 HO Ht0_12 Ht1_12; iintro ⟨Hc0_12, HO⟩
  iapply (send_x m K c _ (dev16_eq c) 13 13 14 rfl rfl fx13 _) $$ HI HR Hs13 HrX13 HO Ht0_13 Ht1_13; iintro ⟨Hc0_13, HO⟩
  iapply (send_x m K c _ (dev17_eq c) 14 14 15 rfl rfl fx14 _) $$ HI HR Hs14 HrX14 HO Ht0_14 Ht1_14; iintro ⟨Hc0_14, HO⟩
  rw [wp_ret]; imodintro; try dsimp only
  rw [wp_bind, k0_part7_eq_skeleton]; unfold k0_part7_skel
  simp only [Prog.lift, Prog.bind_op, Prog.bind_ret, Prog.pure_eq_ret]
  iapply (send_x m K c _ (dev18_eq c) 15 15 16 rfl rfl fx15 _) $$ HI HR Hs15 HrX15 HO Ht0_15 Ht1_15; iintro ⟨Hc0_15, HO⟩
  ihave HO := (owes_x_done c _) $$ HO
  -- chunk by chunk: the row partner's chunk has landed, the sum is formed and goes on to the column partner
  iapply (wait_rx' m K c 0 0 _) $$ HI Hlev Hc1_0 HO Ha1_0; iintro ⟨⟨%W0, HO⟩, Hz1_0, Hr0⟩
  iapply (wp_load_s m c 0) $$ HsR; iintro HsR
  iapply (wp_load_r m c 0) $$ Hr0; iintro Hr0
  iapply (wp_load_o c 0 _ (k0_off1_eq c) _ g1) $$ Hom0; iintro Hom0
  iapply (wp_store_o m c 0 _ (k0_off1_eq c) _ g1 _ rfl) $$ Hom0; iintro Hom0
  iapply (send_y m K c _ (dev19_eq c) 0 0 1 rfl rfl _ (k0_off2_eq c) _ fy0 _) $$ HI HR Hom0 HoY0 HO Ht2_0 Ht3_0; iintro ⟨Hc2_0, HO⟩
  rw [wp_ret]; imodintro; try dsimp only
  rw [wp_bind, k0_part8_eq_skeleton]; unfold k0_part8_skel
  simp only [Prog.lift, Prog.bind_op, Prog.bind_ret, Prog.pure_eq_ret]
  iapply (wait_rx' m K c 1 1 _) $$ HI Hlev Hc1_1 HO Ha1_1; iintro ⟨⟨%W1, HO⟩, Hz1_1, Hr1⟩
  iapply (wp_load_s m c 1) $$ HsR; iintro HsR
  iapply (wp_load_r m c 1) $$ Hr1; iintro Hr1
  iapply (wp_load_o c 1 _ (k0_off3_eq c) _ g1) $$ Hom1; iintro Hom1
  iapply (wp_store_o m c 1 _ (k0_off3_eq c) _ g1 _ rfl) $$ Hom1; iintro Hom1
  iapply (send_y m K c _ (dev20_eq c) 1 1 2 rfl rfl _ (k0_off4_eq c) _ fy1 _) $$ HI HR Hom1 HoY1 HO Ht2_1 Ht3_1; iintro ⟨Hc2_1, HO⟩
  rw [wp_ret]; imodintro; try dsimp only
  rw [wp_bind, k0_part9_eq_skeleton]; unfold k0_part9_skel
  simp only [Prog.lift, Prog.bind_op, Prog.bind_ret, Prog.pure_eq_ret]
  iapply (wait_rx' m K c 2 2 _) $$ HI Hlev Hc1_2 HO Ha1_2; iintro ⟨⟨%W2, HO⟩, Hz1_2, Hr2⟩
  iapply (wp_load_s m c 2) $$ HsR; iintro HsR
  iapply (wp_load_r m c 2) $$ Hr2; iintro Hr2
  iapply (wp_load_o c 2 _ (k0_off5_eq c) _ g1) $$ Hom2; iintro Hom2
  iapply (wp_store_o m c 2 _ (k0_off5_eq c) _ g1 _ rfl) $$ Hom2; iintro Hom2
  iapply (send_y m K c _ (dev21_eq c) 2 2 3 rfl rfl _ (k0_off6_eq c) _ fy2 _) $$ HI HR Hom2 HoY2 HO Ht2_2 Ht3_2; iintro ⟨Hc2_2, HO⟩
  iapply (wait_rx' m K c 3 3 _) $$ HI Hlev Hc1_3 HO Ha1_3; iintro ⟨⟨%W3, HO⟩, Hz1_3, Hr3⟩
  iapply (wp_load_s m c 3) $$ HsR; iintro HsR
  iapply (wp_load_r m c 3) $$ Hr3; iintro Hr3
  iapply (wp_load_o c 3 _ (k0_off7_eq c) _ g1) $$ Hom3; iintro Hom3
  rw [wp_ret]; imodintro; try dsimp only
  rw [wp_bind, k0_part10_eq_skeleton]; unfold k0_part10_skel
  simp only [Prog.lift, Prog.bind_op, Prog.bind_ret, Prog.pure_eq_ret]
  iapply (wp_store_o m c 3 _ (k0_off7_eq c) _ g1 _ rfl) $$ Hom3; iintro Hom3
  iapply (send_y m K c _ (dev22_eq c) 3 3 4 rfl rfl _ (k0_off8_eq c) _ fy3 _) $$ HI HR Hom3 HoY3 HO Ht2_3 Ht3_3; iintro ⟨Hc2_3, HO⟩
  iapply (wait_rx' m K c 4 4 _) $$ HI Hlev Hc1_4 HO Ha1_4; iintro ⟨⟨%W4, HO⟩, Hz1_4, Hr4⟩
  iapply (wp_load_s m c 4) $$ HsR; iintro HsR
  iapply (wp_load_r m c 4) $$ Hr4; iintro Hr4
  iapply (wp_load_o c 4 _ (k0_off9_eq c) _ g1) $$ Hom4; iintro Hom4
  iapply (wp_store_o m c 4 _ (k0_off9_eq c) _ g1 _ rfl) $$ Hom4; iintro Hom4
  rw [wp_ret]; imodintro; try dsimp only
  rw [wp_bind, k0_part11_eq_skeleton]; unfold k0_part11_skel
  simp only [Prog.lift, Prog.bind_op, Prog.bind_ret, Prog.pure_eq_ret]
  iapply (send_y m K c _ (dev23_eq c) 4 4 5 rfl rfl _ (k0_off10_eq c) _ fy4 _) $$ HI HR Hom4 HoY4 HO Ht2_4 Ht3_4; iintro ⟨Hc2_4, HO⟩
  iapply (wait_rx' m K c 5 5 _) $$ HI Hlev Hc1_5 HO Ha1_5; iintro ⟨⟨%W5, HO⟩, Hz1_5, Hr5⟩
  iapply (wp_load_s m c 5) $$ HsR; iintro HsR
  iapply (wp_load_r m c 5) $$ Hr5; iintro Hr5
  iapply (wp_load_o c 5 _ (k0_off11_eq c) _ g1) $$ Hom5; iintro Hom5
  iapply (wp_store_o m c 5 _ (k0_off11_eq c) _ g1 _ rfl) $$ Hom5; iintro Hom5
  iapply (send_y m K c _ (dev24_eq c) 5 5 6 rfl rfl _ (k0_off12_eq c) _ fy5 _) $$ HI HR Hom5 HoY5 HO Ht2_5 Ht3_5; iintro ⟨Hc2_5, HO⟩
  rw [wp_ret]; imodintro; try dsimp only
  rw [wp_bind, k0_part12_eq_skeleton]; unfold k0_part12_skel
  simp only [Prog.lift, Prog.bind_op, Prog.bind_ret, Prog.pure_eq_ret]
  iapply (wait_rx' m K c 6 6 _) $$ HI Hlev Hc1_6 HO Ha1_6; iintro ⟨⟨%W6, HO⟩, Hz1_6, Hr6⟩
  iapply (wp_load_s m c 6) $$ HsR; iintro HsR
  iapply (wp_load_r m c 6) $$ Hr6; iintro Hr6
  iapply (wp_load_o c 6 _ (k0_off13_eq c) _ g1) $$ Hom6; iintro Hom6
  iapply (wp_store_o m c 6 _ (k0_off13_eq c) _ g1 _ rfl) $$ Hom6; iintro Hom6
  iapply (send_y m K c _ (dev25_eq c) 6 6 7 rfl rfl _ (k0_off14_eq c) _ fy6 _) $$ HI HR Hom6 HoY6 HO Ht2_6 Ht3_6; iintro ⟨Hc2_6, HO⟩
  iapply (wait_rx' m K c 7 7 _) $$ HI Hlev Hc1_7 HO Ha1_7; iintro ⟨⟨%W7, HO⟩, Hz1_7, Hr7⟩
  rw [wp_ret]; imodintro; try dsimp only
  rw [wp_bind, k0_part13_eq_skeleton]; unfold k0_part13_skel
  simp only [Prog.lift, Prog.bind_op, Prog.bind_ret, Prog.pure_eq_ret]
  iapply (wp_load_s m c 7) $$ HsR; iintro HsR
  iapply (wp_load_r m c 7) $$ Hr7; iintro Hr7
  iapply (wp_load_o c 7 _ (k0_off15_eq c) _ g1) $$ Hom7; iintro Hom7
  iapply (wp_store_o m c 7 _ (k0_off15_eq c) _ g1 _ rfl) $$ Hom7; iintro Hom7
  iapply (send_y m K c _ (dev26_eq c) 7 7 8 rfl rfl _ (k0_off16_eq c) _ fy7 _) $$ HI HR Hom7 HoY7 HO Ht2_7 Ht3_7; iintro ⟨Hc2_7, HO⟩
  iapply (wait_rx' m K c 8 8 _) $$ HI Hlev Hc1_8 HO Ha1_8; iintro ⟨⟨%W8, HO⟩, Hz1_8, Hr8⟩
  iapply (wp_load_s m c 8) $$ HsR; iintro HsR
  iapply (wp_load_r m c 8) $$ Hr8; iintro Hr8
  iapply (wp_load_o c 8 _ (k0_off17_eq c) _ g1) $$ Hom8; iintro Hom8
  iapply (wp_store_o m c 8 _ (k0_off17_eq c) _ g1 _ rfl) $$ Hom8; iintro Hom8
  rw [wp_ret]; imodintro; try dsimp only
  rw [wp_bind, k0_part14_eq_skeleton]; unfold k0_part14_skel
  simp only [Prog.lift, Prog.bind_op, Prog.bind_ret, Prog.pure_eq_ret]
  iapply (send_y m K c _ (dev27_eq c) 8 8 9 rfl rfl _ (k0_off18_eq c) _ fy8 _) $$ HI HR Hom8 HoY8 HO Ht2_8 Ht3_8; iintro ⟨Hc2_8, HO⟩
  iapply (wait_rx' m K c 9 9 _) $$ HI Hlev Hc1_9 HO Ha1_9; iintro ⟨⟨%W9, HO⟩, Hz1_9, Hr9⟩
  iapply (wp_load_s m c 9) $$ HsR; iintro HsR
  iapply (wp_load_r m c 9) $$ Hr9; iintro Hr9
  iapply (wp_load_o c 9 _ (k0_off19_eq c) _ g1) $$ Hom9; iintro Hom9
  iapply (wp_store_o m c 9 _ (k0_off19_eq c) _ g1 _ rfl) $$ Hom9; iintro Hom9
  rw [wp_ret]; imodintro; try dsimp only
  rw [wp_bind, k0_part15_eq_skeleton]; unfold k0_part15_skel
  simp only [Prog.lift, Prog.bind_op, Prog.bind_ret, Prog.pure_eq_ret]
  iapply (send_y m K c _ (dev28_eq c) 9 9 10 rfl rfl _ (k0_off20_eq c) _ fy9 _) $$ HI HR Hom9 HoY9 HO Ht2_9 Ht3_9; iintro ⟨Hc2_9, HO⟩
  iapply (wait_rx' m K c 10 10 _) $$ HI Hlev Hc1_10 HO Ha1_10; iintro ⟨⟨%W10, HO⟩, Hz1_10, Hr10⟩
  iapply (wp_load_s m c 10) $$ HsR; iintro HsR
  iapply (wp_load_r m c 10) $$ Hr10; iintro Hr10
  iapply (wp_load_o c 10 _ (k0_off21_eq c) _ g1) $$ Hom10; iintro Hom10
  iapply (wp_store_o m c 10 _ (k0_off21_eq c) _ g1 _ rfl) $$ Hom10; iintro Hom10
  iapply (send_y m K c _ (dev29_eq c) 10 10 11 rfl rfl _ (k0_off22_eq c) _ fy10 _) $$ HI HR Hom10 HoY10 HO Ht2_10 Ht3_10; iintro ⟨Hc2_10, HO⟩
  rw [wp_ret]; imodintro; try dsimp only
  rw [wp_bind, k0_part16_eq_skeleton]; unfold k0_part16_skel
  simp only [Prog.lift, Prog.bind_op, Prog.bind_ret, Prog.pure_eq_ret]
  iapply (wait_rx' m K c 11 11 _) $$ HI Hlev Hc1_11 HO Ha1_11; iintro ⟨⟨%W11, HO⟩, Hz1_11, Hr11⟩
  iapply (wp_load_s m c 11) $$ HsR; iintro HsR
  iapply (wp_load_r m c 11) $$ Hr11; iintro Hr11
  iapply (wp_load_o c 11 _ (k0_off23_eq c) _ g1) $$ Hom11; iintro Hom11
  iapply (wp_store_o m c 11 _ (k0_off23_eq c) _ g1 _ rfl) $$ Hom11; iintro Hom11
  iapply (send_y m K c _ (dev30_eq c) 11 11 12 rfl rfl _ (k0_off24_eq c) _ fy11 _) $$ HI HR Hom11 HoY11 HO Ht2_11 Ht3_11; iintro ⟨Hc2_11, HO⟩
  iapply (wait_rx' m K c 12 12 _) $$ HI Hlev Hc1_12 HO Ha1_12; iintro ⟨⟨%W12, HO⟩, Hz1_12, Hr12⟩
  iapply (wp_load_s m c 12) $$ HsR; iintro HsR
  iapply (wp_load_r m c 12) $$ Hr12; iintro Hr12
  rw [wp_ret]; imodintro; try dsimp only
  rw [wp_bind, k0_part17_eq_skeleton]; unfold k0_part17_skel
  simp only [Prog.lift, Prog.bind_op, Prog.bind_ret, Prog.pure_eq_ret]
  iapply (wp_load_o c 12 _ (k0_off25_eq c) _ g1) $$ Hom12; iintro Hom12
  iapply (wp_store_o m c 12 _ (k0_off25_eq c) _ g1 _ rfl) $$ Hom12; iintro Hom12
  iapply (send_y m K c _ (dev31_eq c) 12 12 13 rfl rfl _ (k0_off26_eq c) _ fy12 _) $$ HI HR Hom12 HoY12 HO Ht2_12 Ht3_12; iintro ⟨Hc2_12, HO⟩
  iapply (wait_rx' m K c 13 13 _) $$ HI Hlev Hc1_13 HO Ha1_13; iintro ⟨⟨%W13, HO⟩, Hz1_13, Hr13⟩
  iapply (wp_load_s m c 13) $$ HsR; iintro HsR
  iapply (wp_load_r m c 13) $$ Hr13; iintro Hr13
  iapply (wp_load_o c 13 _ (k0_off27_eq c) _ g1) $$ Hom13; iintro Hom13
  iapply (wp_store_o m c 13 _ (k0_off27_eq c) _ g1 _ rfl) $$ Hom13; iintro Hom13
  rw [wp_ret]; imodintro; try dsimp only
  rw [wp_bind, k0_part18_eq_skeleton]; unfold k0_part18_skel
  simp only [Prog.lift, Prog.bind_op, Prog.bind_ret, Prog.pure_eq_ret]
  iapply (send_y m K c _ (dev32_eq c) 13 13 14 rfl rfl _ (k0_off28_eq c) _ fy13 _) $$ HI HR Hom13 HoY13 HO Ht2_13 Ht3_13; iintro ⟨Hc2_13, HO⟩
  iapply (wait_rx' m K c 14 14 _) $$ HI Hlev Hc1_14 HO Ha1_14; iintro ⟨⟨%W14, HO⟩, Hz1_14, Hr14⟩
  iapply (wp_load_s m c 14) $$ HsR; iintro HsR
  iapply (wp_load_r m c 14) $$ Hr14; iintro Hr14
  iapply (wp_load_o c 14 _ (k0_off29_eq c) _ g1) $$ Hom14; iintro Hom14
  iapply (wp_store_o m c 14 _ (k0_off29_eq c) _ g1 _ rfl) $$ Hom14; iintro Hom14
  iapply (send_y m K c _ (dev33_eq c) 14 14 15 rfl rfl _ (k0_off30_eq c) _ fy14 _) $$ HI HR Hom14 HoY14 HO Ht2_14 Ht3_14; iintro ⟨Hc2_14, HO⟩
  rw [wp_ret]; imodintro; try dsimp only
  rw [wp_bind, k0_part19_eq_skeleton]; unfold k0_part19_skel
  simp only [Prog.lift, Prog.bind_op, Prog.bind_ret, Prog.pure_eq_ret]
  iapply (wait_rx' m K c 15 15 _) $$ HI Hlev Hc1_15 HO Ha1_15; iintro ⟨⟨%W15, HO⟩, Hz1_15, Hr15⟩
  iapply (wp_load_s m c 15) $$ HsR; iintro HsR
  iapply (wp_load_r m c 15) $$ Hr15; iintro Hr15
  iapply (wp_load_o c 15 _ (k0_off31_eq c) _ g1) $$ Hom15; iintro Hom15
  iapply (wp_store_o m c 15 _ (k0_off31_eq c) _ g1 _ rfl) $$ Hom15; iintro Hom15
  iapply (send_y m K c _ (dev34_eq c) 15 15 16 rfl rfl _ (k0_off32_eq c) _ fy15 _) $$ HI HR Hom15 HoY15 HO Ht2_15 Ht3_15; iintro ⟨Hc2_15, HO⟩
  ihave HO := (owes_y_done c _) $$ HO
  -- the column partner's sixteen chunks
  iapply (wait_ry m K c 0 _) $$ HI Hc3_0 HO Ha3_0; iintro ⟨⟨%Wy0, HO⟩, Hz3_0, Hoo0⟩
  rw [wp_ret]; imodintro; try dsimp only
  rw [wp_bind, k0_part20_eq_skeleton]; unfold k0_part20_skel
  simp only [Prog.lift, Prog.bind_op, Prog.bind_ret, Prog.pure_eq_ret]
  iapply (wait_ry m K c 1 _) $$ HI Hc3_1 HO Ha3_1; iintro ⟨⟨%Wy1, HO⟩, Hz3_1, Hoo1⟩
  iapply (wait_ry m K c 2 _) $$ HI Hc3_2 HO Ha3_2; iintro ⟨⟨%Wy2, HO⟩, Hz3_2, Hoo2⟩
  iapply (wait_ry m K c 3 _) $$ HI Hc3_3 HO Ha3_3; iintro ⟨⟨%Wy3, HO⟩, Hz3_3, Hoo3⟩
  rw [wp_ret]; imodintro; try dsimp only
  rw [wp_bind, k0_part21_eq_skeleton]; unfold k0_part21_skel
  simp only [Prog.lift, Prog.bind_op, Prog.bind_ret, Prog.pure_eq_ret]
  iapply (wait_ry m K c 4 _) $$ HI Hc3_4 HO Ha3_4; iintro ⟨⟨%Wy4, HO⟩, Hz3_4, Hoo4⟩
  iapply (wait_ry m K c 5 _) $$ HI Hc3_5 HO Ha3_5; iintro ⟨⟨%Wy5, HO⟩, Hz3_5, Hoo5⟩
  iapply (wait_ry m K c 6 _) $$ HI Hc3_6 HO Ha3_6; iintro ⟨⟨%Wy6, HO⟩, Hz3_6, Hoo6⟩
  iapply (wait_ry m K c 7 _) $$ HI Hc3_7 HO Ha3_7; iintro ⟨⟨%Wy7, HO⟩, Hz3_7, Hoo7⟩
  rw [wp_ret]; imodintro; try dsimp only
  rw [wp_bind, k0_part22_eq_skeleton]; unfold k0_part22_skel
  simp only [Prog.lift, Prog.bind_op, Prog.bind_ret, Prog.pure_eq_ret]
  iapply (wait_ry m K c 8 _) $$ HI Hc3_8 HO Ha3_8; iintro ⟨⟨%Wy8, HO⟩, Hz3_8, Hoo8⟩
  iapply (wait_ry m K c 9 _) $$ HI Hc3_9 HO Ha3_9; iintro ⟨⟨%Wy9, HO⟩, Hz3_9, Hoo9⟩
  iapply (wait_ry m K c 10 _) $$ HI Hc3_10 HO Ha3_10; iintro ⟨⟨%Wy10, HO⟩, Hz3_10, Hoo10⟩
  iapply (wait_ry m K c 11 _) $$ HI Hc3_11 HO Ha3_11; iintro ⟨⟨%Wy11, HO⟩, Hz3_11, Hoo11⟩
  rw [wp_ret]; imodintro; try dsimp only
  rw [wp_bind, k0_part23_eq_skeleton]; unfold k0_part23_skel
  simp only [Prog.lift, Prog.bind_op, Prog.bind_ret, Prog.pure_eq_ret]
  iapply (wait_ry m K c 12 _) $$ HI Hc3_12 HO Ha3_12; iintro ⟨⟨%Wy12, HO⟩, Hz3_12, Hoo12⟩
  iapply (wait_ry m K c 13 _) $$ HI Hc3_13 HO Ha3_13; iintro ⟨⟨%Wy13, HO⟩, Hz3_13, Hoo13⟩
  iapply (wait_ry m K c 14 _) $$ HI Hc3_14 HO Ha3_14; iintro ⟨⟨%Wy14, HO⟩, Hz3_14, Hoo14⟩
  iapply (wait_ry m K c 15 _) $$ HI Hc3_15 HO Ha3_15; iintro ⟨⟨%Wy15, HO⟩, Hz3_15, Hoo15⟩
  rw [wp_ret]; imodintro; try dsimp only
  -- the sends are waited for, chunk by chunk: every source chunk comes back and its cell closes
  rw [wp_bind, k0_part24_eq_skeleton]; unfold k0_part24_skel
  simp only [Prog.lift, Prog.bind_op, Prog.bind_ret, Prog.pure_eq_ret]
  iapply (wait_sx m K c 0 _) $$ HI Hc0_0 HO Ha0_0; iintro ⟨⟨%Wa0, HO⟩, Hz0_0, Hs0⟩
  iapply (wait_sy m K c 0 _) $$ HI Hc2_0 HO Ha2_0; iintro ⟨⟨%Wb0, HO⟩, Hz2_0, Hom0⟩
  iapply (wait_sx m K c 1 _) $$ HI Hc0_1 HO Ha0_1; iintro ⟨⟨%Wa1, HO⟩, Hz0_1, Hs1⟩
  iapply (wait_sy m K c 1 _) $$ HI Hc2_1 HO Ha2_1; iintro ⟨⟨%Wb1, HO⟩, Hz2_1, Hom1⟩
  iapply (wait_sx m K c 2 _) $$ HI Hc0_2 HO Ha0_2; iintro ⟨⟨%Wa2, HO⟩, Hz0_2, Hs2⟩
  rw [wp_ret]; imodintro; try dsimp only
  rw [wp_bind, k0_part25_eq_skeleton]; unfold k0_part25_skel
  simp only [Prog.lift, Prog.bind_op, Prog.bind_ret, Prog.pure_eq_ret]
  iapply (wait_sy m K c 2 _) $$ HI Hc2_2 HO Ha2_2; iintro ⟨⟨%Wb2, HO⟩, Hz2_2, Hom2⟩
  iapply (wait_sx m K c 3 _) $$ HI Hc0_3 HO Ha0_3; iintro ⟨⟨%Wa3, HO⟩, Hz0_3, Hs3⟩
  iapply (wait_sy m K c 3 _) $$ HI Hc2_3 HO Ha2_3; iintro ⟨⟨%Wb3, HO⟩, Hz2_3, Hom3⟩
  iapply (wait_sx m K c 4 _) $$ HI Hc0_4 HO Ha0_4; iintro ⟨⟨%Wa4, HO⟩, Hz0_4, Hs4⟩
  iapply (wait_sy m K c 4 _) $$ HI Hc2_4 HO Ha2_4; iintro ⟨⟨%Wb4, HO⟩, Hz2_4, Hom4⟩
  rw [wp_ret]; imodintro; try dsimp only
  rw [wp_bind, k0_part26_eq_skeleton]; unfold k0_part26_skel
  simp only [Prog.lift, Prog.bind_op, Prog.bind_ret, Prog.pure_eq_ret]
  iapply (wait_sx m K c 5 _) $$ HI Hc0_5 HO Ha0_5; iintro ⟨⟨%Wa5, HO⟩, Hz0_5, Hs5⟩
  iapply (wait_sy m K c 5 _) $$ HI Hc2_5 HO Ha2_5; iintro ⟨⟨%Wb5, HO⟩, Hz2_5, Hom5⟩
  iapply (wait_sx m K c 6 _) $$ HI Hc0_6 HO Ha0_6; iintro ⟨⟨%Wa6, HO⟩, Hz0_6, Hs6⟩
  iapply (wait_sy m K c 6 _) $$ HI Hc2_6 HO Ha2_6; iintro ⟨⟨%Wb6, HO⟩, Hz2_6, Hom6⟩
  iapply (wait_sx m K c 7 _) $$ HI Hc0_7 HO Ha0_7; iintro ⟨⟨%Wa7, HO⟩, Hz0_7, Hs7⟩
  iapply (wait_sy m K c 7 _) $$ HI Hc2_7 HO Ha2_7; iintro ⟨⟨%Wb7, HO⟩, Hz2_7, Hom7⟩
  rw [wp_ret]; imodintro; try dsimp only
  rw [wp_bind, k0_part27_eq_skeleton]; unfold k0_part27_skel
  simp only [Prog.lift, Prog.bind_op, Prog.bind_ret, Prog.pure_eq_ret]
  iapply (wait_sx m K c 8 _) $$ HI Hc0_8 HO Ha0_8; iintro ⟨⟨%Wa8, HO⟩, Hz0_8, Hs8⟩
  iapply (wait_sy m K c 8 _) $$ HI Hc2_8 HO Ha2_8; iintro ⟨⟨%Wb8, HO⟩, Hz2_8, Hom8⟩
  iapply (wait_sx m K c 9 _) $$ HI Hc0_9 HO Ha0_9; iintro ⟨⟨%Wa9, HO⟩, Hz0_9, Hs9⟩
  iapply (wait_sy m K c 9 _) $$ HI Hc2_9 HO Ha2_9; iintro ⟨⟨%Wb9, HO⟩, Hz2_9, Hom9⟩
  iapply (wait_sx m K c 10 _) $$ HI Hc0_10 HO Ha0_10; iintro ⟨⟨%Wa10, HO⟩, Hz0_10, Hs10⟩
  rw [wp_ret]; imodintro; try dsimp only
  rw [wp_bind, k0_part28_eq_skeleton]; unfold k0_part28_skel
  simp only [Prog.lift, Prog.bind_op, Prog.bind_ret, Prog.pure_eq_ret]
  iapply (wait_sy m K c 10 _) $$ HI Hc2_10 HO Ha2_10; iintro ⟨⟨%Wb10, HO⟩, Hz2_10, Hom10⟩
  iapply (wait_sx m K c 11 _) $$ HI Hc0_11 HO Ha0_11; iintro ⟨⟨%Wa11, HO⟩, Hz0_11, Hs11⟩
  iapply (wait_sy m K c 11 _) $$ HI Hc2_11 HO Ha2_11; iintro ⟨⟨%Wb11, HO⟩, Hz2_11, Hom11⟩
  iapply (wait_sx m K c 12 _) $$ HI Hc0_12 HO Ha0_12; iintro ⟨⟨%Wa12, HO⟩, Hz0_12, Hs12⟩
  iapply (wait_sy m K c 12 _) $$ HI Hc2_12 HO Ha2_12; iintro ⟨⟨%Wb12, HO⟩, Hz2_12, Hom12⟩
  iapply (wait_sx m K c 13 _) $$ HI Hc0_13 HO Ha0_13; iintro ⟨⟨%Wa13, HO⟩, Hz0_13, Hs13⟩
  rw [wp_ret]; imodintro; try dsimp only
  iapply (wait_sy m K c 13 _) $$ HI Hc2_13 HO Ha2_13; iintro ⟨⟨%Wb13, HO⟩, Hz2_13, Hom13⟩
  iapply (wait_sx m K c 14 _) $$ HI Hc0_14 HO Ha0_14; iintro ⟨⟨%Wa14, HO⟩, Hz0_14, Hs14⟩
  iapply (wait_sy m K c 14 _) $$ HI Hc2_14 HO Ha2_14; iintro ⟨⟨%Wb14, HO⟩, Hz2_14, Hom14⟩
  rw [wp_ret]; imodintro; try dsimp only
  iapply (wait_sx m K c 15 _) $$ HI Hc0_15 HO Ha0_15; iintro ⟨⟨%Wa15, HO⟩, Hz0_15, Hs15⟩
  iapply (wait_sy m K c 15 _) $$ HI Hc2_15 HO Ha2_15; iintro ⟨⟨%Wb15, HO⟩, Hz2_15, Hom15⟩
  rw [wp_ret]; imodintro
  -- everything is back: the buffers are whole again and the 64 transfer cells are closed
  iapply Hk
  iapply (post_intro m ρ c)
  ihave HS := (Entails.of_eq (bigSep_fin16 (fun k : Fin 16 => sPts c k fullShare.left (sxv m c))).symm) $$ [Hs0 Hs1 Hs2 Hs3 Hs4 Hs5 Hs6 Hs7 Hs8 Hs9 Hs10 Hs11 Hs12 Hs13 Hs14 Hs15]
  · iframe
  ihave HRr := (Entails.of_eq (bigSep_fin16 (fun k : Fin 16 => rPts c k (rxv m c))).symm) $$ [Hr0 Hr1 Hr2 Hr3 Hr4 Hr5 Hr6 Hr7 Hr8 Hr9 Hr10 Hr11 Hr12 Hr13 Hr14 Hr15]
  · iframe
  ihave HOM := (Entails.of_eq (bigSep_fin16 (fun k : Fin 16 => oPts c k (myY c) (outv m c))).symm) $$ [Hom0 Hom1 Hom2 Hom3 Hom4 Hom5 Hom6 Hom7 Hom8 Hom9 Hom10 Hom11 Hom12 Hom13 Hom14 Hom15]
  · iframe
  ihave HOO := (Entails.of_eq (bigSep_fin16 (fun k : Fin 16 => oPts c k (otY c) (outv m c))).symm) $$ [Hoo0 Hoo1 Hoo2 Hoo3 Hoo4 Hoo5 Hoo6 Hoo7 Hoo8 Hoo9 Hoo10 Hoo11 Hoo12 Hoo13 Hoo14 Hoo15]
  · iframe
  ihave HZ0 := (Entails.of_eq (bigSep_fin16 (fun k : Fin 16 => semVal (dCell c 0 k) 0)).symm) $$ [Hz0_0 Hz0_1 Hz0_2 Hz0_3 Hz0_4 Hz0_5 Hz0_6 Hz0_7 Hz0_8 Hz0_9 Hz0_10 Hz0_11 Hz0_12 Hz0_13 Hz0_14 Hz0_15]
  · iframe
  ihave HZ1 := (Entails.of_eq (bigSep_fin16 (fun k : Fin 16 => semVal (dCell c 1 k) 0)).symm) $$ [Hz1_0 Hz1_1 Hz1_2 Hz1_3 Hz1_4 Hz1_5 Hz1_6 Hz1_7 Hz1_8 Hz1_9 Hz1_10 Hz1_11 Hz1_12 Hz1_13 Hz1_14 Hz1_15]
  · iframe
  ihave HZ2 := (Entails.of_eq (bigSep_fin16 (fun k : Fin 16 => semVal (dCell c 2 k) 0)).symm) $$ [Hz2_0 Hz2_1 Hz2_2 Hz2_3 Hz2_4 Hz2_5 Hz2_6 Hz2_7 Hz2_8 Hz2_9 Hz2_10 Hz2_11 Hz2_12 Hz2_13 Hz2_14 Hz2_15]
  · iframe
  ihave HZ3 := (Entails.of_eq (bigSep_fin16 (fun k : Fin 16 => semVal (dCell c 3 k) 0)).symm) $$ [Hz3_0 Hz3_1 Hz3_2 Hz3_3 Hz3_4 Hz3_5 Hz3_6 Hz3_7 Hz3_8 Hz3_9 Hz3_10 Hz3_11 Hz3_12 Hz3_13 Hz3_14 Hz3_15]
  · iframe
  isplitl [HsR]; · iexact HsR
  isplitl [HS]; · iexact HS
  isplitl [HRr]; · iexact HRr
  isplitl [HOM]; · iexact HOM
  isplitl [HOO]; · iexact HOO
  isplitl [HZ0]; · iexact HZ0
  isplitl [HZ1]; · iexact HZ1
  isplitl [HZ2]; · iexact HZ2
  isplitl [HZ3]; · iexact HZ3
  isplitl [HO]; · iexists _; iexact HO
  iexact Hx

end Cert.Kernel.Hand

end
-- ==== Proof.KGlob.lean ====
/- The ghost state of all four devices allocated at once: every cell's round state is opened into an invariant, the
   positions stay with the cells' owners and each duty's token goes to the device that pays it. -/
import proofs.«900322_g7700000000000323_dist_rsx_agy_m512_n512_v7x_xy2x2_bf16_1_alg».proof.Proof.KState
import proofs.«900322_g7700000000000323_dist_rsx_agy_m512_n512_v7x_xy2x2_bf16_1_alg».proof.Proof.KRegions

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Products over the cells of one device, regrouped -/

section Reindex
variable {M : Type _} [URA M]

omit [FloatOps F] in
/-- A product over n + 1 indices: the first, then the others. -/
theorem bigSep_fin_succ {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp), bigSep_map]
  rfl

omit [FloatOps F] in
theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ

/-- Index 16 a + k of 64: chunk k of family a. -/
def i64 (a : Fin 4) (k : Fin 16) : Fin 64 := ⟨16 * a.val + k.val, by have := a.isLt; have := k.isLt; omega⟩

omit [FloatOps F] in
/-- A product over 64 indices is the product of four families of sixteen. -/
theorem bigSep_fin64 (Ψ : Fin 64 → sProp M) :
    bigSep Finset.univ Ψ = iprop((bigSep Finset.univ fun k : Fin 16 => Ψ (i64 0 k)) ∗ (bigSep Finset.univ fun k : Fin 16 => Ψ (i64 1 k))
      ∗ (bigSep Finset.univ fun k : Fin 16 => Ψ (i64 2 k)) ∗ (bigSep Finset.univ fun k : Fin 16 => Ψ (i64 3 k))) := by
  have e : ∀ (a : Fin 4) (k : Fin 16), (finProdFinEquiv (a, k) : Fin (4 * 16)) = i64 a k := fun a k =>
    Fin.ext (by show k.val + 16 * a.val = 16 * a.val + k.val; omega)
  refine (bigSep_univ_equiv (finProdFinEquiv (m := 4) (n := 16)) Ψ).trans ?_
  rw [bigSep_univ_prod, bigSep_fin4]
  simp only [e]

end Reindex

theorem jD_eq (a : Fin 4) (k : Fin 16) : jD a k = (i64 a k).succ := Fin.ext (by show 1 + 16 * a.val + k.val = 16 * a.val + k.val + 1; omega)

/-- The cell after the barrier cell at index i + 1 is own semaphore i; -/
theorem csem_succ (i : Fin 64) : csem i.succ = osem i := by
  unfold csem osem; rw [dif_neg (by simp)]; rfl
/-- own semaphore 16 a + k is transfer semaphore k of family a. -/
theorem osem_i64 (a : Fin 4) (k : Fin 16) : osem (i64 a k) = .dma (dsem a k) := by
  unfold osem; congr 1; apply Fin.ext; rw [dsem_val]; show 16 * a.val + k.val + 2 = 2 + 16 * a.val + k.val; omega
theorem kcell_zero (c : Dev nD) : kcell (c, 0) = barCell c := rfl
theorem kcell_succ (c : Dev nD) (a : Fin 4) (k : Fin 16) : kcell (c, (i64 a k).succ) = dCell c a k := by
  show ((c : Thread nD τ), csem (i64 a k).succ) = _; rw [csem_succ, osem_i64]

omit [FloatOps F] in
/-- A product over one device's 65 cells: the barrier cell, then the four families of transfer cells. -/
theorem bigSep_cells {M : Type _} [URA M] (c : Dev nD) (Φ : GSem nD τ sig → sProp M) :
    (bigSep Finset.univ fun j : Fin 65 => Φ (kcell (c, j))) = iprop(Φ (barCell c)
      ∗ (bigSep Finset.univ fun k : Fin 16 => Φ (dCell c 0 k)) ∗ (bigSep Finset.univ fun k : Fin 16 => Φ (dCell c 1 k))
      ∗ (bigSep Finset.univ fun k : Fin 16 => Φ (dCell c 2 k)) ∗ (bigSep Finset.univ fun k : Fin 16 => Φ (dCell c 3 k))) := by
  rw [bigSep_fin_succ, bigSep_fin64]
  simp only [kcell_succ]
  rfl

/-- The transfer semaphores are scoped, pairwise distinct, and none is a staging semaphore of the pipeline. -/
theorem ownSemFacts : Pipeline.OwnSemFacts cfg0.spec osem := by
  decide

theorem csem_injective : Function.Injective csem := by
  intro j j' h
  unfold csem at h
  by_cases h0 : j.val = 0 <;> by_cases h0' : j'.val = 0
  · exact Fin.ext (h0.trans h0'.symm)
  · rw [dif_pos h0, dif_neg h0'] at h; cases h
  · rw [dif_neg h0, dif_pos h0'] at h; cases h
  · rw [dif_neg h0, dif_neg h0'] at h
    have := congrArg Fin.val (SemLoc.dma.inj h)
    exact Fin.ext (by simp only [] at this; omega)

theorem kcell_injective : Function.Injective (kcell : Dev nD × Fin 65 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]
/-- All 4 × 65 cells of the protocol. -/
def allCells : Finset (GSem nD τ sig) := Finset.univ.map ⟨kcell, kcell_injective⟩

/-- A device's own cells' duty tokens as minted: (device, which duty) — 0 and 1 its barrier's false and true, 2 + j the
    one duty of its transfer cell j (j = 16 a + k). -/
def tokOf (cj : Dev nD × Fin 66) : GSem nD τ sig × ℕ × Bool :=
  if h : cj.2.val < 2 then (barCell cj.1, 0, decide (cj.2.val = 1))
  else (((cj.1 : Thread nD τ), .dma ⟨cj.2.val, cj.2.isLt⟩), 0, false)

theorem tokOf_lt (c : Dev nD) (i : Fin 66) (h : i.val < 2) : tokOf (c, i) = (barCell c, 0, decide (i.val = 1)) := dif_pos h
theorem tokOf_ge (c : Dev nD) (i : Fin 66) (h : ¬ i.val < 2) :
    tokOf (c, i) = (((c : Thread nD τ), .dma ⟨i.val, i.isLt⟩), 0, false) := dif_neg h
theorem tokOf_dev (c : Dev nD) (i : Fin 66) : (tokOf (c, i)).1.1.1 = c := by
  by_cases h : i.val < 2
  · rw [tokOf_lt c i h]
  · rw [tokOf_ge c i h]
/-- The token of index 2 + (16 a + k) is the one duty of transfer cell k of family a. -/
theorem tokOf_d (c : Dev nD) (a : Fin 4) (k : Fin 16) : tokOf (c, (i64 a k).succ.succ) = (dCell c a k, 0, false) := by
  rw [tokOf_ge c _ (by simp)]
  have e : (⟨((i64 a k).succ.succ).val, ((i64 a k).succ.succ).isLt⟩ : DmaSem sig) = dsem a k :=
    Fin.ext (by rw [dsem_val]; show 16 * a.val + k.val + 1 + 1 = 2 + 16 * a.val + k.val; omega)
  rw [e]

theorem tokOf_injective : Function.Injective (tokOf : Dev nD × Fin 66 → GSem nD τ sig × ℕ × Bool) := by
  rintro ⟨c, i⟩ ⟨c', i'⟩ h
  have h1 : c = c' := by
    have := congrArg (fun x : GSem nD τ sig × ℕ × Bool => x.1.1.1) h
    simp only [tokOf_dev] at this; exact this
  subst h1
  have hs := congrArg (fun x : GSem nD τ sig × ℕ × Bool => x.1.2) h
  have hd := congrArg (fun x : GSem nD τ sig × ℕ × Bool => x.2.2) h
  have : i = i' := by
    by_cases hi : i.val < 2 <;> by_cases hi' : i'.val < 2
    · rw [tokOf_lt c i hi, tokOf_lt c i' hi'] at hd
      have := decide_eq_decide.mp hd
      exact Fin.ext (by omega)
    · rw [tokOf_lt c i hi, tokOf_ge c i' hi'] at hs; cases hs
    · rw [tokOf_ge c i hi, tokOf_lt c i' hi'] at hs; cases hs
    · rw [tokOf_ge c i hi, tokOf_ge c i' hi'] at hs
      exact Fin.ext (congrArg Fin.val (SemLoc.dma.inj hs))
  rw [this]
def allToks : Finset (GSem nD τ sig × ℕ × Bool) := Finset.univ.map ⟨tokOf, tokOf_injective⟩

/-- The launch element: the pipeline's own cells and tokens, and the protocol's. -/
def u₀ : UU :=
  (initOf (Pipeline.cells cfgs cellOf_inj) (Pipeline.launchToks cfgs cellOf_inj), initOf allCells allToks)

/-- The duty tokens of device c's own cells. -/
def ownToks (c : Dev nD) : sProp 𝕄 :=
  iprop(dutyTok ER (barCell c) 0 false ∗ dutyTok ER (barCell c) 0 true
    ∗ (bigSep Finset.univ fun k : Fin 16 => dutyTok ER (dCell c 0 k) 0 false)
    ∗ (bigSep Finset.univ fun k : Fin 16 => dutyTok ER (dCell c 1 k) 0 false)
    ∗ (bigSep Finset.univ fun k : Fin 16 => dutyTok ER (dCell c 2 k) 0 false)
    ∗ (bigSep Finset.univ fun k : Fin 16 => dutyTok ER (dCell c 3 k) 0 false))

/-- What the launch element deals device c. -/
def G (c : Dev nD) : sProp 𝕄 :=
  iprop((bigSep Finset.univ fun j : Fin 65 => roundState ER (sched m) (kcell (c, j)) 0)
    ∗ (bigSep Finset.univ fun j : Fin 65 => iprop(atPos ER (kcell (c, j)) 0 ∅ 0 ∗ reached ER (kcell (c, j)) 0)) ∗ ownToks c)

/-- What the global step makes of it. -/
def G' (c : Dev nD) : sProp 𝕄 := iprop(∃ K, ghost m K c)

omit [FloatOps F] in
theorem allCells_sep (Φ : GSem nD τ sig → sProp 𝕄) :
    bigSep allCells Φ = bigSep Finset.univ fun c : Dev nD => bigSep Finset.univ fun j : Fin 65 => Φ (kcell (c, j)) := by
  unfold allCells; rw [bigSep_map, bigSep_univ_prod]; rfl

omit [FloatOps F] in
/-- One device's 66 minted tokens are its own cells' tokens: the barrier's two, then family by family. -/
theorem ownToks_eq (c : Dev nD) :
    (bigSep Finset.univ fun i : Fin 66 => (dutyTok ER (tokOf (c, i)).1 (tokOf (c, i)).2.1 (tokOf (c, i)).2.2 : sProp 𝕄)) = ownToks c := by
  rw [bigSep_fin_succ, bigSep_fin_succ, bigSep_fin64]
  simp only [tokOf_d]
  rfl

omit [FloatOps F] in
theorem allToks_sep :
    bigSep allToks (fun x => (dutyTok ER x.1 x.2.1 x.2.2 : sProp 𝕄)) = bigSep Finset.univ fun c : Dev nD => ownToks c := by
  unfold allToks; rw [bigSep_map, bigSep_univ_prod]
  exact bigSep_congr fun c _ => ownToks_eq c

/-- The protocol's launch element is, after an update, every cell's round state at counter zero, its owner's position,
    that round 0 is reached, and every duty's token, device by device. -/
theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (allCells_sep fun g => roundState ER (sched m) g 0)) $$ Hst
  ihave Hat' := (Entails.of_eq (allCells_sep fun g => atPos ER g 0 ∅ 0)) $$ Hat
  ihave Hr' := (Entails.of_eq (allCells_sep fun g => reached ER g 0)) $$ Hr
  ihave Htok' := (Entails.of_eq allToks_sep) $$ Htok
  unfold G; simp only [bigSep_sep']
  isplitl [Hst']; · iexact Hst'
  isplitl [Hat' Hr']
  · isplitl [Hat'] <;> iassumption
  iexact Htok'

/-- The launch element is the pipeline's and, after one update, every device's share of the protocol's. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_all m) $$ HX with HG
  imodintro
  isplitl [HP] <;> iassumption

/-! ## The counters at zero, cell by cell -/

omit [FloatOps F] in
/-- The kernel's own semaphores at zero are the four families of transfer cells' counters at zero; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 16 => semVal (dCell c 0 k) 0) ∗ (bigSep Finset.univ fun k : Fin 16 => semVal (dCell c 1 k) 0)
      ∗ (bigSep Finset.univ fun k : Fin 16 => semVal (dCell c 2 k) 0) ∗ (bigSep Finset.univ fun k : Fin 16 => semVal (dCell c 3 k) 0)) := by
  unfold Pipeline.ownSems0
  rw [bigSep_fin64]
  simp only [osem_i64]

omit [FloatOps F] in
/-- the barrier semaphore is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 65 => semVal (kcell (c, j)) 0 : sProp 𝕄) := by
  rw [ownSems0_eq, unscopedSems0_eq, bigSep_cells c (fun g => (semVal g 0 : sProp 𝕄))]
  iintro ⟨⟨H0, H1, H2, H3⟩, HB⟩
  isplitl [HB]; · iexact HB
  isplitl [H0]; · iexact H0
  isplitl [H1]; · iexact H1
  isplitl [H2]; · iexact H2
  iexact H3

/-! ## The global step -/

/-- On one device: the counters at zero and the round states open into one invariant per cell. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun j : Fin 65 => semVal (kcell (c, j)) 0) ∗ bigSep Finset.univ fun j : Fin 65 => roundState ER (sched m) (kcell (c, j)) 0)
      ⊢ (|={Set.univ}=> bigSep Finset.univ fun j : Fin 65 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to their payers: a barrier's true token to the row partner, its false token to the column partner,
    the tokens of the receive cells from the row partner to the row partner, of those from the column partner to the column
    partner; the send cells' tokens stay. Both partner maps are involutions. -/
theorem toks_around : (bigSep Finset.univ fun c : Dev nD => (ownToks c : sProp 𝕄)) ⊢ bigSep Finset.univ fun c : Dev nD => payToks c := by
  unfold ownToks payToks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => (bigSep Finset.univ fun k : Fin 16 => dutyTok ER (dCell c 1 k) 0 false : sProp 𝕄)),
    bigSep_univ_equiv ypE (fun c : Dev nD => (bigSep Finset.univ fun k : Fin 16 => dutyTok ER (dCell c 3 k) 0 false : sProp 𝕄))]
  iintro ⟨Hf, Ht, H0, H1, H2, H3⟩
  isplitl [Ht]; · iexact Ht
  isplitl [Hf]; · iexact Hf
  isplitl [H0]; · iexact H0
  isplitl [H1]; · iexact H1
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 65 → ℕ) (c : Dev nD) : iprop(records m K ∗ positions c ∗ payToks c) ⊢ G' m c := by
  unfold G' ghost
  iintro ⟨#HR, HP, HT⟩
  iexists K
  isplitr; · iexact HR
  isplitl [HP]; · iexact HP
  iexact HT

omit [FloatOps F] in
/-- One device's positions on its 65 cells, the barrier cell first and then family by family. -/
theorem positions_eq (c : Dev nD) : (bigSep Finset.univ fun j : Fin 65 => (atPos ER (kcell (c, j)) 0 ∅ 0 : sProp 𝕄)) = positions c := by
  unfold positions; rw [bigSep_cells c (fun g => (atPos ER g 0 ∅ 0 : sProp 𝕄))]

theorem regroup :
    (bigSep Finset.univ fun c : Dev nD => iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ ownToks c) : sProp 𝕄)
      ⊢ bigSep Finset.univ (G' m) := by
  rw [bigSep_sep', bigSep_sep', ← bigSep_univ_prod (fun cj : Dev nD × Fin 65 => iprop(∃ κ : ℕ, cellInv ER (sched m) κ (kcell cj))),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_univ_prod (fun cj : Dev nD × Fin 65 => (reached ER (kcell cj) 0 : sProp 𝕄))]
  iintro ⟨HI, ⟨Hat, #HR⟩, Htok⟩
  ihave HK := (BI.bigSep_exists_pi Finset.univ (fun (cj : Dev nD × Fin 65) (κ : ℕ) => (cellInv ER (sched m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 65 => (atPos ER (kcell (c, j)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: the own and the unscoped semaphores of every device at once become the invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The transfer cells' counters at zero, family by family, are the kernel's own semaphores at zero. -/
theorem ownSems0_of_families (c : Dev nD) :
    iprop((bigSep Finset.univ fun k : Fin 16 => semVal (dCell c 0 k) 0) ∗ (bigSep Finset.univ fun k : Fin 16 => semVal (dCell c 1 k) 0)
      ∗ (bigSep Finset.univ fun k : Fin 16 => semVal (dCell c 2 k) 0) ∗ (bigSep Finset.univ fun k : Fin 16 => semVal (dCell c 3 k) 0))
    ⊢ (Pipeline.ownSems0 (Ix := Unit) (Name := ℕ) (U := UU) (Lvl := ℕ) (Val := Elt F) (τ := τ) osem c : sProp 𝕄) :=
  Entails.of_eq (ownSems0_eq c).symm

end Cert.Kernel.Hand

end
-- ==== Proof.KLaunch.lean ====
/- The launch: the one-point pipeline with the protocol's cells allocated for all devices at once; from the body's
   run, every execution on the four devices ends with each device's result buffer holding the whole sum and its
   block of x unchanged. -/
import proofs.«900322_g7700000000000323_dist_rsx_agy_m512_n512_v7x_xy2x2_bf16_1_alg».proof.Proof.KBody
import proofs.«900322_g7700000000000323_dist_rsx_agy_m512_n512_v7x_xy2x2_bf16_1_alg».proof.Proof.KGlob
import proofs.«900322_g7700000000000323_dist_rsx_agy_m512_n512_v7x_xy2x2_bf16_1_alg».proof.Proof.Gen.Kernel.Points
import proofs.«900322_g7700000000000323_dist_rsx_agy_m512_n512_v7x_xy2x2_bf16_1_alg».proof.Proof.Gen.Kernel.Frame

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

omit [FloatOps F] in
/-- The two windows conjoined one by one. -/
theorem bigSep_W (Φ : Fin cfg0.W → sProp 𝕄) : bigSep Finset.univ Φ = iprop(Φ (0 : Fin 2) ∗ Φ (1 : Fin 2)) := bigSep_W0 Φ

omit [FloatOps F] in
/-- Owning a whole buffer at contents X is holding it at some contents equal to X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device c, from the body's run. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  iintro H
  iapply (sound_body m ρ c fun _ => bodyPost m ρ c)
  isplitl [H]
  · iexact H
  · iintro H; iexact H

/-! ## The launch theorem's side conditions -/

theorem share_eq (c : Dev nD) (w : Fin cfg0.W) : (dats m ρ 0 c).share w = fullShare := by unfold Dat.share; split <;> rfl

/-- What a device's body starts from, out of what the launch hands the device: its ghost state, its launch credit
    sorted cell by cell, and the level facts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Before the point: that and the two scratch buffers, each at some contents. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨H0, H1⟩⟩
  isplitl [Hs]; · iexact Hs
  isplitl [H0]; · iexact H0
  iexact H1

/-- After the point: the 64 transfer cells are handed back at zero and the two scratch buffers at what they hold. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq]
  unfold Φ₁
  iintro ⟨Hs, Hr, H0, H1, H2, H3⟩
  isplitr; · iempintro
  isplitl [H0 H1 H2 H3]
  · iapply (ownSems0_of_families (F := F) c)
    isplitl [H0]; · iexact H0
    isplitl [H1]; · iexact H1
    isplitl [H2]; · iexact H2
    iexact H3
  isplitl [Hs]
  · iexists (sxv m c); iexact Hs
  · iexists (rxv m c); iexact Hr

/-- The pipeline's two staging cells (transfer semaphores 0 and 1) may be waited on before the body, owing everything,
    and after it, owing nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Window w's array on device c after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On the four devices, for any float values, from any memory with every counter at zero: every weakly fair execution of
    @main terminates without fault, and in every final state each window's array on each device is the pipeline's final
    array. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The array of x is never written back: after the run it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result window is written back at the one point, and its block is the whole array: after the run the array holds
    what the body left in the result buffer. -/
theorem finalA_out (c : Dev nD) : finalA m ρ c (1 : Fin 2) = outv m c := by
  have h := (dats (F := F) m ρ 0 c).arrAt_succ (1 : Fin 2) t₀
  rw [flush0_1 t₀, if_pos rfl] at h
  have hz : (fun a => win0_1.index t₀ a * main_v1.ty.shape.size a) = fun _ => 0 := funext fun a => by fin_cases a <;> rfl
  have hrd := Memref.read_access_unit_zero (Elt F) main_v1 hz (fun a => by rw [congrFun hz a]; simp) (finalA m ρ c (1 : Fin 2))
  rw [← hrd]
  show ((cfg0.win 1).blk t₀).view.read (Elt F) ((dats m ρ 0 c).arrAt 1 (t₀.val + 1)) = outv m c
  rw [h, View.read_write_univ]
  rfl

/-- Every execution of @main on the four devices terminates without fault; at the end every device's result array holds
    the whole sum as the devices' blocks give it and its block of x is unchanged. -/
theorem run_value : θ_run (defs (F := F)) (onTc (τ := τ) (main (F := F))) ⟨m, fun _ => 0, ρ⟩ (fun r => ∀ c : Dev nD,
    r.2.mem ((c.tc : Thread nD τ).loc main_v1) = outv m c
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ)

end Cert.Kernel.Hand

end
-- ==== Proof.RefSide.lean ====
/- The reference side of the certificate.  The one-device reference adds the two 512 × 1024 slabs of
   x entry by entry, starting from zero; at the ideal instance the narrowing to the 16-bit format is
   the identity.  This module reads the reference's run back as a value, and shows that the value each
   device of the 2 × 2 grid ends with is that value: the entry at (i₀, i₁) is the sum of the entries
   of the two slabs at (i₀, i₁), whichever of the two row partners adds first. -/
import proofs.«900322_g7700000000000323_dist_rsx_agy_m512_n512_v7x_xy2x2_bf16_1_alg».proof.Defs
import proofs.«900322_g7700000000000323_dist_rsx_agy_m512_n512_v7x_xy2x2_bf16_1_alg».proof.Proof.Gen.ReferenceIdeal
import proofs.«900322_g7700000000000323_dist_rsx_agy_m512_n512_v7x_xy2x2_bf16_1_alg».proof.Proof.Gen.Pre_finite_inputs_ReferenceIdeal
import proofs.«900322_g7700000000000323_dist_rsx_agy_m512_n512_v7x_xy2x2_bf16_1_alg».proof.Proof.Gen.ReferenceIdeal.Run
import proofs.«900322_g7700000000000323_dist_rsx_agy_m512_n512_v7x_xy2x2_bf16_1_alg».proof.Proof.Gen.ReferenceIdeal.Read
import proofs.«900322_g7700000000000323_dist_rsx_agy_m512_n512_v7x_xy2x2_bf16_1_alg».proof.Proof.Spec
import Idealize.ShloMosaic.Lib.ValueIdx
import Idealize.ShloMosaic.Lib.Layout

noncomputable section
namespace Cert.RefSide

open Idealize.ShloMosaic Idealize.ShloMosaic.TcCoe Idealize.SL.Sem

/-- The reference runs to the end, faults nowhere and leaves its argument unchanged: its run with
    the value of the result dropped. -/
theorem frame_ref : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

/-- The reference's run on its one device: the result ends holding the reference value of the
    argument's launch contents, and the argument ends unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = Cert.ReferenceIdeal.Read.val_main_v1 (F := Ideal) (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq (F := Ideal) _), (h 0).2⟩)
    (Cert.ReferenceIdeal.Value.run (F := Ideal) m' g')

/-! ## The value every device ends with is the reference's -/

open Cert.KernelIdeal Cert.KernelIdeal.Gen Cert.KernelIdeal.Hand
open Idealize.ShloMosaic.ValueIdx

variable (m : (ℓ : Loc Cert.KernelIdeal.nD Cert.KernelIdeal.τ Cert.KernelIdeal.sig) → Buf (Elt Ideal) ℓ)

/-- The narrowed block at (j₀, j₁) is the staged block at (0, j₀, j₁): at the ideal instance the
    narrowing is the identity, and the two changes of shape only drop the leading axis of size one. -/
theorem sxv_apply (d : Dev nD) (j : S512x512.Idx) :
    sxv (F := Ideal) m d j = xstg (F := Ideal) m d (Fin.cons ⟨0, Nat.one_pos⟩ j) := by
  unfold sxv k0_pay1
  rw [shapeCast_self, truncf_apply]
  exact shapeCast_dropUnit_apply ![512, 512] _ _ j

/-- The staged block is the device's whole argument buffer: the block is the whole 1 × 512 × 512
    array at offset zero. -/
theorem xstg_eq (d : Dev nD) :
    xstg (F := Ideal) m d = m ((d : Thread nD τ).loc main_arg0) := by
  unfold xstg
  exact Memref.read_access_unit_zero (Elt Ideal) main_arg0 (funext fun a => Nat.zero_mul _) _ _

/-- Device d's block coordinates: d / 2 along the slabs, d % 2 along the columns, 0 along the rows. -/
theorem lin0 : ∀ d : Dev nD, Layout.meshLin [2, 2] d.val [0] = d.val / 2 := by decide
theorem lin1 : ∀ d : Dev nD, Layout.meshLin [2, 2] d.val [1] = d.val % 2 := by decide
theorem linE : ∀ d : Dev nD, Layout.meshLin [2, 2] d.val [] = 0 := by decide

/-- The contents of the whole argument array x : f32[2, 512, 1024]. -/
abbrev XTy := (⟨Cert.ReferenceIdeal.S2x512x1024, .f32⟩ : BufTy).Contents (Elt Ideal)

/-- Entry (i₀, i₁) of slab k of x, as an index of the whole array. -/
abbrev ridx (i : S512x1024.Idx) (k : Fin 2) : Cert.ReferenceIdeal.S2x512x1024.Idx := Cert.ReferenceIdeal.Read.idx_main_v0 i k

variable (X : XTy)
  (hblk : ∀ c : Dev Cert.KernelIdeal.nD, m ((c.tc : Thread Cert.KernelIdeal.nD Cert.KernelIdeal.τ).loc Cert.KernelIdeal.main_arg0) = Layout.blockN ⟨3, ![1, 512, 512]⟩ ⟨3, ![2, 512, 1024]⟩ (Layout.meshBlock [2, 2] ![[0], [], [1]] c) X)

include hblk in
/-- Device d's narrowed block at (j₀, j₁) is x at (d / 2, j₀, 512 (d % 2) + j₁): device d holds
    the block of x at block coordinates (d / 2, 0, d % 2). -/
theorem sxv_X (d : Dev nD) (j : S512x512.Idx) (i : S512x1024.Idx) (k : Fin 2)
    (hk : k.val = d.val / 2) (h0 : (i 0).val = (j 0).val) (h1 : (i 1).val = 512 * (d.val % 2) + (j 1).val) :
    sxv (F := Ideal) m d j = X (ridx i k) := by
  rw [sxv_apply, xstg_eq]
  have hb := hblk d
  rw [hb, Layout.blockN_apply]
  refine congrArg X (funext fun a => Fin.ext ?_)
  rw [Layout.TilesN.idx_val]
  match a with
  | ⟨0, _⟩ =>
    show Layout.meshLin [2, 2] d.val [0] * 1 + 0 = k.val
    rw [lin0, hk]; omega
  | ⟨1, _⟩ =>
    show Layout.meshLin [2, 2] d.val [] * 512 + (j 0).val = (i 0).val
    rw [linE, h0]; omega
  | ⟨2, _⟩ =>
    show Layout.meshLin [2, 2] d.val [1] * 512 + (j 1).val = (i 1).val
    rw [lin1, h1]; omega

include hblk in
/-- On a device d of column i₁ / 512, the sum at (i₀, i₁ % 512) is x's slab d / 2 plus x's other slab
    at (i₀, i₁): the row partner has the other row and the same column, and
    512 (i₁ / 512) + i₁ % 512 = i₁. -/
theorem sumv_X (d : Dev nD) (i : S512x1024.Idx) (hd : (i 1).val / 512 = d.val % 2) (k k' : Fin 2)
    (hk : k.val = d.val / 2) (hk' : k'.val = 1 - d.val / 2) :
    sumv (F := Ideal) m d (halfIdx i) = (show EReal from X (ridx i k)) + (show EReal from X (ridx i k')) := by
  have e1 : (halfIdx i 1).val = (i 1).val % 512 := rfl
  have hc := xp_col d
  have hr := xp_row d
  unfold sumv rxv
  rw [addf_apply,
    sxv_X m X hblk d (halfIdx i) i k hk rfl (by omega),
    sxv_X m X hblk (xp d) (halfIdx i) i k' (by omega) rfl (by omega)]

include hblk in
/-- The same sum with the slabs in their own order: addition of extended reals commutes. -/
theorem sumv_X2 (d : Dev nD) (i : S512x1024.Idx) (hd : (i 1).val / 512 = d.val % 2) :
    sumv (F := Ideal) m d (halfIdx i) = (show EReal from X (ridx i 0)) + (show EReal from X (ridx i 1)) := by
  have hlt : d.val < 4 := d.isLt
  rcases (by omega : d.val / 2 = 0 ∨ d.val / 2 = 1) with h | h
  · exact sumv_X m X hblk d i hd 0 1 (by rw [h]; rfl) (by rw [h]; rfl)
  · rw [sumv_X m X hblk d i hd 1 0 (by rw [h]; rfl) (by rw [h]; rfl)]
    exact add_comm (G := EReal) _ _

include hblk in
/-- The result on device c at (i₀, i₁): column i₁ lies in c's own half or in its column partner's,
    and either way the entry is the sum of x's two slabs there. -/
theorem outv_apply (c : Dev nD) (i : S512x1024.Idx) :
    outv (F := Ideal) m c i = (show EReal from X (ridx i 0)) + (show EReal from X (ridx i 1)) := by
  unfold outv
  split_ifs with h
  · exact sumv_X2 m X hblk c i h
  · have hi : (i 1).val < 1024 := (i 1).isLt
    have hc := yp_col c
    exact sumv_X2 m X hblk (yp c) i (by omega)

/-- The reference at (i₀, i₁): zero plus the sum over the two slabs, the narrowing being the identity. -/
theorem ref_apply (i : S512x1024.Idx) :
    Cert.ReferenceIdeal.Read.val_main_v1 (F := Ideal) X i = (show EReal from X (ridx i 0)) + (show EReal from X (ridx i 1)) := by
  rw [Cert.ReferenceIdeal.Read.val_main_v1_apply, Ideal.truncf_def, Cert.ReferenceIdeal.Read.val_main_v0_apply,
    Cert.ReferenceIdeal.Read.val_main_cst_apply, Fin.sum_univ_two, Ideal.ofBits_def, Ideal.ofBits_zero_f32, zero_add]

omit m X hblk in
/-- When every device's argument buffer holds its block of x, every device's result is the
    reference's value of x. -/
theorem out_eq_ref (m : (ℓ : Loc Cert.KernelIdeal.nD Cert.KernelIdeal.τ Cert.KernelIdeal.sig) → Buf (Elt Ideal) ℓ)
    (X : Buf (Elt Ideal) (((0 : Dev Cert.ReferenceIdeal.nD).tc : Thread Cert.ReferenceIdeal.nD Cert.ReferenceIdeal.τ).loc Cert.ReferenceIdeal.main_arg0))
    (hblk : ∀ c : Dev Cert.KernelIdeal.nD, m ((c.tc : Thread Cert.KernelIdeal.nD Cert.KernelIdeal.τ).loc Cert.KernelIdeal.main_arg0) = Layout.blockN ⟨3, ![1, 512, 512]⟩ ⟨3, ![2, 512, 1024]⟩ (Layout.meshBlock [2, 2] ![[0], [], [1]] c) X)
    (c : Dev Cert.KernelIdeal.nD) :
    Cert.KernelIdeal.Hand.outv (F := Ideal) m c = Cert.ReferenceIdeal.Read.val_main_v1 (F := Ideal) X :=
  funext fun i => (outv_apply m X hblk c i).trans (ref_apply X i).symm

end Cert.RefSide
end
-- ==== Proof.lean ====
/- On the 2 × 2 mesh every device narrows its block of x, adds its row partner's narrowed block to its own, and
   exchanges the two column halves of that sum with its column partner: every device ends with the whole
   512 × 1024 sum of the two slabs of x, which is the sum the one-device reference forms, and no argument changes. -/
import proofs.«900322_g7700000000000323_dist_rsx_agy_m512_n512_v7x_xy2x2_bf16_1_alg».proof.Defs
import proofs.«900322_g7700000000000323_dist_rsx_agy_m512_n512_v7x_xy2x2_bf16_1_alg».proof.Proof.Gen.Kernel
import proofs.«900322_g7700000000000323_dist_rsx_agy_m512_n512_v7x_xy2x2_bf16_1_alg».proof.Proof.Gen.KernelIdeal
import proofs.«900322_g7700000000000323_dist_rsx_agy_m512_n512_v7x_xy2x2_bf16_1_alg».proof.Proof.Gen.ReferenceIdeal
import proofs.«900322_g7700000000000323_dist_rsx_agy_m512_n512_v7x_xy2x2_bf16_1_alg».proof.Proof.Gen.Pre_finite_inputs_Kernel
import proofs.«900322_g7700000000000323_dist_rsx_agy_m512_n512_v7x_xy2x2_bf16_1_alg».proof.Proof.Gen.Pre_finite_inputs_ReferenceIdeal
import proofs.«900322_g7700000000000323_dist_rsx_agy_m512_n512_v7x_xy2x2_bf16_1_alg».proof.Proof.Launch
import proofs.«900322_g7700000000000323_dist_rsx_agy_m512_n512_v7x_xy2x2_bf16_1_alg».proof.Proof.KLaunch
import proofs.«900322_g7700000000000323_dist_rsx_agy_m512_n512_v7x_xy2x2_bf16_1_alg».proof.Proof.RefSide

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the kernel as printed runs and leaves its argument unchanged
  fun m ρ _ => (θ_run Cert.Kernel.defs _ _).mono (fun _ h c => (h c).2) (Cert.Kernel.Hand.run_value (F := Bits) m ρ),
  -- so does the kernel read over the extended reals
  fun m ρ _ => (θ_run Cert.KernelIdeal.defs _ _).mono (fun _ h c => (h c).2) (Cert.KernelIdeal.Hand.run_value (F := Ideal) m ρ),
  -- and the reference
  Cert.RefSide.frame_ref,
  -- the idealization rewrote no operation
  trivial,
  -- the value: the reference's sum of the two slabs; every device's result is that sum
  fun m g m' g' _ hblk =>
    ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)),
      (θ_run Cert.KernelIdeal.defs _ _).mono
        (fun r h c => ⟨(h c).1.trans (Cert.RefSide.out_eq_ref m _ hblk c), (h c).2⟩)
        (Cert.KernelIdeal.Hand.run_value (F := Ideal) m g),
      Cert.RefSide.ref_run m' g'⟩⟩

end Cert.Proof

end
